-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024 : Shape := ⟨2, ![4, 1024]⟩
abbrev S4x1024x1024 : Shape := ⟨3, ![4, 1024, 1024]⟩
abbrev S32000x1024 : Shape := ⟨2, ![32000, 1024]⟩
abbrev S15x1024 : Shape := ⟨2, ![15, 1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S15x1024 : S_.BroadcastsInDim S15x1024 (![] : Fin 0 → Fin S15x1024.rank)
  reducesTo_S15x1024_S_d0_1 : S15x1024.ReducesTo [0, 1] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg0 : IVec S4x1024 32) (main_v13 : IVec S_ 1) (main_v15 : IVec S4x1024 1) (main_c_5 : IVec S_ 1) : IVec S_ 1 :=
  let main_v16 : IVec S_ 1 := (fun x v => Host.reduce IntOp.andi x v reducesTo_S4x1024_S_d0_1 h_S_) main_v15 main_c_5
  let main_v17 : IVec S_ 1 := andi main_v13 main_v16
  let main_c_6 : IVec S_ 32 := constantI S_ 32 32000#32
  let main_v18 : IVec S4x1024 32 := broadcastInDim S4x1024 ![] bcast_S_S4x1024 main_c_6
  let main_v19 : IVec S4x1024 1 := cmpi .slt main_arg0 main_v18
  let main_c_7 : IVec S_ 1 := constantI S_ 1 1#1
  let main_v20 : IVec S_ 1 := (fun x v => Host.reduce IntOp.andi x v reducesTo_S4x1024_S_d0_1 h_S_) main_v19 main_c_7
  let main_v21 : IVec S_ 1 := andi main_v17 main_v20
  main_v21

def fn {F : FTy → Type} [FloatOps F] (main_arg0 : IVec S4x1024 32) (main_arg1 : FVec F S4x1024x1024 .f32) (main_arg2 : FVec F S32000x1024 .f32) (main_arg3 : FVec F S15x1024 .f32) : IVec S_ 1 :=
  let main_v0 : FVec F S4x1024x1024 .f32 := Host.absf main_arg1
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S32000x1024 .f32 := Host.absf main_arg2
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S15x1024 .f32 := Host.absf main_arg3
  let main_cst_2 : FVec F S_ .f32 := constant S_ .f32 0x7F800000#32
  let main_v10 : FVec F S15x1024 .f32 := broadcastInDim S15x1024 ![] bcast_S_S15x1024 main_cst_2
  let main_v11 : IVec S15x1024 1 := cmpf .olt main_v9 main_v10
  let main_c_3 : IVec S_ 1 := constantI S_ 1 1#1
  let main_v12 : IVec S_ 1 := (fun x v => Host.reduce IntOp.andi x v reducesTo_S15x1024_S_d0_1 h_S_) main_v11 main_c_3
  let main_v13 : IVec S_ 1 := andi main_v8 main_v12
  let main_c_4 : IVec S_ 32 := constantI S_ 32 0#32
  let main_v14 : IVec S4x1024 32 := broadcastInDim S4x1024 ![] bcast_S_S4x1024 main_c_4
  let main_v15 : IVec S4x1024 1 := cmpi .sge main_arg0 main_v14
  let main_c_5 : IVec S_ 1 := constantI S_ 1 1#1
  fn_part1 (F := F) main_arg0 main_v13 main_v15 main_c_5
-- ==== Kernel.lean ====
abbrev S4x1024 : Shape := ⟨2, ![4, 1024]⟩
abbrev S4x1024x1024 : Shape := ⟨3, ![4, 1024, 1024]⟩
abbrev S32000x1024 : Shape := ⟨2, ![32000, 1024]⟩
abbrev S15x1024 : Shape := ⟨2, ![15, 1024]⟩
abbrev S4096 : Shape := ⟨1, ![4096]⟩
abbrev S4096x1024 : Shape := ⟨2, ![4096, 1024]⟩
abbrev S_ : Shape := ⟨0, ![]⟩
abbrev S15 : Shape := ⟨1, ![15]⟩
abbrev S4096x1 : Shape := ⟨2, ![4096, 1]⟩
abbrev S1x15 : Shape := ⟨2, ![1, 15]⟩
abbrev S4096x15 : Shape := ⟨2, ![4096, 15]⟩
abbrev S128x15 : Shape := ⟨2, ![128, 15]⟩
abbrev S128x1024 : Shape := ⟨2, ![128, 1024]⟩
abbrev S128 : Shape := ⟨1, ![128]⟩
abbrev S1 : Shape := ⟨1, ![1]⟩
abbrev S1x1024 : Shape := ⟨2, ![1, 1024]⟩
abbrev S1024 : Shape := ⟨1, ![1024]⟩
abbrev S4096x32000 : Shape := ⟨2, ![4096, 32000]⟩
abbrev S2048x1024 : Shape := ⟨2, ![2048, 1024]⟩
abbrev S256x1024 : Shape := ⟨2, ![256, 1024]⟩
abbrev S2048x256 : Shape := ⟨2, ![2048, 256]⟩
abbrev S2048x15 : Shape := ⟨2, ![2048, 15]⟩
abbrev S2048x1 : Shape := ⟨2, ![2048, 1]⟩
abbrev S256x15 : Shape := ⟨2, ![256, 15]⟩
abbrev S2048 : Shape := ⟨1, ![2048]⟩
abbrev S4x1024x32000 : Shape := ⟨3, ![4, 1024, 32000]⟩
abbrev S4x1024x15 : Shape := ⟨3, ![4, 1024, 15]⟩

abbrev nBuf : Space → Nat
  | .hbm => 44
  | .vmem => 18
  | .smem => 1
  | _ => 0

abbrev bufTy : (tb : Table) → Fin (tcTables nBuf tb) → BufTy
  | .hbm, ⟨0, _⟩ => ⟨S4x1024, .i32⟩
  | .hbm, ⟨1, _⟩ => ⟨S4x1024x1024, .f32⟩
  | .hbm, ⟨2, _⟩ => ⟨S32000x1024, .f32⟩
  | .hbm, ⟨3, _⟩ => ⟨S15x1024, .f32⟩
  | .hbm, ⟨4, _⟩ => ⟨S4096x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S15, .i32⟩
  | .hbm, ⟨14, _⟩ => ⟨S_, .i32⟩
  | .hbm, ⟨15, _⟩ => ⟨S15, .i32⟩
  | .hbm, ⟨16, _⟩ => ⟨S15, .i32⟩
  | .hbm, ⟨17, _⟩ => ⟨S_, .i32⟩
  | .hbm, ⟨18, _⟩ => ⟨S15, .i32⟩
  | .hbm, ⟨19, _⟩ => ⟨S15, .i32⟩
  | .hbm, ⟨20, _⟩ => ⟨S4096x1, .i32⟩
  | .hbm, ⟨21, _⟩ => ⟨S1x15, .i32⟩
  | .hbm, ⟨22, _⟩ => ⟨S4096x15, .i32⟩
  | .hbm, ⟨23, _⟩ => ⟨S4096x15, .i32⟩
  | .hbm, ⟨24, _⟩ => ⟨S4096x15, .i32⟩
  | .hbm, ⟨25, _⟩ => ⟨S_, .i32⟩
  | .hbm, ⟨26, _⟩ => ⟨S4096x15, .i32⟩
  | .hbm, ⟨27, _⟩ => ⟨S4096x15, .i32⟩
  | .hbm, ⟨28, _⟩ => ⟨S4096x15, .f32⟩
  | .hbm, ⟨29, _⟩ => ⟨S_, .f32⟩
  | .hbm, ⟨30, _⟩ => ⟨S4096x15, .f32⟩
  | .hbm, ⟨31, _⟩ => ⟨S4096x15, .f32⟩
  | .hbm, ⟨32, _⟩ => ⟨S_, .f32⟩
  | .hbm, ⟨33, _⟩ => ⟨S4096x15, .f32⟩
  | .hbm, ⟨34, _⟩ => ⟨S4096x15, .f32⟩
  | .hbm, ⟨35, _⟩ => ⟨S4096x1024, .f32⟩
  | .hbm, ⟨36, _⟩ => ⟨S4096x1024, .f32⟩
  | .hbm, ⟨37, _⟩ => ⟨S4x1024x1024, .f32⟩
  | .hbm, ⟨38, _⟩ => ⟨S4x1024x1024, .f32⟩
  | .hbm, ⟨39, _⟩ => ⟨S32000x1024, .bf16⟩
  | .hbm, ⟨40, _⟩ => ⟨S4096x32000, .f32⟩
  | .hbm, ⟨41, _⟩ => ⟨S4096x15, .f32⟩
  | .hbm, ⟨42, _⟩ => ⟨S4x1024x32000, .f32⟩
  | .hbm, ⟨43, _⟩ => ⟨S4x1024x15, .f32⟩
  | .local _ .vmem, ⟨0, _⟩ => ⟨S128x15, .f32⟩
  | .local _ .vmem, ⟨1, _⟩ => ⟨S128x15, .f32⟩
  | .local _ .vmem, ⟨2, _⟩ => ⟨S15x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S2048x1024, .f32⟩
  | .local _ .vmem, ⟨8, _⟩ => ⟨S2048x1024, .f32⟩
  | .local _ .vmem, ⟨9, _⟩ => ⟨S256x1024, .bf16⟩
  | .local _ .vmem, ⟨10, _⟩ => ⟨S256x1024, .bf16⟩
  | .local _ .vmem, ⟨11, _⟩ => ⟨S2048x256, .f32⟩
  | .local _ .vmem, ⟨12, _⟩ => ⟨S2048x256, .f32⟩
  | .local _ .vmem, ⟨13, _⟩ => ⟨S2048x15, .f32⟩
  | .local _ .vmem, ⟨14, _⟩ => ⟨S2048x15, .f32⟩
  | .local _ .vmem, ⟨15, _⟩ => ⟨S2048x1, .f32⟩
  | .local _ .vmem, ⟨16, _⟩ => ⟨S2048x1, .f32⟩
  | .local _ .vmem, ⟨17, _⟩ => ⟨S2048x15, .f32⟩
  | .local _ .smem, ⟨0, _⟩ => ⟨S4096, .i32⟩
  | _, _ => ⟨S4x1024, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 143 → Bool
  | ⟨i, _⟩ => dmaSemScopedAt i

abbrev sig : RefSig :=
  ofTc nBuf bufTy 0 143 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v25 : Ref sig .tc := ⟨.hbm, 42, rfl⟩
abbrev main_v26 : Ref sig .tc := ⟨.hbm, 43, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 135
abbrev cc1_sem0_1 : DmaSem sig := 136
abbrev cc1_sem1_0 : DmaSem sig := 137
abbrev cc1_sem1_1 : DmaSem sig := 138
abbrev cc1_sem2_0 : DmaSem sig := 139
abbrev cc1_sem2_1 : DmaSem sig := 140
abbrev cc1_sem3_0 : DmaSem sig := 141
abbrev cc1_sem3_1 : DmaSem sig := 142

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_off5 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_off7 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_off9 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_off11 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_off13 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_off15 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_off17 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_off19 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_off21 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_off23 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_off25 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_off27 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_off29 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_off31 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_off33 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_off35 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_off37 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_off39 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_off41 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_off43 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_off45 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_off47 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_off49 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_off51 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_off53 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_off55 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_off57 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_off59 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_off61 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_off63 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_off65 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_off67 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_off69 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_off71 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_off73 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_off75 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_off77 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_off79 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_off81 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_off83 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_off85 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_off87 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_off89 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_off91 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_off93 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_off95 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_off97 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_off99 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_off101 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_off103 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_off105 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_off107 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_off109 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_off111 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_off113 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_off115 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_off117 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_off119 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_off121 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_off123 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_off125 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_off127 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_off129 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v577 : BitVec 32 := Scalar.addi v0 c64_i32
  let v578 : Index := Scalar.indexCast v577
  ![v578.toNat]
def k0_off130 (v579 : BitVec 32) : Fin 2 → Nat :=
  let c0_i32_259 : BitVec 32 := 0#32
  ![v579.toNat, 0]

def k0_off131 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v586 : BitVec 32 := Scalar.addi v0 c65_i32
  let v587 : Index := Scalar.indexCast v586
  ![v587.toNat]
def k0_off132 (v588 : BitVec 32) : Fin 2 → Nat :=
  let c0_i32_263 : BitVec 32 := 0#32
  ![v588.toNat, 0]

def k0_off133 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v595 : BitVec 32 := Scalar.addi v0 c66_i32
  let v596 : Index := Scalar.indexCast v595
  ![v596.toNat]
def k0_off134 (v597 : BitVec 32) : Fin 2 → Nat :=
  let c0_i32_267 : BitVec 32 := 0#32
  ![v597.toNat, 0]

def k0_off135 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v604 : BitVec 32 := Scalar.addi v0 c67_i32
  let v605 : Index := Scalar.indexCast v604
  ![v605.toNat]
def k0_off136 (v606 : BitVec 32) : Fin 2 → Nat :=
  let c0_i32_271 : BitVec 32 := 0#32
  ![v606.toNat, 0]

def k0_off137 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v613 : BitVec 32 := Scalar.addi v0 c68_i32
  let v614 : Index := Scalar.indexCast v613
  ![v614.toNat]
def k0_off138 (v615 : BitVec 32) : Fin 2 → Nat :=
  let c0_i32_275 : BitVec 32 := 0#32
  ![v615.toNat, 0]

def k0_off139 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v622 : BitVec 32 := Scalar.addi v0 c69_i32
  let v623 : Index := Scalar.indexCast v622
  ![v623.toNat]
def k0_off140 (v624 : BitVec 32) : Fin 2 → Nat :=
  let c0_i32_279 : BitVec 32 := 0#32
  ![v624.toNat, 0]

def k0_off141 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v631 : BitVec 32 := Scalar.addi v0 c70_i32
  let v632 : Index := Scalar.indexCast v631
  ![v632.toNat]
def k0_off142 (v633 : BitVec 32) : Fin 2 → Nat :=
  let c0_i32_283 : BitVec 32 := 0#32
  ![v633.toNat, 0]

def k0_off143 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v640 : BitVec 32 := Scalar.addi v0 c71_i32
  let v641 : Index := Scalar.indexCast v640
  ![v641.toNat]
def k0_off144 (v642 : BitVec 32) : Fin 2 → Nat :=
  let c0_i32_287 : BitVec 32 := 0#32
  ![v642.toNat, 0]

def k0_off145 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v649 : BitVec 32 := Scalar.addi v0 c72_i32
  let v650 : Index := Scalar.indexCast v649
  ![v650.toNat]
def k0_off146 (v651 : BitVec 32) : Fin 2 → Nat :=
  let c0_i32_291 : BitVec 32 := 0#32
  ![v651.toNat, 0]

def k0_off147 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v658 : BitVec 32 := Scalar.addi v0 c73_i32
  let v659 : Index := Scalar.indexCast v658
  ![v659.toNat]
def k0_off148 (v660 : BitVec 32) : Fin 2 → Nat :=
  let c0_i32_295 : BitVec 32 := 0#32
  ![v660.toNat, 0]

def k0_off149 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v667 : BitVec 32 := Scalar.addi v0 c74_i32
  let v668 : Index := Scalar.indexCast v667
  ![v668.toNat]
def k0_off150 (v669 : BitVec 32) : Fin 2 → Nat :=
  let c0_i32_299 : BitVec 32 := 0#32
  ![v669.toNat, 0]

def k0_off151 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v676 : BitVec 32 := Scalar.addi v0 c75_i32
  let v677 : Index := Scalar.indexCast v676
  ![v677.toNat]
def k0_off152 (v678 : BitVec 32) : Fin 2 → Nat :=
  let c0_i32_303 : BitVec 32 := 0#32
  ![v678.toNat, 0]

def k0_off153 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v685 : BitVec 32 := Scalar.addi v0 c76_i32
  let v686 : Index := Scalar.indexCast v685
  ![v686.toNat]
def k0_off154 (v687 : BitVec 32) : Fin 2 → Nat :=
  let c0_i32_307 : BitVec 32 := 0#32
  ![v687.toNat, 0]

def k0_off155 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v694 : BitVec 32 := Scalar.addi v0 c77_i32
  let v695 : Index := Scalar.indexCast v694
  ![v695.toNat]
def k0_off156 (v696 : BitVec 32) : Fin 2 → Nat :=
  let c0_i32_311 : BitVec 32 := 0#32
  ![v696.toNat, 0]

def k0_off157 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v703 : BitVec 32 := Scalar.addi v0 c78_i32
  let v704 : Index := Scalar.indexCast v703
  ![v704.toNat]
def k0_off158 (v705 : BitVec 32) : Fin 2 → Nat :=
  let c0_i32_315 : BitVec 32 := 0#32
  ![v705.toNat, 0]

def k0_off159 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v712 : BitVec 32 := Scalar.addi v0 c79_i32
  let v713 : Index := Scalar.indexCast v712
  ![v713.toNat]
def k0_off160 (v714 : BitVec 32) : Fin 2 → Nat :=
  let c0_i32_319 : BitVec 32 := 0#32
  ![v714.toNat, 0]

def k0_off161 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v721 : BitVec 32 := Scalar.addi v0 c80_i32
  let v722 : Index := Scalar.indexCast v721
  ![v722.toNat]
def k0_off162 (v723 : BitVec 32) : Fin 2 → Nat :=
  let c0_i32_323 : BitVec 32 := 0#32
  ![v723.toNat, 0]

def k0_off163 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v730 : BitVec 32 := Scalar.addi v0 c81_i32
  let v731 : Index := Scalar.indexCast v730
  ![v731.toNat]
def k0_off164 (v732 : BitVec 32) : Fin 2 → Nat :=
  let c0_i32_327 : BitVec 32 := 0#32
  ![v732.toNat, 0]

def k0_off165 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v739 : BitVec 32 := Scalar.addi v0 c82_i32
  let v740 : Index := Scalar.indexCast v739
  ![v740.toNat]
def k0_off166 (v741 : BitVec 32) : Fin 2 → Nat :=
  let c0_i32_331 : BitVec 32 := 0#32
  ![v741.toNat, 0]

def k0_off167 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v748 : BitVec 32 := Scalar.addi v0 c83_i32
  let v749 : Index := Scalar.indexCast v748
  ![v749.toNat]
def k0_off168 (v750 : BitVec 32) : Fin 2 → Nat :=
  let c0_i32_335 : BitVec 32 := 0#32
  ![v750.toNat, 0]

def k0_off169 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v757 : BitVec 32 := Scalar.addi v0 c84_i32
  let v758 : Index := Scalar.indexCast v757
  ![v758.toNat]
def k0_off170 (v759 : BitVec 32) : Fin 2 → Nat :=
  let c0_i32_339 : BitVec 32 := 0#32
  ![v759.toNat, 0]

def k0_off171 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v766 : BitVec 32 := Scalar.addi v0 c85_i32
  let v767 : Index := Scalar.indexCast v766
  ![v767.toNat]
def k0_off172 (v768 : BitVec 32) : Fin 2 → Nat :=
  let c0_i32_343 : BitVec 32 := 0#32
  ![v768.toNat, 0]

def k0_off173 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v775 : BitVec 32 := Scalar.addi v0 c86_i32
  let v776 : Index := Scalar.indexCast v775
  ![v776.toNat]
def k0_off174 (v777 : BitVec 32) : Fin 2 → Nat :=
  let c0_i32_347 : BitVec 32 := 0#32
  ![v777.toNat, 0]

def k0_off175 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v784 : BitVec 32 := Scalar.addi v0 c87_i32
  let v785 : Index := Scalar.indexCast v784
  ![v785.toNat]
def k0_off176 (v786 : BitVec 32) : Fin 2 → Nat :=
  let c0_i32_351 : BitVec 32 := 0#32
  ![v786.toNat, 0]

def k0_off177 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v793 : BitVec 32 := Scalar.addi v0 c88_i32
  let v794 : Index := Scalar.indexCast v793
  ![v794.toNat]
def k0_off178 (v795 : BitVec 32) : Fin 2 → Nat :=
  let c0_i32_355 : BitVec 32 := 0#32
  ![v795.toNat, 0]

def k0_off179 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v802 : BitVec 32 := Scalar.addi v0 c89_i32
  let v803 : Index := Scalar.indexCast v802
  ![v803.toNat]
def k0_off180 (v804 : BitVec 32) : Fin 2 → Nat :=
  let c0_i32_359 : BitVec 32 := 0#32
  ![v804.toNat, 0]

def k0_off181 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v811 : BitVec 32 := Scalar.addi v0 c90_i32
  let v812 : Index := Scalar.indexCast v811
  ![v812.toNat]
def k0_off182 (v813 : BitVec 32) : Fin 2 → Nat :=
  let c0_i32_363 : BitVec 32 := 0#32
  ![v813.toNat, 0]

def k0_off183 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v820 : BitVec 32 := Scalar.addi v0 c91_i32
  let v821 : Index := Scalar.indexCast v820
  ![v821.toNat]
def k0_off184 (v822 : BitVec 32) : Fin 2 → Nat :=
  let c0_i32_367 : BitVec 32 := 0#32
  ![v822.toNat, 0]

def k0_off185 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v829 : BitVec 32 := Scalar.addi v0 c92_i32
  let v830 : Index := Scalar.indexCast v829
  ![v830.toNat]
def k0_off186 (v831 : BitVec 32) : Fin 2 → Nat :=
  let c0_i32_371 : BitVec 32 := 0#32
  ![v831.toNat, 0]

def k0_off187 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v838 : BitVec 32 := Scalar.addi v0 c93_i32
  let v839 : Index := Scalar.indexCast v838
  ![v839.toNat]
def k0_off188 (v840 : BitVec 32) : Fin 2 → Nat :=
  let c0_i32_375 : BitVec 32 := 0#32
  ![v840.toNat, 0]

def k0_off189 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v847 : BitVec 32 := Scalar.addi v0 c94_i32
  let v848 : Index := Scalar.indexCast v847
  ![v848.toNat]
def k0_off190 (v849 : BitVec 32) : Fin 2 → Nat :=
  let c0_i32_379 : BitVec 32 := 0#32
  ![v849.toNat, 0]

def k0_off191 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v856 : BitVec 32 := Scalar.addi v0 c95_i32
  let v857 : Index := Scalar.indexCast v856
  ![v857.toNat]
def k0_off192 (v858 : BitVec 32) : Fin 2 → Nat :=
  let c0_i32_383 : BitVec 32 := 0#32
  ![v858.toNat, 0]

def k0_off193 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v865 : BitVec 32 := Scalar.addi v0 c96_i32
  let v866 : Index := Scalar.indexCast v865
  ![v866.toNat]
def k0_off194 (v867 : BitVec 32) : Fin 2 → Nat :=
  let c0_i32_387 : BitVec 32 := 0#32
  ![v867.toNat, 0]

def k0_off195 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v874 : BitVec 32 := Scalar.addi v0 c97_i32
  let v875 : Index := Scalar.indexCast v874
  ![v875.toNat]
def k0_off196 (v876 : BitVec 32) : Fin 2 → Nat :=
  let c0_i32_391 : BitVec 32 := 0#32
  ![v876.toNat, 0]

def k0_off197 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v883 : BitVec 32 := Scalar.addi v0 c98_i32
  let v884 : Index := Scalar.indexCast v883
  ![v884.toNat]
def k0_off198 (v885 : BitVec 32) : Fin 2 → Nat :=
  let c0_i32_395 : BitVec 32 := 0#32
  ![v885.toNat, 0]

def k0_off199 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v892 : BitVec 32 := Scalar.addi v0 c99_i32
  let v893 : Index := Scalar.indexCast v892
  ![v893.toNat]
def k0_off200 (v894 : BitVec 32) : Fin 2 → Nat :=
  let c0_i32_399 : BitVec 32 := 0#32
  ![v894.toNat, 0]

def k0_off201 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v901 : BitVec 32 := Scalar.addi v0 c100_i32
  let v902 : Index := Scalar.indexCast v901
  ![v902.toNat]
def k0_off202 (v903 : BitVec 32) : Fin 2 → Nat :=
  let c0_i32_403 : BitVec 32 := 0#32
  ![v903.toNat, 0]

def k0_off203 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v910 : BitVec 32 := Scalar.addi v0 c101_i32
  let v911 : Index := Scalar.indexCast v910
  ![v911.toNat]
def k0_off204 (v912 : BitVec 32) : Fin 2 → Nat :=
  let c0_i32_407 : BitVec 32 := 0#32
  ![v912.toNat, 0]

def k0_off205 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v919 : BitVec 32 := Scalar.addi v0 c102_i32
  let v920 : Index := Scalar.indexCast v919
  ![v920.toNat]
def k0_off206 (v921 : BitVec 32) : Fin 2 → Nat :=
  let c0_i32_411 : BitVec 32 := 0#32
  ![v921.toNat, 0]

def k0_off207 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v928 : BitVec 32 := Scalar.addi v0 c103_i32
  let v929 : Index := Scalar.indexCast v928
  ![v929.toNat]
def k0_off208 (v930 : BitVec 32) : Fin 2 → Nat :=
  let c0_i32_415 : BitVec 32 := 0#32
  ![v930.toNat, 0]

def k0_off209 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v937 : BitVec 32 := Scalar.addi v0 c104_i32
  let v938 : Index := Scalar.indexCast v937
  ![v938.toNat]
def k0_off210 (v939 : BitVec 32) : Fin 2 → Nat :=
  let c0_i32_419 : BitVec 32 := 0#32
  ![v939.toNat, 0]

def k0_off211 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v946 : BitVec 32 := Scalar.addi v0 c105_i32
  let v947 : Index := Scalar.indexCast v946
  ![v947.toNat]
def k0_off212 (v948 : BitVec 32) : Fin 2 → Nat :=
  let c0_i32_423 : BitVec 32 := 0#32
  ![v948.toNat, 0]

def k0_off213 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v955 : BitVec 32 := Scalar.addi v0 c106_i32
  let v956 : Index := Scalar.indexCast v955
  ![v956.toNat]
def k0_off214 (v957 : BitVec 32) : Fin 2 → Nat :=
  let c0_i32_427 : BitVec 32 := 0#32
  ![v957.toNat, 0]

def k0_off215 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v964 : BitVec 32 := Scalar.addi v0 c107_i32
  let v965 : Index := Scalar.indexCast v964
  ![v965.toNat]
def k0_off216 (v966 : BitVec 32) : Fin 2 → Nat :=
  let c0_i32_431 : BitVec 32 := 0#32
  ![v966.toNat, 0]

def k0_off217 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v973 : BitVec 32 := Scalar.addi v0 c108_i32
  let v974 : Index := Scalar.indexCast v973
  ![v974.toNat]
def k0_off218 (v975 : BitVec 32) : Fin 2 → Nat :=
  let c0_i32_435 : BitVec 32 := 0#32
  ![v975.toNat, 0]

def k0_off219 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v982 : BitVec 32 := Scalar.addi v0 c109_i32
  let v983 : Index := Scalar.indexCast v982
  ![v983.toNat]
def k0_off220 (v984 : BitVec 32) : Fin 2 → Nat :=
  let c0_i32_439 : BitVec 32 := 0#32
  ![v984.toNat, 0]

def k0_off221 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v991 : BitVec 32 := Scalar.addi v0 c110_i32
  let v992 : Index := Scalar.indexCast v991
  ![v992.toNat]
def k0_off222 (v993 : BitVec 32) : Fin 2 → Nat :=
  let c0_i32_443 : BitVec 32 := 0#32
  ![v993.toNat, 0]

def k0_off223 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1000 : BitVec 32 := Scalar.addi v0 c111_i32
  let v1001 : Index := Scalar.indexCast v1000
  ![v1001.toNat]
def k0_off224 (v1002 : BitVec 32) : Fin 2 → Nat :=
  let c0_i32_447 : BitVec 32 := 0#32
  ![v1002.toNat, 0]

def k0_off225 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1009 : BitVec 32 := Scalar.addi v0 c112_i32
  let v1010 : Index := Scalar.indexCast v1009
  ![v1010.toNat]
def k0_off226 (v1011 : BitVec 32) : Fin 2 → Nat :=
  let c0_i32_451 : BitVec 32 := 0#32
  ![v1011.toNat, 0]

def k0_off227 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1018 : BitVec 32 := Scalar.addi v0 c113_i32
  let v1019 : Index := Scalar.indexCast v1018
  ![v1019.toNat]
def k0_off228 (v1020 : BitVec 32) : Fin 2 → Nat :=
  let c0_i32_455 : BitVec 32 := 0#32
  ![v1020.toNat, 0]

def k0_off229 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1027 : BitVec 32 := Scalar.addi v0 c114_i32
  let v1028 : Index := Scalar.indexCast v1027
  ![v1028.toNat]
def k0_off230 (v1029 : BitVec 32) : Fin 2 → Nat :=
  let c0_i32_459 : BitVec 32 := 0#32
  ![v1029.toNat, 0]

def k0_off231 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1036 : BitVec 32 := Scalar.addi v0 c115_i32
  let v1037 : Index := Scalar.indexCast v1036
  ![v1037.toNat]
def k0_off232 (v1038 : BitVec 32) : Fin 2 → Nat :=
  let c0_i32_463 : BitVec 32 := 0#32
  ![v1038.toNat, 0]

def k0_off233 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1045 : BitVec 32 := Scalar.addi v0 c116_i32
  let v1046 : Index := Scalar.indexCast v1045
  ![v1046.toNat]
def k0_off234 (v1047 : BitVec 32) : Fin 2 → Nat :=
  let c0_i32_467 : BitVec 32 := 0#32
  ![v1047.toNat, 0]

def k0_off235 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1054 : BitVec 32 := Scalar.addi v0 c117_i32
  let v1055 : Index := Scalar.indexCast v1054
  ![v1055.toNat]
def k0_off236 (v1056 : BitVec 32) : Fin 2 → Nat :=
  let c0_i32_471 : BitVec 32 := 0#32
  ![v1056.toNat, 0]

def k0_off237 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1063 : BitVec 32 := Scalar.addi v0 c118_i32
  let v1064 : Index := Scalar.indexCast v1063
  ![v1064.toNat]
def k0_off238 (v1065 : BitVec 32) : Fin 2 → Nat :=
  let c0_i32_475 : BitVec 32 := 0#32
  ![v1065.toNat, 0]

def k0_off239 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1072 : BitVec 32 := Scalar.addi v0 c119_i32
  let v1073 : Index := Scalar.indexCast v1072
  ![v1073.toNat]
def k0_off240 (v1074 : BitVec 32) : Fin 2 → Nat :=
  let c0_i32_479 : BitVec 32 := 0#32
  ![v1074.toNat, 0]

def k0_off241 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1081 : BitVec 32 := Scalar.addi v0 c120_i32
  let v1082 : Index := Scalar.indexCast v1081
  ![v1082.toNat]
def k0_off242 (v1083 : BitVec 32) : Fin 2 → Nat :=
  let c0_i32_483 : BitVec 32 := 0#32
  ![v1083.toNat, 0]

def k0_off243 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1090 : BitVec 32 := Scalar.addi v0 c121_i32
  let v1091 : Index := Scalar.indexCast v1090
  ![v1091.toNat]
def k0_off244 (v1092 : BitVec 32) : Fin 2 → Nat :=
  let c0_i32_487 : BitVec 32 := 0#32
  ![v1092.toNat, 0]

def k0_off245 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1099 : BitVec 32 := Scalar.addi v0 c122_i32
  let v1100 : Index := Scalar.indexCast v1099
  ![v1100.toNat]
def k0_off246 (v1101 : BitVec 32) : Fin 2 → Nat :=
  let c0_i32_491 : BitVec 32 := 0#32
  ![v1101.toNat, 0]

def k0_off247 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1108 : BitVec 32 := Scalar.addi v0 c123_i32
  let v1109 : Index := Scalar.indexCast v1108
  ![v1109.toNat]
def k0_off248 (v1110 : BitVec 32) : Fin 2 → Nat :=
  let c0_i32_495 : BitVec 32 := 0#32
  ![v1110.toNat, 0]

def k0_off249 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1117 : BitVec 32 := Scalar.addi v0 c124_i32
  let v1118 : Index := Scalar.indexCast v1117
  ![v1118.toNat]
def k0_off250 (v1119 : BitVec 32) : Fin 2 → Nat :=
  let c0_i32_499 : BitVec 32 := 0#32
  ![v1119.toNat, 0]

def k0_off251 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1126 : BitVec 32 := Scalar.addi v0 c125_i32
  let v1127 : Index := Scalar.indexCast v1126
  ![v1127.toNat]
def k0_off252 (v1128 : BitVec 32) : Fin 2 → Nat :=
  let c0_i32_503 : BitVec 32 := 0#32
  ![v1128.toNat, 0]

def k0_off253 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1135 : BitVec 32 := Scalar.addi v0 c126_i32
  let v1136 : Index := Scalar.indexCast v1135
  ![v1136.toNat]
def k0_off254 (v1137 : BitVec 32) : Fin 2 → Nat :=
  let c0_i32_507 : BitVec 32 := 0#32
  ![v1137.toNat, 0]

def k0_off255 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1144 : BitVec 32 := Scalar.addi v0 c127_i32
  let v1145 : Index := Scalar.indexCast v1144
  ![v1145.toNat]
def k0_off256 (v1146 : BitVec 32) : Fin 2 → Nat :=
  let c0_i32_511 : BitVec 32 := 0#32
  ![v1146.toNat, 0]

def k0_chk128 (v1146 : BitVec 32) : Prop :=
  (∀ a, (k0_off256 v1146) a + S1x1024.size a ≤ S32000x1024.size a)
instance k0_chk128.dec : ∀ (v1146 : BitVec 32), Decidable (k0_chk128 v1146) := fun v1146 => decidable_of_iff' _ (Iff.of_eq (k0_chk128.eq_1 v1146))
theorem k0_off256_inb : ∀ (v1146 : BitVec 32) (k0_hw128 : k0_chk128 v1146), ∀ a, (k0_off256 v1146) a + S1x1024.size a ≤ S32000x1024.size a := fun v1146 k0_hw128 => k0_hw128

def k0_off257 (v3 : BitVec 32) : Fin 2 → Nat :=
  let c0_i32_520 : BitVec 32 := 0#32
  ![v3.toNat, 0]

def k0_chk1 (v3 : BitVec 32) : Prop :=
  (∀ a, (k0_off2 v3) a + S1x1024.size a ≤ S32000x1024.size a) ∧
  (∀ a, (k0_off257 v3) a + S1x1024.size a ≤ S32000x1024.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1024.size a ≤ S32000x1024.size a := fun v3 k0_hw1 => k0_hw1.1
theorem k0_off257_inb : ∀ (v3 : BitVec 32) (k0_hw1 : k0_chk1 v3), ∀ a, (k0_off257 v3) a + S1x1024.size a ≤ S32000x1024.size a := fun v3 k0_hw1 => k0_hw1.2

def k0_off258 (v12 : BitVec 32) : Fin 2 → Nat :=
  let c0_i32_524 : BitVec 32 := 0#32
  ![v12.toNat, 0]

def k0_chk2 (v12 : BitVec 32) : Prop :=
  (∀ a, (k0_off4 v12) a + S1x1024.size a ≤ S32000x1024.size a) ∧
  (∀ a, (k0_off258 v12) a + S1x1024.size a ≤ S32000x1024.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1024.size a ≤ S32000x1024.size a := fun v12 k0_hw2 => k0_hw2.1
theorem k0_off258_inb : ∀ (v12 : BitVec 32) (k0_hw2 : k0_chk2 v12), ∀ a, (k0_off258 v12) a + S1x1024.size a ≤ S32000x1024.size a := fun v12 k0_hw2 => k0_hw2.2

def k0_off259 (v21 : BitVec 32) : Fin 2 → Nat :=
  let c0_i32_528 : BitVec 32 := 0#32
  ![v21.toNat, 0]

def k0_chk3 (v21 : BitVec 32) : Prop :=
  (∀ a, (k0_off6 v21) a + S1x1024.size a ≤ S32000x1024.size a) ∧
  (∀ a, (k0_off259 v21) a + S1x1024.size a ≤ S32000x1024.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x1024.size a ≤ S32000x1024.size a := fun v21 k0_hw3 => k0_hw3.1
theorem k0_off259_inb : ∀ (v21 : BitVec 32) (k0_hw3 : k0_chk3 v21), ∀ a, (k0_off259 v21) a + S1x1024.size a ≤ S32000x1024.size a := fun v21 k0_hw3 => k0_hw3.2

def k0_off260 (v30 : BitVec 32) : Fin 2 → Nat :=
  let c0_i32_532 : BitVec 32 := 0#32
  ![v30.toNat, 0]

def k0_chk4 (v30 : BitVec 32) : Prop :=
  (∀ a, (k0_off8 v30) a + S1x1024.size a ≤ S32000x1024.size a) ∧
  (∀ a, (k0_off260 v30) a + S1x1024.size a ≤ S32000x1024.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x1024.size a ≤ S32000x1024.size a := fun v30 k0_hw4 => k0_hw4.1
theorem k0_off260_inb : ∀ (v30 : BitVec 32) (k0_hw4 : k0_chk4 v30), ∀ a, (k0_off260 v30) a + S1x1024.size a ≤ S32000x1024.size a := fun v30 k0_hw4 => k0_hw4.2

def k0_off261 (v39 : BitVec 32) : Fin 2 → Nat :=
  let c0_i32_536 : BitVec 32 := 0#32
  ![v39.toNat, 0]

def k0_chk5 (v39 : BitVec 32) : Prop :=
  (∀ a, (k0_off10 v39) a + S1x1024.size a ≤ S32000x1024.size a) ∧
  (∀ a, (k0_off261 v39) a + S1x1024.size a ≤ S32000x1024.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x1024.size a ≤ S32000x1024.size a := fun v39 k0_hw5 => k0_hw5.1
theorem k0_off261_inb : ∀ (v39 : BitVec 32) (k0_hw5 : k0_chk5 v39), ∀ a, (k0_off261 v39) a + S1x1024.size a ≤ S32000x1024.size a := fun v39 k0_hw5 => k0_hw5.2

def k0_off262 (v48 : BitVec 32) : Fin 2 → Nat :=
  let c0_i32_540 : BitVec 32 := 0#32
  ![v48.toNat, 0]

def k0_chk6 (v48 : BitVec 32) : Prop :=
  (∀ a, (k0_off12 v48) a + S1x1024.size a ≤ S32000x1024.size a) ∧
  (∀ a, (k0_off262 v48) a + S1x1024.size a ≤ S32000x1024.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x1024.size a ≤ S32000x1024.size a := fun v48 k0_hw6 => k0_hw6.1
theorem k0_off262_inb : ∀ (v48 : BitVec 32) (k0_hw6 : k0_chk6 v48), ∀ a, (k0_off262 v48) a + S1x1024.size a ≤ S32000x1024.size a := fun v48 k0_hw6 => k0_hw6.2

def k0_off263 (v57 : BitVec 32) : Fin 2 → Nat :=
  let c0_i32_544 : BitVec 32 := 0#32
  ![v57.toNat, 0]

def k0_chk7 (v57 : BitVec 32) : Prop :=
  (∀ a, (k0_off14 v57) a + S1x1024.size a ≤ S32000x1024.size a) ∧
  (∀ a, (k0_off263 v57) a + S1x1024.size a ≤ S32000x1024.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x1024.size a ≤ S32000x1024.size a := fun v57 k0_hw7 => k0_hw7.1
theorem k0_off263_inb : ∀ (v57 : BitVec 32) (k0_hw7 : k0_chk7 v57), ∀ a, (k0_off263 v57) a + S1x1024.size a ≤ S32000x1024.size a := fun v57 k0_hw7 => k0_hw7.2

def k0_off264 (v66 : BitVec 32) : Fin 2 → Nat :=
  let c0_i32_548 : BitVec 32 := 0#32
  ![v66.toNat, 0]

def k0_chk8 (v66 : BitVec 32) : Prop :=
  (∀ a, (k0_off16 v66) a + S1x1024.size a ≤ S32000x1024.size a) ∧
  (∀ a, (k0_off264 v66) a + S1x1024.size a ≤ S32000x1024.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x1024.size a ≤ S32000x1024.size a := fun v66 k0_hw8 => k0_hw8.1
theorem k0_off264_inb : ∀ (v66 : BitVec 32) (k0_hw8 : k0_chk8 v66), ∀ a, (k0_off264 v66) a + S1x1024.size a ≤ S32000x1024.size a := fun v66 k0_hw8 => k0_hw8.2

def k0_off265 (v75 : BitVec 32) : Fin 2 → Nat :=
  let c0_i32_552 : BitVec 32 := 0#32
  ![v75.toNat, 0]

def k0_chk9 (v75 : BitVec 32) : Prop :=
  (∀ a, (k0_off18 v75) a + S1x1024.size a ≤ S32000x1024.size a) ∧
  (∀ a, (k0_off265 v75) a + S1x1024.size a ≤ S32000x1024.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x1024.size a ≤ S32000x1024.size a := fun v75 k0_hw9 => k0_hw9.1
theorem k0_off265_inb : ∀ (v75 : BitVec 32) (k0_hw9 : k0_chk9 v75), ∀ a, (k0_off265 v75) a + S1x1024.size a ≤ S32000x1024.size a := fun v75 k0_hw9 => k0_hw9.2

def k0_off266 (v84 : BitVec 32) : Fin 2 → Nat :=
  let c0_i32_556 : BitVec 32 := 0#32
  ![v84.toNat, 0]

def k0_chk10 (v84 : BitVec 32) : Prop :=
  (∀ a, (k0_off20 v84) a + S1x1024.size a ≤ S32000x1024.size a) ∧
  (∀ a, (k0_off266 v84) a + S1x1024.size a ≤ S32000x1024.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x1024.size a ≤ S32000x1024.size a := fun v84 k0_hw10 => k0_hw10.1
theorem k0_off266_inb : ∀ (v84 : BitVec 32) (k0_hw10 : k0_chk10 v84), ∀ a, (k0_off266 v84) a + S1x1024.size a ≤ S32000x1024.size a := fun v84 k0_hw10 => k0_hw10.2

def k0_off267 (v93 : BitVec 32) : Fin 2 → Nat :=
  let c0_i32_560 : BitVec 32 := 0#32
  ![v93.toNat, 0]

def k0_chk11 (v93 : BitVec 32) : Prop :=
  (∀ a, (k0_off22 v93) a + S1x1024.size a ≤ S32000x1024.size a) ∧
  (∀ a, (k0_off267 v93) a + S1x1024.size a ≤ S32000x1024.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x1024.size a ≤ S32000x1024.size a := fun v93 k0_hw11 => k0_hw11.1
theorem k0_off267_inb : ∀ (v93 : BitVec 32) (k0_hw11 : k0_chk11 v93), ∀ a, (k0_off267 v93) a + S1x1024.size a ≤ S32000x1024.size a := fun v93 k0_hw11 => k0_hw11.2

def k0_off268 (v102 : BitVec 32) : Fin 2 → Nat :=
  let c0_i32_564 : BitVec 32 := 0#32
  ![v102.toNat, 0]

def k0_chk12 (v102 : BitVec 32) : Prop :=
  (∀ a, (k0_off24 v102) a + S1x1024.size a ≤ S32000x1024.size a) ∧
  (∀ a, (k0_off268 v102) a + S1x1024.size a ≤ S32000x1024.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x1024.size a ≤ S32000x1024.size a := fun v102 k0_hw12 => k0_hw12.1
theorem k0_off268_inb : ∀ (v102 : BitVec 32) (k0_hw12 : k0_chk12 v102), ∀ a, (k0_off268 v102) a + S1x1024.size a ≤ S32000x1024.size a := fun v102 k0_hw12 => k0_hw12.2

def k0_off269 (v111 : BitVec 32) : Fin 2 → Nat :=
  let c0_i32_568 : BitVec 32 := 0#32
  ![v111.toNat, 0]

def k0_chk13 (v111 : BitVec 32) : Prop :=
  (∀ a, (k0_off26 v111) a + S1x1024.size a ≤ S32000x1024.size a) ∧
  (∀ a, (k0_off269 v111) a + S1x1024.size a ≤ S32000x1024.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x1024.size a ≤ S32000x1024.size a := fun v111 k0_hw13 => k0_hw13.1
theorem k0_off269_inb : ∀ (v111 : BitVec 32) (k0_hw13 : k0_chk13 v111), ∀ a, (k0_off269 v111) a + S1x1024.size a ≤ S32000x1024.size a := fun v111 k0_hw13 => k0_hw13.2

def k0_off270 (v120 : BitVec 32) : Fin 2 → Nat :=
  let c0_i32_572 : BitVec 32 := 0#32
  ![v120.toNat, 0]

def k0_chk14 (v120 : BitVec 32) : Prop :=
  (∀ a, (k0_off28 v120) a + S1x1024.size a ≤ S32000x1024.size a) ∧
  (∀ a, (k0_off270 v120) a + S1x1024.size a ≤ S32000x1024.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x1024.size a ≤ S32000x1024.size a := fun v120 k0_hw14 => k0_hw14.1
theorem k0_off270_inb : ∀ (v120 : BitVec 32) (k0_hw14 : k0_chk14 v120), ∀ a, (k0_off270 v120) a + S1x1024.size a ≤ S32000x1024.size a := fun v120 k0_hw14 => k0_hw14.2

def k0_off271 (v129 : BitVec 32) : Fin 2 → Nat :=
  let c0_i32_576 : BitVec 32 := 0#32
  ![v129.toNat, 0]

def k0_chk15 (v129 : BitVec 32) : Prop :=
  (∀ a, (k0_off30 v129) a + S1x1024.size a ≤ S32000x1024.size a) ∧
  (∀ a, (k0_off271 v129) a + S1x1024.size a ≤ S32000x1024.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x1024.size a ≤ S32000x1024.size a := fun v129 k0_hw15 => k0_hw15.1
theorem k0_off271_inb : ∀ (v129 : BitVec 32) (k0_hw15 : k0_chk15 v129), ∀ a, (k0_off271 v129) a + S1x1024.size a ≤ S32000x1024.size a := fun v129 k0_hw15 => k0_hw15.2

def k0_off272 (v138 : BitVec 32) : Fin 2 → Nat :=
  let c0_i32_580 : BitVec 32 := 0#32
  ![v138.toNat, 0]

def k0_chk16 (v138 : BitVec 32) : Prop :=
  (∀ a, (k0_off32 v138) a + S1x1024.size a ≤ S32000x1024.size a) ∧
  (∀ a, (k0_off272 v138) a + S1x1024.size a ≤ S32000x1024.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x1024.size a ≤ S32000x1024.size a := fun v138 k0_hw16 => k0_hw16.1
theorem k0_off272_inb : ∀ (v138 : BitVec 32) (k0_hw16 : k0_chk16 v138), ∀ a, (k0_off272 v138) a + S1x1024.size a ≤ S32000x1024.size a := fun v138 k0_hw16 => k0_hw16.2

def k0_off273 (v147 : BitVec 32) : Fin 2 → Nat :=
  let c0_i32_584 : BitVec 32 := 0#32
  ![v147.toNat, 0]

def k0_chk17 (v147 : BitVec 32) : Prop :=
  (∀ a, (k0_off34 v147) a + S1x1024.size a ≤ S32000x1024.size a) ∧
  (∀ a, (k0_off273 v147) a + S1x1024.size a ≤ S32000x1024.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x1024.size a ≤ S32000x1024.size a := fun v147 k0_hw17 => k0_hw17.1
theorem k0_off273_inb : ∀ (v147 : BitVec 32) (k0_hw17 : k0_chk17 v147), ∀ a, (k0_off273 v147) a + S1x1024.size a ≤ S32000x1024.size a := fun v147 k0_hw17 => k0_hw17.2

def k0_off274 (v156 : BitVec 32) : Fin 2 → Nat :=
  let c0_i32_588 : BitVec 32 := 0#32
  ![v156.toNat, 0]

def k0_chk18 (v156 : BitVec 32) : Prop :=
  (∀ a, (k0_off36 v156) a + S1x1024.size a ≤ S32000x1024.size a) ∧
  (∀ a, (k0_off274 v156) a + S1x1024.size a ≤ S32000x1024.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x1024.size a ≤ S32000x1024.size a := fun v156 k0_hw18 => k0_hw18.1
theorem k0_off274_inb : ∀ (v156 : BitVec 32) (k0_hw18 : k0_chk18 v156), ∀ a, (k0_off274 v156) a + S1x1024.size a ≤ S32000x1024.size a := fun v156 k0_hw18 => k0_hw18.2

def k0_off275 (v165 : BitVec 32) : Fin 2 → Nat :=
  let c0_i32_592 : BitVec 32 := 0#32
  ![v165.toNat, 0]

def k0_chk19 (v165 : BitVec 32) : Prop :=
  (∀ a, (k0_off38 v165) a + S1x1024.size a ≤ S32000x1024.size a) ∧
  (∀ a, (k0_off275 v165) a + S1x1024.size a ≤ S32000x1024.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x1024.size a ≤ S32000x1024.size a := fun v165 k0_hw19 => k0_hw19.1
theorem k0_off275_inb : ∀ (v165 : BitVec 32) (k0_hw19 : k0_chk19 v165), ∀ a, (k0_off275 v165) a + S1x1024.size a ≤ S32000x1024.size a := fun v165 k0_hw19 => k0_hw19.2

def k0_off276 (v174 : BitVec 32) : Fin 2 → Nat :=
  let c0_i32_596 : BitVec 32 := 0#32
  ![v174.toNat, 0]

def k0_chk20 (v174 : BitVec 32) : Prop :=
  (∀ a, (k0_off40 v174) a + S1x1024.size a ≤ S32000x1024.size a) ∧
  (∀ a, (k0_off276 v174) a + S1x1024.size a ≤ S32000x1024.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x1024.size a ≤ S32000x1024.size a := fun v174 k0_hw20 => k0_hw20.1
theorem k0_off276_inb : ∀ (v174 : BitVec 32) (k0_hw20 : k0_chk20 v174), ∀ a, (k0_off276 v174) a + S1x1024.size a ≤ S32000x1024.size a := fun v174 k0_hw20 => k0_hw20.2

def k0_off277 (v183 : BitVec 32) : Fin 2 → Nat :=
  let c0_i32_600 : BitVec 32 := 0#32
  ![v183.toNat, 0]

def k0_chk21 (v183 : BitVec 32) : Prop :=
  (∀ a, (k0_off42 v183) a + S1x1024.size a ≤ S32000x1024.size a) ∧
  (∀ a, (k0_off277 v183) a + S1x1024.size a ≤ S32000x1024.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x1024.size a ≤ S32000x1024.size a := fun v183 k0_hw21 => k0_hw21.1
theorem k0_off277_inb : ∀ (v183 : BitVec 32) (k0_hw21 : k0_chk21 v183), ∀ a, (k0_off277 v183) a + S1x1024.size a ≤ S32000x1024.size a := fun v183 k0_hw21 => k0_hw21.2

def k0_off278 (v192 : BitVec 32) : Fin 2 → Nat :=
  let c0_i32_604 : BitVec 32 := 0#32
  ![v192.toNat, 0]

def k0_chk22 (v192 : BitVec 32) : Prop :=
  (∀ a, (k0_off44 v192) a + S1x1024.size a ≤ S32000x1024.size a) ∧
  (∀ a, (k0_off278 v192) a + S1x1024.size a ≤ S32000x1024.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x1024.size a ≤ S32000x1024.size a := fun v192 k0_hw22 => k0_hw22.1
theorem k0_off278_inb : ∀ (v192 : BitVec 32) (k0_hw22 : k0_chk22 v192), ∀ a, (k0_off278 v192) a + S1x1024.size a ≤ S32000x1024.size a := fun v192 k0_hw22 => k0_hw22.2

def k0_off279 (v201 : BitVec 32) : Fin 2 → Nat :=
  let c0_i32_608 : BitVec 32 := 0#32
  ![v201.toNat, 0]

def k0_chk23 (v201 : BitVec 32) : Prop :=
  (∀ a, (k0_off46 v201) a + S1x1024.size a ≤ S32000x1024.size a) ∧
  (∀ a, (k0_off279 v201) a + S1x1024.size a ≤ S32000x1024.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x1024.size a ≤ S32000x1024.size a := fun v201 k0_hw23 => k0_hw23.1
theorem k0_off279_inb : ∀ (v201 : BitVec 32) (k0_hw23 : k0_chk23 v201), ∀ a, (k0_off279 v201) a + S1x1024.size a ≤ S32000x1024.size a := fun v201 k0_hw23 => k0_hw23.2

def k0_off280 (v210 : BitVec 32) : Fin 2 → Nat :=
  let c0_i32_612 : BitVec 32 := 0#32
  ![v210.toNat, 0]

def k0_chk24 (v210 : BitVec 32) : Prop :=
  (∀ a, (k0_off48 v210) a + S1x1024.size a ≤ S32000x1024.size a) ∧
  (∀ a, (k0_off280 v210) a + S1x1024.size a ≤ S32000x1024.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x1024.size a ≤ S32000x1024.size a := fun v210 k0_hw24 => k0_hw24.1
theorem k0_off280_inb : ∀ (v210 : BitVec 32) (k0_hw24 : k0_chk24 v210), ∀ a, (k0_off280 v210) a + S1x1024.size a ≤ S32000x1024.size a := fun v210 k0_hw24 => k0_hw24.2

def k0_off281 (v219 : BitVec 32) : Fin 2 → Nat :=
  let c0_i32_616 : BitVec 32 := 0#32
  ![v219.toNat, 0]

def k0_chk25 (v219 : BitVec 32) : Prop :=
  (∀ a, (k0_off50 v219) a + S1x1024.size a ≤ S32000x1024.size a) ∧
  (∀ a, (k0_off281 v219) a + S1x1024.size a ≤ S32000x1024.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x1024.size a ≤ S32000x1024.size a := fun v219 k0_hw25 => k0_hw25.1
theorem k0_off281_inb : ∀ (v219 : BitVec 32) (k0_hw25 : k0_chk25 v219), ∀ a, (k0_off281 v219) a + S1x1024.size a ≤ S32000x1024.size a := fun v219 k0_hw25 => k0_hw25.2

def k0_off282 (v228 : BitVec 32) : Fin 2 → Nat :=
  let c0_i32_620 : BitVec 32 := 0#32
  ![v228.toNat, 0]

def k0_chk26 (v228 : BitVec 32) : Prop :=
  (∀ a, (k0_off52 v228) a + S1x1024.size a ≤ S32000x1024.size a) ∧
  (∀ a, (k0_off282 v228) a + S1x1024.size a ≤ S32000x1024.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x1024.size a ≤ S32000x1024.size a := fun v228 k0_hw26 => k0_hw26.1
theorem k0_off282_inb : ∀ (v228 : BitVec 32) (k0_hw26 : k0_chk26 v228), ∀ a, (k0_off282 v228) a + S1x1024.size a ≤ S32000x1024.size a := fun v228 k0_hw26 => k0_hw26.2

def k0_off283 (v237 : BitVec 32) : Fin 2 → Nat :=
  let c0_i32_624 : BitVec 32 := 0#32
  ![v237.toNat, 0]

def k0_chk27 (v237 : BitVec 32) : Prop :=
  (∀ a, (k0_off54 v237) a + S1x1024.size a ≤ S32000x1024.size a) ∧
  (∀ a, (k0_off283 v237) a + S1x1024.size a ≤ S32000x1024.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x1024.size a ≤ S32000x1024.size a := fun v237 k0_hw27 => k0_hw27.1
theorem k0_off283_inb : ∀ (v237 : BitVec 32) (k0_hw27 : k0_chk27 v237), ∀ a, (k0_off283 v237) a + S1x1024.size a ≤ S32000x1024.size a := fun v237 k0_hw27 => k0_hw27.2

def k0_off284 (v246 : BitVec 32) : Fin 2 → Nat :=
  let c0_i32_628 : BitVec 32 := 0#32
  ![v246.toNat, 0]

def k0_chk28 (v246 : BitVec 32) : Prop :=
  (∀ a, (k0_off56 v246) a + S1x1024.size a ≤ S32000x1024.size a) ∧
  (∀ a, (k0_off284 v246) a + S1x1024.size a ≤ S32000x1024.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x1024.size a ≤ S32000x1024.size a := fun v246 k0_hw28 => k0_hw28.1
theorem k0_off284_inb : ∀ (v246 : BitVec 32) (k0_hw28 : k0_chk28 v246), ∀ a, (k0_off284 v246) a + S1x1024.size a ≤ S32000x1024.size a := fun v246 k0_hw28 => k0_hw28.2

def k0_off285 (v255 : BitVec 32) : Fin 2 → Nat :=
  let c0_i32_632 : BitVec 32 := 0#32
  ![v255.toNat, 0]

def k0_chk29 (v255 : BitVec 32) : Prop :=
  (∀ a, (k0_off58 v255) a + S1x1024.size a ≤ S32000x1024.size a) ∧
  (∀ a, (k0_off285 v255) a + S1x1024.size a ≤ S32000x1024.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x1024.size a ≤ S32000x1024.size a := fun v255 k0_hw29 => k0_hw29.1
theorem k0_off285_inb : ∀ (v255 : BitVec 32) (k0_hw29 : k0_chk29 v255), ∀ a, (k0_off285 v255) a + S1x1024.size a ≤ S32000x1024.size a := fun v255 k0_hw29 => k0_hw29.2

def k0_off286 (v264 : BitVec 32) : Fin 2 → Nat :=
  let c0_i32_636 : BitVec 32 := 0#32
  ![v264.toNat, 0]

def k0_chk30 (v264 : BitVec 32) : Prop :=
  (∀ a, (k0_off60 v264) a + S1x1024.size a ≤ S32000x1024.size a) ∧
  (∀ a, (k0_off286 v264) a + S1x1024.size a ≤ S32000x1024.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x1024.size a ≤ S32000x1024.size a := fun v264 k0_hw30 => k0_hw30.1
theorem k0_off286_inb : ∀ (v264 : BitVec 32) (k0_hw30 : k0_chk30 v264), ∀ a, (k0_off286 v264) a + S1x1024.size a ≤ S32000x1024.size a := fun v264 k0_hw30 => k0_hw30.2

def k0_off287 (v273 : BitVec 32) : Fin 2 → Nat :=
  let c0_i32_640 : BitVec 32 := 0#32
  ![v273.toNat, 0]

def k0_chk31 (v273 : BitVec 32) : Prop :=
  (∀ a, (k0_off62 v273) a + S1x1024.size a ≤ S32000x1024.size a) ∧
  (∀ a, (k0_off287 v273) a + S1x1024.size a ≤ S32000x1024.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x1024.size a ≤ S32000x1024.size a := fun v273 k0_hw31 => k0_hw31.1
theorem k0_off287_inb : ∀ (v273 : BitVec 32) (k0_hw31 : k0_chk31 v273), ∀ a, (k0_off287 v273) a + S1x1024.size a ≤ S32000x1024.size a := fun v273 k0_hw31 => k0_hw31.2

def k0_off288 (v282 : BitVec 32) : Fin 2 → Nat :=
  let c0_i32_644 : BitVec 32 := 0#32
  ![v282.toNat, 0]

def k0_chk32 (v282 : BitVec 32) : Prop :=
  (∀ a, (k0_off64 v282) a + S1x1024.size a ≤ S32000x1024.size a) ∧
  (∀ a, (k0_off288 v282) a + S1x1024.size a ≤ S32000x1024.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x1024.size a ≤ S32000x1024.size a := fun v282 k0_hw32 => k0_hw32.1
theorem k0_off288_inb : ∀ (v282 : BitVec 32) (k0_hw32 : k0_chk32 v282), ∀ a, (k0_off288 v282) a + S1x1024.size a ≤ S32000x1024.size a := fun v282 k0_hw32 => k0_hw32.2

def k0_off289 (v291 : BitVec 32) : Fin 2 → Nat :=
  let c0_i32_648 : BitVec 32 := 0#32
  ![v291.toNat, 0]

def k0_chk33 (v291 : BitVec 32) : Prop :=
  (∀ a, (k0_off66 v291) a + S1x1024.size a ≤ S32000x1024.size a) ∧
  (∀ a, (k0_off289 v291) a + S1x1024.size a ≤ S32000x1024.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x1024.size a ≤ S32000x1024.size a := fun v291 k0_hw33 => k0_hw33.1
theorem k0_off289_inb : ∀ (v291 : BitVec 32) (k0_hw33 : k0_chk33 v291), ∀ a, (k0_off289 v291) a + S1x1024.size a ≤ S32000x1024.size a := fun v291 k0_hw33 => k0_hw33.2

def k0_off290 (v300 : BitVec 32) : Fin 2 → Nat :=
  let c0_i32_652 : BitVec 32 := 0#32
  ![v300.toNat, 0]

def k0_chk34 (v300 : BitVec 32) : Prop :=
  (∀ a, (k0_off68 v300) a + S1x1024.size a ≤ S32000x1024.size a) ∧
  (∀ a, (k0_off290 v300) a + S1x1024.size a ≤ S32000x1024.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x1024.size a ≤ S32000x1024.size a := fun v300 k0_hw34 => k0_hw34.1
theorem k0_off290_inb : ∀ (v300 : BitVec 32) (k0_hw34 : k0_chk34 v300), ∀ a, (k0_off290 v300) a + S1x1024.size a ≤ S32000x1024.size a := fun v300 k0_hw34 => k0_hw34.2

def k0_off291 (v309 : BitVec 32) : Fin 2 → Nat :=
  let c0_i32_656 : BitVec 32 := 0#32
  ![v309.toNat, 0]

def k0_chk35 (v309 : BitVec 32) : Prop :=
  (∀ a, (k0_off70 v309) a + S1x1024.size a ≤ S32000x1024.size a) ∧
  (∀ a, (k0_off291 v309) a + S1x1024.size a ≤ S32000x1024.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x1024.size a ≤ S32000x1024.size a := fun v309 k0_hw35 => k0_hw35.1
theorem k0_off291_inb : ∀ (v309 : BitVec 32) (k0_hw35 : k0_chk35 v309), ∀ a, (k0_off291 v309) a + S1x1024.size a ≤ S32000x1024.size a := fun v309 k0_hw35 => k0_hw35.2

def k0_off292 (v318 : BitVec 32) : Fin 2 → Nat :=
  let c0_i32_660 : BitVec 32 := 0#32
  ![v318.toNat, 0]

def k0_chk36 (v318 : BitVec 32) : Prop :=
  (∀ a, (k0_off72 v318) a + S1x1024.size a ≤ S32000x1024.size a) ∧
  (∀ a, (k0_off292 v318) a + S1x1024.size a ≤ S32000x1024.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x1024.size a ≤ S32000x1024.size a := fun v318 k0_hw36 => k0_hw36.1
theorem k0_off292_inb : ∀ (v318 : BitVec 32) (k0_hw36 : k0_chk36 v318), ∀ a, (k0_off292 v318) a + S1x1024.size a ≤ S32000x1024.size a := fun v318 k0_hw36 => k0_hw36.2

def k0_off293 (v327 : BitVec 32) : Fin 2 → Nat :=
  let c0_i32_664 : BitVec 32 := 0#32
  ![v327.toNat, 0]

def k0_chk37 (v327 : BitVec 32) : Prop :=
  (∀ a, (k0_off74 v327) a + S1x1024.size a ≤ S32000x1024.size a) ∧
  (∀ a, (k0_off293 v327) a + S1x1024.size a ≤ S32000x1024.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x1024.size a ≤ S32000x1024.size a := fun v327 k0_hw37 => k0_hw37.1
theorem k0_off293_inb : ∀ (v327 : BitVec 32) (k0_hw37 : k0_chk37 v327), ∀ a, (k0_off293 v327) a + S1x1024.size a ≤ S32000x1024.size a := fun v327 k0_hw37 => k0_hw37.2

def k0_off294 (v336 : BitVec 32) : Fin 2 → Nat :=
  let c0_i32_668 : BitVec 32 := 0#32
  ![v336.toNat, 0]

def k0_chk38 (v336 : BitVec 32) : Prop :=
  (∀ a, (k0_off76 v336) a + S1x1024.size a ≤ S32000x1024.size a) ∧
  (∀ a, (k0_off294 v336) a + S1x1024.size a ≤ S32000x1024.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x1024.size a ≤ S32000x1024.size a := fun v336 k0_hw38 => k0_hw38.1
theorem k0_off294_inb : ∀ (v336 : BitVec 32) (k0_hw38 : k0_chk38 v336), ∀ a, (k0_off294 v336) a + S1x1024.size a ≤ S32000x1024.size a := fun v336 k0_hw38 => k0_hw38.2

def k0_off295 (v345 : BitVec 32) : Fin 2 → Nat :=
  let c0_i32_672 : BitVec 32 := 0#32
  ![v345.toNat, 0]

def k0_chk39 (v345 : BitVec 32) : Prop :=
  (∀ a, (k0_off78 v345) a + S1x1024.size a ≤ S32000x1024.size a) ∧
  (∀ a, (k0_off295 v345) a + S1x1024.size a ≤ S32000x1024.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x1024.size a ≤ S32000x1024.size a := fun v345 k0_hw39 => k0_hw39.1
theorem k0_off295_inb : ∀ (v345 : BitVec 32) (k0_hw39 : k0_chk39 v345), ∀ a, (k0_off295 v345) a + S1x1024.size a ≤ S32000x1024.size a := fun v345 k0_hw39 => k0_hw39.2

def k0_off296 (v354 : BitVec 32) : Fin 2 → Nat :=
  let c0_i32_676 : BitVec 32 := 0#32
  ![v354.toNat, 0]

def k0_chk40 (v354 : BitVec 32) : Prop :=
  (∀ a, (k0_off80 v354) a + S1x1024.size a ≤ S32000x1024.size a) ∧
  (∀ a, (k0_off296 v354) a + S1x1024.size a ≤ S32000x1024.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x1024.size a ≤ S32000x1024.size a := fun v354 k0_hw40 => k0_hw40.1
theorem k0_off296_inb : ∀ (v354 : BitVec 32) (k0_hw40 : k0_chk40 v354), ∀ a, (k0_off296 v354) a + S1x1024.size a ≤ S32000x1024.size a := fun v354 k0_hw40 => k0_hw40.2

def k0_off297 (v363 : BitVec 32) : Fin 2 → Nat :=
  let c0_i32_680 : BitVec 32 := 0#32
  ![v363.toNat, 0]

def k0_chk41 (v363 : BitVec 32) : Prop :=
  (∀ a, (k0_off82 v363) a + S1x1024.size a ≤ S32000x1024.size a) ∧
  (∀ a, (k0_off297 v363) a + S1x1024.size a ≤ S32000x1024.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x1024.size a ≤ S32000x1024.size a := fun v363 k0_hw41 => k0_hw41.1
theorem k0_off297_inb : ∀ (v363 : BitVec 32) (k0_hw41 : k0_chk41 v363), ∀ a, (k0_off297 v363) a + S1x1024.size a ≤ S32000x1024.size a := fun v363 k0_hw41 => k0_hw41.2

def k0_off298 (v372 : BitVec 32) : Fin 2 → Nat :=
  let c0_i32_684 : BitVec 32 := 0#32
  ![v372.toNat, 0]

def k0_chk42 (v372 : BitVec 32) : Prop :=
  (∀ a, (k0_off84 v372) a + S1x1024.size a ≤ S32000x1024.size a) ∧
  (∀ a, (k0_off298 v372) a + S1x1024.size a ≤ S32000x1024.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x1024.size a ≤ S32000x1024.size a := fun v372 k0_hw42 => k0_hw42.1
theorem k0_off298_inb : ∀ (v372 : BitVec 32) (k0_hw42 : k0_chk42 v372), ∀ a, (k0_off298 v372) a + S1x1024.size a ≤ S32000x1024.size a := fun v372 k0_hw42 => k0_hw42.2

def k0_off299 (v381 : BitVec 32) : Fin 2 → Nat :=
  let c0_i32_688 : BitVec 32 := 0#32
  ![v381.toNat, 0]

def k0_chk43 (v381 : BitVec 32) : Prop :=
  (∀ a, (k0_off86 v381) a + S1x1024.size a ≤ S32000x1024.size a) ∧
  (∀ a, (k0_off299 v381) a + S1x1024.size a ≤ S32000x1024.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x1024.size a ≤ S32000x1024.size a := fun v381 k0_hw43 => k0_hw43.1
theorem k0_off299_inb : ∀ (v381 : BitVec 32) (k0_hw43 : k0_chk43 v381), ∀ a, (k0_off299 v381) a + S1x1024.size a ≤ S32000x1024.size a := fun v381 k0_hw43 => k0_hw43.2

def k0_off300 (v390 : BitVec 32) : Fin 2 → Nat :=
  let c0_i32_692 : BitVec 32 := 0#32
  ![v390.toNat, 0]

def k0_chk44 (v390 : BitVec 32) : Prop :=
  (∀ a, (k0_off88 v390) a + S1x1024.size a ≤ S32000x1024.size a) ∧
  (∀ a, (k0_off300 v390) a + S1x1024.size a ≤ S32000x1024.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x1024.size a ≤ S32000x1024.size a := fun v390 k0_hw44 => k0_hw44.1
theorem k0_off300_inb : ∀ (v390 : BitVec 32) (k0_hw44 : k0_chk44 v390), ∀ a, (k0_off300 v390) a + S1x1024.size a ≤ S32000x1024.size a := fun v390 k0_hw44 => k0_hw44.2

def k0_off301 (v399 : BitVec 32) : Fin 2 → Nat :=
  let c0_i32_696 : BitVec 32 := 0#32
  ![v399.toNat, 0]

def k0_chk45 (v399 : BitVec 32) : Prop :=
  (∀ a, (k0_off90 v399) a + S1x1024.size a ≤ S32000x1024.size a) ∧
  (∀ a, (k0_off301 v399) a + S1x1024.size a ≤ S32000x1024.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x1024.size a ≤ S32000x1024.size a := fun v399 k0_hw45 => k0_hw45.1
theorem k0_off301_inb : ∀ (v399 : BitVec 32) (k0_hw45 : k0_chk45 v399), ∀ a, (k0_off301 v399) a + S1x1024.size a ≤ S32000x1024.size a := fun v399 k0_hw45 => k0_hw45.2

def k0_off302 (v408 : BitVec 32) : Fin 2 → Nat :=
  let c0_i32_700 : BitVec 32 := 0#32
  ![v408.toNat, 0]

def k0_chk46 (v408 : BitVec 32) : Prop :=
  (∀ a, (k0_off92 v408) a + S1x1024.size a ≤ S32000x1024.size a) ∧
  (∀ a, (k0_off302 v408) a + S1x1024.size a ≤ S32000x1024.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x1024.size a ≤ S32000x1024.size a := fun v408 k0_hw46 => k0_hw46.1
theorem k0_off302_inb : ∀ (v408 : BitVec 32) (k0_hw46 : k0_chk46 v408), ∀ a, (k0_off302 v408) a + S1x1024.size a ≤ S32000x1024.size a := fun v408 k0_hw46 => k0_hw46.2

def k0_off303 (v417 : BitVec 32) : Fin 2 → Nat :=
  let c0_i32_704 : BitVec 32 := 0#32
  ![v417.toNat, 0]

def k0_chk47 (v417 : BitVec 32) : Prop :=
  (∀ a, (k0_off94 v417) a + S1x1024.size a ≤ S32000x1024.size a) ∧
  (∀ a, (k0_off303 v417) a + S1x1024.size a ≤ S32000x1024.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x1024.size a ≤ S32000x1024.size a := fun v417 k0_hw47 => k0_hw47.1
theorem k0_off303_inb : ∀ (v417 : BitVec 32) (k0_hw47 : k0_chk47 v417), ∀ a, (k0_off303 v417) a + S1x1024.size a ≤ S32000x1024.size a := fun v417 k0_hw47 => k0_hw47.2

def k0_off304 (v426 : BitVec 32) : Fin 2 → Nat :=
  let c0_i32_708 : BitVec 32 := 0#32
  ![v426.toNat, 0]

def k0_chk48 (v426 : BitVec 32) : Prop :=
  (∀ a, (k0_off96 v426) a + S1x1024.size a ≤ S32000x1024.size a) ∧
  (∀ a, (k0_off304 v426) a + S1x1024.size a ≤ S32000x1024.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x1024.size a ≤ S32000x1024.size a := fun v426 k0_hw48 => k0_hw48.1
theorem k0_off304_inb : ∀ (v426 : BitVec 32) (k0_hw48 : k0_chk48 v426), ∀ a, (k0_off304 v426) a + S1x1024.size a ≤ S32000x1024.size a := fun v426 k0_hw48 => k0_hw48.2

def k0_off305 (v435 : BitVec 32) : Fin 2 → Nat :=
  let c0_i32_712 : BitVec 32 := 0#32
  ![v435.toNat, 0]

def k0_chk49 (v435 : BitVec 32) : Prop :=
  (∀ a, (k0_off98 v435) a + S1x1024.size a ≤ S32000x1024.size a) ∧
  (∀ a, (k0_off305 v435) a + S1x1024.size a ≤ S32000x1024.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x1024.size a ≤ S32000x1024.size a := fun v435 k0_hw49 => k0_hw49.1
theorem k0_off305_inb : ∀ (v435 : BitVec 32) (k0_hw49 : k0_chk49 v435), ∀ a, (k0_off305 v435) a + S1x1024.size a ≤ S32000x1024.size a := fun v435 k0_hw49 => k0_hw49.2

def k0_off306 (v444 : BitVec 32) : Fin 2 → Nat :=
  let c0_i32_716 : BitVec 32 := 0#32
  ![v444.toNat, 0]

def k0_chk50 (v444 : BitVec 32) : Prop :=
  (∀ a, (k0_off100 v444) a + S1x1024.size a ≤ S32000x1024.size a) ∧
  (∀ a, (k0_off306 v444) a + S1x1024.size a ≤ S32000x1024.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x1024.size a ≤ S32000x1024.size a := fun v444 k0_hw50 => k0_hw50.1
theorem k0_off306_inb : ∀ (v444 : BitVec 32) (k0_hw50 : k0_chk50 v444), ∀ a, (k0_off306 v444) a + S1x1024.size a ≤ S32000x1024.size a := fun v444 k0_hw50 => k0_hw50.2

def k0_off307 (v453 : BitVec 32) : Fin 2 → Nat :=
  let c0_i32_720 : BitVec 32 := 0#32
  ![v453.toNat, 0]

def k0_chk51 (v453 : BitVec 32) : Prop :=
  (∀ a, (k0_off102 v453) a + S1x1024.size a ≤ S32000x1024.size a) ∧
  (∀ a, (k0_off307 v453) a + S1x1024.size a ≤ S32000x1024.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x1024.size a ≤ S32000x1024.size a := fun v453 k0_hw51 => k0_hw51.1
theorem k0_off307_inb : ∀ (v453 : BitVec 32) (k0_hw51 : k0_chk51 v453), ∀ a, (k0_off307 v453) a + S1x1024.size a ≤ S32000x1024.size a := fun v453 k0_hw51 => k0_hw51.2

def k0_off308 (v462 : BitVec 32) : Fin 2 → Nat :=
  let c0_i32_724 : BitVec 32 := 0#32
  ![v462.toNat, 0]

def k0_chk52 (v462 : BitVec 32) : Prop :=
  (∀ a, (k0_off104 v462) a + S1x1024.size a ≤ S32000x1024.size a) ∧
  (∀ a, (k0_off308 v462) a + S1x1024.size a ≤ S32000x1024.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x1024.size a ≤ S32000x1024.size a := fun v462 k0_hw52 => k0_hw52.1
theorem k0_off308_inb : ∀ (v462 : BitVec 32) (k0_hw52 : k0_chk52 v462), ∀ a, (k0_off308 v462) a + S1x1024.size a ≤ S32000x1024.size a := fun v462 k0_hw52 => k0_hw52.2

def k0_off309 (v471 : BitVec 32) : Fin 2 → Nat :=
  let c0_i32_728 : BitVec 32 := 0#32
  ![v471.toNat, 0]

def k0_chk53 (v471 : BitVec 32) : Prop :=
  (∀ a, (k0_off106 v471) a + S1x1024.size a ≤ S32000x1024.size a) ∧
  (∀ a, (k0_off309 v471) a + S1x1024.size a ≤ S32000x1024.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x1024.size a ≤ S32000x1024.size a := fun v471 k0_hw53 => k0_hw53.1
theorem k0_off309_inb : ∀ (v471 : BitVec 32) (k0_hw53 : k0_chk53 v471), ∀ a, (k0_off309 v471) a + S1x1024.size a ≤ S32000x1024.size a := fun v471 k0_hw53 => k0_hw53.2

def k0_off310 (v480 : BitVec 32) : Fin 2 → Nat :=
  let c0_i32_732 : BitVec 32 := 0#32
  ![v480.toNat, 0]

def k0_chk54 (v480 : BitVec 32) : Prop :=
  (∀ a, (k0_off108 v480) a + S1x1024.size a ≤ S32000x1024.size a) ∧
  (∀ a, (k0_off310 v480) a + S1x1024.size a ≤ S32000x1024.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x1024.size a ≤ S32000x1024.size a := fun v480 k0_hw54 => k0_hw54.1
theorem k0_off310_inb : ∀ (v480 : BitVec 32) (k0_hw54 : k0_chk54 v480), ∀ a, (k0_off310 v480) a + S1x1024.size a ≤ S32000x1024.size a := fun v480 k0_hw54 => k0_hw54.2

def k0_off311 (v489 : BitVec 32) : Fin 2 → Nat :=
  let c0_i32_736 : BitVec 32 := 0#32
  ![v489.toNat, 0]

def k0_chk55 (v489 : BitVec 32) : Prop :=
  (∀ a, (k0_off110 v489) a + S1x1024.size a ≤ S32000x1024.size a) ∧
  (∀ a, (k0_off311 v489) a + S1x1024.size a ≤ S32000x1024.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x1024.size a ≤ S32000x1024.size a := fun v489 k0_hw55 => k0_hw55.1
theorem k0_off311_inb : ∀ (v489 : BitVec 32) (k0_hw55 : k0_chk55 v489), ∀ a, (k0_off311 v489) a + S1x1024.size a ≤ S32000x1024.size a := fun v489 k0_hw55 => k0_hw55.2

def k0_off312 (v498 : BitVec 32) : Fin 2 → Nat :=
  let c0_i32_740 : BitVec 32 := 0#32
  ![v498.toNat, 0]

def k0_chk56 (v498 : BitVec 32) : Prop :=
  (∀ a, (k0_off112 v498) a + S1x1024.size a ≤ S32000x1024.size a) ∧
  (∀ a, (k0_off312 v498) a + S1x1024.size a ≤ S32000x1024.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x1024.size a ≤ S32000x1024.size a := fun v498 k0_hw56 => k0_hw56.1
theorem k0_off312_inb : ∀ (v498 : BitVec 32) (k0_hw56 : k0_chk56 v498), ∀ a, (k0_off312 v498) a + S1x1024.size a ≤ S32000x1024.size a := fun v498 k0_hw56 => k0_hw56.2

def k0_off313 (v507 : BitVec 32) : Fin 2 → Nat :=
  let c0_i32_744 : BitVec 32 := 0#32
  ![v507.toNat, 0]

def k0_chk57 (v507 : BitVec 32) : Prop :=
  (∀ a, (k0_off114 v507) a + S1x1024.size a ≤ S32000x1024.size a) ∧
  (∀ a, (k0_off313 v507) a + S1x1024.size a ≤ S32000x1024.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x1024.size a ≤ S32000x1024.size a := fun v507 k0_hw57 => k0_hw57.1
theorem k0_off313_inb : ∀ (v507 : BitVec 32) (k0_hw57 : k0_chk57 v507), ∀ a, (k0_off313 v507) a + S1x1024.size a ≤ S32000x1024.size a := fun v507 k0_hw57 => k0_hw57.2

def k0_off314 (v516 : BitVec 32) : Fin 2 → Nat :=
  let c0_i32_748 : BitVec 32 := 0#32
  ![v516.toNat, 0]

def k0_chk58 (v516 : BitVec 32) : Prop :=
  (∀ a, (k0_off116 v516) a + S1x1024.size a ≤ S32000x1024.size a) ∧
  (∀ a, (k0_off314 v516) a + S1x1024.size a ≤ S32000x1024.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x1024.size a ≤ S32000x1024.size a := fun v516 k0_hw58 => k0_hw58.1
theorem k0_off314_inb : ∀ (v516 : BitVec 32) (k0_hw58 : k0_chk58 v516), ∀ a, (k0_off314 v516) a + S1x1024.size a ≤ S32000x1024.size a := fun v516 k0_hw58 => k0_hw58.2

def k0_off315 (v525 : BitVec 32) : Fin 2 → Nat :=
  let c0_i32_752 : BitVec 32 := 0#32
  ![v525.toNat, 0]

def k0_chk59 (v525 : BitVec 32) : Prop :=
  (∀ a, (k0_off118 v525) a + S1x1024.size a ≤ S32000x1024.size a) ∧
  (∀ a, (k0_off315 v525) a + S1x1024.size a ≤ S32000x1024.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x1024.size a ≤ S32000x1024.size a := fun v525 k0_hw59 => k0_hw59.1
theorem k0_off315_inb : ∀ (v525 : BitVec 32) (k0_hw59 : k0_chk59 v525), ∀ a, (k0_off315 v525) a + S1x1024.size a ≤ S32000x1024.size a := fun v525 k0_hw59 => k0_hw59.2

def k0_off316 (v534 : BitVec 32) : Fin 2 → Nat :=
  let c0_i32_756 : BitVec 32 := 0#32
  ![v534.toNat, 0]

def k0_chk60 (v534 : BitVec 32) : Prop :=
  (∀ a, (k0_off120 v534) a + S1x1024.size a ≤ S32000x1024.size a) ∧
  (∀ a, (k0_off316 v534) a + S1x1024.size a ≤ S32000x1024.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x1024.size a ≤ S32000x1024.size a := fun v534 k0_hw60 => k0_hw60.1
theorem k0_off316_inb : ∀ (v534 : BitVec 32) (k0_hw60 : k0_chk60 v534), ∀ a, (k0_off316 v534) a + S1x1024.size a ≤ S32000x1024.size a := fun v534 k0_hw60 => k0_hw60.2

def k0_off317 (v543 : BitVec 32) : Fin 2 → Nat :=
  let c0_i32_760 : BitVec 32 := 0#32
  ![v543.toNat, 0]

def k0_chk61 (v543 : BitVec 32) : Prop :=
  (∀ a, (k0_off122 v543) a + S1x1024.size a ≤ S32000x1024.size a) ∧
  (∀ a, (k0_off317 v543) a + S1x1024.size a ≤ S32000x1024.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x1024.size a ≤ S32000x1024.size a := fun v543 k0_hw61 => k0_hw61.1
theorem k0_off317_inb : ∀ (v543 : BitVec 32) (k0_hw61 : k0_chk61 v543), ∀ a, (k0_off317 v543) a + S1x1024.size a ≤ S32000x1024.size a := fun v543 k0_hw61 => k0_hw61.2

def k0_off318 (v552 : BitVec 32) : Fin 2 → Nat :=
  let c0_i32_764 : BitVec 32 := 0#32
  ![v552.toNat, 0]

def k0_chk62 (v552 : BitVec 32) : Prop :=
  (∀ a, (k0_off124 v552) a + S1x1024.size a ≤ S32000x1024.size a) ∧
  (∀ a, (k0_off318 v552) a + S1x1024.size a ≤ S32000x1024.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x1024.size a ≤ S32000x1024.size a := fun v552 k0_hw62 => k0_hw62.1
theorem k0_off318_inb : ∀ (v552 : BitVec 32) (k0_hw62 : k0_chk62 v552), ∀ a, (k0_off318 v552) a + S1x1024.size a ≤ S32000x1024.size a := fun v552 k0_hw62 => k0_hw62.2

def k0_off319 (v561 : BitVec 32) : Fin 2 → Nat :=
  let c0_i32_768 : BitVec 32 := 0#32
  ![v561.toNat, 0]

def k0_chk63 (v561 : BitVec 32) : Prop :=
  (∀ a, (k0_off126 v561) a + S1x1024.size a ≤ S32000x1024.size a) ∧
  (∀ a, (k0_off319 v561) a + S1x1024.size a ≤ S32000x1024.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x1024.size a ≤ S32000x1024.size a := fun v561 k0_hw63 => k0_hw63.1
theorem k0_off319_inb : ∀ (v561 : BitVec 32) (k0_hw63 : k0_chk63 v561), ∀ a, (k0_off319 v561) a + S1x1024.size a ≤ S32000x1024.size a := fun v561 k0_hw63 => k0_hw63.2

def k0_off320 (v570 : BitVec 32) : Fin 2 → Nat :=
  let c0_i32_772 : BitVec 32 := 0#32
  ![v570.toNat, 0]

def k0_chk64 (v570 : BitVec 32) : Prop :=
  (∀ a, (k0_off128 v570) a + S1x1024.size a ≤ S32000x1024.size a) ∧
  (∀ a, (k0_off320 v570) a + S1x1024.size a ≤ S32000x1024.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x1024.size a ≤ S32000x1024.size a := fun v570 k0_hw64 => k0_hw64.1
theorem k0_off320_inb : ∀ (v570 : BitVec 32) (k0_hw64 : k0_chk64 v570), ∀ a, (k0_off320 v570) a + S1x1024.size a ≤ S32000x1024.size a := fun v570 k0_hw64 => k0_hw64.2

def k0_off321 (v579 : BitVec 32) : Fin 2 → Nat :=
  let c0_i32_776 : BitVec 32 := 0#32
  ![v579.toNat, 0]

def k0_chk65 (v579 : BitVec 32) : Prop :=
  (∀ a, (k0_off130 v579) a + S1x1024.size a ≤ S32000x1024.size a) ∧
  (∀ a, (k0_off321 v579) a + S1x1024.size a ≤ S32000x1024.size a)
instance k0_chk65.dec : ∀ (v579 : BitVec 32), Decidable (k0_chk65 v579) := fun v579 => decidable_of_iff' _ (Iff.of_eq (k0_chk65.eq_1 v579))
theorem k0_off130_inb : ∀ (v579 : BitVec 32) (k0_hw65 : k0_chk65 v579), ∀ a, (k0_off130 v579) a + S1x1024.size a ≤ S32000x1024.size a := fun v579 k0_hw65 => k0_hw65.1
theorem k0_off321_inb : ∀ (v579 : BitVec 32) (k0_hw65 : k0_chk65 v579), ∀ a, (k0_off321 v579) a + S1x1024.size a ≤ S32000x1024.size a := fun v579 k0_hw65 => k0_hw65.2

def k0_off322 (v588 : BitVec 32) : Fin 2 → Nat :=
  let c0_i32_780 : BitVec 32 := 0#32
  ![v588.toNat, 0]

def k0_chk66 (v588 : BitVec 32) : Prop :=
  (∀ a, (k0_off132 v588) a + S1x1024.size a ≤ S32000x1024.size a) ∧
  (∀ a, (k0_off322 v588) a + S1x1024.size a ≤ S32000x1024.size a)
instance k0_chk66.dec : ∀ (v588 : BitVec 32), Decidable (k0_chk66 v588) := fun v588 => decidable_of_iff' _ (Iff.of_eq (k0_chk66.eq_1 v588))
theorem k0_off132_inb : ∀ (v588 : BitVec 32) (k0_hw66 : k0_chk66 v588), ∀ a, (k0_off132 v588) a + S1x1024.size a ≤ S32000x1024.size a := fun v588 k0_hw66 => k0_hw66.1
theorem k0_off322_inb : ∀ (v588 : BitVec 32) (k0_hw66 : k0_chk66 v588), ∀ a, (k0_off322 v588) a + S1x1024.size a ≤ S32000x1024.size a := fun v588 k0_hw66 => k0_hw66.2

def k0_off323 (v597 : BitVec 32) : Fin 2 → Nat :=
  let c0_i32_784 : BitVec 32 := 0#32
  ![v597.toNat, 0]

def k0_chk67 (v597 : BitVec 32) : Prop :=
  (∀ a, (k0_off134 v597) a + S1x1024.size a ≤ S32000x1024.size a) ∧
  (∀ a, (k0_off323 v597) a + S1x1024.size a ≤ S32000x1024.size a)
instance k0_chk67.dec : ∀ (v597 : BitVec 32), Decidable (k0_chk67 v597) := fun v597 => decidable_of_iff' _ (Iff.of_eq (k0_chk67.eq_1 v597))
theorem k0_off134_inb : ∀ (v597 : BitVec 32) (k0_hw67 : k0_chk67 v597), ∀ a, (k0_off134 v597) a + S1x1024.size a ≤ S32000x1024.size a := fun v597 k0_hw67 => k0_hw67.1
theorem k0_off323_inb : ∀ (v597 : BitVec 32) (k0_hw67 : k0_chk67 v597), ∀ a, (k0_off323 v597) a + S1x1024.size a ≤ S32000x1024.size a := fun v597 k0_hw67 => k0_hw67.2

def k0_off324 (v606 : BitVec 32) : Fin 2 → Nat :=
  let c0_i32_788 : BitVec 32 := 0#32
  ![v606.toNat, 0]

def k0_chk68 (v606 : BitVec 32) : Prop :=
  (∀ a, (k0_off136 v606) a + S1x1024.size a ≤ S32000x1024.size a) ∧
  (∀ a, (k0_off324 v606) a + S1x1024.size a ≤ S32000x1024.size a)
instance k0_chk68.dec : ∀ (v606 : BitVec 32), Decidable (k0_chk68 v606) := fun v606 => decidable_of_iff' _ (Iff.of_eq (k0_chk68.eq_1 v606))
theorem k0_off136_inb : ∀ (v606 : BitVec 32) (k0_hw68 : k0_chk68 v606), ∀ a, (k0_off136 v606) a + S1x1024.size a ≤ S32000x1024.size a := fun v606 k0_hw68 => k0_hw68.1
theorem k0_off324_inb : ∀ (v606 : BitVec 32) (k0_hw68 : k0_chk68 v606), ∀ a, (k0_off324 v606) a + S1x1024.size a ≤ S32000x1024.size a := fun v606 k0_hw68 => k0_hw68.2

def k0_off325 (v615 : BitVec 32) : Fin 2 → Nat :=
  let c0_i32_792 : BitVec 32 := 0#32
  ![v615.toNat, 0]

def k0_chk69 (v615 : BitVec 32) : Prop :=
  (∀ a, (k0_off138 v615) a + S1x1024.size a ≤ S32000x1024.size a) ∧
  (∀ a, (k0_off325 v615) a + S1x1024.size a ≤ S32000x1024.size a)
instance k0_chk69.dec : ∀ (v615 : BitVec 32), Decidable (k0_chk69 v615) := fun v615 => decidable_of_iff' _ (Iff.of_eq (k0_chk69.eq_1 v615))
theorem k0_off138_inb : ∀ (v615 : BitVec 32) (k0_hw69 : k0_chk69 v615), ∀ a, (k0_off138 v615) a + S1x1024.size a ≤ S32000x1024.size a := fun v615 k0_hw69 => k0_hw69.1
theorem k0_off325_inb : ∀ (v615 : BitVec 32) (k0_hw69 : k0_chk69 v615), ∀ a, (k0_off325 v615) a + S1x1024.size a ≤ S32000x1024.size a := fun v615 k0_hw69 => k0_hw69.2

def k0_off326 (v624 : BitVec 32) : Fin 2 → Nat :=
  let c0_i32_796 : BitVec 32 := 0#32
  ![v624.toNat, 0]

def k0_chk70 (v624 : BitVec 32) : Prop :=
  (∀ a, (k0_off140 v624) a + S1x1024.size a ≤ S32000x1024.size a) ∧
  (∀ a, (k0_off326 v624) a + S1x1024.size a ≤ S32000x1024.size a)
instance k0_chk70.dec : ∀ (v624 : BitVec 32), Decidable (k0_chk70 v624) := fun v624 => decidable_of_iff' _ (Iff.of_eq (k0_chk70.eq_1 v624))
theorem k0_off140_inb : ∀ (v624 : BitVec 32) (k0_hw70 : k0_chk70 v624), ∀ a, (k0_off140 v624) a + S1x1024.size a ≤ S32000x1024.size a := fun v624 k0_hw70 => k0_hw70.1
theorem k0_off326_inb : ∀ (v624 : BitVec 32) (k0_hw70 : k0_chk70 v624), ∀ a, (k0_off326 v624) a + S1x1024.size a ≤ S32000x1024.size a := fun v624 k0_hw70 => k0_hw70.2

def k0_off327 (v633 : BitVec 32) : Fin 2 → Nat :=
  let c0_i32_800 : BitVec 32 := 0#32
  ![v633.toNat, 0]

def k0_chk71 (v633 : BitVec 32) : Prop :=
  (∀ a, (k0_off142 v633) a + S1x1024.size a ≤ S32000x1024.size a) ∧
  (∀ a, (k0_off327 v633) a + S1x1024.size a ≤ S32000x1024.size a)
instance k0_chk71.dec : ∀ (v633 : BitVec 32), Decidable (k0_chk71 v633) := fun v633 => decidable_of_iff' _ (Iff.of_eq (k0_chk71.eq_1 v633))
theorem k0_off142_inb : ∀ (v633 : BitVec 32) (k0_hw71 : k0_chk71 v633), ∀ a, (k0_off142 v633) a + S1x1024.size a ≤ S32000x1024.size a := fun v633 k0_hw71 => k0_hw71.1
theorem k0_off327_inb : ∀ (v633 : BitVec 32) (k0_hw71 : k0_chk71 v633), ∀ a, (k0_off327 v633) a + S1x1024.size a ≤ S32000x1024.size a := fun v633 k0_hw71 => k0_hw71.2

def k0_off328 (v642 : BitVec 32) : Fin 2 → Nat :=
  let c0_i32_804 : BitVec 32 := 0#32
  ![v642.toNat, 0]

def k0_chk72 (v642 : BitVec 32) : Prop :=
  (∀ a, (k0_off144 v642) a + S1x1024.size a ≤ S32000x1024.size a) ∧
  (∀ a, (k0_off328 v642) a + S1x1024.size a ≤ S32000x1024.size a)
instance k0_chk72.dec : ∀ (v642 : BitVec 32), Decidable (k0_chk72 v642) := fun v642 => decidable_of_iff' _ (Iff.of_eq (k0_chk72.eq_1 v642))
theorem k0_off144_inb : ∀ (v642 : BitVec 32) (k0_hw72 : k0_chk72 v642), ∀ a, (k0_off144 v642) a + S1x1024.size a ≤ S32000x1024.size a := fun v642 k0_hw72 => k0_hw72.1
theorem k0_off328_inb : ∀ (v642 : BitVec 32) (k0_hw72 : k0_chk72 v642), ∀ a, (k0_off328 v642) a + S1x1024.size a ≤ S32000x1024.size a := fun v642 k0_hw72 => k0_hw72.2

def k0_off329 (v651 : BitVec 32) : Fin 2 → Nat :=
  let c0_i32_808 : BitVec 32 := 0#32
  ![v651.toNat, 0]

def k0_chk73 (v651 : BitVec 32) : Prop :=
  (∀ a, (k0_off146 v651) a + S1x1024.size a ≤ S32000x1024.size a) ∧
  (∀ a, (k0_off329 v651) a + S1x1024.size a ≤ S32000x1024.size a)
instance k0_chk73.dec : ∀ (v651 : BitVec 32), Decidable (k0_chk73 v651) := fun v651 => decidable_of_iff' _ (Iff.of_eq (k0_chk73.eq_1 v651))
theorem k0_off146_inb : ∀ (v651 : BitVec 32) (k0_hw73 : k0_chk73 v651), ∀ a, (k0_off146 v651) a + S1x1024.size a ≤ S32000x1024.size a := fun v651 k0_hw73 => k0_hw73.1
theorem k0_off329_inb : ∀ (v651 : BitVec 32) (k0_hw73 : k0_chk73 v651), ∀ a, (k0_off329 v651) a + S1x1024.size a ≤ S32000x1024.size a := fun v651 k0_hw73 => k0_hw73.2

def k0_off330 (v660 : BitVec 32) : Fin 2 → Nat :=
  let c0_i32_812 : BitVec 32 := 0#32
  ![v660.toNat, 0]

def k0_chk74 (v660 : BitVec 32) : Prop :=
  (∀ a, (k0_off148 v660) a + S1x1024.size a ≤ S32000x1024.size a) ∧
  (∀ a, (k0_off330 v660) a + S1x1024.size a ≤ S32000x1024.size a)
instance k0_chk74.dec : ∀ (v660 : BitVec 32), Decidable (k0_chk74 v660) := fun v660 => decidable_of_iff' _ (Iff.of_eq (k0_chk74.eq_1 v660))
theorem k0_off148_inb : ∀ (v660 : BitVec 32) (k0_hw74 : k0_chk74 v660), ∀ a, (k0_off148 v660) a + S1x1024.size a ≤ S32000x1024.size a := fun v660 k0_hw74 => k0_hw74.1
theorem k0_off330_inb : ∀ (v660 : BitVec 32) (k0_hw74 : k0_chk74 v660), ∀ a, (k0_off330 v660) a + S1x1024.size a ≤ S32000x1024.size a := fun v660 k0_hw74 => k0_hw74.2

def k0_off331 (v669 : BitVec 32) : Fin 2 → Nat :=
  let c0_i32_816 : BitVec 32 := 0#32
  ![v669.toNat, 0]

def k0_chk75 (v669 : BitVec 32) : Prop :=
  (∀ a, (k0_off150 v669) a + S1x1024.size a ≤ S32000x1024.size a) ∧
  (∀ a, (k0_off331 v669) a + S1x1024.size a ≤ S32000x1024.size a)
instance k0_chk75.dec : ∀ (v669 : BitVec 32), Decidable (k0_chk75 v669) := fun v669 => decidable_of_iff' _ (Iff.of_eq (k0_chk75.eq_1 v669))
theorem k0_off150_inb : ∀ (v669 : BitVec 32) (k0_hw75 : k0_chk75 v669), ∀ a, (k0_off150 v669) a + S1x1024.size a ≤ S32000x1024.size a := fun v669 k0_hw75 => k0_hw75.1
theorem k0_off331_inb : ∀ (v669 : BitVec 32) (k0_hw75 : k0_chk75 v669), ∀ a, (k0_off331 v669) a + S1x1024.size a ≤ S32000x1024.size a := fun v669 k0_hw75 => k0_hw75.2

def k0_off332 (v678 : BitVec 32) : Fin 2 → Nat :=
  let c0_i32_820 : BitVec 32 := 0#32
  ![v678.toNat, 0]

def k0_chk76 (v678 : BitVec 32) : Prop :=
  (∀ a, (k0_off152 v678) a + S1x1024.size a ≤ S32000x1024.size a) ∧
  (∀ a, (k0_off332 v678) a + S1x1024.size a ≤ S32000x1024.size a)
instance k0_chk76.dec : ∀ (v678 : BitVec 32), Decidable (k0_chk76 v678) := fun v678 => decidable_of_iff' _ (Iff.of_eq (k0_chk76.eq_1 v678))
theorem k0_off152_inb : ∀ (v678 : BitVec 32) (k0_hw76 : k0_chk76 v678), ∀ a, (k0_off152 v678) a + S1x1024.size a ≤ S32000x1024.size a := fun v678 k0_hw76 => k0_hw76.1
theorem k0_off332_inb : ∀ (v678 : BitVec 32) (k0_hw76 : k0_chk76 v678), ∀ a, (k0_off332 v678) a + S1x1024.size a ≤ S32000x1024.size a := fun v678 k0_hw76 => k0_hw76.2

def k0_off333 (v687 : BitVec 32) : Fin 2 → Nat :=
  let c0_i32_824 : BitVec 32 := 0#32
  ![v687.toNat, 0]

def k0_chk77 (v687 : BitVec 32) : Prop :=
  (∀ a, (k0_off154 v687) a + S1x1024.size a ≤ S32000x1024.size a) ∧
  (∀ a, (k0_off333 v687) a + S1x1024.size a ≤ S32000x1024.size a)
instance k0_chk77.dec : ∀ (v687 : BitVec 32), Decidable (k0_chk77 v687) := fun v687 => decidable_of_iff' _ (Iff.of_eq (k0_chk77.eq_1 v687))
theorem k0_off154_inb : ∀ (v687 : BitVec 32) (k0_hw77 : k0_chk77 v687), ∀ a, (k0_off154 v687) a + S1x1024.size a ≤ S32000x1024.size a := fun v687 k0_hw77 => k0_hw77.1
theorem k0_off333_inb : ∀ (v687 : BitVec 32) (k0_hw77 : k0_chk77 v687), ∀ a, (k0_off333 v687) a + S1x1024.size a ≤ S32000x1024.size a := fun v687 k0_hw77 => k0_hw77.2

def k0_off334 (v696 : BitVec 32) : Fin 2 → Nat :=
  let c0_i32_828 : BitVec 32 := 0#32
  ![v696.toNat, 0]

def k0_chk78 (v696 : BitVec 32) : Prop :=
  (∀ a, (k0_off156 v696) a + S1x1024.size a ≤ S32000x1024.size a) ∧
  (∀ a, (k0_off334 v696) a + S1x1024.size a ≤ S32000x1024.size a)
instance k0_chk78.dec : ∀ (v696 : BitVec 32), Decidable (k0_chk78 v696) := fun v696 => decidable_of_iff' _ (Iff.of_eq (k0_chk78.eq_1 v696))
theorem k0_off156_inb : ∀ (v696 : BitVec 32) (k0_hw78 : k0_chk78 v696), ∀ a, (k0_off156 v696) a + S1x1024.size a ≤ S32000x1024.size a := fun v696 k0_hw78 => k0_hw78.1
theorem k0_off334_inb : ∀ (v696 : BitVec 32) (k0_hw78 : k0_chk78 v696), ∀ a, (k0_off334 v696) a + S1x1024.size a ≤ S32000x1024.size a := fun v696 k0_hw78 => k0_hw78.2

def k0_off335 (v705 : BitVec 32) : Fin 2 → Nat :=
  let c0_i32_832 : BitVec 32 := 0#32
  ![v705.toNat, 0]

def k0_chk79 (v705 : BitVec 32) : Prop :=
  (∀ a, (k0_off158 v705) a + S1x1024.size a ≤ S32000x1024.size a) ∧
  (∀ a, (k0_off335 v705) a + S1x1024.size a ≤ S32000x1024.size a)
instance k0_chk79.dec : ∀ (v705 : BitVec 32), Decidable (k0_chk79 v705) := fun v705 => decidable_of_iff' _ (Iff.of_eq (k0_chk79.eq_1 v705))
theorem k0_off158_inb : ∀ (v705 : BitVec 32) (k0_hw79 : k0_chk79 v705), ∀ a, (k0_off158 v705) a + S1x1024.size a ≤ S32000x1024.size a := fun v705 k0_hw79 => k0_hw79.1
theorem k0_off335_inb : ∀ (v705 : BitVec 32) (k0_hw79 : k0_chk79 v705), ∀ a, (k0_off335 v705) a + S1x1024.size a ≤ S32000x1024.size a := fun v705 k0_hw79 => k0_hw79.2

def k0_off336 (v714 : BitVec 32) : Fin 2 → Nat :=
  let c0_i32_836 : BitVec 32 := 0#32
  ![v714.toNat, 0]

def k0_chk80 (v714 : BitVec 32) : Prop :=
  (∀ a, (k0_off160 v714) a + S1x1024.size a ≤ S32000x1024.size a) ∧
  (∀ a, (k0_off336 v714) a + S1x1024.size a ≤ S32000x1024.size a)
instance k0_chk80.dec : ∀ (v714 : BitVec 32), Decidable (k0_chk80 v714) := fun v714 => decidable_of_iff' _ (Iff.of_eq (k0_chk80.eq_1 v714))
theorem k0_off160_inb : ∀ (v714 : BitVec 32) (k0_hw80 : k0_chk80 v714), ∀ a, (k0_off160 v714) a + S1x1024.size a ≤ S32000x1024.size a := fun v714 k0_hw80 => k0_hw80.1
theorem k0_off336_inb : ∀ (v714 : BitVec 32) (k0_hw80 : k0_chk80 v714), ∀ a, (k0_off336 v714) a + S1x1024.size a ≤ S32000x1024.size a := fun v714 k0_hw80 => k0_hw80.2

def k0_off337 (v723 : BitVec 32) : Fin 2 → Nat :=
  let c0_i32_840 : BitVec 32 := 0#32
  ![v723.toNat, 0]

def k0_chk81 (v723 : BitVec 32) : Prop :=
  (∀ a, (k0_off162 v723) a + S1x1024.size a ≤ S32000x1024.size a) ∧
  (∀ a, (k0_off337 v723) a + S1x1024.size a ≤ S32000x1024.size a)
instance k0_chk81.dec : ∀ (v723 : BitVec 32), Decidable (k0_chk81 v723) := fun v723 => decidable_of_iff' _ (Iff.of_eq (k0_chk81.eq_1 v723))
theorem k0_off162_inb : ∀ (v723 : BitVec 32) (k0_hw81 : k0_chk81 v723), ∀ a, (k0_off162 v723) a + S1x1024.size a ≤ S32000x1024.size a := fun v723 k0_hw81 => k0_hw81.1
theorem k0_off337_inb : ∀ (v723 : BitVec 32) (k0_hw81 : k0_chk81 v723), ∀ a, (k0_off337 v723) a + S1x1024.size a ≤ S32000x1024.size a := fun v723 k0_hw81 => k0_hw81.2

def k0_off338 (v732 : BitVec 32) : Fin 2 → Nat :=
  let c0_i32_844 : BitVec 32 := 0#32
  ![v732.toNat, 0]

def k0_chk82 (v732 : BitVec 32) : Prop :=
  (∀ a, (k0_off164 v732) a + S1x1024.size a ≤ S32000x1024.size a) ∧
  (∀ a, (k0_off338 v732) a + S1x1024.size a ≤ S32000x1024.size a)
instance k0_chk82.dec : ∀ (v732 : BitVec 32), Decidable (k0_chk82 v732) := fun v732 => decidable_of_iff' _ (Iff.of_eq (k0_chk82.eq_1 v732))
theorem k0_off164_inb : ∀ (v732 : BitVec 32) (k0_hw82 : k0_chk82 v732), ∀ a, (k0_off164 v732) a + S1x1024.size a ≤ S32000x1024.size a := fun v732 k0_hw82 => k0_hw82.1
theorem k0_off338_inb : ∀ (v732 : BitVec 32) (k0_hw82 : k0_chk82 v732), ∀ a, (k0_off338 v732) a + S1x1024.size a ≤ S32000x1024.size a := fun v732 k0_hw82 => k0_hw82.2

def k0_off339 (v741 : BitVec 32) : Fin 2 → Nat :=
  let c0_i32_848 : BitVec 32 := 0#32
  ![v741.toNat, 0]

def k0_chk83 (v741 : BitVec 32) : Prop :=
  (∀ a, (k0_off166 v741) a + S1x1024.size a ≤ S32000x1024.size a) ∧
  (∀ a, (k0_off339 v741) a + S1x1024.size a ≤ S32000x1024.size a)
instance k0_chk83.dec : ∀ (v741 : BitVec 32), Decidable (k0_chk83 v741) := fun v741 => decidable_of_iff' _ (Iff.of_eq (k0_chk83.eq_1 v741))
theorem k0_off166_inb : ∀ (v741 : BitVec 32) (k0_hw83 : k0_chk83 v741), ∀ a, (k0_off166 v741) a + S1x1024.size a ≤ S32000x1024.size a := fun v741 k0_hw83 => k0_hw83.1
theorem k0_off339_inb : ∀ (v741 : BitVec 32) (k0_hw83 : k0_chk83 v741), ∀ a, (k0_off339 v741) a + S1x1024.size a ≤ S32000x1024.size a := fun v741 k0_hw83 => k0_hw83.2

def k0_off340 (v750 : BitVec 32) : Fin 2 → Nat :=
  let c0_i32_852 : BitVec 32 := 0#32
  ![v750.toNat, 0]

def k0_chk84 (v750 : BitVec 32) : Prop :=
  (∀ a, (k0_off168 v750) a + S1x1024.size a ≤ S32000x1024.size a) ∧
  (∀ a, (k0_off340 v750) a + S1x1024.size a ≤ S32000x1024.size a)
instance k0_chk84.dec : ∀ (v750 : BitVec 32), Decidable (k0_chk84 v750) := fun v750 => decidable_of_iff' _ (Iff.of_eq (k0_chk84.eq_1 v750))
theorem k0_off168_inb : ∀ (v750 : BitVec 32) (k0_hw84 : k0_chk84 v750), ∀ a, (k0_off168 v750) a + S1x1024.size a ≤ S32000x1024.size a := fun v750 k0_hw84 => k0_hw84.1
theorem k0_off340_inb : ∀ (v750 : BitVec 32) (k0_hw84 : k0_chk84 v750), ∀ a, (k0_off340 v750) a + S1x1024.size a ≤ S32000x1024.size a := fun v750 k0_hw84 => k0_hw84.2

def k0_off341 (v759 : BitVec 32) : Fin 2 → Nat :=
  let c0_i32_856 : BitVec 32 := 0#32
  ![v759.toNat, 0]

def k0_chk85 (v759 : BitVec 32) : Prop :=
  (∀ a, (k0_off170 v759) a + S1x1024.size a ≤ S32000x1024.size a) ∧
  (∀ a, (k0_off341 v759) a + S1x1024.size a ≤ S32000x1024.size a)
instance k0_chk85.dec : ∀ (v759 : BitVec 32), Decidable (k0_chk85 v759) := fun v759 => decidable_of_iff' _ (Iff.of_eq (k0_chk85.eq_1 v759))
theorem k0_off170_inb : ∀ (v759 : BitVec 32) (k0_hw85 : k0_chk85 v759), ∀ a, (k0_off170 v759) a + S1x1024.size a ≤ S32000x1024.size a := fun v759 k0_hw85 => k0_hw85.1
theorem k0_off341_inb : ∀ (v759 : BitVec 32) (k0_hw85 : k0_chk85 v759), ∀ a, (k0_off341 v759) a + S1x1024.size a ≤ S32000x1024.size a := fun v759 k0_hw85 => k0_hw85.2

def k0_off342 (v768 : BitVec 32) : Fin 2 → Nat :=
  let c0_i32_860 : BitVec 32 := 0#32
  ![v768.toNat, 0]

def k0_chk86 (v768 : BitVec 32) : Prop :=
  (∀ a, (k0_off172 v768) a + S1x1024.size a ≤ S32000x1024.size a) ∧
  (∀ a, (k0_off342 v768) a + S1x1024.size a ≤ S32000x1024.size a)
instance k0_chk86.dec : ∀ (v768 : BitVec 32), Decidable (k0_chk86 v768) := fun v768 => decidable_of_iff' _ (Iff.of_eq (k0_chk86.eq_1 v768))
theorem k0_off172_inb : ∀ (v768 : BitVec 32) (k0_hw86 : k0_chk86 v768), ∀ a, (k0_off172 v768) a + S1x1024.size a ≤ S32000x1024.size a := fun v768 k0_hw86 => k0_hw86.1
theorem k0_off342_inb : ∀ (v768 : BitVec 32) (k0_hw86 : k0_chk86 v768), ∀ a, (k0_off342 v768) a + S1x1024.size a ≤ S32000x1024.size a := fun v768 k0_hw86 => k0_hw86.2

def k0_off343 (v777 : BitVec 32) : Fin 2 → Nat :=
  let c0_i32_864 : BitVec 32 := 0#32
  ![v777.toNat, 0]

def k0_chk87 (v777 : BitVec 32) : Prop :=
  (∀ a, (k0_off174 v777) a + S1x1024.size a ≤ S32000x1024.size a) ∧
  (∀ a, (k0_off343 v777) a + S1x1024.size a ≤ S32000x1024.size a)
instance k0_chk87.dec : ∀ (v777 : BitVec 32), Decidable (k0_chk87 v777) := fun v777 => decidable_of_iff' _ (Iff.of_eq (k0_chk87.eq_1 v777))
theorem k0_off174_inb : ∀ (v777 : BitVec 32) (k0_hw87 : k0_chk87 v777), ∀ a, (k0_off174 v777) a + S1x1024.size a ≤ S32000x1024.size a := fun v777 k0_hw87 => k0_hw87.1
theorem k0_off343_inb : ∀ (v777 : BitVec 32) (k0_hw87 : k0_chk87 v777), ∀ a, (k0_off343 v777) a + S1x1024.size a ≤ S32000x1024.size a := fun v777 k0_hw87 => k0_hw87.2

def k0_off344 (v786 : BitVec 32) : Fin 2 → Nat :=
  let c0_i32_868 : BitVec 32 := 0#32
  ![v786.toNat, 0]

def k0_chk88 (v786 : BitVec 32) : Prop :=
  (∀ a, (k0_off176 v786) a + S1x1024.size a ≤ S32000x1024.size a) ∧
  (∀ a, (k0_off344 v786) a + S1x1024.size a ≤ S32000x1024.size a)
instance k0_chk88.dec : ∀ (v786 : BitVec 32), Decidable (k0_chk88 v786) := fun v786 => decidable_of_iff' _ (Iff.of_eq (k0_chk88.eq_1 v786))
theorem k0_off176_inb : ∀ (v786 : BitVec 32) (k0_hw88 : k0_chk88 v786), ∀ a, (k0_off176 v786) a + S1x1024.size a ≤ S32000x1024.size a := fun v786 k0_hw88 => k0_hw88.1
theorem k0_off344_inb : ∀ (v786 : BitVec 32) (k0_hw88 : k0_chk88 v786), ∀ a, (k0_off344 v786) a + S1x1024.size a ≤ S32000x1024.size a := fun v786 k0_hw88 => k0_hw88.2

def k0_off345 (v795 : BitVec 32) : Fin 2 → Nat :=
  let c0_i32_872 : BitVec 32 := 0#32
  ![v795.toNat, 0]

def k0_chk89 (v795 : BitVec 32) : Prop :=
  (∀ a, (k0_off178 v795) a + S1x1024.size a ≤ S32000x1024.size a) ∧
  (∀ a, (k0_off345 v795) a + S1x1024.size a ≤ S32000x1024.size a)
instance k0_chk89.dec : ∀ (v795 : BitVec 32), Decidable (k0_chk89 v795) := fun v795 => decidable_of_iff' _ (Iff.of_eq (k0_chk89.eq_1 v795))
theorem k0_off178_inb : ∀ (v795 : BitVec 32) (k0_hw89 : k0_chk89 v795), ∀ a, (k0_off178 v795) a + S1x1024.size a ≤ S32000x1024.size a := fun v795 k0_hw89 => k0_hw89.1
theorem k0_off345_inb : ∀ (v795 : BitVec 32) (k0_hw89 : k0_chk89 v795), ∀ a, (k0_off345 v795) a + S1x1024.size a ≤ S32000x1024.size a := fun v795 k0_hw89 => k0_hw89.2

def k0_off346 (v804 : BitVec 32) : Fin 2 → Nat :=
  let c0_i32_876 : BitVec 32 := 0#32
  ![v804.toNat, 0]

def k0_chk90 (v804 : BitVec 32) : Prop :=
  (∀ a, (k0_off180 v804) a + S1x1024.size a ≤ S32000x1024.size a) ∧
  (∀ a, (k0_off346 v804) a + S1x1024.size a ≤ S32000x1024.size a)
instance k0_chk90.dec : ∀ (v804 : BitVec 32), Decidable (k0_chk90 v804) := fun v804 => decidable_of_iff' _ (Iff.of_eq (k0_chk90.eq_1 v804))
theorem k0_off180_inb : ∀ (v804 : BitVec 32) (k0_hw90 : k0_chk90 v804), ∀ a, (k0_off180 v804) a + S1x1024.size a ≤ S32000x1024.size a := fun v804 k0_hw90 => k0_hw90.1
theorem k0_off346_inb : ∀ (v804 : BitVec 32) (k0_hw90 : k0_chk90 v804), ∀ a, (k0_off346 v804) a + S1x1024.size a ≤ S32000x1024.size a := fun v804 k0_hw90 => k0_hw90.2

def k0_off347 (v813 : BitVec 32) : Fin 2 → Nat :=
  let c0_i32_880 : BitVec 32 := 0#32
  ![v813.toNat, 0]

def k0_chk91 (v813 : BitVec 32) : Prop :=
  (∀ a, (k0_off182 v813) a + S1x1024.size a ≤ S32000x1024.size a) ∧
  (∀ a, (k0_off347 v813) a + S1x1024.size a ≤ S32000x1024.size a)
instance k0_chk91.dec : ∀ (v813 : BitVec 32), Decidable (k0_chk91 v813) := fun v813 => decidable_of_iff' _ (Iff.of_eq (k0_chk91.eq_1 v813))
theorem k0_off182_inb : ∀ (v813 : BitVec 32) (k0_hw91 : k0_chk91 v813), ∀ a, (k0_off182 v813) a + S1x1024.size a ≤ S32000x1024.size a := fun v813 k0_hw91 => k0_hw91.1
theorem k0_off347_inb : ∀ (v813 : BitVec 32) (k0_hw91 : k0_chk91 v813), ∀ a, (k0_off347 v813) a + S1x1024.size a ≤ S32000x1024.size a := fun v813 k0_hw91 => k0_hw91.2

def k0_off348 (v822 : BitVec 32) : Fin 2 → Nat :=
  let c0_i32_884 : BitVec 32 := 0#32
  ![v822.toNat, 0]

def k0_chk92 (v822 : BitVec 32) : Prop :=
  (∀ a, (k0_off184 v822) a + S1x1024.size a ≤ S32000x1024.size a) ∧
  (∀ a, (k0_off348 v822) a + S1x1024.size a ≤ S32000x1024.size a)
instance k0_chk92.dec : ∀ (v822 : BitVec 32), Decidable (k0_chk92 v822) := fun v822 => decidable_of_iff' _ (Iff.of_eq (k0_chk92.eq_1 v822))
theorem k0_off184_inb : ∀ (v822 : BitVec 32) (k0_hw92 : k0_chk92 v822), ∀ a, (k0_off184 v822) a + S1x1024.size a ≤ S32000x1024.size a := fun v822 k0_hw92 => k0_hw92.1
theorem k0_off348_inb : ∀ (v822 : BitVec 32) (k0_hw92 : k0_chk92 v822), ∀ a, (k0_off348 v822) a + S1x1024.size a ≤ S32000x1024.size a := fun v822 k0_hw92 => k0_hw92.2

def k0_off349 (v831 : BitVec 32) : Fin 2 → Nat :=
  let c0_i32_888 : BitVec 32 := 0#32
  ![v831.toNat, 0]

def k0_chk93 (v831 : BitVec 32) : Prop :=
  (∀ a, (k0_off186 v831) a + S1x1024.size a ≤ S32000x1024.size a) ∧
  (∀ a, (k0_off349 v831) a + S1x1024.size a ≤ S32000x1024.size a)
instance k0_chk93.dec : ∀ (v831 : BitVec 32), Decidable (k0_chk93 v831) := fun v831 => decidable_of_iff' _ (Iff.of_eq (k0_chk93.eq_1 v831))
theorem k0_off186_inb : ∀ (v831 : BitVec 32) (k0_hw93 : k0_chk93 v831), ∀ a, (k0_off186 v831) a + S1x1024.size a ≤ S32000x1024.size a := fun v831 k0_hw93 => k0_hw93.1
theorem k0_off349_inb : ∀ (v831 : BitVec 32) (k0_hw93 : k0_chk93 v831), ∀ a, (k0_off349 v831) a + S1x1024.size a ≤ S32000x1024.size a := fun v831 k0_hw93 => k0_hw93.2

def k0_off350 (v840 : BitVec 32) : Fin 2 → Nat :=
  let c0_i32_892 : BitVec 32 := 0#32
  ![v840.toNat, 0]

def k0_chk94 (v840 : BitVec 32) : Prop :=
  (∀ a, (k0_off188 v840) a + S1x1024.size a ≤ S32000x1024.size a) ∧
  (∀ a, (k0_off350 v840) a + S1x1024.size a ≤ S32000x1024.size a)
instance k0_chk94.dec : ∀ (v840 : BitVec 32), Decidable (k0_chk94 v840) := fun v840 => decidable_of_iff' _ (Iff.of_eq (k0_chk94.eq_1 v840))
theorem k0_off188_inb : ∀ (v840 : BitVec 32) (k0_hw94 : k0_chk94 v840), ∀ a, (k0_off188 v840) a + S1x1024.size a ≤ S32000x1024.size a := fun v840 k0_hw94 => k0_hw94.1
theorem k0_off350_inb : ∀ (v840 : BitVec 32) (k0_hw94 : k0_chk94 v840), ∀ a, (k0_off350 v840) a + S1x1024.size a ≤ S32000x1024.size a := fun v840 k0_hw94 => k0_hw94.2

def k0_off351 (v849 : BitVec 32) : Fin 2 → Nat :=
  let c0_i32_896 : BitVec 32 := 0#32
  ![v849.toNat, 0]

def k0_chk95 (v849 : BitVec 32) : Prop :=
  (∀ a, (k0_off190 v849) a + S1x1024.size a ≤ S32000x1024.size a) ∧
  (∀ a, (k0_off351 v849) a + S1x1024.size a ≤ S32000x1024.size a)
instance k0_chk95.dec : ∀ (v849 : BitVec 32), Decidable (k0_chk95 v849) := fun v849 => decidable_of_iff' _ (Iff.of_eq (k0_chk95.eq_1 v849))
theorem k0_off190_inb : ∀ (v849 : BitVec 32) (k0_hw95 : k0_chk95 v849), ∀ a, (k0_off190 v849) a + S1x1024.size a ≤ S32000x1024.size a := fun v849 k0_hw95 => k0_hw95.1
theorem k0_off351_inb : ∀ (v849 : BitVec 32) (k0_hw95 : k0_chk95 v849), ∀ a, (k0_off351 v849) a + S1x1024.size a ≤ S32000x1024.size a := fun v849 k0_hw95 => k0_hw95.2

def k0_off352 (v858 : BitVec 32) : Fin 2 → Nat :=
  let c0_i32_900 : BitVec 32 := 0#32
  ![v858.toNat, 0]

def k0_chk96 (v858 : BitVec 32) : Prop :=
  (∀ a, (k0_off192 v858) a + S1x1024.size a ≤ S32000x1024.size a) ∧
  (∀ a, (k0_off352 v858) a + S1x1024.size a ≤ S32000x1024.size a)
instance k0_chk96.dec : ∀ (v858 : BitVec 32), Decidable (k0_chk96 v858) := fun v858 => decidable_of_iff' _ (Iff.of_eq (k0_chk96.eq_1 v858))
theorem k0_off192_inb : ∀ (v858 : BitVec 32) (k0_hw96 : k0_chk96 v858), ∀ a, (k0_off192 v858) a + S1x1024.size a ≤ S32000x1024.size a := fun v858 k0_hw96 => k0_hw96.1
theorem k0_off352_inb : ∀ (v858 : BitVec 32) (k0_hw96 : k0_chk96 v858), ∀ a, (k0_off352 v858) a + S1x1024.size a ≤ S32000x1024.size a := fun v858 k0_hw96 => k0_hw96.2

def k0_off353 (v867 : BitVec 32) : Fin 2 → Nat :=
  let c0_i32_904 : BitVec 32 := 0#32
  ![v867.toNat, 0]

def k0_chk97 (v867 : BitVec 32) : Prop :=
  (∀ a, (k0_off194 v867) a + S1x1024.size a ≤ S32000x1024.size a) ∧
  (∀ a, (k0_off353 v867) a + S1x1024.size a ≤ S32000x1024.size a)
instance k0_chk97.dec : ∀ (v867 : BitVec 32), Decidable (k0_chk97 v867) := fun v867 => decidable_of_iff' _ (Iff.of_eq (k0_chk97.eq_1 v867))
theorem k0_off194_inb : ∀ (v867 : BitVec 32) (k0_hw97 : k0_chk97 v867), ∀ a, (k0_off194 v867) a + S1x1024.size a ≤ S32000x1024.size a := fun v867 k0_hw97 => k0_hw97.1
theorem k0_off353_inb : ∀ (v867 : BitVec 32) (k0_hw97 : k0_chk97 v867), ∀ a, (k0_off353 v867) a + S1x1024.size a ≤ S32000x1024.size a := fun v867 k0_hw97 => k0_hw97.2

def k0_off354 (v876 : BitVec 32) : Fin 2 → Nat :=
  let c0_i32_908 : BitVec 32 := 0#32
  ![v876.toNat, 0]

def k0_chk98 (v876 : BitVec 32) : Prop :=
  (∀ a, (k0_off196 v876) a + S1x1024.size a ≤ S32000x1024.size a) ∧
  (∀ a, (k0_off354 v876) a + S1x1024.size a ≤ S32000x1024.size a)
instance k0_chk98.dec : ∀ (v876 : BitVec 32), Decidable (k0_chk98 v876) := fun v876 => decidable_of_iff' _ (Iff.of_eq (k0_chk98.eq_1 v876))
theorem k0_off196_inb : ∀ (v876 : BitVec 32) (k0_hw98 : k0_chk98 v876), ∀ a, (k0_off196 v876) a + S1x1024.size a ≤ S32000x1024.size a := fun v876 k0_hw98 => k0_hw98.1
theorem k0_off354_inb : ∀ (v876 : BitVec 32) (k0_hw98 : k0_chk98 v876), ∀ a, (k0_off354 v876) a + S1x1024.size a ≤ S32000x1024.size a := fun v876 k0_hw98 => k0_hw98.2

def k0_off355 (v885 : BitVec 32) : Fin 2 → Nat :=
  let c0_i32_912 : BitVec 32 := 0#32
  ![v885.toNat, 0]

def k0_chk99 (v885 : BitVec 32) : Prop :=
  (∀ a, (k0_off198 v885) a + S1x1024.size a ≤ S32000x1024.size a) ∧
  (∀ a, (k0_off355 v885) a + S1x1024.size a ≤ S32000x1024.size a)
instance k0_chk99.dec : ∀ (v885 : BitVec 32), Decidable (k0_chk99 v885) := fun v885 => decidable_of_iff' _ (Iff.of_eq (k0_chk99.eq_1 v885))
theorem k0_off198_inb : ∀ (v885 : BitVec 32) (k0_hw99 : k0_chk99 v885), ∀ a, (k0_off198 v885) a + S1x1024.size a ≤ S32000x1024.size a := fun v885 k0_hw99 => k0_hw99.1
theorem k0_off355_inb : ∀ (v885 : BitVec 32) (k0_hw99 : k0_chk99 v885), ∀ a, (k0_off355 v885) a + S1x1024.size a ≤ S32000x1024.size a := fun v885 k0_hw99 => k0_hw99.2

def k0_off356 (v894 : BitVec 32) : Fin 2 → Nat :=
  let c0_i32_916 : BitVec 32 := 0#32
  ![v894.toNat, 0]

def k0_chk100 (v894 : BitVec 32) : Prop :=
  (∀ a, (k0_off200 v894) a + S1x1024.size a ≤ S32000x1024.size a) ∧
  (∀ a, (k0_off356 v894) a + S1x1024.size a ≤ S32000x1024.size a)
instance k0_chk100.dec : ∀ (v894 : BitVec 32), Decidable (k0_chk100 v894) := fun v894 => decidable_of_iff' _ (Iff.of_eq (k0_chk100.eq_1 v894))
theorem k0_off200_inb : ∀ (v894 : BitVec 32) (k0_hw100 : k0_chk100 v894), ∀ a, (k0_off200 v894) a + S1x1024.size a ≤ S32000x1024.size a := fun v894 k0_hw100 => k0_hw100.1
theorem k0_off356_inb : ∀ (v894 : BitVec 32) (k0_hw100 : k0_chk100 v894), ∀ a, (k0_off356 v894) a + S1x1024.size a ≤ S32000x1024.size a := fun v894 k0_hw100 => k0_hw100.2

def k0_off357 (v903 : BitVec 32) : Fin 2 → Nat :=
  let c0_i32_920 : BitVec 32 := 0#32
  ![v903.toNat, 0]

def k0_chk101 (v903 : BitVec 32) : Prop :=
  (∀ a, (k0_off202 v903) a + S1x1024.size a ≤ S32000x1024.size a) ∧
  (∀ a, (k0_off357 v903) a + S1x1024.size a ≤ S32000x1024.size a)
instance k0_chk101.dec : ∀ (v903 : BitVec 32), Decidable (k0_chk101 v903) := fun v903 => decidable_of_iff' _ (Iff.of_eq (k0_chk101.eq_1 v903))
theorem k0_off202_inb : ∀ (v903 : BitVec 32) (k0_hw101 : k0_chk101 v903), ∀ a, (k0_off202 v903) a + S1x1024.size a ≤ S32000x1024.size a := fun v903 k0_hw101 => k0_hw101.1
theorem k0_off357_inb : ∀ (v903 : BitVec 32) (k0_hw101 : k0_chk101 v903), ∀ a, (k0_off357 v903) a + S1x1024.size a ≤ S32000x1024.size a := fun v903 k0_hw101 => k0_hw101.2

def k0_off358 (v912 : BitVec 32) : Fin 2 → Nat :=
  let c0_i32_924 : BitVec 32 := 0#32
  ![v912.toNat, 0]

def k0_chk102 (v912 : BitVec 32) : Prop :=
  (∀ a, (k0_off204 v912) a + S1x1024.size a ≤ S32000x1024.size a) ∧
  (∀ a, (k0_off358 v912) a + S1x1024.size a ≤ S32000x1024.size a)
instance k0_chk102.dec : ∀ (v912 : BitVec 32), Decidable (k0_chk102 v912) := fun v912 => decidable_of_iff' _ (Iff.of_eq (k0_chk102.eq_1 v912))
theorem k0_off204_inb : ∀ (v912 : BitVec 32) (k0_hw102 : k0_chk102 v912), ∀ a, (k0_off204 v912) a + S1x1024.size a ≤ S32000x1024.size a := fun v912 k0_hw102 => k0_hw102.1
theorem k0_off358_inb : ∀ (v912 : BitVec 32) (k0_hw102 : k0_chk102 v912), ∀ a, (k0_off358 v912) a + S1x1024.size a ≤ S32000x1024.size a := fun v912 k0_hw102 => k0_hw102.2

def k0_off359 (v921 : BitVec 32) : Fin 2 → Nat :=
  let c0_i32_928 : BitVec 32 := 0#32
  ![v921.toNat, 0]

def k0_chk103 (v921 : BitVec 32) : Prop :=
  (∀ a, (k0_off206 v921) a + S1x1024.size a ≤ S32000x1024.size a) ∧
  (∀ a, (k0_off359 v921) a + S1x1024.size a ≤ S32000x1024.size a)
instance k0_chk103.dec : ∀ (v921 : BitVec 32), Decidable (k0_chk103 v921) := fun v921 => decidable_of_iff' _ (Iff.of_eq (k0_chk103.eq_1 v921))
theorem k0_off206_inb : ∀ (v921 : BitVec 32) (k0_hw103 : k0_chk103 v921), ∀ a, (k0_off206 v921) a + S1x1024.size a ≤ S32000x1024.size a := fun v921 k0_hw103 => k0_hw103.1
theorem k0_off359_inb : ∀ (v921 : BitVec 32) (k0_hw103 : k0_chk103 v921), ∀ a, (k0_off359 v921) a + S1x1024.size a ≤ S32000x1024.size a := fun v921 k0_hw103 => k0_hw103.2

def k0_off360 (v930 : BitVec 32) : Fin 2 → Nat :=
  let c0_i32_932 : BitVec 32 := 0#32
  ![v930.toNat, 0]

def k0_chk104 (v930 : BitVec 32) : Prop :=
  (∀ a, (k0_off208 v930) a + S1x1024.size a ≤ S32000x1024.size a) ∧
  (∀ a, (k0_off360 v930) a + S1x1024.size a ≤ S32000x1024.size a)
instance k0_chk104.dec : ∀ (v930 : BitVec 32), Decidable (k0_chk104 v930) := fun v930 => decidable_of_iff' _ (Iff.of_eq (k0_chk104.eq_1 v930))
theorem k0_off208_inb : ∀ (v930 : BitVec 32) (k0_hw104 : k0_chk104 v930), ∀ a, (k0_off208 v930) a + S1x1024.size a ≤ S32000x1024.size a := fun v930 k0_hw104 => k0_hw104.1
theorem k0_off360_inb : ∀ (v930 : BitVec 32) (k0_hw104 : k0_chk104 v930), ∀ a, (k0_off360 v930) a + S1x1024.size a ≤ S32000x1024.size a := fun v930 k0_hw104 => k0_hw104.2

def k0_off361 (v939 : BitVec 32) : Fin 2 → Nat :=
  let c0_i32_936 : BitVec 32 := 0#32
  ![v939.toNat, 0]

def k0_chk105 (v939 : BitVec 32) : Prop :=
  (∀ a, (k0_off210 v939) a + S1x1024.size a ≤ S32000x1024.size a) ∧
  (∀ a, (k0_off361 v939) a + S1x1024.size a ≤ S32000x1024.size a)
instance k0_chk105.dec : ∀ (v939 : BitVec 32), Decidable (k0_chk105 v939) := fun v939 => decidable_of_iff' _ (Iff.of_eq (k0_chk105.eq_1 v939))
theorem k0_off210_inb : ∀ (v939 : BitVec 32) (k0_hw105 : k0_chk105 v939), ∀ a, (k0_off210 v939) a + S1x1024.size a ≤ S32000x1024.size a := fun v939 k0_hw105 => k0_hw105.1
theorem k0_off361_inb : ∀ (v939 : BitVec 32) (k0_hw105 : k0_chk105 v939), ∀ a, (k0_off361 v939) a + S1x1024.size a ≤ S32000x1024.size a := fun v939 k0_hw105 => k0_hw105.2

def k0_off362 (v948 : BitVec 32) : Fin 2 → Nat :=
  let c0_i32_940 : BitVec 32 := 0#32
  ![v948.toNat, 0]

def k0_chk106 (v948 : BitVec 32) : Prop :=
  (∀ a, (k0_off212 v948) a + S1x1024.size a ≤ S32000x1024.size a) ∧
  (∀ a, (k0_off362 v948) a + S1x1024.size a ≤ S32000x1024.size a)
instance k0_chk106.dec : ∀ (v948 : BitVec 32), Decidable (k0_chk106 v948) := fun v948 => decidable_of_iff' _ (Iff.of_eq (k0_chk106.eq_1 v948))
theorem k0_off212_inb : ∀ (v948 : BitVec 32) (k0_hw106 : k0_chk106 v948), ∀ a, (k0_off212 v948) a + S1x1024.size a ≤ S32000x1024.size a := fun v948 k0_hw106 => k0_hw106.1
theorem k0_off362_inb : ∀ (v948 : BitVec 32) (k0_hw106 : k0_chk106 v948), ∀ a, (k0_off362 v948) a + S1x1024.size a ≤ S32000x1024.size a := fun v948 k0_hw106 => k0_hw106.2

def k0_off363 (v957 : BitVec 32) : Fin 2 → Nat :=
  let c0_i32_944 : BitVec 32 := 0#32
  ![v957.toNat, 0]

def k0_chk107 (v957 : BitVec 32) : Prop :=
  (∀ a, (k0_off214 v957) a + S1x1024.size a ≤ S32000x1024.size a) ∧
  (∀ a, (k0_off363 v957) a + S1x1024.size a ≤ S32000x1024.size a)
instance k0_chk107.dec : ∀ (v957 : BitVec 32), Decidable (k0_chk107 v957) := fun v957 => decidable_of_iff' _ (Iff.of_eq (k0_chk107.eq_1 v957))
theorem k0_off214_inb : ∀ (v957 : BitVec 32) (k0_hw107 : k0_chk107 v957), ∀ a, (k0_off214 v957) a + S1x1024.size a ≤ S32000x1024.size a := fun v957 k0_hw107 => k0_hw107.1
theorem k0_off363_inb : ∀ (v957 : BitVec 32) (k0_hw107 : k0_chk107 v957), ∀ a, (k0_off363 v957) a + S1x1024.size a ≤ S32000x1024.size a := fun v957 k0_hw107 => k0_hw107.2

def k0_off364 (v966 : BitVec 32) : Fin 2 → Nat :=
  let c0_i32_948 : BitVec 32 := 0#32
  ![v966.toNat, 0]

def k0_chk108 (v966 : BitVec 32) : Prop :=
  (∀ a, (k0_off216 v966) a + S1x1024.size a ≤ S32000x1024.size a) ∧
  (∀ a, (k0_off364 v966) a + S1x1024.size a ≤ S32000x1024.size a)
instance k0_chk108.dec : ∀ (v966 : BitVec 32), Decidable (k0_chk108 v966) := fun v966 => decidable_of_iff' _ (Iff.of_eq (k0_chk108.eq_1 v966))
theorem k0_off216_inb : ∀ (v966 : BitVec 32) (k0_hw108 : k0_chk108 v966), ∀ a, (k0_off216 v966) a + S1x1024.size a ≤ S32000x1024.size a := fun v966 k0_hw108 => k0_hw108.1
theorem k0_off364_inb : ∀ (v966 : BitVec 32) (k0_hw108 : k0_chk108 v966), ∀ a, (k0_off364 v966) a + S1x1024.size a ≤ S32000x1024.size a := fun v966 k0_hw108 => k0_hw108.2

def k0_off365 (v975 : BitVec 32) : Fin 2 → Nat :=
  let c0_i32_952 : BitVec 32 := 0#32
  ![v975.toNat, 0]

def k0_chk109 (v975 : BitVec 32) : Prop :=
  (∀ a, (k0_off218 v975) a + S1x1024.size a ≤ S32000x1024.size a) ∧
  (∀ a, (k0_off365 v975) a + S1x1024.size a ≤ S32000x1024.size a)
instance k0_chk109.dec : ∀ (v975 : BitVec 32), Decidable (k0_chk109 v975) := fun v975 => decidable_of_iff' _ (Iff.of_eq (k0_chk109.eq_1 v975))
theorem k0_off218_inb : ∀ (v975 : BitVec 32) (k0_hw109 : k0_chk109 v975), ∀ a, (k0_off218 v975) a + S1x1024.size a ≤ S32000x1024.size a := fun v975 k0_hw109 => k0_hw109.1
theorem k0_off365_inb : ∀ (v975 : BitVec 32) (k0_hw109 : k0_chk109 v975), ∀ a, (k0_off365 v975) a + S1x1024.size a ≤ S32000x1024.size a := fun v975 k0_hw109 => k0_hw109.2

def k0_off366 (v984 : BitVec 32) : Fin 2 → Nat :=
  let c0_i32_956 : BitVec 32 := 0#32
  ![v984.toNat, 0]

def k0_chk110 (v984 : BitVec 32) : Prop :=
  (∀ a, (k0_off220 v984) a + S1x1024.size a ≤ S32000x1024.size a) ∧
  (∀ a, (k0_off366 v984) a + S1x1024.size a ≤ S32000x1024.size a)
instance k0_chk110.dec : ∀ (v984 : BitVec 32), Decidable (k0_chk110 v984) := fun v984 => decidable_of_iff' _ (Iff.of_eq (k0_chk110.eq_1 v984))
theorem k0_off220_inb : ∀ (v984 : BitVec 32) (k0_hw110 : k0_chk110 v984), ∀ a, (k0_off220 v984) a + S1x1024.size a ≤ S32000x1024.size a := fun v984 k0_hw110 => k0_hw110.1
theorem k0_off366_inb : ∀ (v984 : BitVec 32) (k0_hw110 : k0_chk110 v984), ∀ a, (k0_off366 v984) a + S1x1024.size a ≤ S32000x1024.size a := fun v984 k0_hw110 => k0_hw110.2

def k0_off367 (v993 : BitVec 32) : Fin 2 → Nat :=
  let c0_i32_960 : BitVec 32 := 0#32
  ![v993.toNat, 0]

def k0_chk111 (v993 : BitVec 32) : Prop :=
  (∀ a, (k0_off222 v993) a + S1x1024.size a ≤ S32000x1024.size a) ∧
  (∀ a, (k0_off367 v993) a + S1x1024.size a ≤ S32000x1024.size a)
instance k0_chk111.dec : ∀ (v993 : BitVec 32), Decidable (k0_chk111 v993) := fun v993 => decidable_of_iff' _ (Iff.of_eq (k0_chk111.eq_1 v993))
theorem k0_off222_inb : ∀ (v993 : BitVec 32) (k0_hw111 : k0_chk111 v993), ∀ a, (k0_off222 v993) a + S1x1024.size a ≤ S32000x1024.size a := fun v993 k0_hw111 => k0_hw111.1
theorem k0_off367_inb : ∀ (v993 : BitVec 32) (k0_hw111 : k0_chk111 v993), ∀ a, (k0_off367 v993) a + S1x1024.size a ≤ S32000x1024.size a := fun v993 k0_hw111 => k0_hw111.2

def k0_off368 (v1002 : BitVec 32) : Fin 2 → Nat :=
  let c0_i32_964 : BitVec 32 := 0#32
  ![v1002.toNat, 0]

def k0_chk112 (v1002 : BitVec 32) : Prop :=
  (∀ a, (k0_off224 v1002) a + S1x1024.size a ≤ S32000x1024.size a) ∧
  (∀ a, (k0_off368 v1002) a + S1x1024.size a ≤ S32000x1024.size a)
instance k0_chk112.dec : ∀ (v1002 : BitVec 32), Decidable (k0_chk112 v1002) := fun v1002 => decidable_of_iff' _ (Iff.of_eq (k0_chk112.eq_1 v1002))
theorem k0_off224_inb : ∀ (v1002 : BitVec 32) (k0_hw112 : k0_chk112 v1002), ∀ a, (k0_off224 v1002) a + S1x1024.size a ≤ S32000x1024.size a := fun v1002 k0_hw112 => k0_hw112.1
theorem k0_off368_inb : ∀ (v1002 : BitVec 32) (k0_hw112 : k0_chk112 v1002), ∀ a, (k0_off368 v1002) a + S1x1024.size a ≤ S32000x1024.size a := fun v1002 k0_hw112 => k0_hw112.2

def k0_off369 (v1011 : BitVec 32) : Fin 2 → Nat :=
  let c0_i32_968 : BitVec 32 := 0#32
  ![v1011.toNat, 0]

def k0_chk113 (v1011 : BitVec 32) : Prop :=
  (∀ a, (k0_off226 v1011) a + S1x1024.size a ≤ S32000x1024.size a) ∧
  (∀ a, (k0_off369 v1011) a + S1x1024.size a ≤ S32000x1024.size a)
instance k0_chk113.dec : ∀ (v1011 : BitVec 32), Decidable (k0_chk113 v1011) := fun v1011 => decidable_of_iff' _ (Iff.of_eq (k0_chk113.eq_1 v1011))
theorem k0_off226_inb : ∀ (v1011 : BitVec 32) (k0_hw113 : k0_chk113 v1011), ∀ a, (k0_off226 v1011) a + S1x1024.size a ≤ S32000x1024.size a := fun v1011 k0_hw113 => k0_hw113.1
theorem k0_off369_inb : ∀ (v1011 : BitVec 32) (k0_hw113 : k0_chk113 v1011), ∀ a, (k0_off369 v1011) a + S1x1024.size a ≤ S32000x1024.size a := fun v1011 k0_hw113 => k0_hw113.2

def k0_off370 (v1020 : BitVec 32) : Fin 2 → Nat :=
  let c0_i32_972 : BitVec 32 := 0#32
  ![v1020.toNat, 0]

def k0_chk114 (v1020 : BitVec 32) : Prop :=
  (∀ a, (k0_off228 v1020) a + S1x1024.size a ≤ S32000x1024.size a) ∧
  (∀ a, (k0_off370 v1020) a + S1x1024.size a ≤ S32000x1024.size a)
instance k0_chk114.dec : ∀ (v1020 : BitVec 32), Decidable (k0_chk114 v1020) := fun v1020 => decidable_of_iff' _ (Iff.of_eq (k0_chk114.eq_1 v1020))
theorem k0_off228_inb : ∀ (v1020 : BitVec 32) (k0_hw114 : k0_chk114 v1020), ∀ a, (k0_off228 v1020) a + S1x1024.size a ≤ S32000x1024.size a := fun v1020 k0_hw114 => k0_hw114.1
theorem k0_off370_inb : ∀ (v1020 : BitVec 32) (k0_hw114 : k0_chk114 v1020), ∀ a, (k0_off370 v1020) a + S1x1024.size a ≤ S32000x1024.size a := fun v1020 k0_hw114 => k0_hw114.2

def k0_off371 (v1029 : BitVec 32) : Fin 2 → Nat :=
  let c0_i32_976 : BitVec 32 := 0#32
  ![v1029.toNat, 0]

def k0_chk115 (v1029 : BitVec 32) : Prop :=
  (∀ a, (k0_off230 v1029) a + S1x1024.size a ≤ S32000x1024.size a) ∧
  (∀ a, (k0_off371 v1029) a + S1x1024.size a ≤ S32000x1024.size a)
instance k0_chk115.dec : ∀ (v1029 : BitVec 32), Decidable (k0_chk115 v1029) := fun v1029 => decidable_of_iff' _ (Iff.of_eq (k0_chk115.eq_1 v1029))
theorem k0_off230_inb : ∀ (v1029 : BitVec 32) (k0_hw115 : k0_chk115 v1029), ∀ a, (k0_off230 v1029) a + S1x1024.size a ≤ S32000x1024.size a := fun v1029 k0_hw115 => k0_hw115.1
theorem k0_off371_inb : ∀ (v1029 : BitVec 32) (k0_hw115 : k0_chk115 v1029), ∀ a, (k0_off371 v1029) a + S1x1024.size a ≤ S32000x1024.size a := fun v1029 k0_hw115 => k0_hw115.2

def k0_off372 (v1038 : BitVec 32) : Fin 2 → Nat :=
  let c0_i32_980 : BitVec 32 := 0#32
  ![v1038.toNat, 0]

def k0_chk116 (v1038 : BitVec 32) : Prop :=
  (∀ a, (k0_off232 v1038) a + S1x1024.size a ≤ S32000x1024.size a) ∧
  (∀ a, (k0_off372 v1038) a + S1x1024.size a ≤ S32000x1024.size a)
instance k0_chk116.dec : ∀ (v1038 : BitVec 32), Decidable (k0_chk116 v1038) := fun v1038 => decidable_of_iff' _ (Iff.of_eq (k0_chk116.eq_1 v1038))
theorem k0_off232_inb : ∀ (v1038 : BitVec 32) (k0_hw116 : k0_chk116 v1038), ∀ a, (k0_off232 v1038) a + S1x1024.size a ≤ S32000x1024.size a := fun v1038 k0_hw116 => k0_hw116.1
theorem k0_off372_inb : ∀ (v1038 : BitVec 32) (k0_hw116 : k0_chk116 v1038), ∀ a, (k0_off372 v1038) a + S1x1024.size a ≤ S32000x1024.size a := fun v1038 k0_hw116 => k0_hw116.2

def k0_off373 (v1047 : BitVec 32) : Fin 2 → Nat :=
  let c0_i32_984 : BitVec 32 := 0#32
  ![v1047.toNat, 0]

def k0_chk117 (v1047 : BitVec 32) : Prop :=
  (∀ a, (k0_off234 v1047) a + S1x1024.size a ≤ S32000x1024.size a) ∧
  (∀ a, (k0_off373 v1047) a + S1x1024.size a ≤ S32000x1024.size a)
instance k0_chk117.dec : ∀ (v1047 : BitVec 32), Decidable (k0_chk117 v1047) := fun v1047 => decidable_of_iff' _ (Iff.of_eq (k0_chk117.eq_1 v1047))
theorem k0_off234_inb : ∀ (v1047 : BitVec 32) (k0_hw117 : k0_chk117 v1047), ∀ a, (k0_off234 v1047) a + S1x1024.size a ≤ S32000x1024.size a := fun v1047 k0_hw117 => k0_hw117.1
theorem k0_off373_inb : ∀ (v1047 : BitVec 32) (k0_hw117 : k0_chk117 v1047), ∀ a, (k0_off373 v1047) a + S1x1024.size a ≤ S32000x1024.size a := fun v1047 k0_hw117 => k0_hw117.2

def k0_off374 (v1056 : BitVec 32) : Fin 2 → Nat :=
  let c0_i32_988 : BitVec 32 := 0#32
  ![v1056.toNat, 0]

def k0_chk118 (v1056 : BitVec 32) : Prop :=
  (∀ a, (k0_off236 v1056) a + S1x1024.size a ≤ S32000x1024.size a) ∧
  (∀ a, (k0_off374 v1056) a + S1x1024.size a ≤ S32000x1024.size a)
instance k0_chk118.dec : ∀ (v1056 : BitVec 32), Decidable (k0_chk118 v1056) := fun v1056 => decidable_of_iff' _ (Iff.of_eq (k0_chk118.eq_1 v1056))
theorem k0_off236_inb : ∀ (v1056 : BitVec 32) (k0_hw118 : k0_chk118 v1056), ∀ a, (k0_off236 v1056) a + S1x1024.size a ≤ S32000x1024.size a := fun v1056 k0_hw118 => k0_hw118.1
theorem k0_off374_inb : ∀ (v1056 : BitVec 32) (k0_hw118 : k0_chk118 v1056), ∀ a, (k0_off374 v1056) a + S1x1024.size a ≤ S32000x1024.size a := fun v1056 k0_hw118 => k0_hw118.2

def k0_off375 (v1065 : BitVec 32) : Fin 2 → Nat :=
  let c0_i32_992 : BitVec 32 := 0#32
  ![v1065.toNat, 0]

def k0_chk119 (v1065 : BitVec 32) : Prop :=
  (∀ a, (k0_off238 v1065) a + S1x1024.size a ≤ S32000x1024.size a) ∧
  (∀ a, (k0_off375 v1065) a + S1x1024.size a ≤ S32000x1024.size a)
instance k0_chk119.dec : ∀ (v1065 : BitVec 32), Decidable (k0_chk119 v1065) := fun v1065 => decidable_of_iff' _ (Iff.of_eq (k0_chk119.eq_1 v1065))
theorem k0_off238_inb : ∀ (v1065 : BitVec 32) (k0_hw119 : k0_chk119 v1065), ∀ a, (k0_off238 v1065) a + S1x1024.size a ≤ S32000x1024.size a := fun v1065 k0_hw119 => k0_hw119.1
theorem k0_off375_inb : ∀ (v1065 : BitVec 32) (k0_hw119 : k0_chk119 v1065), ∀ a, (k0_off375 v1065) a + S1x1024.size a ≤ S32000x1024.size a := fun v1065 k0_hw119 => k0_hw119.2

def k0_off376 (v1074 : BitVec 32) : Fin 2 → Nat :=
  let c0_i32_996 : BitVec 32 := 0#32
  ![v1074.toNat, 0]

def k0_chk120 (v1074 : BitVec 32) : Prop :=
  (∀ a, (k0_off240 v1074) a + S1x1024.size a ≤ S32000x1024.size a) ∧
  (∀ a, (k0_off376 v1074) a + S1x1024.size a ≤ S32000x1024.size a)
instance k0_chk120.dec : ∀ (v1074 : BitVec 32), Decidable (k0_chk120 v1074) := fun v1074 => decidable_of_iff' _ (Iff.of_eq (k0_chk120.eq_1 v1074))
theorem k0_off240_inb : ∀ (v1074 : BitVec 32) (k0_hw120 : k0_chk120 v1074), ∀ a, (k0_off240 v1074) a + S1x1024.size a ≤ S32000x1024.size a := fun v1074 k0_hw120 => k0_hw120.1
theorem k0_off376_inb : ∀ (v1074 : BitVec 32) (k0_hw120 : k0_chk120 v1074), ∀ a, (k0_off376 v1074) a + S1x1024.size a ≤ S32000x1024.size a := fun v1074 k0_hw120 => k0_hw120.2

def k0_off377 (v1083 : BitVec 32) : Fin 2 → Nat :=
  let c0_i32_1000 : BitVec 32 := 0#32
  ![v1083.toNat, 0]

def k0_chk121 (v1083 : BitVec 32) : Prop :=
  (∀ a, (k0_off242 v1083) a + S1x1024.size a ≤ S32000x1024.size a) ∧
  (∀ a, (k0_off377 v1083) a + S1x1024.size a ≤ S32000x1024.size a)
instance k0_chk121.dec : ∀ (v1083 : BitVec 32), Decidable (k0_chk121 v1083) := fun v1083 => decidable_of_iff' _ (Iff.of_eq (k0_chk121.eq_1 v1083))
theorem k0_off242_inb : ∀ (v1083 : BitVec 32) (k0_hw121 : k0_chk121 v1083), ∀ a, (k0_off242 v1083) a + S1x1024.size a ≤ S32000x1024.size a := fun v1083 k0_hw121 => k0_hw121.1
theorem k0_off377_inb : ∀ (v1083 : BitVec 32) (k0_hw121 : k0_chk121 v1083), ∀ a, (k0_off377 v1083) a + S1x1024.size a ≤ S32000x1024.size a := fun v1083 k0_hw121 => k0_hw121.2

def k0_off378 (v1092 : BitVec 32) : Fin 2 → Nat :=
  let c0_i32_1004 : BitVec 32 := 0#32
  ![v1092.toNat, 0]

def k0_chk122 (v1092 : BitVec 32) : Prop :=
  (∀ a, (k0_off244 v1092) a + S1x1024.size a ≤ S32000x1024.size a) ∧
  (∀ a, (k0_off378 v1092) a + S1x1024.size a ≤ S32000x1024.size a)
instance k0_chk122.dec : ∀ (v1092 : BitVec 32), Decidable (k0_chk122 v1092) := fun v1092 => decidable_of_iff' _ (Iff.of_eq (k0_chk122.eq_1 v1092))
theorem k0_off244_inb : ∀ (v1092 : BitVec 32) (k0_hw122 : k0_chk122 v1092), ∀ a, (k0_off244 v1092) a + S1x1024.size a ≤ S32000x1024.size a := fun v1092 k0_hw122 => k0_hw122.1
theorem k0_off378_inb : ∀ (v1092 : BitVec 32) (k0_hw122 : k0_chk122 v1092), ∀ a, (k0_off378 v1092) a + S1x1024.size a ≤ S32000x1024.size a := fun v1092 k0_hw122 => k0_hw122.2

def k0_off379 (v1101 : BitVec 32) : Fin 2 → Nat :=
  let c0_i32_1008 : BitVec 32 := 0#32
  ![v1101.toNat, 0]

def k0_chk123 (v1101 : BitVec 32) : Prop :=
  (∀ a, (k0_off246 v1101) a + S1x1024.size a ≤ S32000x1024.size a) ∧
  (∀ a, (k0_off379 v1101) a + S1x1024.size a ≤ S32000x1024.size a)
instance k0_chk123.dec : ∀ (v1101 : BitVec 32), Decidable (k0_chk123 v1101) := fun v1101 => decidable_of_iff' _ (Iff.of_eq (k0_chk123.eq_1 v1101))
theorem k0_off246_inb : ∀ (v1101 : BitVec 32) (k0_hw123 : k0_chk123 v1101), ∀ a, (k0_off246 v1101) a + S1x1024.size a ≤ S32000x1024.size a := fun v1101 k0_hw123 => k0_hw123.1
theorem k0_off379_inb : ∀ (v1101 : BitVec 32) (k0_hw123 : k0_chk123 v1101), ∀ a, (k0_off379 v1101) a + S1x1024.size a ≤ S32000x1024.size a := fun v1101 k0_hw123 => k0_hw123.2

def k0_off380 (v1110 : BitVec 32) : Fin 2 → Nat :=
  let c0_i32_1012 : BitVec 32 := 0#32
  ![v1110.toNat, 0]

def k0_chk124 (v1110 : BitVec 32) : Prop :=
  (∀ a, (k0_off248 v1110) a + S1x1024.size a ≤ S32000x1024.size a) ∧
  (∀ a, (k0_off380 v1110) a + S1x1024.size a ≤ S32000x1024.size a)
instance k0_chk124.dec : ∀ (v1110 : BitVec 32), Decidable (k0_chk124 v1110) := fun v1110 => decidable_of_iff' _ (Iff.of_eq (k0_chk124.eq_1 v1110))
theorem k0_off248_inb : ∀ (v1110 : BitVec 32) (k0_hw124 : k0_chk124 v1110), ∀ a, (k0_off248 v1110) a + S1x1024.size a ≤ S32000x1024.size a := fun v1110 k0_hw124 => k0_hw124.1
theorem k0_off380_inb : ∀ (v1110 : BitVec 32) (k0_hw124 : k0_chk124 v1110), ∀ a, (k0_off380 v1110) a + S1x1024.size a ≤ S32000x1024.size a := fun v1110 k0_hw124 => k0_hw124.2

def k0_off381 (v1119 : BitVec 32) : Fin 2 → Nat :=
  let c0_i32_1016 : BitVec 32 := 0#32
  ![v1119.toNat, 0]

def k0_chk125 (v1119 : BitVec 32) : Prop :=
  (∀ a, (k0_off250 v1119) a + S1x1024.size a ≤ S32000x1024.size a) ∧
  (∀ a, (k0_off381 v1119) a + S1x1024.size a ≤ S32000x1024.size a)
instance k0_chk125.dec : ∀ (v1119 : BitVec 32), Decidable (k0_chk125 v1119) := fun v1119 => decidable_of_iff' _ (Iff.of_eq (k0_chk125.eq_1 v1119))
theorem k0_off250_inb : ∀ (v1119 : BitVec 32) (k0_hw125 : k0_chk125 v1119), ∀ a, (k0_off250 v1119) a + S1x1024.size a ≤ S32000x1024.size a := fun v1119 k0_hw125 => k0_hw125.1
theorem k0_off381_inb : ∀ (v1119 : BitVec 32) (k0_hw125 : k0_chk125 v1119), ∀ a, (k0_off381 v1119) a + S1x1024.size a ≤ S32000x1024.size a := fun v1119 k0_hw125 => k0_hw125.2

def k0_off382 (v1128 : BitVec 32) : Fin 2 → Nat :=
  let c0_i32_1020 : BitVec 32 := 0#32
  ![v1128.toNat, 0]

def k0_chk126 (v1128 : BitVec 32) : Prop :=
  (∀ a, (k0_off252 v1128) a + S1x1024.size a ≤ S32000x1024.size a) ∧
  (∀ a, (k0_off382 v1128) a + S1x1024.size a ≤ S32000x1024.size a)
instance k0_chk126.dec : ∀ (v1128 : BitVec 32), Decidable (k0_chk126 v1128) := fun v1128 => decidable_of_iff' _ (Iff.of_eq (k0_chk126.eq_1 v1128))
theorem k0_off252_inb : ∀ (v1128 : BitVec 32) (k0_hw126 : k0_chk126 v1128), ∀ a, (k0_off252 v1128) a + S1x1024.size a ≤ S32000x1024.size a := fun v1128 k0_hw126 => k0_hw126.1
theorem k0_off382_inb : ∀ (v1128 : BitVec 32) (k0_hw126 : k0_chk126 v1128), ∀ a, (k0_off382 v1128) a + S1x1024.size a ≤ S32000x1024.size a := fun v1128 k0_hw126 => k0_hw126.2

def k0_off383 (v1137 : BitVec 32) : Fin 2 → Nat :=
  let c0_i32_1024 : BitVec 32 := 0#32
  ![v1137.toNat, 0]

def k0_chk127 (v1137 : BitVec 32) : Prop :=
  (∀ a, (k0_off254 v1137) a + S1x1024.size a ≤ S32000x1024.size a) ∧
  (∀ a, (k0_off383 v1137) a + S1x1024.size a ≤ S32000x1024.size a)
instance k0_chk127.dec : ∀ (v1137 : BitVec 32), Decidable (k0_chk127 v1137) := fun v1137 => decidable_of_iff' _ (Iff.of_eq (k0_chk127.eq_1 v1137))
theorem k0_off254_inb : ∀ (v1137 : BitVec 32) (k0_hw127 : k0_chk127 v1137), ∀ a, (k0_off254 v1137) a + S1x1024.size a ≤ S32000x1024.size a := fun v1137 k0_hw127 => k0_hw127.1
theorem k0_off383_inb : ∀ (v1137 : BitVec 32) (k0_hw127 : k0_chk127 v1137), ∀ a, (k0_off383 v1137) a + S1x1024.size a ≤ S32000x1024.size a := fun v1137 k0_hw127 => k0_hw127.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 125], ![false, false]⟩

def k1_cond2 (i : grid1.Coords) : BitVec 1 :=
  let arg1 : BitVec 32 := BitVec.ofNat 32 (i 1).val
  let c124_i32 : BitVec 32 := 124#32
  let v54 : BitVec 1 := Scalar.cmpi .eq arg1 c124_i32
  let v55 : BitVec 32 := Scalar.extui v54
  let c0_i32_25 : BitVec 32 := 0#32
  let v56 : BitVec 1 := Scalar.cmpi .ne v55 c0_i32_25
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x15 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x1024_S4096 : S4x1024.ShapeCasts S4096
  shapeCasts_S4x1024x1024_S4096x1024 : S4x1024x1024.ShapeCasts S4096x1024
  bcast_S_S4096 : S_.BroadcastsInDim S4096 (![] : Fin 0 → Fin S4096.rank)
  bcast_S_S15 : S_.BroadcastsInDim S15 (![] : Fin 0 → Fin S15.rank)
  bcast_S4096_S4096x1_0 : S4096.BroadcastsInDim S4096x1 (![0] : Fin 1 → Fin S4096x1.rank)
  bcast_S15_S1x15_1 : S15.BroadcastsInDim S1x15 (![1] : Fin 1 → Fin S1x15.rank)
  bcast_S4096x1_S4096x15_0_1 : S4096x1.BroadcastsInDim S4096x15 (![0, 1] : Fin 2 → Fin S4096x15.rank)
  bcast_S1x15_S4096x15_0_1 : S1x15.BroadcastsInDim S4096x15 (![0, 1] : Fin 2 → Fin S4096x15.rank)
  bcast_S_S4096x15 : S_.BroadcastsInDim S4096x15 (![] : Fin 0 → Fin S4096x15.rank)
  numel1_S1 : S1.numel = 1
  inb_S128_S1_0 : ∀ a, (![0] : Fin 1 → Nat) a + S1.size a ≤ S128.size a
  squeezes_S1_S_ : S1.Squeezes S_
  inb_S128x1024_S1x1024_0_0 : ∀ a, (![0, 0] : Fin 2 → Nat) a + S1x1024.size a ≤ S128x1024.size a
  squeezes_S1x1024_S1024 : S1x1024.Squeezes S1024
  inb_S128_S1_1 : ∀ a, (![1] : Fin 1 → Nat) a + S1.size a ≤ S128.size a
  inb_S128x1024_S1x1024_1_0 : ∀ a, (![1, 0] : Fin 2 → Nat) a + S1x1024.size a ≤ S128x1024.size a
  inb_S128_S1_2 : ∀ a, (![2] : Fin 1 → Nat) a + S1.size a ≤ S128.size a
  inb_S128x1024_S1x1024_2_0 : ∀ a, (![2, 0] : Fin 2 → Nat) a + S1x1024.size a ≤ S128x1024.size a
  inb_S128_S1_3 : ∀ a, (![3] : Fin 1 → Nat) a + S1.size a ≤ S128.size a
  inb_S128x1024_S1x1024_3_0 : ∀ a, (![3, 0] : Fin 2 → Nat) a + S1x1024.size a ≤ S128x1024.size a
  inb_S128_S1_4 : ∀ a, (![4] : Fin 1 → Nat) a + S1.size a ≤ S128.size a
  inb_S128x1024_S1x1024_4_0 : ∀ a, (![4, 0] : Fin 2 → Nat) a + S1x1024.size a ≤ S128x1024.size a
  inb_S128_S1_5 : ∀ a, (![5] : Fin 1 → Nat) a + S1.size a ≤ S128.size a
  inb_S128x1024_S1x1024_5_0 : ∀ a, (![5, 0] : Fin 2 → Nat) a + S1x1024.size a ≤ S128x1024.size a
  inb_S128_S1_6 : ∀ a, (![6] : Fin 1 → Nat) a + S1.size a ≤ S128.size a
  inb_S128x1024_S1x1024_6_0 : ∀ a, (![6, 0] : Fin 2 → Nat) a + S1x1024.size a ≤ S128x1024.size a
  inb_S128_S1_7 : ∀ a, (![7] : Fin 1 → Nat) a + S1.size a ≤ S128.size a
  inb_S128x1024_S1x1024_7_0 : ∀ a, (![7, 0] : Fin 2 → Nat) a + S1x1024.size a ≤ S128x1024.size a
  inb_S128_S1_8 : ∀ a, (![8] : Fin 1 → Nat) a + S1.size a ≤ S128.size a
  inb_S128x1024_S1x1024_8_0 : ∀ a, (![8, 0] : Fin 2 → Nat) a + S1x1024.size a ≤ S128x1024.size a
  inb_S128_S1_9 : ∀ a, (![9] : Fin 1 → Nat) a + S1.size a ≤ S128.size a
  inb_S128x1024_S1x1024_9_0 : ∀ a, (![9, 0] : Fin 2 → Nat) a + S1x1024.size a ≤ S128x1024.size a
  inb_S128_S1_10 : ∀ a, (![10] : Fin 1 → Nat) a + S1.size a ≤ S128.size a
  inb_S128x1024_S1x1024_10_0 : ∀ a, (![10, 0] : Fin 2 → Nat) a + S1x1024.size a ≤ S128x1024.size a
  inb_S128_S1_11 : ∀ a, (![11] : Fin 1 → Nat) a + S1.size a ≤ S128.size a
  inb_S128x1024_S1x1024_11_0 : ∀ a, (![11, 0] : Fin 2 → Nat) a + S1x1024.size a ≤ S128x1024.size a
  inb_S128_S1_12 : ∀ a, (![12] : Fin 1 → Nat) a + S1.size a ≤ S128.size a
  inb_S128x1024_S1x1024_12_0 : ∀ a, (![12, 0] : Fin 2 → Nat) a + S1x1024.size a ≤ S128x1024.size a
  inb_S128_S1_13 : ∀ a, (![13] : Fin 1 → Nat) a + S1.size a ≤ S128.size a
  inb_S128x1024_S1x1024_13_0 : ∀ a, (![13, 0] : Fin 2 → Nat) a + S1x1024.size a ≤ S128x1024.size a
  inb_S128_S1_14 : ∀ a, (![14] : Fin 1 → Nat) a + S1.size a ≤ S128.size a
  inb_S128x1024_S1x1024_14_0 : ∀ a, (![14, 0] : Fin 2 → Nat) a + S1x1024.size a ≤ S128x1024.size a
  inb_S128_S1_15 : ∀ a, (![15] : Fin 1 → Nat) a + S1.size a ≤ S128.size a
  inb_S128x1024_S1x1024_15_0 : ∀ a, (![15, 0] : Fin 2 → Nat) a + S1x1024.size a ≤ S128x1024.size a
  inb_S128_S1_16 : ∀ a, (![16] : Fin 1 → Nat) a + S1.size a ≤ S128.size a
  inb_S128x1024_S1x1024_16_0 : ∀ a, (![16, 0] : Fin 2 → Nat) a + S1x1024.size a ≤ S128x1024.size a
  inb_S128_S1_17 : ∀ a, (![17] : Fin 1 → Nat) a + S1.size a ≤ S128.size a
  inb_S128x1024_S1x1024_17_0 : ∀ a, (![17, 0] : Fin 2 → Nat) a + S1x1024.size a ≤ S128x1024.size a
  inb_S128_S1_18 : ∀ a, (![18] : Fin 1 → Nat) a + S1.size a ≤ S128.size a
  inb_S128x1024_S1x1024_18_0 : ∀ a, (![18, 0] : Fin 2 → Nat) a + S1x1024.size a ≤ S128x1024.size a
  inb_S128_S1_19 : ∀ a, (![19] : Fin 1 → Nat) a + S1.size a ≤ S128.size a
  inb_S128x1024_S1x1024_19_0 : ∀ a, (![19, 0] : Fin 2 → Nat) a + S1x1024.size a ≤ S128x1024.size a
  inb_S128_S1_20 : ∀ a, (![20] : Fin 1 → Nat) a + S1.size a ≤ S128.size a
  inb_S128x1024_S1x1024_20_0 : ∀ a, (![20, 0] : Fin 2 → Nat) a + S1x1024.size a ≤ S128x1024.size a
  inb_S128_S1_21 : ∀ a, (![21] : Fin 1 → Nat) a + S1.size a ≤ S128.size a
  inb_S128x1024_S1x1024_21_0 : ∀ a, (![21, 0] : Fin 2 → Nat) a + S1x1024.size a ≤ S128x1024.size a
  inb_S128_S1_22 : ∀ a, (![22] : Fin 1 → Nat) a + S1.size a ≤ S128.size a
  inb_S128x1024_S1x1024_22_0 : ∀ a, (![22, 0] : Fin 2 → Nat) a + S1x1024.size a ≤ S128x1024.size a
  inb_S128_S1_23 : ∀ a, (![23] : Fin 1 → Nat) a + S1.size a ≤ S128.size a
  inb_S128x1024_S1x1024_23_0 : ∀ a, (![23, 0] : Fin 2 → Nat) a + S1x1024.size a ≤ S128x1024.size a
  inb_S128_S1_24 : ∀ a, (![24] : Fin 1 → Nat) a + S1.size a ≤ S128.size a
  inb_S128x1024_S1x1024_24_0 : ∀ a, (![24, 0] : Fin 2 → Nat) a + S1x1024.size a ≤ S128x1024.size a
  inb_S128_S1_25 : ∀ a, (![25] : Fin 1 → Nat) a + S1.size a ≤ S128.size a
  inb_S128x1024_S1x1024_25_0 : ∀ a, (![25, 0] : Fin 2 → Nat) a + S1x1024.size a ≤ S128x1024.size a
  inb_S128_S1_26 : ∀ a, (![26] : Fin 1 → Nat) a + S1.size a ≤ S128.size a
  inb_S128x1024_S1x1024_26_0 : ∀ a, (![26, 0] : Fin 2 → Nat) a + S1x1024.size a ≤ S128x1024.size a
  inb_S128_S1_27 : ∀ a, (![27] : Fin 1 → Nat) a + S1.size a ≤ S128.size a
  inb_S128x1024_S1x1024_27_0 : ∀ a, (![27, 0] : Fin 2 → Nat) a + S1x1024.size a ≤ S128x1024.size a
  inb_S128_S1_28 : ∀ a, (![28] : Fin 1 → Nat) a + S1.size a ≤ S128.size a
  inb_S128x1024_S1x1024_28_0 : ∀ a, (![28, 0] : Fin 2 → Nat) a + S1x1024.size a ≤ S128x1024.size a
  inb_S128_S1_29 : ∀ a, (![29] : Fin 1 → Nat) a + S1.size a ≤ S128.size a
  inb_S128x1024_S1x1024_29_0 : ∀ a, (![29, 0] : Fin 2 → Nat) a + S1x1024.size a ≤ S128x1024.size a
  inb_S128_S1_30 : ∀ a, (![30] : Fin 1 → Nat) a + S1.size a ≤ S128.size a
  inb_S128x1024_S1x1024_30_0 : ∀ a, (![30, 0] : Fin 2 → Nat) a + S1x1024.size a ≤ S128x1024.size a
  inb_S128_S1_31 : ∀ a, (![31] : Fin 1 → Nat) a + S1.size a ≤ S128.size a
  inb_S128x1024_S1x1024_31_0 : ∀ a, (![31, 0] : Fin 2 → Nat) a + S1x1024.size a ≤ S128x1024.size a
  inb_S128_S1_32 : ∀ a, (![32] : Fin 1 → Nat) a + S1.size a ≤ S128.size a
  inb_S128x1024_S1x1024_32_0 : ∀ a, (![32, 0] : Fin 2 → Nat) a + S1x1024.size a ≤ S128x1024.size a
  inb_S128_S1_33 : ∀ a, (![33] : Fin 1 → Nat) a + S1.size a ≤ S128.size a
  inb_S128x1024_S1x1024_33_0 : ∀ a, (![33, 0] : Fin 2 → Nat) a + S1x1024.size a ≤ S128x1024.size a
  inb_S128_S1_34 : ∀ a, (![34] : Fin 1 → Nat) a + S1.size a ≤ S128.size a
  inb_S128x1024_S1x1024_34_0 : ∀ a, (![34, 0] : Fin 2 → Nat) a + S1x1024.size a ≤ S128x1024.size a
  inb_S128_S1_35 : ∀ a, (![35] : Fin 1 → Nat) a + S1.size a ≤ S128.size a
  inb_S128x1024_S1x1024_35_0 : ∀ a, (![35, 0] : Fin 2 → Nat) a + S1x1024.size a ≤ S128x1024.size a
  inb_S128_S1_36 : ∀ a, (![36] : Fin 1 → Nat) a + S1.size a ≤ S128.size a
  inb_S128x1024_S1x1024_36_0 : ∀ a, (![36, 0] : Fin 2 → Nat) a + S1x1024.size a ≤ S128x1024.size a
  inb_S128_S1_37 : ∀ a, (![37] : Fin 1 → Nat) a + S1.size a ≤ S128.size a
  inb_S128x1024_S1x1024_37_0 : ∀ a, (![37, 0] : Fin 2 → Nat) a + S1x1024.size a ≤ S128x1024.size a
  inb_S128_S1_38 : ∀ a, (![38] : Fin 1 → Nat) a + S1.size a ≤ S128.size a
  inb_S128x1024_S1x1024_38_0 : ∀ a, (![38, 0] : Fin 2 → Nat) a + S1x1024.size a ≤ S128x1024.size a
  inb_S128_S1_39 : ∀ a, (![39] : Fin 1 → Nat) a + S1.size a ≤ S128.size a
  inb_S128x1024_S1x1024_39_0 : ∀ a, (![39, 0] : Fin 2 → Nat) a + S1x1024.size a ≤ S128x1024.size a
  inb_S128_S1_40 : ∀ a, (![40] : Fin 1 → Nat) a + S1.size a ≤ S128.size a
  inb_S128x1024_S1x1024_40_0 : ∀ a, (![40, 0] : Fin 2 → Nat) a + S1x1024.size a ≤ S128x1024.size a
  inb_S128_S1_41 : ∀ a, (![41] : Fin 1 → Nat) a + S1.size a ≤ S128.size a
  inb_S128x1024_S1x1024_41_0 : ∀ a, (![41, 0] : Fin 2 → Nat) a + S1x1024.size a ≤ S128x1024.size a
  inb_S128_S1_42 : ∀ a, (![42] : Fin 1 → Nat) a + S1.size a ≤ S128.size a
  inb_S128x1024_S1x1024_42_0 : ∀ a, (![42, 0] : Fin 2 → Nat) a + S1x1024.size a ≤ S128x1024.size a
  inb_S128_S1_43 : ∀ a, (![43] : Fin 1 → Nat) a + S1.size a ≤ S128.size a
  inb_S128x1024_S1x1024_43_0 : ∀ a, (![43, 0] : Fin 2 → Nat) a + S1x1024.size a ≤ S128x1024.size a
  inb_S128_S1_44 : ∀ a, (![44] : Fin 1 → Nat) a + S1.size a ≤ S128.size a
  inb_S128x1024_S1x1024_44_0 : ∀ a, (![44, 0] : Fin 2 → Nat) a + S1x1024.size a ≤ S128x1024.size a
  inb_S128_S1_45 : ∀ a, (![45] : Fin 1 → Nat) a + S1.size a ≤ S128.size a
  inb_S128x1024_S1x1024_45_0 : ∀ a, (![45, 0] : Fin 2 → Nat) a + S1x1024.size a ≤ S128x1024.size a
  inb_S128_S1_46 : ∀ a, (![46] : Fin 1 → Nat) a + S1.size a ≤ S128.size a
  inb_S128x1024_S1x1024_46_0 : ∀ a, (![46, 0] : Fin 2 → Nat) a + S1x1024.size a ≤ S128x1024.size a
  inb_S128_S1_47 : ∀ a, (![47] : Fin 1 → Nat) a + S1.size a ≤ S128.size a
  inb_S128x1024_S1x1024_47_0 : ∀ a, (![47, 0] : Fin 2 → Nat) a + S1x1024.size a ≤ S128x1024.size a
  inb_S128_S1_48 : ∀ a, (![48] : Fin 1 → Nat) a + S1.size a ≤ S128.size a
  inb_S128x1024_S1x1024_48_0 : ∀ a, (![48, 0] : Fin 2 → Nat) a + S1x1024.size a ≤ S128x1024.size a
  inb_S128_S1_49 : ∀ a, (![49] : Fin 1 → Nat) a + S1.size a ≤ S128.size a
  inb_S128x1024_S1x1024_49_0 : ∀ a, (![49, 0] : Fin 2 → Nat) a + S1x1024.size a ≤ S128x1024.size a
  inb_S128_S1_50 : ∀ a, (![50] : Fin 1 → Nat) a + S1.size a ≤ S128.size a
  inb_S128x1024_S1x1024_50_0 : ∀ a, (![50, 0] : Fin 2 → Nat) a + S1x1024.size a ≤ S128x1024.size a
  inb_S128_S1_51 : ∀ a, (![51] : Fin 1 → Nat) a + S1.size a ≤ S128.size a
  inb_S128x1024_S1x1024_51_0 : ∀ a, (![51, 0] : Fin 2 → Nat) a + S1x1024.size a ≤ S128x1024.size a
  inb_S128_S1_52 : ∀ a, (![52] : Fin 1 → Nat) a + S1.size a ≤ S128.size a
  inb_S128x1024_S1x1024_52_0 : ∀ a, (![52, 0] : Fin 2 → Nat) a + S1x1024.size a ≤ S128x1024.size a
  inb_S128_S1_53 : ∀ a, (![53] : Fin 1 → Nat) a + S1.size a ≤ S128.size a
  inb_S128x1024_S1x1024_53_0 : ∀ a, (![53, 0] : Fin 2 → Nat) a + S1x1024.size a ≤ S128x1024.size a
  inb_S128_S1_54 : ∀ a, (![54] : Fin 1 → Nat) a + S1.size a ≤ S128.size a
  inb_S128x1024_S1x1024_54_0 : ∀ a, (![54, 0] : Fin 2 → Nat) a + S1x1024.size a ≤ S128x1024.size a
  inb_S128_S1_55 : ∀ a, (![55] : Fin 1 → Nat) a + S1.size a ≤ S128.size a
  inb_S128x1024_S1x1024_55_0 : ∀ a, (![55, 0] : Fin 2 → Nat) a + S1x1024.size a ≤ S128x1024.size a
  inb_S128_S1_56 : ∀ a, (![56] : Fin 1 → Nat) a + S1.size a ≤ S128.size a
  inb_S128x1024_S1x1024_56_0 : ∀ a, (![56, 0] : Fin 2 → Nat) a + S1x1024.size a ≤ S128x1024.size a
  inb_S128_S1_57 : ∀ a, (![57] : Fin 1 → Nat) a + S1.size a ≤ S128.size a
  inb_S128x1024_S1x1024_57_0 : ∀ a, (![57, 0] : Fin 2 → Nat) a + S1x1024.size a ≤ S128x1024.size a
  inb_S128_S1_58 : ∀ a, (![58] : Fin 1 → Nat) a + S1.size a ≤ S128.size a
  inb_S128x1024_S1x1024_58_0 : ∀ a, (![58, 0] : Fin 2 → Nat) a + S1x1024.size a ≤ S128x1024.size a
  inb_S128_S1_59 : ∀ a, (![59] : Fin 1 → Nat) a + S1.size a ≤ S128.size a
  inb_S128x1024_S1x1024_59_0 : ∀ a, (![59, 0] : Fin 2 → Nat) a + S1x1024.size a ≤ S128x1024.size a
  inb_S128_S1_60 : ∀ a, (![60] : Fin 1 → Nat) a + S1.size a ≤ S128.size a
  inb_S128x1024_S1x1024_60_0 : ∀ a, (![60, 0] : Fin 2 → Nat) a + S1x1024.size a ≤ S128x1024.size a
  inb_S128_S1_61 : ∀ a, (![61] : Fin 1 → Nat) a + S1.size a ≤ S128.size a
  inb_S128x1024_S1x1024_61_0 : ∀ a, (![61, 0] : Fin 2 → Nat) a + S1x1024.size a ≤ S128x1024.size a
  inb_S128_S1_62 : ∀ a, (![62] : Fin 1 → Nat) a + S1.size a ≤ S128.size a
  inb_S128x1024_S1x1024_62_0 : ∀ a, (![62, 0] : Fin 2 → Nat) a + S1x1024.size a ≤ S128x1024.size a
  inb_S128_S1_63 : ∀ a, (![63] : Fin 1 → Nat) a + S1.size a ≤ S128.size a
  inb_S128x1024_S1x1024_63_0 : ∀ a, (![63, 0] : Fin 2 → Nat) a + S1x1024.size a ≤ S128x1024.size a
  inb_S128_S1_64 : ∀ a, (![64] : Fin 1 → Nat) a + S1.size a ≤ S128.size a
  inb_S128x1024_S1x1024_64_0 : ∀ a, (![64, 0] : Fin 2 → Nat) a + S1x1024.size a ≤ S128x1024.size a
  inb_S128_S1_65 : ∀ a, (![65] : Fin 1 → Nat) a + S1.size a ≤ S128.size a
  inb_S128x1024_S1x1024_65_0 : ∀ a, (![65, 0] : Fin 2 → Nat) a + S1x1024.size a ≤ S128x1024.size a
  inb_S128_S1_66 : ∀ a, (![66] : Fin 1 → Nat) a + S1.size a ≤ S128.size a
  inb_S128x1024_S1x1024_66_0 : ∀ a, (![66, 0] : Fin 2 → Nat) a + S1x1024.size a ≤ S128x1024.size a
  inb_S128_S1_67 : ∀ a, (![67] : Fin 1 → Nat) a + S1.size a ≤ S128.size a
  inb_S128x1024_S1x1024_67_0 : ∀ a, (![67, 0] : Fin 2 → Nat) a + S1x1024.size a ≤ S128x1024.size a
  inb_S128_S1_68 : ∀ a, (![68] : Fin 1 → Nat) a + S1.size a ≤ S128.size a
  inb_S128x1024_S1x1024_68_0 : ∀ a, (![68, 0] : Fin 2 → Nat) a + S1x1024.size a ≤ S128x1024.size a
  inb_S128_S1_69 : ∀ a, (![69] : Fin 1 → Nat) a + S1.size a ≤ S128.size a
  inb_S128x1024_S1x1024_69_0 : ∀ a, (![69, 0] : Fin 2 → Nat) a + S1x1024.size a ≤ S128x1024.size a
  inb_S128_S1_70 : ∀ a, (![70] : Fin 1 → Nat) a + S1.size a ≤ S128.size a
  inb_S128x1024_S1x1024_70_0 : ∀ a, (![70, 0] : Fin 2 → Nat) a + S1x1024.size a ≤ S128x1024.size a
  inb_S128_S1_71 : ∀ a, (![71] : Fin 1 → Nat) a + S1.size a ≤ S128.size a
  inb_S128x1024_S1x1024_71_0 : ∀ a, (![71, 0] : Fin 2 → Nat) a + S1x1024.size a ≤ S128x1024.size a
  inb_S128_S1_72 : ∀ a, (![72] : Fin 1 → Nat) a + S1.size a ≤ S128.size a
  inb_S128x1024_S1x1024_72_0 : ∀ a, (![72, 0] : Fin 2 → Nat) a + S1x1024.size a ≤ S128x1024.size a
  inb_S128_S1_73 : ∀ a, (![73] : Fin 1 → Nat) a + S1.size a ≤ S128.size a
  inb_S128x1024_S1x1024_73_0 : ∀ a, (![73, 0] : Fin 2 → Nat) a + S1x1024.size a ≤ S128x1024.size a
  inb_S128_S1_74 : ∀ a, (![74] : Fin 1 → Nat) a + S1.size a ≤ S128.size a
  inb_S128x1024_S1x1024_74_0 : ∀ a, (![74, 0] : Fin 2 → Nat) a + S1x1024.size a ≤ S128x1024.size a
  inb_S128_S1_75 : ∀ a, (![75] : Fin 1 → Nat) a + S1.size a ≤ S128.size a
  inb_S128x1024_S1x1024_75_0 : ∀ a, (![75, 0] : Fin 2 → Nat) a + S1x1024.size a ≤ S128x1024.size a
  inb_S128_S1_76 : ∀ a, (![76] : Fin 1 → Nat) a + S1.size a ≤ S128.size a
  inb_S128x1024_S1x1024_76_0 : ∀ a, (![76, 0] : Fin 2 → Nat) a + S1x1024.size a ≤ S128x1024.size a
  inb_S128_S1_77 : ∀ a, (![77] : Fin 1 → Nat) a + S1.size a ≤ S128.size a
  inb_S128x1024_S1x1024_77_0 : ∀ a, (![77, 0] : Fin 2 → Nat) a + S1x1024.size a ≤ S128x1024.size a
  inb_S128_S1_78 : ∀ a, (![78] : Fin 1 → Nat) a + S1.size a ≤ S128.size a
  inb_S128x1024_S1x1024_78_0 : ∀ a, (![78, 0] : Fin 2 → Nat) a + S1x1024.size a ≤ S128x1024.size a
  inb_S128_S1_79 : ∀ a, (![79] : Fin 1 → Nat) a + S1.size a ≤ S128.size a
  inb_S128x1024_S1x1024_79_0 : ∀ a, (![79, 0] : Fin 2 → Nat) a + S1x1024.size a ≤ S128x1024.size a
  inb_S128_S1_80 : ∀ a, (![80] : Fin 1 → Nat) a + S1.size a ≤ S128.size a
  inb_S128x1024_S1x1024_80_0 : ∀ a, (![80, 0] : Fin 2 → Nat) a + S1x1024.size a ≤ S128x1024.size a
  inb_S128_S1_81 : ∀ a, (![81] : Fin 1 → Nat) a + S1.size a ≤ S128.size a
  inb_S128x1024_S1x1024_81_0 : ∀ a, (![81, 0] : Fin 2 → Nat) a + S1x1024.size a ≤ S128x1024.size a
  inb_S128_S1_82 : ∀ a, (![82] : Fin 1 → Nat) a + S1.size a ≤ S128.size a
  inb_S128x1024_S1x1024_82_0 : ∀ a, (![82, 0] : Fin 2 → Nat) a + S1x1024.size a ≤ S128x1024.size a
  inb_S128_S1_83 : ∀ a, (![83] : Fin 1 → Nat) a + S1.size a ≤ S128.size a
  inb_S128x1024_S1x1024_83_0 : ∀ a, (![83, 0] : Fin 2 → Nat) a + S1x1024.size a ≤ S128x1024.size a
  inb_S128_S1_84 : ∀ a, (![84] : Fin 1 → Nat) a + S1.size a ≤ S128.size a
  inb_S128x1024_S1x1024_84_0 : ∀ a, (![84, 0] : Fin 2 → Nat) a + S1x1024.size a ≤ S128x1024.size a
  inb_S128_S1_85 : ∀ a, (![85] : Fin 1 → Nat) a + S1.size a ≤ S128.size a
  inb_S128x1024_S1x1024_85_0 : ∀ a, (![85, 0] : Fin 2 → Nat) a + S1x1024.size a ≤ S128x1024.size a
  inb_S128_S1_86 : ∀ a, (![86] : Fin 1 → Nat) a + S1.size a ≤ S128.size a
  inb_S128x1024_S1x1024_86_0 : ∀ a, (![86, 0] : Fin 2 → Nat) a + S1x1024.size a ≤ S128x1024.size a
  inb_S128_S1_87 : ∀ a, (![87] : Fin 1 → Nat) a + S1.size a ≤ S128.size a
  inb_S128x1024_S1x1024_87_0 : ∀ a, (![87, 0] : Fin 2 → Nat) a + S1x1024.size a ≤ S128x1024.size a
  inb_S128_S1_88 : ∀ a, (![88] : Fin 1 → Nat) a + S1.size a ≤ S128.size a
  inb_S128x1024_S1x1024_88_0 : ∀ a, (![88, 0] : Fin 2 → Nat) a + S1x1024.size a ≤ S128x1024.size a
  inb_S128_S1_89 : ∀ a, (![89] : Fin 1 → Nat) a + S1.size a ≤ S128.size a
  inb_S128x1024_S1x1024_89_0 : ∀ a, (![89, 0] : Fin 2 → Nat) a + S1x1024.size a ≤ S128x1024.size a
  inb_S128_S1_90 : ∀ a, (![90] : Fin 1 → Nat) a + S1.size a ≤ S128.size a
  inb_S128x1024_S1x1024_90_0 : ∀ a, (![90, 0] : Fin 2 → Nat) a + S1x1024.size a ≤ S128x1024.size a
  inb_S128_S1_91 : ∀ a, (![91] : Fin 1 → Nat) a + S1.size a ≤ S128.size a
  inb_S128x1024_S1x1024_91_0 : ∀ a, (![91, 0] : Fin 2 → Nat) a + S1x1024.size a ≤ S128x1024.size a
  inb_S128_S1_92 : ∀ a, (![92] : Fin 1 → Nat) a + S1.size a ≤ S128.size a
  inb_S128x1024_S1x1024_92_0 : ∀ a, (![92, 0] : Fin 2 → Nat) a + S1x1024.size a ≤ S128x1024.size a
  inb_S128_S1_93 : ∀ a, (![93] : Fin 1 → Nat) a + S1.size a ≤ S128.size a
  inb_S128x1024_S1x1024_93_0 : ∀ a, (![93, 0] : Fin 2 → Nat) a + S1x1024.size a ≤ S128x1024.size a
  inb_S128_S1_94 : ∀ a, (![94] : Fin 1 → Nat) a + S1.size a ≤ S128.size a
  inb_S128x1024_S1x1024_94_0 : ∀ a, (![94, 0] : Fin 2 → Nat) a + S1x1024.size a ≤ S128x1024.size a
  inb_S128_S1_95 : ∀ a, (![95] : Fin 1 → Nat) a + S1.size a ≤ S128.size a
  inb_S128x1024_S1x1024_95_0 : ∀ a, (![95, 0] : Fin 2 → Nat) a + S1x1024.size a ≤ S128x1024.size a
  inb_S128_S1_96 : ∀ a, (![96] : Fin 1 → Nat) a + S1.size a ≤ S128.size a
  inb_S128x1024_S1x1024_96_0 : ∀ a, (![96, 0] : Fin 2 → Nat) a + S1x1024.size a ≤ S128x1024.size a
  inb_S128_S1_97 : ∀ a, (![97] : Fin 1 → Nat) a + S1.size a ≤ S128.size a
  inb_S128x1024_S1x1024_97_0 : ∀ a, (![97, 0] : Fin 2 → Nat) a + S1x1024.size a ≤ S128x1024.size a
  inb_S128_S1_98 : ∀ a, (![98] : Fin 1 → Nat) a + S1.size a ≤ S128.size a
  inb_S128x1024_S1x1024_98_0 : ∀ a, (![98, 0] : Fin 2 → Nat) a + S1x1024.size a ≤ S128x1024.size a
  inb_S128_S1_99 : ∀ a, (![99] : Fin 1 → Nat) a + S1.size a ≤ S128.size a
  inb_S128x1024_S1x1024_99_0 : ∀ a, (![99, 0] : Fin 2 → Nat) a + S1x1024.size a ≤ S128x1024.size a
  inb_S128_S1_100 : ∀ a, (![100] : Fin 1 → Nat) a + S1.size a ≤ S128.size a
  inb_S128x1024_S1x1024_100_0 : ∀ a, (![100, 0] : Fin 2 → Nat) a + S1x1024.size a ≤ S128x1024.size a
  inb_S128_S1_101 : ∀ a, (![101] : Fin 1 → Nat) a + S1.size a ≤ S128.size a
  inb_S128x1024_S1x1024_101_0 : ∀ a, (![101, 0] : Fin 2 → Nat) a + S1x1024.size a ≤ S128x1024.size a
  inb_S128_S1_102 : ∀ a, (![102] : Fin 1 → Nat) a + S1.size a ≤ S128.size a
  inb_S128x1024_S1x1024_102_0 : ∀ a, (![102, 0] : Fin 2 → Nat) a + S1x1024.size a ≤ S128x1024.size a
  inb_S128_S1_103 : ∀ a, (![103] : Fin 1 → Nat) a + S1.size a ≤ S128.size a
  inb_S128x1024_S1x1024_103_0 : ∀ a, (![103, 0] : Fin 2 → Nat) a + S1x1024.size a ≤ S128x1024.size a
  inb_S128_S1_104 : ∀ a, (![104] : Fin 1 → Nat) a + S1.size a ≤ S128.size a
  inb_S128x1024_S1x1024_104_0 : ∀ a, (![104, 0] : Fin 2 → Nat) a + S1x1024.size a ≤ S128x1024.size a
  inb_S128_S1_105 : ∀ a, (![105] : Fin 1 → Nat) a + S1.size a ≤ S128.size a
  inb_S128x1024_S1x1024_105_0 : ∀ a, (![105, 0] : Fin 2 → Nat) a + S1x1024.size a ≤ S128x1024.size a
  inb_S128_S1_106 : ∀ a, (![106] : Fin 1 → Nat) a + S1.size a ≤ S128.size a
  inb_S128x1024_S1x1024_106_0 : ∀ a, (![106, 0] : Fin 2 → Nat) a + S1x1024.size a ≤ S128x1024.size a
  inb_S128_S1_107 : ∀ a, (![107] : Fin 1 → Nat) a + S1.size a ≤ S128.size a
  inb_S128x1024_S1x1024_107_0 : ∀ a, (![107, 0] : Fin 2 → Nat) a + S1x1024.size a ≤ S128x1024.size a
  inb_S128_S1_108 : ∀ a, (![108] : Fin 1 → Nat) a + S1.size a ≤ S128.size a
  inb_S128x1024_S1x1024_108_0 : ∀ a, (![108, 0] : Fin 2 → Nat) a + S1x1024.size a ≤ S128x1024.size a
  inb_S128_S1_109 : ∀ a, (![109] : Fin 1 → Nat) a + S1.size a ≤ S128.size a
  inb_S128x1024_S1x1024_109_0 : ∀ a, (![109, 0] : Fin 2 → Nat) a + S1x1024.size a ≤ S128x1024.size a
  inb_S128_S1_110 : ∀ a, (![110] : Fin 1 → Nat) a + S1.size a ≤ S128.size a
  inb_S128x1024_S1x1024_110_0 : ∀ a, (![110, 0] : Fin 2 → Nat) a + S1x1024.size a ≤ S128x1024.size a
  inb_S128_S1_111 : ∀ a, (![111] : Fin 1 → Nat) a + S1.size a ≤ S128.size a
  inb_S128x1024_S1x1024_111_0 : ∀ a, (![111, 0] : Fin 2 → Nat) a + S1x1024.size a ≤ S128x1024.size a
  inb_S128_S1_112 : ∀ a, (![112] : Fin 1 → Nat) a + S1.size a ≤ S128.size a
  inb_S128x1024_S1x1024_112_0 : ∀ a, (![112, 0] : Fin 2 → Nat) a + S1x1024.size a ≤ S128x1024.size a
  inb_S128_S1_113 : ∀ a, (![113] : Fin 1 → Nat) a + S1.size a ≤ S128.size a
  inb_S128x1024_S1x1024_113_0 : ∀ a, (![113, 0] : Fin 2 → Nat) a + S1x1024.size a ≤ S128x1024.size a
  inb_S128_S1_114 : ∀ a, (![114] : Fin 1 → Nat) a + S1.size a ≤ S128.size a
  inb_S128x1024_S1x1024_114_0 : ∀ a, (![114, 0] : Fin 2 → Nat) a + S1x1024.size a ≤ S128x1024.size a
  inb_S128_S1_115 : ∀ a, (![115] : Fin 1 → Nat) a + S1.size a ≤ S128.size a
  inb_S128x1024_S1x1024_115_0 : ∀ a, (![115, 0] : Fin 2 → Nat) a + S1x1024.size a ≤ S128x1024.size a
  inb_S128_S1_116 : ∀ a, (![116] : Fin 1 → Nat) a + S1.size a ≤ S128.size a
  inb_S128x1024_S1x1024_116_0 : ∀ a, (![116, 0] : Fin 2 → Nat) a + S1x1024.size a ≤ S128x1024.size a
  inb_S128_S1_117 : ∀ a, (![117] : Fin 1 → Nat) a + S1.size a ≤ S128.size a
  inb_S128x1024_S1x1024_117_0 : ∀ a, (![117, 0] : Fin 2 → Nat) a + S1x1024.size a ≤ S128x1024.size a
  inb_S128_S1_118 : ∀ a, (![118] : Fin 1 → Nat) a + S1.size a ≤ S128.size a
  inb_S128x1024_S1x1024_118_0 : ∀ a, (![118, 0] : Fin 2 → Nat) a + S1x1024.size a ≤ S128x1024.size a
  inb_S128_S1_119 : ∀ a, (![119] : Fin 1 → Nat) a + S1.size a ≤ S128.size a
  inb_S128x1024_S1x1024_119_0 : ∀ a, (![119, 0] : Fin 2 → Nat) a + S1x1024.size a ≤ S128x1024.size a
  inb_S128_S1_120 : ∀ a, (![120] : Fin 1 → Nat) a + S1.size a ≤ S128.size a
  inb_S128x1024_S1x1024_120_0 : ∀ a, (![120, 0] : Fin 2 → Nat) a + S1x1024.size a ≤ S128x1024.size a
  inb_S128_S1_121 : ∀ a, (![121] : Fin 1 → Nat) a + S1.size a ≤ S128.size a
  inb_S128x1024_S1x1024_121_0 : ∀ a, (![121, 0] : Fin 2 → Nat) a + S1x1024.size a ≤ S128x1024.size a
  inb_S128_S1_122 : ∀ a, (![122] : Fin 1 → Nat) a + S1.size a ≤ S128.size a
  inb_S128x1024_S1x1024_122_0 : ∀ a, (![122, 0] : Fin 2 → Nat) a + S1x1024.size a ≤ S128x1024.size a
  inb_S128_S1_123 : ∀ a, (![123] : Fin 1 → Nat) a + S1.size a ≤ S128.size a
  inb_S128x1024_S1x1024_123_0 : ∀ a, (![123, 0] : Fin 2 → Nat) a + S1x1024.size a ≤ S128x1024.size a
  inb_S128_S1_124 : ∀ a, (![124] : Fin 1 → Nat) a + S1.size a ≤ S128.size a
  inb_S128x1024_S1x1024_124_0 : ∀ a, (![124, 0] : Fin 2 → Nat) a + S1x1024.size a ≤ S128x1024.size a
  inb_S128_S1_125 : ∀ a, (![125] : Fin 1 → Nat) a + S1.size a ≤ S128.size a
  inb_S128x1024_S1x1024_125_0 : ∀ a, (![125, 0] : Fin 2 → Nat) a + S1x1024.size a ≤ S128x1024.size a
  inb_S128_S1_126 : ∀ a, (![126] : Fin 1 → Nat) a + S1.size a ≤ S128.size a
  inb_S128x1024_S1x1024_126_0 : ∀ a, (![126, 0] : Fin 2 → Nat) a + S1x1024.size a ≤ S128x1024.size a
  inb_S128_S1_127 : ∀ a, (![127] : Fin 1 → Nat) a + S1.size a ≤ S128.size a
  inb_S128x1024_S1x1024_127_0 : ∀ a, (![127, 0] : Fin 2 → Nat) a + S1x1024.size a ≤ S128x1024.size a
  inb_S128x15_S128x15_0_0 : ∀ a, (![0, 0] : Fin 2 → Nat) a + S128x15.size a ≤ S128x15.size a
  h_S128x15 : 0 < S128x15.numel
  shapeCasts_S128x15_S128x15 : S128x15.ShapeCasts S128x15
  bitsLt_bf16_f32 : FTy.bits .bf16 < FTy.bits .f32
  inb_S15x1024_S15x1024_0_0 : ∀ a, (![0, 0] : Fin 2 → Nat) a + S15x1024.size a ≤ S15x1024.size a
  h_S15x1024 : 0 < S15x1024.numel
  inb_S128x1024_S128x1024_0_0 : ∀ a, (![0, 0] : Fin 2 → Nat) a + S128x1024.size a ≤ S128x1024.size a
  h_S128x1024 : 0 < S128x1024.numel
  shapeCasts_S4096x1024_S4x1024x1024 : S4096x1024.ShapeCasts S4x1024x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x15_S2048x15_0_0 : ∀ a, (![0, 0] : Fin 2 → Nat) a + S2048x15.size a ≤ S2048x15.size a
  h_S2048x15 : 0 < S2048x15.numel
  shapeCasts_S2048x15_S2048x15 : S2048x15.ShapeCasts S2048x15
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x256_S2048x256_0_0 : ∀ a, (![0, 0] : Fin 2 → Nat) a + S2048x256.size a ≤ S2048x256.size a
  h_S2048x256 : 0 < S2048x256.numel
  iota_S256x15_d0_w32 : S256x15.Iotas .tc 32 [0]
  iota_S256x15_d1_w32 : S256x15.Iotas .tc 32 [1]
  reduces_S2048x256_S2048 : S2048x256.Reduces [1] S2048
  shapeCasts_S2048_S2048x1 : S2048.ShapeCasts S2048x1
  broadcasts_S2048x1_S2048x256 : S2048x1.Broadcasts S2048x256
  broadcasts_S2048x1_S2048x15 : S2048x1.Broadcasts S2048x15
  shapeCasts_S4096x32000_S4x1024x32000 : S4096x32000.ShapeCasts S4x1024x32000
  shapeCasts_S4096x15_S4x1024x15 : S4096x15.ShapeCasts S4x1024x15
  dot_S128x15_S15x1024_S128x1024_1_0_0_1_n_n_wf : DotDims.WF S128x15 S15x1024 S128x1024 [1] [0] [0] [1] [] []
  dot_S2048x1024_S256x1024_S2048x256_1_1_0_0_n_n_wf : DotDims.WF S2048x1024 S256x1024 S2048x256 [1] [1] [0] [0] [] []
  dot_S2048x256_S256x15_S2048x15_1_0_0_1_n_n_wf : DotDims.WF S2048x256 S256x15 S2048x15 [1] [0] [0] [1] [] []
  hcc0_scratch0 : 7 + S128.numel ≤ 143
  hrank0 : 0 < grid0.rank
  k0_off1_inb : ∀ i : grid0.Coords, ∀ a, (k0_off1 i) a + S1.size a ≤ S4096.size a
  k0_off3_inb : ∀ i : grid0.Coords, ∀ a, (k0_off3 i) a + S1.size a ≤ S4096.size a
  k0_off5_inb : ∀ i : grid0.Coords, ∀ a, (k0_off5 i) a + S1.size a ≤ S4096.size a
  k0_off7_inb : ∀ i : grid0.Coords, ∀ a, (k0_off7 i) a + S1.size a ≤ S4096.size a
  k0_off9_inb : ∀ i : grid0.Coords, ∀ a, (k0_off9 i) a + S1.size a ≤ S4096.size a
  k0_off11_inb : ∀ i : grid0.Coords, ∀ a, (k0_off11 i) a + S1.size a ≤ S4096.size a
  k0_off13_inb : ∀ i : grid0.Coords, ∀ a, (k0_off13 i) a + S1.size a ≤ S4096.size a
  k0_off15_inb : ∀ i : grid0.Coords, ∀ a, (k0_off15 i) a + S1.size a ≤ S4096.size a
  k0_off17_inb : ∀ i : grid0.Coords, ∀ a, (k0_off17 i) a + S1.size a ≤ S4096.size a
  k0_off19_inb : ∀ i : grid0.Coords, ∀ a, (k0_off19 i) a + S1.size a ≤ S4096.size a
  k0_off21_inb : ∀ i : grid0.Coords, ∀ a, (k0_off21 i) a + S1.size a ≤ S4096.size a
  k0_off23_inb : ∀ i : grid0.Coords, ∀ a, (k0_off23 i) a + S1.size a ≤ S4096.size a
  k0_off25_inb : ∀ i : grid0.Coords, ∀ a, (k0_off25 i) a + S1.size a ≤ S4096.size a
  k0_off27_inb : ∀ i : grid0.Coords, ∀ a, (k0_off27 i) a + S1.size a ≤ S4096.size a
  k0_off29_inb : ∀ i : grid0.Coords, ∀ a, (k0_off29 i) a + S1.size a ≤ S4096.size a
  k0_off31_inb : ∀ i : grid0.Coords, ∀ a, (k0_off31 i) a + S1.size a ≤ S4096.size a
  k0_off33_inb : ∀ i : grid0.Coords, ∀ a, (k0_off33 i) a + S1.size a ≤ S4096.size a
  k0_off35_inb : ∀ i : grid0.Coords, ∀ a, (k0_off35 i) a + S1.size a ≤ S4096.size a
  k0_off37_inb : ∀ i : grid0.Coords, ∀ a, (k0_off37 i) a + S1.size a ≤ S4096.size a
  k0_off39_inb : ∀ i : grid0.Coords, ∀ a, (k0_off39 i) a + S1.size a ≤ S4096.size a
  k0_off41_inb : ∀ i : grid0.Coords, ∀ a, (k0_off41 i) a + S1.size a ≤ S4096.size a
  k0_off43_inb : ∀ i : grid0.Coords, ∀ a, (k0_off43 i) a + S1.size a ≤ S4096.size a
  k0_off45_inb : ∀ i : grid0.Coords, ∀ a, (k0_off45 i) a + S1.size a ≤ S4096.size a
  k0_off47_inb : ∀ i : grid0.Coords, ∀ a, (k0_off47 i) a + S1.size a ≤ S4096.size a
  k0_off49_inb : ∀ i : grid0.Coords, ∀ a, (k0_off49 i) a + S1.size a ≤ S4096.size a
  k0_off51_inb : ∀ i : grid0.Coords, ∀ a, (k0_off51 i) a + S1.size a ≤ S4096.size a
  k0_off53_inb : ∀ i : grid0.Coords, ∀ a, (k0_off53 i) a + S1.size a ≤ S4096.size a
  k0_off55_inb : ∀ i : grid0.Coords, ∀ a, (k0_off55 i) a + S1.size a ≤ S4096.size a
  k0_off57_inb : ∀ i : grid0.Coords, ∀ a, (k0_off57 i) a + S1.size a ≤ S4096.size a
  k0_off59_inb : ∀ i : grid0.Coords, ∀ a, (k0_off59 i) a + S1.size a ≤ S4096.size a
  k0_off61_inb : ∀ i : grid0.Coords, ∀ a, (k0_off61 i) a + S1.size a ≤ S4096.size a
  k0_off63_inb : ∀ i : grid0.Coords, ∀ a, (k0_off63 i) a + S1.size a ≤ S4096.size a
  k0_off65_inb : ∀ i : grid0.Coords, ∀ a, (k0_off65 i) a + S1.size a ≤ S4096.size a
  k0_off67_inb : ∀ i : grid0.Coords, ∀ a, (k0_off67 i) a + S1.size a ≤ S4096.size a
  k0_off69_inb : ∀ i : grid0.Coords, ∀ a, (k0_off69 i) a + S1.size a ≤ S4096.size a
  k0_off71_inb : ∀ i : grid0.Coords, ∀ a, (k0_off71 i) a + S1.size a ≤ S4096.size a
  k0_off73_inb : ∀ i : grid0.Coords, ∀ a, (k0_off73 i) a + S1.size a ≤ S4096.size a
  k0_off75_inb : ∀ i : grid0.Coords, ∀ a, (k0_off75 i) a + S1.size a ≤ S4096.size a
  k0_off77_inb : ∀ i : grid0.Coords, ∀ a, (k0_off77 i) a + S1.size a ≤ S4096.size a
  k0_off79_inb : ∀ i : grid0.Coords, ∀ a, (k0_off79 i) a + S1.size a ≤ S4096.size a
  k0_off81_inb : ∀ i : grid0.Coords, ∀ a, (k0_off81 i) a + S1.size a ≤ S4096.size a
  k0_off83_inb : ∀ i : grid0.Coords, ∀ a, (k0_off83 i) a + S1.size a ≤ S4096.size a
  k0_off85_inb : ∀ i : grid0.Coords, ∀ a, (k0_off85 i) a + S1.size a ≤ S4096.size a
  k0_off87_inb : ∀ i : grid0.Coords, ∀ a, (k0_off87 i) a + S1.size a ≤ S4096.size a
  k0_off89_inb : ∀ i : grid0.Coords, ∀ a, (k0_off89 i) a + S1.size a ≤ S4096.size a
  k0_off91_inb : ∀ i : grid0.Coords, ∀ a, (k0_off91 i) a + S1.size a ≤ S4096.size a
  k0_off93_inb : ∀ i : grid0.Coords, ∀ a, (k0_off93 i) a + S1.size a ≤ S4096.size a
  k0_off95_inb : ∀ i : grid0.Coords, ∀ a, (k0_off95 i) a + S1.size a ≤ S4096.size a
  k0_off97_inb : ∀ i : grid0.Coords, ∀ a, (k0_off97 i) a + S1.size a ≤ S4096.size a
  k0_off99_inb : ∀ i : grid0.Coords, ∀ a, (k0_off99 i) a + S1.size a ≤ S4096.size a
  k0_off101_inb : ∀ i : grid0.Coords, ∀ a, (k0_off101 i) a + S1.size a ≤ S4096.size a
  k0_off103_inb : ∀ i : grid0.Coords, ∀ a, (k0_off103 i) a + S1.size a ≤ S4096.size a
  k0_off105_inb : ∀ i : grid0.Coords, ∀ a, (k0_off105 i) a + S1.size a ≤ S4096.size a
  k0_off107_inb : ∀ i : grid0.Coords, ∀ a, (k0_off107 i) a + S1.size a ≤ S4096.size a
  k0_off109_inb : ∀ i : grid0.Coords, ∀ a, (k0_off109 i) a + S1.size a ≤ S4096.size a
  k0_off111_inb : ∀ i : grid0.Coords, ∀ a, (k0_off111 i) a + S1.size a ≤ S4096.size a
  k0_off113_inb : ∀ i : grid0.Coords, ∀ a, (k0_off113 i) a + S1.size a ≤ S4096.size a
  k0_off115_inb : ∀ i : grid0.Coords, ∀ a, (k0_off115 i) a + S1.size a ≤ S4096.size a
  k0_off117_inb : ∀ i : grid0.Coords, ∀ a, (k0_off117 i) a + S1.size a ≤ S4096.size a
  k0_off119_inb : ∀ i : grid0.Coords, ∀ a, (k0_off119 i) a + S1.size a ≤ S4096.size a
  k0_off121_inb : ∀ i : grid0.Coords, ∀ a, (k0_off121 i) a + S1.size a ≤ S4096.size a
  k0_off123_inb : ∀ i : grid0.Coords, ∀ a, (k0_off123 i) a + S1.size a ≤ S4096.size a
  k0_off125_inb : ∀ i : grid0.Coords, ∀ a, (k0_off125 i) a + S1.size a ≤ S4096.size a
  k0_off127_inb : ∀ i : grid0.Coords, ∀ a, (k0_off127 i) a + S1.size a ≤ S4096.size a
  k0_off129_inb : ∀ i : grid0.Coords, ∀ a, (k0_off129 i) a + S1.size a ≤ S4096.size a
  k0_off131_inb : ∀ i : grid0.Coords, ∀ a, (k0_off131 i) a + S1.size a ≤ S4096.size a
  k0_off133_inb : ∀ i : grid0.Coords, ∀ a, (k0_off133 i) a + S1.size a ≤ S4096.size a
  k0_off135_inb : ∀ i : grid0.Coords, ∀ a, (k0_off135 i) a + S1.size a ≤ S4096.size a
  k0_off137_inb : ∀ i : grid0.Coords, ∀ a, (k0_off137 i) a + S1.size a ≤ S4096.size a
  k0_off139_inb : ∀ i : grid0.Coords, ∀ a, (k0_off139 i) a + S1.size a ≤ S4096.size a
  k0_off141_inb : ∀ i : grid0.Coords, ∀ a, (k0_off141 i) a + S1.size a ≤ S4096.size a
  k0_off143_inb : ∀ i : grid0.Coords, ∀ a, (k0_off143 i) a + S1.size a ≤ S4096.size a
  k0_off145_inb : ∀ i : grid0.Coords, ∀ a, (k0_off145 i) a + S1.size a ≤ S4096.size a
  k0_off147_inb : ∀ i : grid0.Coords, ∀ a, (k0_off147 i) a + S1.size a ≤ S4096.size a
  k0_off149_inb : ∀ i : grid0.Coords, ∀ a, (k0_off149 i) a + S1.size a ≤ S4096.size a
  k0_off151_inb : ∀ i : grid0.Coords, ∀ a, (k0_off151 i) a + S1.size a ≤ S4096.size a
  k0_off153_inb : ∀ i : grid0.Coords, ∀ a, (k0_off153 i) a + S1.size a ≤ S4096.size a
  k0_off155_inb : ∀ i : grid0.Coords, ∀ a, (k0_off155 i) a + S1.size a ≤ S4096.size a
  k0_off157_inb : ∀ i : grid0.Coords, ∀ a, (k0_off157 i) a + S1.size a ≤ S4096.size a
  k0_off159_inb : ∀ i : grid0.Coords, ∀ a, (k0_off159 i) a + S1.size a ≤ S4096.size a
  k0_off161_inb : ∀ i : grid0.Coords, ∀ a, (k0_off161 i) a + S1.size a ≤ S4096.size a
  k0_off163_inb : ∀ i : grid0.Coords, ∀ a, (k0_off163 i) a + S1.size a ≤ S4096.size a
  k0_off165_inb : ∀ i : grid0.Coords, ∀ a, (k0_off165 i) a + S1.size a ≤ S4096.size a
  k0_off167_inb : ∀ i : grid0.Coords, ∀ a, (k0_off167 i) a + S1.size a ≤ S4096.size a
  k0_off169_inb : ∀ i : grid0.Coords, ∀ a, (k0_off169 i) a + S1.size a ≤ S4096.size a
  k0_off171_inb : ∀ i : grid0.Coords, ∀ a, (k0_off171 i) a + S1.size a ≤ S4096.size a
  k0_off173_inb : ∀ i : grid0.Coords, ∀ a, (k0_off173 i) a + S1.size a ≤ S4096.size a
  k0_off175_inb : ∀ i : grid0.Coords, ∀ a, (k0_off175 i) a + S1.size a ≤ S4096.size a
  k0_off177_inb : ∀ i : grid0.Coords, ∀ a, (k0_off177 i) a + S1.size a ≤ S4096.size a
  k0_off179_inb : ∀ i : grid0.Coords, ∀ a, (k0_off179 i) a + S1.size a ≤ S4096.size a
  k0_off181_inb : ∀ i : grid0.Coords, ∀ a, (k0_off181 i) a + S1.size a ≤ S4096.size a
  k0_off183_inb : ∀ i : grid0.Coords, ∀ a, (k0_off183 i) a + S1.size a ≤ S4096.size a
  k0_off185_inb : ∀ i : grid0.Coords, ∀ a, (k0_off185 i) a + S1.size a ≤ S4096.size a
  k0_off187_inb : ∀ i : grid0.Coords, ∀ a, (k0_off187 i) a + S1.size a ≤ S4096.size a
  k0_off189_inb : ∀ i : grid0.Coords, ∀ a, (k0_off189 i) a + S1.size a ≤ S4096.size a
  k0_off191_inb : ∀ i : grid0.Coords, ∀ a, (k0_off191 i) a + S1.size a ≤ S4096.size a
  k0_off193_inb : ∀ i : grid0.Coords, ∀ a, (k0_off193 i) a + S1.size a ≤ S4096.size a
  k0_off195_inb : ∀ i : grid0.Coords, ∀ a, (k0_off195 i) a + S1.size a ≤ S4096.size a
  k0_off197_inb : ∀ i : grid0.Coords, ∀ a, (k0_off197 i) a + S1.size a ≤ S4096.size a
  k0_off199_inb : ∀ i : grid0.Coords, ∀ a, (k0_off199 i) a + S1.size a ≤ S4096.size a
  k0_off201_inb : ∀ i : grid0.Coords, ∀ a, (k0_off201 i) a + S1.size a ≤ S4096.size a
  k0_off203_inb : ∀ i : grid0.Coords, ∀ a, (k0_off203 i) a + S1.size a ≤ S4096.size a
  k0_off205_inb : ∀ i : grid0.Coords, ∀ a, (k0_off205 i) a + S1.size a ≤ S4096.size a
  k0_off207_inb : ∀ i : grid0.Coords, ∀ a, (k0_off207 i) a + S1.size a ≤ S4096.size a
  k0_off209_inb : ∀ i : grid0.Coords, ∀ a, (k0_off209 i) a + S1.size a ≤ S4096.size a
  k0_off211_inb : ∀ i : grid0.Coords, ∀ a, (k0_off211 i) a + S1.size a ≤ S4096.size a
  k0_off213_inb : ∀ i : grid0.Coords, ∀ a, (k0_off213 i) a + S1.size a ≤ S4096.size a
  k0_off215_inb : ∀ i : grid0.Coords, ∀ a, (k0_off215 i) a + S1.size a ≤ S4096.size a
  k0_off217_inb : ∀ i : grid0.Coords, ∀ a, (k0_off217 i) a + S1.size a ≤ S4096.size a
  k0_off219_inb : ∀ i : grid0.Coords, ∀ a, (k0_off219 i) a + S1.size a ≤ S4096.size a
  k0_off221_inb : ∀ i : grid0.Coords, ∀ a, (k0_off221 i) a + S1.size a ≤ S4096.size a
  k0_off223_inb : ∀ i : grid0.Coords, ∀ a, (k0_off223 i) a + S1.size a ≤ S4096.size a
  k0_off225_inb : ∀ i : grid0.Coords, ∀ a, (k0_off225 i) a + S1.size a ≤ S4096.size a
  k0_off227_inb : ∀ i : grid0.Coords, ∀ a, (k0_off227 i) a + S1.size a ≤ S4096.size a
  k0_off229_inb : ∀ i : grid0.Coords, ∀ a, (k0_off229 i) a + S1.size a ≤ S4096.size a
  k0_off231_inb : ∀ i : grid0.Coords, ∀ a, (k0_off231 i) a + S1.size a ≤ S4096.size a
  k0_off233_inb : ∀ i : grid0.Coords, ∀ a, (k0_off233 i) a + S1.size a ≤ S4096.size a
  k0_off235_inb : ∀ i : grid0.Coords, ∀ a, (k0_off235 i) a + S1.size a ≤ S4096.size a
  k0_off237_inb : ∀ i : grid0.Coords, ∀ a, (k0_off237 i) a + S1.size a ≤ S4096.size a
  k0_off239_inb : ∀ i : grid0.Coords, ∀ a, (k0_off239 i) a + S1.size a ≤ S4096.size a
  k0_off241_inb : ∀ i : grid0.Coords, ∀ a, (k0_off241 i) a + S1.size a ≤ S4096.size a
  k0_off243_inb : ∀ i : grid0.Coords, ∀ a, (k0_off243 i) a + S1.size a ≤ S4096.size a
  k0_off245_inb : ∀ i : grid0.Coords, ∀ a, (k0_off245 i) a + S1.size a ≤ S4096.size a
  k0_off247_inb : ∀ i : grid0.Coords, ∀ a, (k0_off247 i) a + S1.size a ≤ S4096.size a
  k0_off249_inb : ∀ i : grid0.Coords, ∀ a, (k0_off249 i) a + S1.size a ≤ S4096.size a
  k0_off251_inb : ∀ i : grid0.Coords, ∀ a, (k0_off251 i) a + S1.size a ≤ S4096.size a
  k0_off253_inb : ∀ i : grid0.Coords, ∀ a, (k0_off253 i) a + S1.size a ≤ S4096.size a
  k0_off255_inb : ∀ i : grid0.Coords, ∀ a, (k0_off255 i) a + S1.size a ≤ S4096.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S128x15.size a ≤ S4096x15.size a
  hwx0_0 : ∀ i : grid0.Coords, EltTy.bits .f32 = 32 ∨ (Rect.block (s := S4096x15) S128x15.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S15x1024.size a ≤ S15x1024.size a
  hwx0_1 : ∀ i : grid0.Coords, EltTy.bits .f32 = 32 ∨ (Rect.block (s := S15x1024) S15x1024.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S128x1024.size a ≤ S4096x1024.size a
  hwx0_2 : ∀ i : grid0.Coords, EltTy.bits .f32 = 32 ∨ (Rect.block (s := S4096x1024) S128x1024.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S128x1024.size a ≤ S4096x1024.size a
  hwx0_3 : ∀ i : grid0.Coords, EltTy.bits .f32 = 32 ∨ (Rect.block (s := S4096x1024) S128x1024.size (cc0_transform_4 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x1024.size a
  hwx1_0 : ∀ i : grid1.Coords, EltTy.bits .f32 = 32 ∨ (Rect.block (s := S4096x1024) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S32000x1024.size a
  hwx1_1 : ∀ i : grid1.Coords, EltTy.bits .bf16 = 32 ∨ (Rect.block (s := S32000x1024) S256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S4096x32000.size a
  hwx1_2 : ∀ i : grid1.Coords, EltTy.bits .f32 = 32 ∨ (Rect.block (s := S4096x32000) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x15.size a ≤ S4096x15.size a
  hwx1_3 : ∀ i : grid1.Coords, EltTy.bits .f32 = 32 ∨ (Rect.block (s := S4096x15) S2048x15.size (cc1_transform_3 i) (hinb1_3 i)).WholeWords (EltTy.packing .f32)

variable [Facts₀]

abbrev cc0_scratch0 : DmaSems sig S128 := SemArray.consecutive 7 S128 hcc0_scratch0
def dot_S128x15_S15x1024_S128x1024_1_0_0_1_n_n : DotDims S128x15 S15x1024 S128x1024 where
  lhsContracting := [1]
  rhsContracting := [0]
  lhsNonContracting := [0]
  rhsNonContracting := [1]
  lhsBatch := []
  rhsBatch := []
  wf := dot_S128x15_S15x1024_S128x1024_1_0_0_1_n_n_wf
def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S2048x256_S256x15_S2048x15_1_0_0_1_n_n : DotDims S2048x256 S256x15 S2048x15 where
  lhsContracting := [1]
  rhsContracting := [0]
  lhsNonContracting := [0]
  rhsNonContracting := [1]
  lhsBatch := []
  rhsBatch := []
  wf := dot_S2048x256_S256x15_S2048x15_1_0_0_1_n_n_wf

abbrev spec0_0 : Pipeline.WinSpec sig grid0.rank :=
  Pipeline.WinSpec.ofSpec (Memref.whole main_v19) S128x15.size reads0_0 false false 2 stage0_0 sem0_0 nbuf0_0 hstage0_0

abbrev spec0_1 : Pipeline.WinSpec sig grid0.rank :=
  Pipeline.WinSpec.ofSpec (Memref.whole main_arg3) S15x1024.size reads0_1 false true 1 stage0_1 sem0_1 nbuf0_1 hstage0_1

abbrev spec0_2 : Pipeline.WinSpec sig grid0.rank :=
  Pipeline.WinSpec.ofSpec (Memref.whole main_v20_0) S128x1024.size reads0_2 true false 2 stage0_2 sem0_2 nbuf0_2 hstage0_2

abbrev spec0_3 : Pipeline.WinSpec sig grid0.rank :=
  Pipeline.WinSpec.ofSpec (Memref.whole main_v20_1) S128x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_1 | 1 => cc0_transform_2 | 2 => cc0_transform_3 | 3 => cc0_transform_4 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev win1_0 : Pipeline.Window sig grid1 :=
  Pipeline.Window.ofSpec (Memref.whole main_v1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_0) S2048x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24_1) S2048x15.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S4x1024 : Shape := ⟨2, ![4, 1024]⟩
abbrev S4x1024x1024 : Shape := ⟨3, ![4, 1024, 1024]⟩
abbrev S32000x1024 : Shape := ⟨2, ![32000, 1024]⟩
abbrev S15x1024 : Shape := ⟨2, ![15, 1024]⟩
abbrev S_ : Shape := ⟨0, ![]⟩
abbrev S4x1024x1 : Shape := ⟨3, ![4, 1024, 1]⟩
abbrev S15 : Shape := ⟨1, ![15]⟩
abbrev S1x1x15 : Shape := ⟨3, ![1, 1, 15]⟩
abbrev S4x1024x15 : Shape := ⟨3, ![4, 1024, 15]⟩
abbrev S4x1024x32000 : Shape := ⟨3, ![4, 1024, 32000]⟩
abbrev S32000 : Shape := ⟨1, ![32000]⟩
abbrev S32000x1 : Shape := ⟨2, ![32000, 1]⟩
abbrev S1x15 : Shape := ⟨2, ![1, 15]⟩
abbrev S32000x15 : Shape := ⟨2, ![32000, 15]⟩

abbrev nBuf : Space → Nat
  | .hbm => 91
  | .vmem => 0
  | .smem => 0
  | _ => 0

abbrev bufTy : (tb : Table) → Fin (tcTables nBuf tb) → BufTy
  | .hbm, ⟨0, _⟩ => ⟨S4x1024, .i32⟩
  | .hbm, ⟨1, _⟩ => ⟨S4x1024x1024, .f32⟩
  | .hbm, ⟨2, _⟩ => ⟨S32000x1024, .f32⟩
  | .hbm, ⟨3, _⟩ => ⟨S15x1024, .f32⟩
  | .hbm, ⟨4, _⟩ => ⟨S_, .i32⟩
  | .hbm, ⟨5, _⟩ => ⟨S4x1024, .i32⟩
  | .hbm, ⟨6, _⟩ => ⟨S4x1024, .i1⟩
  | .hbm, ⟨7, _⟩ => ⟨S_, .i32⟩
  | .hbm, ⟨8, _⟩ => ⟨S4x1024, .i32⟩
  | .hbm, ⟨9, _⟩ => ⟨S4x1024, .i32⟩
  | .hbm, ⟨10, _⟩ => ⟨S4x1024, .i32⟩
  | .hbm, ⟨11, _⟩ => ⟨S4x1024x1, .i32⟩
  | .hbm, ⟨12, _⟩ => ⟨S4x1024x1024, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x1024, .i32⟩
  | .hbm, ⟨17, _⟩ => ⟨S4x1024, .i32⟩
  | .hbm, ⟨18, _⟩ => ⟨S_, .i32⟩
  | .hbm, ⟨19, _⟩ => ⟨S4x1024, .i32⟩
  | .hbm, ⟨20, _⟩ => ⟨S4x1024, .i32⟩
  | .hbm, ⟨21, _⟩ => ⟨S15, .i32⟩
  | .hbm, ⟨22, _⟩ => ⟨S_, .i32⟩
  | .hbm, ⟨23, _⟩ => ⟨S15, .i32⟩
  | .hbm, ⟨24, _⟩ => ⟨S15, .i32⟩
  | .hbm, ⟨25, _⟩ => ⟨S_, .i32⟩
  | .hbm, ⟨26, _⟩ => ⟨S15, .i32⟩
  | .hbm, ⟨27, _⟩ => ⟨S15, .i32⟩
  | .hbm, ⟨28, _⟩ => ⟨S4x1024x1, .i32⟩
  | .hbm, ⟨29, _⟩ => ⟨S1x1x15, .i32⟩
  | .hbm, ⟨30, _⟩ => ⟨S4x1024x15, .i32⟩
  | .hbm, ⟨31, _⟩ => ⟨S4x1024x15, .i32⟩
  | .hbm, ⟨32, _⟩ => ⟨S4x1024x15, .i32⟩
  | .hbm, ⟨33, _⟩ => ⟨S_, .i32⟩
  | .hbm, ⟨34, _⟩ => ⟨S4x1024x15, .i32⟩
  | .hbm, ⟨35, _⟩ => ⟨S4x1024x15, .i32⟩
  | .hbm, ⟨36, _⟩ => ⟨S4x1024x15, .f32⟩
  | .hbm, ⟨37, _⟩ => ⟨S_, .f32⟩
  | .hbm, ⟨38, _⟩ => ⟨S4x1024x15, .f32⟩
  | .hbm, ⟨39, _⟩ => ⟨S4x1024x15, .f32⟩
  | .hbm, ⟨40, _⟩ => ⟨S_, .f32⟩
  | .hbm, ⟨41, _⟩ => ⟨S4x1024x15, .f32⟩
  | .hbm, ⟨42, _⟩ => ⟨S4x1024x15, .f32⟩
  | .hbm, ⟨43, _⟩ => ⟨S4x1024x1024, .f32⟩
  | .hbm, ⟨44, _⟩ => ⟨S4x1024x32000, .f32⟩
  | .hbm, ⟨45, _⟩ => ⟨S_, .f32⟩
  | .hbm, ⟨46, _⟩ => ⟨S4x1024, .f32⟩
  | .hbm, ⟨47, _⟩ => ⟨S_, .f32⟩
  | .hbm, ⟨48, _⟩ => ⟨S4x1024, .f32⟩
  | .hbm, ⟨49, _⟩ => ⟨S4x1024, .f32⟩
  | .hbm, ⟨50, _⟩ => ⟨S4x1024x1, .f32⟩
  | .hbm, ⟨51, _⟩ => ⟨S4x1024x32000, .f32⟩
  | .hbm, ⟨52, _⟩ => ⟨S4x1024x32000, .f32⟩
  | .hbm, ⟨53, _⟩ => ⟨S4x1024x32000, .f32⟩
  | .hbm, ⟨54, _⟩ => ⟨S_, .f32⟩
  | .hbm, ⟨55, _⟩ => ⟨S4x1024, .f32⟩
  | .hbm, ⟨56, _⟩ => ⟨S4x1024x1, .f32⟩
  | .hbm, ⟨57, _⟩ => ⟨S4x1024x32000, .f32⟩
  | .hbm, ⟨58, _⟩ => ⟨S4x1024x32000, .f32⟩
  | .hbm, ⟨59, _⟩ => ⟨S32000, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S32000, .i32⟩
  | .hbm, ⟨64, _⟩ => ⟨S32000, .i32⟩
  | .hbm, ⟨65, _⟩ => ⟨S_, .i32⟩
  | .hbm, ⟨66, _⟩ => ⟨S32000, .i32⟩
  | .hbm, ⟨67, _⟩ => ⟨S32000, .i32⟩
  | .hbm, ⟨68, _⟩ => ⟨S15, .i32⟩
  | .hbm, ⟨69, _⟩ => ⟨S_, .i32⟩
  | .hbm, ⟨70, _⟩ => ⟨S15, .i32⟩
  | .hbm, ⟨71, _⟩ => ⟨S15, .i32⟩
  | .hbm, ⟨72, _⟩ => ⟨S_, .i32⟩
  | .hbm, ⟨73, _⟩ => ⟨S15, .i32⟩
  | .hbm, ⟨74, _⟩ => ⟨S15, .i32⟩
  | .hbm, ⟨75, _⟩ => ⟨S32000x1, .i32⟩
  | .hbm, ⟨76, _⟩ => ⟨S1x15, .i32⟩
  | .hbm, ⟨77, _⟩ => ⟨S32000x15, .i32⟩
  | .hbm, ⟨78, _⟩ => ⟨S32000x15, .i32⟩
  | .hbm, ⟨79, _⟩ => ⟨S32000x15, .i32⟩
  | .hbm, ⟨80, _⟩ => ⟨S_, .i32⟩
  | .hbm, ⟨81, _⟩ => ⟨S32000x15, .i32⟩
  | .hbm, ⟨82, _⟩ => ⟨S32000x15, .i32⟩
  | .hbm, ⟨83, _⟩ => ⟨S32000x15, .f32⟩
  | .hbm, ⟨84, _⟩ => ⟨S_, .f32⟩
  | .hbm, ⟨85, _⟩ => ⟨S32000x15, .f32⟩
  | .hbm, ⟨86, _⟩ => ⟨S32000x15, .f32⟩
  | .hbm, ⟨87, _⟩ => ⟨S_, .f32⟩
  | .hbm, ⟨88, _⟩ => ⟨S32000x15, .f32⟩
  | .hbm, ⟨89, _⟩ => ⟨S32000x15, .f32⟩
  | .hbm, ⟨90, _⟩ => ⟨S4x1024x15, .f32⟩
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_c_11 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v39 : Ref sig .tc := ⟨.hbm, 67, rfl⟩
abbrev main_v40 : Ref sig .tc := ⟨.hbm, 68, rfl⟩
abbrev main_c_12 : Ref sig .tc := ⟨.hbm, 69, rfl⟩
abbrev main_v41 : Ref sig .tc := ⟨.hbm, 70, rfl⟩
abbrev main_v42 : Ref sig .tc := ⟨.hbm, 71, rfl⟩
abbrev main_c_13 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_14 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_15 : Ref sig .tc := ⟨.hbm, 84, rfl⟩
abbrev main_v53 : Ref sig .tc := ⟨.hbm, 85, rfl⟩
abbrev main_v54 : Ref sig .tc := ⟨.hbm, 86, rfl⟩
abbrev main_cst_16 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]

class Facts₀ : Prop where
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S_S15 : S_.BroadcastsInDim S15 (![] : Fin 0 → Fin S15.rank)
  bcast_S15_S1x1x15_2 : S15.BroadcastsInDim S1x1x15 (![2] : Fin 1 → Fin S1x1x15.rank)
  bcast_S4x1024x1_S4x1024x15_0_1_2 : S4x1024x1.BroadcastsInDim S4x1024x15 (![0, 1, 2] : Fin 3 → Fin S4x1024x15.rank)
  bcast_S1x1x15_S4x1024x15_0_1_2 : S1x1x15.BroadcastsInDim S4x1024x15 (![0, 1, 2] : Fin 3 → Fin S4x1024x15.rank)
  bcast_S_S4x1024x15 : S_.BroadcastsInDim S4x1024x15 (![] : Fin 0 → Fin S4x1024x15.rank)
  reducesTo_S4x1024x32000_S4x1024_d2 : S4x1024x32000.ReducesTo [2] S4x1024
  h_S_ : 0 < S_.numel
  bcast_S4x1024x1_S4x1024x32000_0_1_2 : S4x1024x1.BroadcastsInDim S4x1024x32000 (![0, 1, 2] : Fin 3 → Fin S4x1024x32000.rank)
  bcast_S_S32000 : S_.BroadcastsInDim S32000 (![] : Fin 0 → Fin S32000.rank)
  bcast_S32000_S32000x1_0 : S32000.BroadcastsInDim S32000x1 (![0] : Fin 1 → Fin S32000x1.rank)
  bcast_S15_S1x15_1 : S15.BroadcastsInDim S1x15 (![1] : Fin 1 → Fin S1x15.rank)
  bcast_S32000x1_S32000x15_0_1 : S32000x1.BroadcastsInDim S32000x15 (![0, 1] : Fin 2 → Fin S32000x15.rank)
  bcast_S1x15_S32000x15_0_1 : S1x15.BroadcastsInDim S32000x15 (![0, 1] : Fin 2 → Fin S32000x15.rank)
  bcast_S_S32000x15 : S_.BroadcastsInDim S32000x15 (![] : Fin 0 → Fin S32000x15.rank)
  gather_S32000x1024_S4x1024x1_S4x1024x1024_2_0_n_n_0_2_11024_wf : GatherDims.WF S32000x1024 S4x1024x1 S4x1024x1024 [2] [0] [] [0] [] 2 ![1, 1024]
  dot_S4x1024x15_S15x1024_S4x1024x1024_2_0_01_1_n_n_wf : DotDims.WF S4x1024x15 S15x1024 S4x1024x1024 [2] [0] [0, 1] [1] [] []
  dot_S4x1024x1024_S32000x1024_S4x1024x32000_2_1_01_0_n_n_wf : DotDims.WF S4x1024x1024 S32000x1024 S4x1024x32000 [2] [1] [0, 1] [0] [] []
  dot_S4x1024x32000_S32000x15_S4x1024x15_2_0_01_1_n_n_wf : DotDims.WF S4x1024x32000 S32000x15 S4x1024x15 [2] [0] [0, 1] [1] [] []

variable [Facts₀]

def gather_S32000x1024_S4x1024x1_S4x1024x1024_2_0_n_n_0_2_11024 : GatherDims S32000x1024 S4x1024x1 S4x1024x1024 where
  offsetDims := [2]
  collapsedSliceDims := [0]
  operandBatchingDims := []
  startIndicesBatchingDims := []
  startIndexMap := [0]
  indexVectorDim := 2
  sliceSizes := ![1, 1024]
  wf := gather_S32000x1024_S4x1024x1_S4x1024x1024_2_0_n_n_0_2_11024_wf
def dot_S4x1024x15_S15x1024_S4x1024x1024_2_0_01_1_n_n : DotDims S4x1024x15 S15x1024 S4x1024x1024 where
  lhsContracting := [2]
  rhsContracting := [0]
  lhsNonContracting := [0, 1]
  rhsNonContracting := [1]
  lhsBatch := []
  rhsBatch := []
  wf := dot_S4x1024x15_S15x1024_S4x1024x1024_2_0_01_1_n_n_wf
def dot_S4x1024x1024_S32000x1024_S4x1024x32000_2_1_01_0_n_n : DotDims S4x1024x1024 S32000x1024 S4x1024x32000 where
  lhsContracting := [2]
  rhsContracting := [1]
  lhsNonContracting := [0, 1]
  rhsNonContracting := [0]
  lhsBatch := []
  rhsBatch := []
  wf := dot_S4x1024x1024_S32000x1024_S4x1024x32000_2_1_01_0_n_n_wf
def dot_S4x1024x32000_S32000x15_S4x1024x15_2_0_01_1_n_n : DotDims S4x1024x32000 S32000x15 S4x1024x15 where
  lhsContracting := [2]
  rhsContracting := [0]
  lhsNonContracting := [0, 1]
  rhsNonContracting := [1]
  lhsBatch := []
  rhsBatch := []
  wf := dot_S4x1024x32000_S32000x15_S4x1024x15_2_0_01_1_n_n_wf

class Facts : Prop extends Facts₀ where

variable [Facts]
-- ==== Proof.K.Defs0.lean ====
/-
  Names shared by the first pallas_call's proof data and the launch: the id table the call prefetches, as contents;
  the call's own 128 DMA cells (one per gathered row); the one operand it leaves in HBM and copies rows out of.
-/
import proofs.«430590_j46402826666034_2_alg».proof.Proof.Gen.Kernel.Launch
import proofs.«430590_j46402826666034_2_alg».proof.Proof.Gen.Kernel.Skeleton
import Idealize.ShloMosaic.Lib.Pipeline.Frame
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-- The buffers of core `c` when a region is entered, reference by reference. -/
abbrev Vals (F : FTy → Type) [FloatOps F] : Type := (c : Dev nD) → (b : Ref sig .tc) → Buf (Elt F) ((c : Thread nD τ).loc b)

variable (V : Vals F)

/-- The prefetched id table's contents (the mesh has one device). -/
def tbl : pre0.Contents (Elt F) := fun j => V (0 : Dev nD) (pre0.ref j)

/-- The table is admissible whatever it holds: no index map of the call reads it. -/
abbrev adm0 : (pcfg0 (F := F)).Adm := ⟨tbl V, trivial⟩

/-- Every word of the id table names a row of the 32000-row embedding table. -/
def RowsOk : Prop := ∀ j, ((V (0 : Dev nD) main_v0) j).toNat < 32000

/-- The call's own DMA cells: semaphore `7 + r` completes the copy of gathered row `r`. -/
abbrev osem0 : Fin 128 → SemLoc sig := fun r => SemLoc.dma ⟨7 + r.val, by have := r.isLt; show 7 + r.val < 143; omega⟩

/-- The operand left in HBM whose rows the call copies: the embedding table. -/
def H0 : Finset (Ref sig .tc) := {main_arg2}

end Cert.Kernel.Hand

end
-- ==== Proof.K.Rows0.lean ====
/-
  The gathered block's staging buffer taken row by row: each of its 128 rows held by its own elements through the row's own
  view (the slice at [r, 0] of extent [1, 1024], squeezed), so that the 128 row copies in flight at once each find their
  destination whole; the rows carved out one after the other and put back, and a row landed at its payload restated over
  the block written whole.
-/
import proofs.«430590_j46402826666034_2_alg».proof.Proof.K.Defs0
import Idealize.ShloMosaic.Lib.Transfers
import Idealize.ShloMosaic.Lib.Writes

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The id table and the embedding table, as the body is handed them: whole buffers. -/
abbrev tbM : Memref sig .tc .smem S4096 .i32 := Memref.whole main_v0
abbrev wM : Memref sig .tc .hbm S32000x1024 .f32 := Memref.whole main_arg2

/-- Memref `M`'s buffer on core `c`: its contents type; and the buffer held whole at share `q` and contents `f`. -/
abbrev BufOf (c : Dev nD) {sp : Space} {S : Shape} {e : EltTy} (M : Memref sig .tc sp S e) : Type := Buf (Elt F) (M.view.loc (c : Thread nD τ))
abbrev ptAt (c : Dev nD) {sp : Space} {S : Shape} {e : EltTy} (M : Memref sig .tc sp S e) (q : PosShare TreeShare) (f : BufOf (F := F) c M) : sProp 𝕄 :=
  M.view.loc (c : Thread nD τ) ↦{q} f

/-! ## The gathered block, row by row -/

/-- Row `r` lies in the `[128, 1024]` block. -/
abbrev RowIn (r : ℕ) : Prop := ∀ a, (![r, 0] : Fin 2 → ℕ) a + S1x1024.size a ≤ S128x1024.size a

theorem rowIn_of_lt {r : ℕ} (h : r < 128) : RowIn r := by
  intro a; fin_cases a
  · show r + 1 ≤ 128; omega
  · show 0 + 1024 ≤ 1024; omega

variable (c : Dev nD) (arg5 : Memref sig .tc .vmem S128x1024 .f32)

/-- Row `r` of the block as the body names it: the slice at `[r, 0]` of extent `[1, 1024]`, its unit axis squeezed. -/
abbrev dstL (r : ℕ) (hin : RowIn r) : Memref sig .tc .vmem S1024 .f32 :=
  (arg5.slice (Rect.unit (s := S128x1024) ![r, 0] S1x1024.size hin) (fun _ => rfl)).squeeze S1024 squeezes_S1x1024_S1024

/-- The block's index under column `x` of row `r`, as that row view computes it. -/
def rowIdx (r : ℕ) (hin : RowIn r) (x : S1024.Idx) : S128x1024.Idx :=
  (Rect.unit (s := S128x1024) ![r, 0] S1x1024.size hin).emb (Shape.reshapeEquiv squeezes_S1x1024_S1024.numel_eq x)

/-- The buffer elements under the rows `n, n+1, …` of the block. -/
def restFrom (n : ℕ) : Finset (Idx (arg5.view.loc (c : Thread nD τ))) :=
  arg5.view.setOn (Finset.univ.filter fun y : S128x1024.Idx => n ≤ (y 0).val)

variable {c arg5}

/-- (A1) The row view's index is the block's index `rowIdx`. -/
theorem dstL_emb (r : ℕ) (hin : RowIn r) (x : S1024.Idx) : (dstL arg5 r hin).view.emb x = arg5.view.emb (rowIdx r hin x) := by
  rfl

/-- (A2) `rowIdx r x = (r, x 0)`. -/
theorem rowIdx_zero (r : ℕ) (hin : RowIn r) (x : S1024.Idx) : ((rowIdx r hin x) 0).val = r := by
  unfold rowIdx
  rw [Rect.emb_apply]
  have h0 : ((Shape.reshapeEquiv squeezes_S1x1024_S1024.numel_eq x) 0).val < 1 :=
    ((Shape.reshapeEquiv squeezes_S1x1024_S1024.numel_eq x) 0).isLt
  show r + 1 * ((Shape.reshapeEquiv squeezes_S1x1024_S1024.numel_eq x) 0).val = r
  omega
theorem rowIdx_one (r : ℕ) (hin : RowIn r) (x : S1024.Idx) : ((rowIdx r hin x) 1).val = (x 0).val := by
  unfold rowIdx
  rw [Rect.emb_apply]
  have h0 : ((Shape.reshapeEquiv squeezes_S1x1024_S1024.numel_eq x) 0).val < 1 :=
    ((Shape.reshapeEquiv squeezes_S1x1024_S1024.numel_eq x) 0).isLt
  have hm := Shape.rowMajor_reshapeEquiv squeezes_S1x1024_S1024.numel_eq x
  rw [Shape.rowMajor_val_two, Shape.rowMajor_val_one] at hm
  have hm' : ((Shape.reshapeEquiv squeezes_S1x1024_S1024.numel_eq x) 0).val * 1024
      + ((Shape.reshapeEquiv squeezes_S1x1024_S1024.numel_eq x) 1).val = (x 0).val := hm
  show 0 + 1 * ((Shape.reshapeEquiv squeezes_S1x1024_S1024.numel_eq x) 1).val = (x 0).val
  omega

/-- The row view's elements are the block's elements under row `n`. -/
private theorem rowSet_eq (n : ℕ) (hin : RowIn n) :
    (dstL arg5 n hin).view.set = arg5.view.setOn (Finset.univ.filter fun y : S128x1024.Idx => (y 0).val = n) := by
  show ((arg5.view.slice (Rect.unit (s := S128x1024) ![n, 0] S1x1024.size hin)).reshape S1024
    squeezes_S1x1024_S1024.numel_eq).set = _
  rw [View.set_reshape, View.set_slice]
  unfold View.setOn
  congr 1
  ext y
  rw [Rect.mem_set_unit, Finset.mem_filter]
  constructor
  · intro h
    have h0 : n ≤ (y 0).val ∧ (y 0).val < n + 1 := h 0
    exact ⟨Finset.mem_univ _, by omega⟩
  · rintro ⟨-, h⟩ a
    match a with
    | ⟨0, _⟩ => show n ≤ (y 0).val ∧ (y 0).val < n + 1; omega
    | ⟨1, _⟩ => show 0 ≤ (y 1).val ∧ (y 1).val < 0 + 1024; have h1 : (y 1).val < 1024 := (y 1).isLt; exact ⟨Nat.zero_le _, by omega⟩

/-- The rows from `n` on are row `n` and the rows from `n + 1` on, -/
private theorem restFrom_succ (n : ℕ) (hin : RowIn n) :
    restFrom c arg5 n = (dstL arg5 n hin).view.set ∪ restFrom c arg5 (n + 1) := by
  rw [rowSet_eq]
  unfold restFrom View.setOn
  rw [← Finset.map_union]
  congr 1
  ext y
  simp only [Finset.mem_filter, Finset.mem_union, Finset.mem_univ, true_and]
  omega

/-- disjointly. -/
private theorem restFrom_disj (n : ℕ) (hin : RowIn n) :
    Disjoint (dstL arg5 n hin).view.set (restFrom c arg5 (n + 1)) := by
  rw [rowSet_eq]
  unfold restFrom View.setOn
  rw [Finset.disjoint_map, Finset.disjoint_filter]
  intro y _ h1 h2
  omega

private theorem restFrom_zero : restFrom c arg5 0 = arg5.view.set := by
  unfold restFrom
  rw [Finset.filter_true_of_mem (fun _ _ => Nat.zero_le _)]
  rfl

private theorem restFrom_last : restFrom c arg5 128 = ∅ := by
  unfold restFrom View.setOn
  rw [Finset.filter_false_of_mem (fun y _ => by have h0 : (y 0).val < 128 := (y 0).isLt; show ¬ 128 ≤ (y 0).val; omega)]
  rfl

/-- (A3) All rows are the block. -/
theorem rows_start (f : BufOf (F := F) c arg5) :
    (arg5.view.loc (c : Thread nD τ) ↦[arg5.view.set]{fullShare} f : sProp 𝕄) ⊢ arg5.view.loc (c : Thread nD τ) ↦[restFrom c arg5 0]{fullShare} f := by
  rw [restFrom_zero]
theorem rows_end (f : BufOf (F := F) c arg5) :
    (arg5.view.loc (c : Thread nD τ) ↦[restFrom c arg5 0]{fullShare} f : sProp 𝕄) ⊢ arg5.view.loc (c : Thread nD τ) ↦[arg5.view.set]{fullShare} f := by
  rw [restFrom_zero]

/-- (A4) Row `n` carved out of the rows from `n` on, held by its own elements through its own view; -/
theorem rows_carve (f : BufOf (F := F) c arg5) (n n' : ℕ) (hin : RowIn n) (h : n' = n + 1) :
    (arg5.view.loc (c : Thread nD τ) ↦[restFrom c arg5 n]{fullShare} f : sProp 𝕄)
      ⊢ iprop(((dstL arg5 n hin).view.loc (c : Thread nD τ) ↦[(dstL arg5 n hin).view.set]{fullShare} f)
          ∗ (arg5.view.loc (c : Thread nD τ) ↦[restFrom c arg5 n']{fullShare} f)) := by
  subst h
  rw [restFrom_succ n hin]
  exact (pointsTo_union (restFrom_disj n hin)).mp

/-- (A5) and put back (same contents on both). -/
theorem rows_join (f : BufOf (F := F) c arg5) (n n' : ℕ) (hin : RowIn n) (h : n' = n + 1) :
    (arg5.view.loc (c : Thread nD τ) ↦[restFrom c arg5 n']{fullShare} f : sProp 𝕄)
      ⊢ iprop(((dstL arg5 n hin).view.loc (c : Thread nD τ) ↦[(dstL arg5 n hin).view.set]{fullShare} f)
          -∗ (arg5.view.loc (c : Thread nD τ) ↦[restFrom c arg5 n]{fullShare} f)) := by
  subst h
  rw [restFrom_succ n hin]
  exact wand_intro_left (pointsTo_union (restFrom_disj n hin)).mpr

/-- (A6) Past the last row nothing is left. -/
theorem rows_nil_elim (f : BufOf (F := F) c arg5) :
    (arg5.view.loc (c : Thread nD τ) ↦[restFrom c arg5 128]{fullShare} f : sProp 𝕄) ⊢ emp := by
  rw [restFrom_last, pointsTo_empty]
theorem rows_nil_intro (f : BufOf (F := F) c arg5) :
    (emp : sProp 𝕄) ⊢ arg5.view.loc (c : Thread nD τ) ↦[restFrom c arg5 128]{fullShare} f := by
  rw [restFrom_last, pointsTo_empty]

/-- (A7) A row landed at `pay` (written whole through the row's own view over any contents `f`) holds, on its elements,
    what the block `X` written whole through the block's view holds, when `pay` is row `n` of `X`. -/
theorem rows_land (f : BufOf (F := F) c arg5) (X : S128x1024.Idx → Elt F .f32) (n : ℕ) (hin : RowIn n) (pay : S1024.Idx → Elt F .f32)
    (hpay : ∀ x : S1024.Idx, pay x = X (rowIdx n hin x)) :
    ((dstL arg5 n hin).view.loc (c : Thread nD τ) ↦[(dstL arg5 n hin).view.set]{fullShare} (dstL arg5 n hin).view.write (Elt F) f pay Finset.univ : sProp 𝕄)
      ⊢ (dstL arg5 n hin).view.loc (c : Thread nD τ) ↦[(dstL arg5 n hin).view.set]{fullShare} arg5.view.write (Elt F) f X Finset.univ := by
  have hc : ∀ i ∈ (dstL arg5 n hin).view.set,
      (dstL arg5 n hin).view.write (Elt F) f pay Finset.univ i = arg5.view.write (Elt F) f X Finset.univ i := by
    intro i hi
    obtain ⟨x, -, rfl⟩ := Finset.mem_map.1 hi
    rw [View.write_emb_of_mem _ _ (Finset.mem_univ x)]
    show _ = arg5.view.write (Elt F) f X Finset.univ ((dstL arg5 n hin).view.emb x)
    rw [dstL_emb n hin x, View.write_emb_of_mem _ _ (Finset.mem_univ _), hpay x]
  rw [pointsTo_congr hc]

end Cert.Kernel.Hand

end
-- ==== Proof.K.RowWrites.lean ====
/-
  Rows of a two-axis buffer written one at a time through squeezed row views.

  A buffer of shape [A, B] is seen through a placement; row `r` of it, cut out as the [1, B] rectangle at
  offsets (r, 0) and squeezed to [B], is a placement of [B] whose entry `q` sits where the buffer's entry
  (r, q) sits. So reading a row view is reading the buffer's row; writing a vector through a row view
  changes that row to the vector and no other row; and after the rows 0, …, n - 1 have been written, in
  that order, with vectors that agree entrywise with a function G of (row, column), the buffer reads as
  G on those rows, whatever it held before.
-/
import proofs.«430590_j46402826666034_2_alg».proof.Proof.Gen.Kernel
import Idealize.ShloMosaic.Lib.Pipeline.Value
import Idealize.ShloMosaic.Lib.ValueIdx

noncomputable section

namespace Cert.Kernel.Hand

open Idealize.ShloMosaic Idealize.ShloMosaic.ValueIdx

section Generic

variable {sig : RefSig} {κ : Kind} {sp : Space} {e : EltTy} {A B : ℕ} (Val : EltTy → Type)

/-- Entry `q` of the row view at offsets `o = (r, 0)` sits where the buffer's entry `(r, q)` sits. -/
theorem rowView_emb (M : Memref sig κ sp ⟨2, ![A, B]⟩ e) (o : Fin 2 → ℕ)
    (inb : ∀ a, o a + (⟨2, ![1, B]⟩ : Shape).size a ≤ (⟨2, ![A, B]⟩ : Shape).size a)
    (hs : ∀ a, (Rect.unit (s := ⟨2, ![A, B]⟩) o (⟨2, ![1, B]⟩ : Shape).size inb).stride a = 1)
    (hsq : (⟨2, ![1, B]⟩ : Shape).Squeezes ⟨1, ![B]⟩)
    (r : Fin A) (ho0 : o 0 = r.val) (ho1 : o 1 = 0) (q : Fin B) :
    ((M.slice (Rect.unit (s := ⟨2, ![A, B]⟩) o (⟨2, ![1, B]⟩ : Shape).size inb) hs).squeeze ⟨1, ![B]⟩ hsq).view.emb (ix1 q)
      = M.view.emb (ix2 r q) := by
  show M.view.emb ((Rect.unit (s := ⟨2, ![A, B]⟩) o (⟨2, ![1, B]⟩ : Shape).size inb).emb
      (Shape.reshapeEquiv hsq.numel_eq (ix1 q))) = _
  have h1 : Shape.reshapeEquiv hsq.numel_eq (ix1 q) = (ix2 (0 : Fin 1) q : (⟨2, ![1, B]⟩ : Shape).Idx) :=
    Shape.reshapeEquiv_eq_of_rowMajor _ (by
      rw [Shape.rowMajor_val_two, Shape.rowMajor_val_one]
      show 0 * B + q.val = q.val
      rw [Nat.zero_mul, Nat.zero_add])
  rw [h1]
  refine congrArg M.view.emb (funext fun a => Fin.ext ?_)
  rw [Rect.emb_apply]
  match a with
  | ⟨0, _⟩ =>
    show o 0 + 1 * 0 = r.val
    rw [ho0, Nat.mul_zero, Nat.add_zero]
  | ⟨1, _⟩ =>
    show o 1 + 1 * q.val = q.val
    rw [ho1, Nat.one_mul, Nat.zero_add]

/-- Reading a row view is reading the buffer's row. -/
theorem read_rowView (M : Memref sig κ sp ⟨2, ![A, B]⟩ e) (o : Fin 2 → ℕ)
    (inb : ∀ a, o a + (⟨2, ![1, B]⟩ : Shape).size a ≤ (⟨2, ![A, B]⟩ : Shape).size a)
    (hs : ∀ a, (Rect.unit (s := ⟨2, ![A, B]⟩) o (⟨2, ![1, B]⟩ : Shape).size inb).stride a = 1)
    (hsq : (⟨2, ![1, B]⟩ : Shape).Squeezes ⟨1, ![B]⟩)
    (r : Fin A) (ho0 : o 0 = r.val) (ho1 : o 1 = 0) (g : M.view.ty.Contents Val) (q : Fin B) :
    ((M.slice (Rect.unit (s := ⟨2, ![A, B]⟩) o (⟨2, ![1, B]⟩ : Shape).size inb) hs).squeeze ⟨1, ![B]⟩ hsq).view.read Val g (ix1 q)
      = M.view.read Val g (ix2 r q) := by
  rw [View.read_apply, View.read_apply, rowView_emb M o inb hs hsq r ho0 ho1 q]

/-- Writing a vector through a row view: that row reads as the vector, every other row as before. -/
theorem read_write_rowView (M : Memref sig κ sp ⟨2, ![A, B]⟩ e) (o : Fin 2 → ℕ)
    (inb : ∀ a, o a + (⟨2, ![1, B]⟩ : Shape).size a ≤ (⟨2, ![A, B]⟩ : Shape).size a)
    (hs : ∀ a, (Rect.unit (s := ⟨2, ![A, B]⟩) o (⟨2, ![1, B]⟩ : Shape).size inb).stride a = 1)
    (hsq : (⟨2, ![1, B]⟩ : Shape).Squeezes ⟨1, ![B]⟩)
    (r : Fin A) (ho0 : o 0 = r.val) (ho1 : o 1 = 0)
    (f : M.view.ty.Contents Val) (p : (⟨1, ![B]⟩ : Shape).Idx → Val e) (r' : Fin A) (q : Fin B) :
    M.view.read Val
        (((M.slice (Rect.unit (s := ⟨2, ![A, B]⟩) o (⟨2, ![1, B]⟩ : Shape).size inb) hs).squeeze ⟨1, ![B]⟩ hsq).view.write Val f p Finset.univ)
        (ix2 r' q)
      = if r' = r then p (ix1 q) else M.view.read Val f (ix2 r' q) := by
  by_cases h : r' = r
  · subst h
    rw [if_pos rfl, ← read_rowView Val M o inb hs hsq r' ho0 ho1 _ q]
    exact View.read_write_of_mem _ _ (Finset.mem_univ _)
  · rw [if_neg h, View.read_apply, View.read_apply]
    refine congrArg _ (View.write_of_not_mem _ _ _ fun hmem => h ?_)
    obtain ⟨x, _, hx⟩ := Finset.mem_map.1 hmem
    obtain ⟨q', rfl⟩ : ∃ q' : Fin B, x = ix1 q' := ⟨x 0, eq_ix1 x⟩
    rw [rowView_emb M o inb hs hsq r ho0 ho1 q'] at hx
    have := congrFun (M.view.emb.injective hx) 0
    exact this.symm

/-- One more row written: if the buffer read as `G` on rows below `n` and the vector written through row
    `n`'s view agrees with `G` on row `n`, the buffer reads as `G` on rows below `n + 1`. -/
theorem read_rows_step (M : Memref sig κ sp ⟨2, ![A, B]⟩ e) (o : Fin 2 → ℕ)
    (inb : ∀ a, o a + (⟨2, ![1, B]⟩ : Shape).size a ≤ (⟨2, ![A, B]⟩ : Shape).size a)
    (hs : ∀ a, (Rect.unit (s := ⟨2, ![A, B]⟩) o (⟨2, ![1, B]⟩ : Shape).size inb).stride a = 1)
    (hsq : (⟨2, ![1, B]⟩ : Shape).Squeezes ⟨1, ![B]⟩)
    (G : Fin A → Fin B → Val e) (n : ℕ) (hn : n < A) (ho0 : o 0 = n) (ho1 : o 1 = 0)
    (g : M.view.ty.Contents Val) (p : (⟨1, ![B]⟩ : Shape).Idx → Val e)
    (hg : ∀ (r' : Fin A) (q : Fin B), r'.val < n → M.view.read Val g (ix2 r' q) = G r' q)
    (hp : ∀ q : Fin B, p (ix1 q) = G ⟨n, hn⟩ q) (r' : Fin A) (q : Fin B) (hr : r'.val < n + 1) :
    M.view.read Val
        (((M.slice (Rect.unit (s := ⟨2, ![A, B]⟩) o (⟨2, ![1, B]⟩ : Shape).size inb) hs).squeeze ⟨1, ![B]⟩ hsq).view.write Val g p Finset.univ)
        (ix2 r' q)
      = G r' q := by
  rw [read_write_rowView Val M o inb hs hsq ⟨n, hn⟩ ho0 ho1 g p r' q]
  by_cases h : r' = ⟨n, hn⟩
  · rw [if_pos h, hp q, h]
  · rw [if_neg h]
    exact hg r' q (by
      have : r'.val ≠ n := fun hv => h (Fin.ext hv)
      omega)

/-! ### The rows written in turn -/

theorem rowV_inb (r : Fin A) :
    ∀ a, (![r.val, 0] : Fin 2 → ℕ) a + (⟨2, ![1, B]⟩ : Shape).size a ≤ (⟨2, ![A, B]⟩ : Shape).size a := by
  intro a
  match a with
  | ⟨0, _⟩ => show r.val + 1 ≤ A; have := r.isLt; omega
  | ⟨1, _⟩ => show 0 + B ≤ B; omega

/-- Row `r`'s view: the [1, B] rectangle at offsets (r, 0), squeezed to [B]. -/
abbrev rowV (M : Memref sig κ sp ⟨2, ![A, B]⟩ e) (hsq : (⟨2, ![1, B]⟩ : Shape).Squeezes ⟨1, ![B]⟩) (r : Fin A) :
    View sig κ sp ⟨1, ![B]⟩ e :=
  ((M.slice (Rect.unit (s := ⟨2, ![A, B]⟩) ![r.val, 0] (⟨2, ![1, B]⟩ : Shape).size (rowV_inb r)) (fun _ => rfl)).squeeze
    ⟨1, ![B]⟩ hsq).view

/-- The contents after rows `0, …, n - 1` have been written in that order, row `r` with the vector `P r`. -/
def rowsTo (M : Memref sig κ sp ⟨2, ![A, B]⟩ e) (hsq : (⟨2, ![1, B]⟩ : Shape).Squeezes ⟨1, ![B]⟩)
    (f : M.view.ty.Contents Val) (P : Fin A → (⟨1, ![B]⟩ : Shape).Idx → Val e) : ℕ → M.view.ty.Contents Val
  | 0 => f
  | n + 1 => if h : n < A then (rowV M hsq ⟨n, h⟩).write Val (rowsTo M hsq f P n) (P ⟨n, h⟩) Finset.univ
      else rowsTo M hsq f P n

/-- After rows `0, …, n - 1`: those rows read as their vectors, the others as before. -/
theorem read_rowsTo (M : Memref sig κ sp ⟨2, ![A, B]⟩ e) (hsq : (⟨2, ![1, B]⟩ : Shape).Squeezes ⟨1, ![B]⟩)
    (f : M.view.ty.Contents Val) (P : Fin A → (⟨1, ![B]⟩ : Shape).Idx → Val e) (n : ℕ) (hn : n ≤ A)
    (r' : Fin A) (q : Fin B) :
    M.view.read Val (rowsTo Val M hsq f P n) (ix2 r' q)
      = if r'.val < n then P r' (ix1 q) else M.view.read Val f (ix2 r' q) := by
  induction n with
  | zero => rw [if_neg (Nat.not_lt_zero _)]; rfl
  | succ n ih =>
    have hlt : n < A := hn
    have ih' := ih (Nat.le_of_lt hlt)
    have e1 : rowsTo Val M hsq f P (n + 1)
        = (rowV M hsq ⟨n, hlt⟩).write Val (rowsTo Val M hsq f P n) (P ⟨n, hlt⟩) Finset.univ := dif_pos hlt
    rw [e1]
    refine (read_write_rowView Val M ![n, 0] (rowV_inb ⟨n, hlt⟩) (fun _ => rfl) hsq ⟨n, hlt⟩ rfl rfl _ _ r' q).trans ?_
    rw [ih']
    by_cases h : r' = ⟨n, hlt⟩
    · subst h
      rw [if_pos rfl, if_pos (Nat.lt_succ_self n)]
    · have hv : r'.val ≠ n := fun hv => h (Fin.ext hv)
      rw [if_neg h]
      by_cases h2 : r'.val < n
      · rw [if_pos h2, if_pos (by omega)]
      · rw [if_neg h2, if_neg (by omega)]

/-- After all the rows: the buffer reads as the vectors, whatever it held. -/
theorem read_rowsTo_all (M : Memref sig κ sp ⟨2, ![A, B]⟩ e) (hsq : (⟨2, ![1, B]⟩ : Shape).Squeezes ⟨1, ![B]⟩)
    (f : M.view.ty.Contents Val) (P : Fin A → (⟨1, ![B]⟩ : Shape).Idx → Val e) (r' : Fin A) (q : Fin B) :
    M.view.read Val (rowsTo Val M hsq f P A) (ix2 r' q) = P r' (ix1 q) := by
  rw [read_rowsTo Val M hsq f P A (Nat.le_refl A) r' q, if_pos r'.isLt]

end Generic

/-! ### This unit's buffers -/

section Unit

open Cert.Kernel Cert.Kernel.Gen

variable {F : FTy → Type} [FloatOps F]

/-- The staging buffer's row view at offsets `o = (r, 0)`, written: that row reads as the vector, the others as before. -/
theorem stage_read_write_row (arg5 : Memref sig .tc .vmem S128x1024 .f32) (o : Fin 2 → ℕ)
    (inb : ∀ a, o a + S1x1024.size a ≤ S128x1024.size a)
    (hs : ∀ a, (Rect.unit (s := S128x1024) o S1x1024.size inb).stride a = 1)
    (r : Fin 128) (ho0 : o 0 = r.val) (ho1 : o 1 = 0)
    (f : arg5.view.ty.Contents (Elt F)) (p : S1024.Idx → Elt F .f32) (r' : Fin 128) (q : Fin 1024) :
    arg5.view.read (Elt F)
        (((arg5.slice (Rect.unit (s := S128x1024) o S1x1024.size inb) hs).squeeze S1024 squeezes_S1x1024_S1024).view.write
          (Elt F) f p Finset.univ) (ix2 r' q)
      = if r' = r then p (ix1 q) else arg5.view.read (Elt F) f (ix2 r' q) :=
  read_write_rowView (Elt F) arg5 o inb hs squeezes_S1x1024_S1024 r ho0 ho1 f p r' q

/-- One more row of the staging buffer written (rows in the order 0, 1, …). -/
theorem stage_rows_step (arg5 : Memref sig .tc .vmem S128x1024 .f32) (o : Fin 2 → ℕ)
    (inb : ∀ a, o a + S1x1024.size a ≤ S128x1024.size a)
    (hs : ∀ a, (Rect.unit (s := S128x1024) o S1x1024.size inb).stride a = 1)
    (G : Fin 128 → Fin 1024 → Elt F .f32) (n : ℕ) (hn : n < 128) (ho0 : o 0 = n) (ho1 : o 1 = 0)
    (g : arg5.view.ty.Contents (Elt F)) (p : S1024.Idx → Elt F .f32)
    (hg : ∀ (r' : Fin 128) (q : Fin 1024), r'.val < n → arg5.view.read (Elt F) g (ix2 r' q) = G r' q)
    (hp : ∀ q : Fin 1024, p (ix1 q) = G ⟨n, hn⟩ q) (r' : Fin 128) (q : Fin 1024) (hr : r'.val < n + 1) :
    arg5.view.read (Elt F)
        (((arg5.slice (Rect.unit (s := S128x1024) o S1x1024.size inb) hs).squeeze S1024 squeezes_S1x1024_S1024).view.write
          (Elt F) g p Finset.univ) (ix2 r' q)
      = G r' q :=
  read_rows_step (Elt F) arg5 o inb hs squeezes_S1x1024_S1024 G n hn ho0 ho1 g p hg hp r' q hr

/-- The table's row view at a row given by a word: entry `q` is the table's entry `(row, q)`. -/
theorem table_row_read (o : Fin 2 → ℕ) (inb : ∀ a, o a + S1x1024.size a ≤ S32000x1024.size a)
    (hs : ∀ a, (Rect.unit (s := S32000x1024) o S1x1024.size inb).stride a = 1)
    (r : Fin 32000) (ho0 : o 0 = r.val) (ho1 : o 1 = 0)
    (fw : (Memref.whole main_arg2 : Memref sig .tc .hbm S32000x1024 .f32).view.ty.Contents (Elt F)) (q : Fin 1024) :
    (((Memref.whole main_arg2 : Memref sig .tc .hbm S32000x1024 .f32).slice
        (Rect.unit (s := S32000x1024) o S1x1024.size inb) hs).squeeze S1024 squeezes_S1x1024_S1024).view.read (Elt F) fw (ix1 q)
      = (Memref.whole main_arg2 : Memref sig .tc .hbm S32000x1024 .f32).view.read (Elt F) fw (ix2 r q) :=
  read_rowView (Elt F) (Memref.whole main_arg2 : Memref sig .tc .hbm S32000x1024 .f32) o inb hs squeezes_S1x1024_S1024 r ho0 ho1 fw q

/-- Reading the whole table's view is reading its contents. -/
theorem table_whole_read
    (fw : (Memref.whole main_arg2 : Memref sig .tc .hbm S32000x1024 .f32).view.ty.Contents (Elt F)) (y : S32000x1024.Idx) :
    (Memref.whole main_arg2 : Memref sig .tc .hbm S32000x1024 .f32).view.read (Elt F) fw y = fw y := rfl

end Unit

end Cert.Kernel.Hand

end
-- ==== Proof.Spec.lean ====
/-
  What the four results are, index by index, as functions of the argument arrays over the extended reals.
  Rows n = (b, s) of the flattened batch; `ids` the id words, `x` the activations, `w` the embedding table, `wb` the bit table.
  * result 0: row `ids[b,s]` of the table: `w[ids[b,s], d]`;
  * result 1: `∑ₖ code(ids[b,s], k) · wb[k, d]`, where `code(v, k) = ±1` is bit `14 - k` of the id clipped to [0, 31999];
  * result 2: the logits `L[b,s,v] = ∑_d x[b,s,d] · w[v,d]`;
  * result 3: `∑_v softmax(L[b,s,·])_v · code(v, k)`, the softmax as `exp(L_v - M) / ∑_v' exp(L_v' - M)`, `M` the row's maximum.
-/
import Idealize.ShloMosaic.PureOps.Ideal
import Idealize.ShloMosaic.Lib.ValueIdx

noncomputable section

namespace Cert.Proof.Spec

open Idealize.ShloMosaic Idealize.ShloMosaic.ValueIdx

abbrev S4x1024 : Shape := ⟨2, ![4, 1024]⟩
abbrev S4x1024x1024 : Shape := ⟨3, ![4, 1024, 1024]⟩
abbrev S32000x1024 : Shape := ⟨2, ![32000, 1024]⟩
abbrev S15x1024 : Shape := ⟨2, ![15, 1024]⟩
abbrev S4x1024x32000 : Shape := ⟨3, ![4, 1024, 32000]⟩
abbrev S4x1024x15 : Shape := ⟨3, ![4, 1024, 15]⟩

/-- The table row an id word selects: the word's value when it is below 32000 (which the precondition says of every id). -/
def row (v : BitVec 32) : Fin 32000 := ⟨v.toNat % 32000, Nat.mod_lt _ (by norm_num)⟩

theorem row_val_of_lt (v : BitVec 32) (h : v.toNat < 32000) : (row v).val = v.toNat := Nat.mod_eq_of_lt h

/-- An id as a natural number after clipping to [0, 31999] (signed reading). -/
def clipNat (v : BitVec 32) : ℕ := (min (31999 : ℤ) (max 0 v.toInt)).toNat

/-- The ±1 code of bit `14 - k` (most significant of 15 first) of the clipped id. -/
def code (v : BitVec 32) (k : Fin 15) : EReal := if (clipNat v).testBit (14 - k.val) then 1 else -1

/-- Result 0: the gathered table rows. -/
def G0 (ids : S4x1024.Idx → BitVec 32) (w : S32000x1024.Idx → EReal) : S4x1024x1024.Idx → EReal :=
  fun i => w (ix2 (row (ids (ix2 (i 0) (i 1)))) (i 2))

/-- Result 1: the bit codes of the id against the bit table. -/
def G1 (ids : S4x1024.Idx → BitVec 32) (wb : S15x1024.Idx → EReal) : S4x1024x1024.Idx → EReal :=
  fun i => ∑ k : Fin 15, code (ids (ix2 (i 0) (i 1))) k * wb (ix2 k (i 2))

/-- Result 2: the logits. -/
def G2 (x : S4x1024x1024.Idx → EReal) (w : S32000x1024.Idx → EReal) : S4x1024x32000.Idx → EReal :=
  fun i => ∑ d : Fin 1024, x (ix3 (i 0) (i 1) d) * w (ix2 (i 2) d)

/-- The maximum of a row of logits. -/
def rowMax (x : S4x1024x1024.Idx → EReal) (w : S32000x1024.Idx → EReal) (b : Fin 4) (s : Fin 1024) : EReal :=
  Finset.univ.sup fun v : Fin 32000 => G2 x w (ix3 b s v)

/-- The softmax denominator of a row. -/
def rowSum (x : S4x1024x1024.Idx → EReal) (w : S32000x1024.Idx → EReal) (b : Fin 4) (s : Fin 1024) : EReal :=
  ∑ v : Fin 32000, Ideal.exp (G2 x w (ix3 b s v) - rowMax x w b s)

/-- Result 3: the softmax of a row of logits against the vocabulary's bit codes. -/
def G3 (x : S4x1024x1024.Idx → EReal) (w : S32000x1024.Idx → EReal) : S4x1024x15.Idx → EReal :=
  fun i => ∑ v : Fin 32000,
    Ideal.div (Ideal.exp (G2 x w (ix3 (i 0) (i 1) v) - rowMax x w (i 0) (i 1))) (rowSum x w (i 0) (i 1))
      * code (BitVec.ofNat 32 v.val) (i 2)

end Cert.Proof.Spec

end
-- ==== Proof.K.Gath0.lean ====
/-
  The gathered block as ONE function of the id table and the embedding table: row r of the block at grid point i is the
  embedding table's row named by the id word 128·i + r, spelled through the same row views the kernel's copies move.
-/
import proofs.«430590_j46402826666034_2_alg».proof.Proof.K.Rows0
import proofs.«430590_j46402826666034_2_alg».proof.Proof.K.RowWrites
import proofs.«430590_j46402826666034_2_alg».proof.Proof.Spec
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx

/-- A table word below 32000 names a row of the embedding table. -/
theorem row_inb (v : BitVec 32) (h : v.toNat < 32000) :
    ∀ a : Fin 2, (![v.toNat, 0] : Fin 2 → Nat) a + S1x1024.size a ≤ S32000x1024.size a := by
  intro a; fin_cases a
  · show v.toNat + 1 ≤ 32000; omega
  · show 0 + 1024 ≤ 1024; omega

/-- The id table's offset for row `r` at grid point `i`, as the body computes it (the word `128·i + r`). -/
def offG (i : grid0.Coords) (r : ℕ) : Fin 1 → ℕ :=
  ![(Scalar.indexCast (Scalar.addi (Scalar.muli (BitVec.ofNat 32 (i 0).val) 128#32) (BitVec.ofNat 32 r))).toNat]

/-- (B1) It is word `128·i + r`, inside the table. -/
theorem offG_eq (i : grid0.Coords) (r : ℕ) (hr : r < 128) : offG i r = ![128 * (i 0).val + r] := by
  have hi : (i 0).val < 32 := (i 0).isLt
  funext a
  match a with
  | ⟨0, _⟩ =>
    show ((BitVec.ofNat 32 (i 0).val * 128#32) + BitVec.ofNat 32 r).toNat = 128 * (i 0).val + r
    rw [BitVec.toNat_add, BitVec.toNat_mul, BitVec.toNat_ofNat, BitVec.toNat_ofNat, BitVec.toNat_ofNat]
    omega
theorem offG_inb (i : grid0.Coords) (r : ℕ) (hr : r < 128) : ∀ a, (offG i r) a + S1.size a ≤ S4096.size a := by
  have hi : (i 0).val < 32 := (i 0).isLt
  rw [offG_eq i r hr]
  intro a
  match a with
  | ⟨0, _⟩ =>
    show 128 * (i 0).val + r + 1 ≤ 4096
    omega

/-- The id word of row `r`, as the body's load reads it. -/
def wdG (c : Dev nD) (i : grid0.Coords) (ft : BufOf (F := F) c tbM) (r : ℕ) (hr : r < 128) : Elt F .i32 :=
  tbM.view.readAt (Elt F) (Rect.unit (s := S4096) (offG i r) S1.size (offG_inb i r hr)).toLoadRect ft (Shape.Idx.first (numel1_S1.symm ▸ Nat.one_pos))

/-- Row `v` of the embedding table as the body names the copy's source. -/
def srcG (v : BitVec 32) (hv : v.toNat < 32000) : Memref sig .tc .hbm S1024 .f32 :=
  (wM.slice (Rect.unit (s := S32000x1024) ![v.toNat, 0] S1x1024.size (row_inb v hv)) (fun _ => rfl)).squeeze S1024 squeezes_S1x1024_S1024

/-- What the copy of row `r` moves: the source row's read of the embedding table's contents. -/
def payG (c : Dev nD) (i : grid0.Coords) (ft : BufOf (F := F) c tbM) (fw : BufOf (F := F) c wM) (hrow : ∀ j, (ft j).toNat < 32000)
    (r : ℕ) (hr : r < 128) : S1024.Idx → Elt F .f32 :=
  ReadAs.same.apply (View.read (Elt F) (srcG (wdG c i ft r hr) (hrow _)).view fw)

/-- The gathered block: row `r` is the embedding table's row named by id word `128·i + r`. -/
def gath0 (c : Dev nD) (i : grid0.Coords) (ft : BufOf (F := F) c tbM) (fw : BufOf (F := F) c wM) (hrow : ∀ j, (ft j).toNat < 32000) :
    S128x1024.Idx → Elt F .f32 :=
  fun y => payG c i ft fw hrow (y 0).val (y 0).isLt (ix1 (y 1))

/-- (B2) Row `r`'s payload is row `r` of the gathered block. -/
theorem payG_eq (c : Dev nD) (i : grid0.Coords) (ft : BufOf (F := F) c tbM) (fw : BufOf (F := F) c wM) (hrow : ∀ j, (ft j).toNat < 32000)
    (r : ℕ) (hr : r < 128) (hin : RowIn r) (x : S1024.Idx) :
    payG c i ft fw hrow r hr x = gath0 c i ft fw hrow (rowIdx r hin x) := by
  have key : ∀ (r' : ℕ) (hr' : r' < 128) (x' : S1024.Idx), r = r' → x = x' →
      payG c i ft fw hrow r hr x = payG c i ft fw hrow r' hr' x' := by
    intro r' hr' x' h1 h2; subst h1; subst h2; rfl
  refine key _ _ _ (rowIdx_zero r hin x).symm ?_
  funext d
  match d with
  | ⟨0, _⟩ => exact Fin.ext (rowIdx_one r hin x).symm

/-- (B3) The id word of row `r` is the table's word `128·i + r`. -/
theorem wdG_eq (c : Dev nD) (i : grid0.Coords) (ft : BufOf (F := F) c tbM) (r : ℕ) (hr : r < 128) :
    wdG c i ft r hr = ft (ix1 ⟨128 * (i 0).val + r, by have := (i 0).isLt; show 128 * (i 0).val + r < 4096; have : (i 0).val < 32 := (i 0).isLt; omega⟩) := by
  unfold wdG
  rw [View.readAt_apply, View.read_apply]
  show ft _ = ft _
  refine congrArg ft (funext fun a => Fin.ext ?_)
  match a with
  | ⟨0, _⟩ =>
    show offG i r 0 + 1 * 0 = 128 * (i 0).val + r
    rw [offG_eq i r hr]
    show 128 * (i 0).val + r + 1 * 0 = 128 * (i 0).val + r
    omega

/-- (B4) The gathered block at an index: the embedding table at (the row its id word names, the column). -/
theorem gath0_apply (c : Dev nD) (i : grid0.Coords) (ft : BufOf (F := F) c tbM) (fw : BufOf (F := F) c wM) (hrow : ∀ j, (ft j).toNat < 32000)
    (p : Fin 128) (q : Fin 1024) :
    gath0 c i ft fw hrow (ix2 p q) = fw (ix2 ⟨(wdG c i ft p.val p.isLt).toNat, hrow _⟩ q) := by
  show View.read (Elt F) (srcG (wdG c i ft p.val p.isLt) (hrow _)).view fw (ix1 q) = _
  unfold srcG
  exact table_row_read ![(wdG c i ft p.val p.isLt).toNat, 0] (row_inb _ (hrow _)) (fun _ => rfl)
    ⟨(wdG c i ft p.val p.isLt).toNat, hrow _⟩ rfl rfl fw q

/-- The gathered block at an index, through the table's word: the embedding table at (the row the word names, the column). -/
theorem gath0_toNat (c : Dev nD) (i : grid0.Coords) (ft : BufOf (F := F) c tbM) (fw : BufOf (F := F) c wM) (hrow : ∀ j, (ft j).toNat < 32000)
    (r : Fin 128) (q : Fin 1024) :
    gath0 c i ft fw hrow (ix2 r q)
      = fw (ix2 ⟨(ft (ix1 ⟨128 * (i 0).val + r.val, by have : (i 0).val < 32 := (i 0).isLt; have := r.isLt; omega⟩)).toNat, hrow _⟩ q) := by
  rw [gath0_apply]
  refine congrArg fw (congrArg (fun a : Fin 32000 => ix2 a q) (Fin.ext ?_))
  show (wdG c i ft r.val r.isLt).toNat = _
  rw [wdG_eq]

/-- The same with the row named as the specification names it. -/
theorem gath0_spec (c : Dev nD) (i : grid0.Coords) (ft : BufOf (F := F) c tbM) (fw : BufOf (F := F) c wM) (hrow : ∀ j, (ft j).toNat < 32000)
    (r : Fin 128) (q : Fin 1024) :
    gath0 c i ft fw hrow (ix2 r q)
      = fw (ix2 (Cert.Proof.Spec.row (ft (ix1 ⟨128 * (i 0).val + r.val, by have : (i 0).val < 32 := (i 0).isLt; have := r.isLt; omega⟩))) q) := by
  rw [gath0_toNat]
  refine congrArg fw (congrArg (fun a : Fin 32000 => ix2 a q) (Fin.ext ?_))
  exact (Cert.Proof.Spec.row_val_of_lt _ (hrow _)).symm

end Cert.Kernel.Hand

end
-- ==== Proof.K.Run0.lean ====
/-
  The first pallas_call's kernel body, run ONCE at a symbolic grid point. At point i the body reads, for r = 0 … 127, the
  id word 128·i + r from the prefetched table, starts a copy of the embedding table's row that word names into row r of
  the gathered block's staging buffer — each copy on its own DMA cell 7 + r —, stores the bit-embedding product into the
  second output's staging buffer, and waits for all 128 copies.

  All 128 copies are in flight at once, reading one array and landing in one buffer. So the embedding table is held as one
  read token per cell (two id words may be equal: the same row is then lent twice, once from each token), and the
  gathered block's buffer is held row by row, each row by its own elements, so that every copy finds its destination whole.
  After the waits each landed row is a row of ONE function, the gathered block, and the rows are put back together.
-/
import proofs.«430590_j46402826666034_2_alg».proof.Proof.K.Gath0
import Idealize.ShloMosaic.Lib.Pipeline.FrameBody
import Idealize.ShloMosaic.Lib.Transfers
import Idealize.ShloMosaic.Lib.Writes
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The 128 cells at zero, as one chain -/

open Lean in
/-- `semChain% c lo n`: the cells `lo … lo + n - 1` at zero, as one ∗-chain. -/
macro "semChain% " c:ident lo:num n:num : term => do
  let lo := lo.getNat; let n := n.getNat
  let mk (k : Nat) : MacroM Term := `(semVal (($c : Thread nD τ), SemLoc.dma $(Syntax.mkNumLit (toString k))) 0)
  let mut acc ← mk (lo + n - 1)
  for j in [1:n] do
    let t ← mk (lo + n - 1 - j)
    acc ← `(iprop($t ∗ $acc))
  return acc

theorem ownSems0_chain (c : Dev nD) :
    (Pipeline.ownSems0 (Ix := Unit) (Name := ℕ) (U := Pipeline.UD sig nD τ) (Lvl := ℕ) (Val := Elt F) (τ := τ) osem0 c : sProp 𝕄)
      = semChain% c 7 128 := by
  rw [Pipeline.ownSems0_eq_of_list c osem0 (List.finRange 128) (List.toFinset_finRange 128).symm (List.nodup_finRange 128)]; rfl

/-! ## The embedding table as one read token per cell -/

/-- One more read token split off the remainder (`Transfers.shareDrop`, `Transfers.shareTokN`). -/
theorem tok_split (c : Dev nD) (fw : BufOf (F := F) c wM) (k k' : ℕ) (h : k' = k + 1) :
    (ptAt c wM (Transfers.shareDrop fullShare k) fw : sProp 𝕄)
      ⊢ iprop(ptAt c wM (Transfers.shareDrop fullShare k') fw ∗ ptAt c wM (Transfers.shareTokN fullShare k) fw) := by
  subst h; exact (pointsTo_share (PosShare.mem_left_op_right _)).1

/-- and put back. -/
theorem tok_join (c : Dev nD) (fw : BufOf (F := F) c wM) (k k' : ℕ) (h : k' = k + 1) :
    (ptAt c wM (Transfers.shareDrop fullShare k') fw : sProp 𝕄)
      ⊢ iprop(ptAt c wM (Transfers.shareTokN fullShare k) fw -∗ ptAt c wM (Transfers.shareDrop fullShare k) fw) := by
  subst h; exact BIClass.wand_intro (pointsTo_share (PosShare.mem_left_op_right _)).2

theorem tok_start (c : Dev nD) (fw : BufOf (F := F) c wM) :
    (ptAt c wM fullShare fw : sProp 𝕄) ⊢ ptAt c wM (Transfers.shareDrop fullShare 0) fw := .rfl
theorem tok_end (c : Dev nD) (fw : BufOf (F := F) c wM) :
    (ptAt c wM (Transfers.shareDrop fullShare 0) fw : sProp 𝕄) ⊢ ptAt c wM fullShare fw := .rfl

/-! ## The gathered block's rows, carved out and put back under a goal -/

section Rows
variable {c : Dev nD} {arg5 : Memref sig .tc .vmem S128x1024 .f32}

/-- All rows, then any goal from them. -/
theorem start_cps (f : BufOf (F := F) c arg5) (Q : sProp 𝕄) :
    iprop((arg5.view.loc (c : Thread nD τ) ↦[arg5.view.set]{fullShare} f)
      ∗ ((arg5.view.loc (c : Thread nD τ) ↦[restFrom c arg5 0]{fullShare} f) -∗ Q)) ⊢ Q := by
  iintro ⟨H, Hk⟩; iapply Hk; iapply (rows_start f); iexact H

/-- Row `n` carved out of the rows from `n` on, then any goal from the two. -/
theorem carve_cps (f : BufOf (F := F) c arg5) (n n' : ℕ) (hin : RowIn n) (h : n' = n + 1) (Q : sProp 𝕄) :
    iprop((arg5.view.loc (c : Thread nD τ) ↦[restFrom c arg5 n]{fullShare} f)
      ∗ (iprop(((dstL arg5 n hin).view.loc (c : Thread nD τ) ↦[(dstL arg5 n hin).view.set]{fullShare} f)
          ∗ (arg5.view.loc (c : Thread nD τ) ↦[restFrom c arg5 n']{fullShare} f)) -∗ Q)) ⊢ Q := by
  iintro ⟨H, Hk⟩; iapply Hk; iapply (rows_carve f n n' hin h); iexact H

/-- Row `n` and the rows after it are the rows from `n` on. -/
theorem rows_unjoin (f : BufOf (F := F) c arg5) (n n' : ℕ) (hin : RowIn n) (h : n' = n + 1) :
    iprop(((dstL arg5 n hin).view.loc (c : Thread nD τ) ↦[(dstL arg5 n hin).view.set]{fullShare} f)
        ∗ (arg5.view.loc (c : Thread nD τ) ↦[restFrom c arg5 n']{fullShare} f))
      ⊢ (arg5.view.loc (c : Thread nD τ) ↦[restFrom c arg5 n]{fullShare} f : sProp 𝕄) := by
  iintro ⟨HR, H⟩
  iapply (rows_join f n n' hin h) $$ H HR

/-- Past the last row there are no elements: any contents do. -/
theorem rows_nil_change (f g : BufOf (F := F) c arg5) :
    (arg5.view.loc (c : Thread nD τ) ↦[restFrom c arg5 128]{fullShare} f : sProp 𝕄)
      ⊢ arg5.view.loc (c : Thread nD τ) ↦[restFrom c arg5 128]{fullShare} g :=
  (rows_nil_elim f).trans (rows_nil_intro g)

/-- A row landed as ONE listed piece over any contents `g` holds, on its elements, what the block `X` written whole over `f` holds,
    when the piece's payload is row `n` of `X`. -/
theorem rows_landL (g f : BufOf (F := F) c arg5) (X : S128x1024.Idx → Elt F .f32)
    (n : ℕ) (hin : RowIn n) (pay : S1024.Idx → Elt F .f32) (hpay : ∀ x : S1024.Idx, pay x = X (rowIdx n hin x)) :
    ((dstL arg5 n hin).view.loc (c : Thread nD τ) ↦[(dstL arg5 n hin).view.set]{fullShare}
        (dstL arg5 n hin).view.writes (Elt F) g [⟨Rect.whole S1024, pay⟩] : sProp 𝕄)
      ⊢ (dstL arg5 n hin).view.loc (c : Thread nD τ) ↦[(dstL arg5 n hin).view.set]{fullShare} arg5.view.write (Elt F) f X Finset.univ := by
  rw [← View.write_univ_eq_writes_whole (dstL arg5 n hin).view g [] pay]
  rw [pointsTo_congr (g := (dstL arg5 n hin).view.write (Elt F) f pay Finset.univ) ?_]
  · exact rows_land f X n hin pay hpay
  · intro i hi
    obtain ⟨x, -, rfl⟩ := Finset.mem_map.mp hi
    rw [View.write_emb_of_mem _ _ (Finset.mem_univ _), View.write_emb_of_mem _ _ (Finset.mem_univ _)]

end Rows

section Loops
open Lean Elab Tactic

/-- Run one tactic given as text. -/
def runText (s : String) : TacticM Unit := do
  match Parser.runParserCategory (← getEnv) `tactic s with
  | .ok stx => evalTactic stx
  | .error e => throwError "{e}\n{s}"

/-- `split_toks n`: from `Hd` (the table `fw` on core `c` at the full share) the read tokens `T0 … T(n-1)` and the remainder `Hd`. -/
elab "split_toks " n:num : tactic => do
  runText "icases (tok_start c fw) $$ Hd with Hd"
  for k in [0:n.getNat] do
    runText s!"icases (tok_split c fw {k} {k+1} rfl) $$ Hd with ⟨Hd, T{k}⟩"

/-- `join_toks n`: back. -/
elab "join_toks " n:num : tactic => do
  for j in [0:n.getNat] do
    let k := n.getNat - 1 - j
    runText s!"icases (tok_join c fw {k} {k+1} rfl) $$ Hd T{k} with Hd"
  runText "icases (tok_end c fw) $$ Hd with Hd"

/-- `cases_sems H lo n`: the chain `H` into `Hs(lo) … Hs(lo+n-1)`. -/
elab "cases_sems " h:ident lo:num n:num : tactic => do
  let names := ", ".intercalate ((List.range n.getNat).map fun j => s!"Hs{lo.getNat + j}")
  runText s!"icases {h.getId} with ⟨{names}⟩"

/-- `exact_sems lo n`: the goal chain from `Hs(lo) … Hs(lo+n-1)`. -/
elab "exact_sems " lo:num n:num : tactic => do
  for j in [0:n.getNat - 1] do
    runText s!"isplitl [Hs{lo.getNat + j}]"
    runText s!"focus (iexact Hs{lo.getNat + j})"
  runText s!"iexact Hs{lo.getNat + n.getNat - 1}"

/-- `isplitl_sems lo n`: split the cells `Hs(lo) … ` off to the left. -/
elab "isplitl_sems " lo:num n:num : tactic => do
  let names := " ".intercalate ((List.range n.getNat).map fun j => s!"Hs{lo.getNat + j}")
  runText s!"isplitl [{names}]"

/-- `carve_rows n`: from `H5` (the rows from 0 on, at `f5`) the rows `R0 … R(n-1)`, each by its own elements, and the rest `H5`. -/
elab "carve_rows " n:num : tactic => do
  for r in [0:n.getNat] do
    runText s!"iapply (carve_cps f5 {r} {r+1} inb_S128x1024_S1x1024_{r}_0 rfl)"
    runText "isplitl [H5]"
    runText "focus (iexact H5)"
    runText s!"iintro ⟨R{r}, H5⟩"

/-- `isplitl_rows n`: split the rows `R0 …` and the rest `H5` off to the left. -/
elab "isplitl_rows " n:num : tactic => do
  let names := " ".intercalate ((List.range n.getNat).map fun j => s!"R{j}")
  runText s!"isplitl [{names} H5]"

/-- `join_rows n`: the goal, the rows from 0 on at the gathered block written whole, from the landed rows `R0 …` and the rest `H5`. -/
elab "join_rows " n:num : tactic => do
  for r in [0:n.getNat] do
    runText s!"iapply (rows_unjoin (arg5.view.write (Elt F) f5 (gath0 c i ft fw hrow) Finset.univ) {r} {r+1} inb_S128x1024_S1x1024_{r}_0 rfl)"
    runText s!"isplitl [R{r}]"
    runText s!"focus (iapply (rows_landL _ f5 (gath0 c i ft fw hrow) {r} inb_S128x1024_S1x1024_{r}_0 _ (fun x => payG_eq c i ft fw hrow {r} (by decide) inb_S128x1024_S1x1024_{r}_0 x)); iexact R{r})"
  runText "iapply (rows_nil_change f5 _)"
  runText "iexact H5"

end Loops

/-! ## The run -/

-- the run is one elaboration step over 58 printed parts: its allocations are far above the default budget's
set_option sl_exec.dmaWindow true in
set_option sl_exec.dmaWindowSet true in
set_option maxHeartbeats 16000000 in
/-- What the body leaves in the second output's staging buffer, as pieces, WITH the proof that from the two input
    blocks at `x3`, `x4`, the two outputs' buffers at anything, the id table (at any share) at `ft` — every word of it a row
    of the embedding table —, the embedding table whole at `fw`, the 128 cells at zero and the core owing nothing, the body
    runs to its return with the inputs as they were, the first output's buffer holding the gathered block, the second's
    its pieces written, both tables and the cells as they were, the waits recorded. -/
noncomputable def kernelRun0 (c : Dev nD) (i : grid0.Coords)
    (arg3 : Memref sig .tc .vmem S128x15 .f32) (harg3 : arg3.IsWhole) (arg4 : Memref sig .tc .vmem S15x1024 .f32) (harg4 : arg4.IsWhole)
    (arg5 : Memref sig .tc .vmem S128x1024 .f32) (harg5 : arg5.IsWhole) (arg6 : Memref sig .tc .vmem S128x1024 .f32) (harg6 : arg6.IsWhole)
    (x3 : Vec F S128x15 .f32) (x4 : Vec F S15x1024 .f32) (ft : BufOf (F := F) c tbM) (fw : BufOf (F := F) c wM)
    (hrow : ∀ j, (ft j).toNat < 32000) (qt : PosShare TreeShare) :
    { L6 : List (View.Piece (Elt F) S128x1024 .f32) //
      ∀ (W : Waits sig Unit) (K : PUnit → sProp 𝕄),
        iprop(owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ ptAt c tbM qt ft ∗ ptAt c wM fullShare fw
            ∗ Pipeline.ownSems0 osem0 c
            ∗ owes (c : Thread nD τ) 0 W
            ∗ (iprop(owns (c : Thread nD τ) arg3 fullShare x3 ∗ owns (c : Thread nD τ) arg4 fullShare x4
                ∗ owns (c : Thread nD τ) arg5 fullShare (gath0 c i ft fw hrow)
                ∗ (∃ f, arg6.view.loc (c : Thread nD τ) ↦[arg6.view.set]{fullShare} arg6.view.writes (Elt F) f L6)
                ∗ ptAt c tbM qt ft ∗ ptAt c wM fullShare fw
                ∗ Pipeline.ownSems0 osem0 c
                ∗ (∃ W', owes (c : Thread nD τ) 0 W')) -∗ K ⟨⟩))
          ⊢ wp frame (wpE (defs₀ (F := F)) Variants.none c none) Set.univ
              (cc0__gather_bitemb_kernel i tbM (Memref.isWhole_whole _) wM (Memref.isWhole_whole _) arg3 harg3 arg4 harg4 arg5 harg5 arg6 harg6 cc0_scratch0) K } := by
  refine ⟨?_, fun W K => ?run⟩
  case run =>
    -- every id word the body loads names a row of the embedding table: the side condition it assumes of each
    have hw : ∀ (o : Fin 1 → Nat) (ho : ∀ a, o a + S1.size a ≤ S4096.size a),
        (show BitVec 32 from tbM.view.readAt (Elt F) (Rect.unit (s := S4096) o S1.size ho).toLoadRect ft (Shape.Idx.first (numel1_S1.symm ▸ Nat.one_pos))).toNat < 32000 :=
      fun o ho => hrow _
    unfold owns
    iintro ⟨⟨%f3, %hf3, H3⟩, ⟨%f4, %hf4, H4⟩, ⟨%d5, %f5, -, H5⟩, ⟨%d6, %f6, -, H6⟩, HT, Hd, Hsems, HO, Hk⟩
    obtain rfl := harg3.eq_unread hf3
    obtain rfl := harg4.eq_unread hf4
    -- the cells one by one, the embedding table as read tokens 0 … 134 (cell 7 + r takes token 7 + r), the block row by row
    icases (Entails.of_eq (ownSems0_chain (F := F) c)) $$ Hsems with Hsems
    cases_sems Hsems 7 128
    split_toks 135
    iapply (start_cps f5)
    isplitl [H5]; · iexact H5
    iintro H5
    carve_rows 128
    sl_exec_parts! (disch := first | exact ⟨row_inb _ (hw _ _), row_inb _ (hw _ _)⟩ | exact row_inb _ (hw _ _))
    sl_step
    -- the tokens joined: the embedding table whole again
    join_toks 135
    iapply Hk
    isplitl [H3]
    · iexists _; isplitr; · ipureintro; exact harg3.read_unread _
      iexact H3
    isplitl [H4]
    · iexists _; isplitr; · ipureintro; exact harg4.read_unread _
      iexact H4
    isplitl_rows 128
    · -- every landed row is a row of the gathered block: the rows joined hold it, written whole over what the buffer held
      iexists (arg5.view.write (Elt F) f5 (gath0 c i ft fw hrow) Finset.univ)
      isplitr; · ipureintro; exact View.read_write_univ _ _
      iapply (rows_end _)
      join_rows 128
    isplitl [H6]; · iexists _; iexact H6
    isplitl [HT]; · iexact HT
    isplitl [Hd]; · iexact Hd
    isplitl_sems 7 128
    · iapply (Entails.of_eq (ownSems0_chain (F := F) c).symm)
      exact_sems 7 128
    iexists _; iexact HO

end Cert.Kernel.Hand

end
-- ==== Proof.K.Read6.lean ====
/-
  What the run leaves in the second output's staging buffer, read back: its one store covers the block, and what it stores is
  the bit-embedding product of the two input blocks as the body loaded them — each load the whole block.
-/
import proofs.«430590_j46402826666034_2_alg».proof.Proof.K.Run0
import Idealize.ShloMosaic.Lib.Ring
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The zero offsets of a whole-block rectangle. -/
theorem off00 : (![0, 0] : Fin 2 → Nat) = fun _ => 0 := funext fun a => by fin_cases a <;> rfl

/-- The run's pieces for the second output tile its block (one store of the whole block), so they cover it. -/
theorem cover6 (c : Dev nD) (i : grid0.Coords)
    (arg3 : Memref sig .tc .vmem S128x15 .f32) (harg3 : arg3.IsWhole) (arg4 : Memref sig .tc .vmem S15x1024 .f32) (harg4 : arg4.IsWhole)
    (arg5 : Memref sig .tc .vmem S128x1024 .f32) (harg5 : arg5.IsWhole) (arg6 : Memref sig .tc .vmem S128x1024 .f32) (harg6 : arg6.IsWhole)
    (x3 : Vec F S128x15 .f32) (x4 : Vec F S15x1024 .f32) (ft : BufOf (F := F) c tbM) (fw : BufOf (F := F) c wM)
    (hrow : ∀ j, (ft j).toNat < 32000) (qt : PosShare TreeShare) (y : S128x1024.Idx) :
    ∃ pc ∈ (kernelRun0 c i arg3 harg3 arg4 harg4 arg5 harg5 arg6 harg6 x3 x4 ft fw hrow qt).1, y ∈ pc.1.set :=
  View.cover_of_tiledL (kernelRun0 c i arg3 harg3 arg4 harg4 arg5 harg5 arg6 harg6 x3 x4 ft fw hrow qt).1 S128x1024.size (by sl_kernel_rfl) y

/-- Read back over any contents, the second output's buffer holds the product of the two input blocks. -/
theorem read6 (c : Dev nD) (i : grid0.Coords)
    (arg3 : Memref sig .tc .vmem S128x15 .f32) (harg3 : arg3.IsWhole) (arg4 : Memref sig .tc .vmem S15x1024 .f32) (harg4 : arg4.IsWhole)
    (arg5 : Memref sig .tc .vmem S128x1024 .f32) (harg5 : arg5.IsWhole) (arg6 : Memref sig .tc .vmem S128x1024 .f32) (harg6 : arg6.IsWhole)
    (x3 : Vec F S128x15 .f32) (x4 : Vec F S15x1024 .f32) (ft : BufOf (F := F) c tbM) (fw : BufOf (F := F) c wM)
    (hrow : ∀ j, (ft j).toNat < 32000) (qt : PosShare TreeShare) (f : BufOf (F := F) c arg6) :
    arg6.view.read (Elt F) (arg6.view.writes (Elt F) f (kernelRun0 c i arg3 harg3 arg4 harg4 arg5 harg5 arg6 harg6 x3 x4 ft fw hrow qt).1) = k0_pay1 x3 x4 := by
  rw [View.read_writes_eq_canon _ _ _ (cover6 c i arg3 harg3 arg4 harg4 arg5 harg5 arg6 harg6 x3 x4 ft fw hrow qt)]
  unfold kernelRun0
  dsimp only
  sl_unfold_words
  rw [View.canon_unit_zero (S := S128x1024) off00]
  simp only [View.readAt_eq_ld, harg3.read_unread, harg4.read_unread, View.ld_unit_zero (S := S128x15) off00, View.ld_unit_zero (S := S15x1024) off00]

end Cert.Kernel.Hand

end
-- ==== Proof.K.Dat0.lean ====
/-
  The first kernel call as a pipeline over its 32 grid points: its proof data and its body obligation.

  At point `t` the body reads the 128 id words `128·t + r` of the prefetched id table, copies for each the row
  of the embedding table (left in HBM) that the word names into row `r` of the third window's buffer, each copy
  on a cell of its own, and stores into the fourth window's buffer the product of the point's 128 × 15 block of
  bit codes with the 15 × 1024 bit table. Nothing is carried from point to point: the invariant is the same at
  every point (the 128 cells at zero, the embedding table and the id table held whole at their contents), and
  after every point the two output buffers hold the gathered rows and the product.
-/
import proofs.«430590_j46402826666034_2_alg».proof.Proof.K.Defs0
import proofs.«430590_j46402826666034_2_alg».proof.Proof.K.Read6
import proofs.«430590_j46402826666034_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : Vals F)

/-- The call's 128 cells are scoped, pairwise distinct, and none is a window's staging cell. -/
theorem ownSemFacts0 : Pipeline.OwnSemFacts spec0 osem0 := by decide
/-- The embedding table is unscoped, no window's array and no prefetched table. -/
theorem H0_sub : H0 ⊆ Pipeline.restRefsP sig pre0 spec0 := by decide

/-- The invariant between points: the scoped rest and the generator register, the 128 cells at zero, the embedding table whole in HBM,
    and the id table (whole share). -/
def Phi0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) (tbl V))

/-- Window `w`'s block at point `t`, read off its array as the region finds it. -/
def iblk0 (c : Dev nD) (w : Fin (cfg0 (adm0 V)).W) (t : Fin (cfg0 (adm0 V)).N) : (((cfg0 (adm0 V)).win w).xblock ((cfg0 (adm0 V)).grid.coords t)).Idx → Elt F ((cfg0 (adm0 V)).win w).elt :=
  (((cfg0 (adm0 V)).win w).blk t).view.read (Elt F) (V c (Pipeline.arrRef spec0 w))

theorem before0_0_of {c : Dev nD} (dat : Dat τ (Elt F) Unit ℕ (Pipeline.UD sig nD τ) ℕ (cfg0 (adm0 V)) c) (hA : dat.A 0 = V c (Pipeline.arrRef spec0 0))
    (hafter : ∀ t, dat.after 0 t = iblk0 V c 0 t) (t : Fin (cfg0 (adm0 V)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 (adm0 V)) c) (hA : dat.A 1 = V c (Pipeline.arrRef spec0 1))
    (hafter : ∀ t, dat.after 1 t = iblk0 V c 1 t) (t : Fin (cfg0 (adm0 V)).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The invariant, conjunct by conjunct -/

/-- The one operand left in HBM, held whole at the region-entry contents. -/
theorem hbmPts0_eq (c : Dev nD) :
    (bigSep H0 (fun b => ((c : Thread nD τ).loc b) ↦{fullShare} V c b) : sProp 𝕄) = iprop(ptAt c wM fullShare (V c main_arg2)) := by
  rw [BI.bigSep_eq_bigSepL_of_eq [main_arg2] (by decide) (by decide)]; rfl

/-- The id table, held whole at its contents. -/
theorem tblPt0_eq (c : Dev nD) :
    (Pipeline.prefHeld (Ix := Unit) (Name := ℕ) (U := Pipeline.UD sig nD τ) (Lvl := ℕ) pre0 c (fun _ => fullShare) (tbl V) : sProp 𝕄)
      = iprop(ptAt c tbM fullShare (tbl V 0)) := by
  unfold Pipeline.prefHeld
  rw [show (Finset.univ : Finset (Fin 1)) = {(0 : Fin 1)} from by decide, bigSep_singleton]
  rfl

/-- The invariant: the scoped rest at anything, the generator register at some state, the 128 cells at zero, the
    embedding table whole at its region-entry contents, the id table whole at its contents. -/
theorem Phi0_conj (c : Dev nD) :
    Phi0 V c = iprop(iprop(Pipeline.scopedRest (Ix := Unit) (Name := ℕ) (U := Pipeline.UD sig nD τ) (Lvl := ℕ) (Val := Elt F) spec0 c ∗ (∃ r, prngReg c r)
        ∗ Pipeline.ownSems0 (Ix := Unit) (Name := ℕ) (U := Pipeline.UD sig nD τ) (Lvl := ℕ) (Val := Elt F) (τ := τ) osem0 c
        ∗ ptAt c wM fullShare (V c main_arg2)) ∗ ptAt c tbM fullShare (tbl V 0)) := by
  unfold Phi0; rw [Pipeline.ΦD_eq, hbmPts0_eq, tblPt0_eq]

/-! ## The proof data -/

/-- The two input blocks at a point, at their literal types: 128 rows of 15 bit codes, and the whole 15-row bit table. -/
abbrev blkC (c : Dev nD) (t : Fin (cfg0 (adm0 V)).N) : Vec F S128x15 .f32 := iblk0 V c 0 t
abbrev blkB (c : Dev nD) (t : Fin (cfg0 (adm0 V)).N) : Vec F S15x1024 .f32 := iblk0 V c 1 t

/-- Each window's current staging memref at point `t`, and its wholeness. -/
abbrev ms0_0 (t : Fin (cfg0 (adm0 V)).N) : Memref sig .tc .vmem S128x15 .f32 := spec0_0.stage ((cfg0 (adm0 V)).slots t 0)
abbrev hs0_0 (t : Fin (cfg0 (adm0 V)).N) : (ms0_0 V t).IsWhole := hstage0_0 (((cfg0 (adm0 V)).slots t 0).cast nbuf0_0)
abbrev ms0_1 (t : Fin (cfg0 (adm0 V)).N) : Memref sig .tc .vmem S15x1024 .f32 := spec0_1.stage ((cfg0 (adm0 V)).slots t 1)
abbrev hs0_1 (t : Fin (cfg0 (adm0 V)).N) : (ms0_1 V t).IsWhole := hstage0_1 (((cfg0 (adm0 V)).slots t 1).cast nbuf0_1)
abbrev ms0_2 (t : Fin (cfg0 (adm0 V)).N) : Memref sig .tc .vmem S128x1024 .f32 := spec0_2.stage ((cfg0 (adm0 V)).slots t 2)
abbrev hs0_2 (t : Fin (cfg0 (adm0 V)).N) : (ms0_2 V t).IsWhole := hstage0_2 (((cfg0 (adm0 V)).slots t 2).cast nbuf0_2)
abbrev ms0_3 (t : Fin (cfg0 (adm0 V)).N) : Memref sig .tc .vmem S128x1024 .f32 := spec0_3.stage ((cfg0 (adm0 V)).slots t 3)
abbrev hs0_3 (t : Fin (cfg0 (adm0 V)).N) : (ms0_3 V t).IsWhole := hstage0_3 (((cfg0 (adm0 V)).slots t 3).cast nbuf0_3)

/-- The kernel body at point `t`, on what the pipeline calls it with. -/
abbrev bodyAt0 (t : Fin (cfg0 (adm0 V)).N) : Prog (TpuEff nD τ sig (Elt F) Λ₀ .tc) PUnit :=
  cc0__gather_bitemb_kernel (grid0.coords t) (Memref.whole main_v0) (Memref.isWhole_whole _) (Memref.whole main_arg2) (Memref.isWhole_whole _) (ms0_0 V t) (hs0_0 V t) (ms0_1 V t) (hs0_1 V t) (ms0_2 V t) (hs0_2 V t) (ms0_3 V t) (hs0_3 V t) cc0_scratch0

/-- The first call's proof data on core `c`: the arrays as the region finds them; after the body at point `t` each
    input's buffer at its block, the third window's at the 128 table rows the point's ids name, the fourth's at
    the product of the point's bit codes with the bit table; the invariant the same at every point; nothing owed;
    full shares. -/
def dat0 (hw : RowsOk V) (c : Dev nD) : Dat τ (Elt F) Unit ℕ (Pipeline.UD sig nD τ) ℕ (cfg0 (adm0 V)) c where
  A w := V c (Pipeline.arrRef spec0 w)
  after w t := match w with
    | ⟨0, _⟩ => iblk0 V c 0 t
    | ⟨1, _⟩ => iblk0 V c 1 t
    | ⟨2, _⟩ => gath0 c (grid0.coords t) (tbl V 0) (V c main_arg2) hw
    | ⟨3, _⟩ => k0_pay1 (blkC V c t) (blkB V c t)
  Φ _ := Phi0 V c
  q _ := fullShare
  owed _ := 0

theorem A_eq0 (hw : RowsOk V) (c : Dev nD) (w : Fin (cfg0 (adm0 V)).W) : (dat0 V hw c).A w = V c (Pipeline.arrRef spec0 w) := by
  dsimp only [dat0]
theorem Phi0_eq (hw : RowsOk V) (c : Dev nD) (t) : (dat0 V hw c).Φ t = Phi0 V c := rfl
theorem owed0 (hw : RowsOk V) (c : Dev nD) (t) : (dat0 V hw c).owed t = 0 := rfl
theorem recorded0 (hw : RowsOk V) (c : Dev nD) (t) : (dat0 V hw c).recorded t = Set.univ := rfl
theorem share0 (hw : RowsOk V) (c : Dev nD) (w) : (dat0 V hw c).q w = fullShare := rfl

theorem after0_0 (hw : RowsOk V) (c : Dev nD) (t : Fin (cfg0 (adm0 V)).N) : (dat0 V hw c).after 0 t = iblk0 V c 0 t := by dsimp only [dat0]; try rfl
theorem after0_1 (hw : RowsOk V) (c : Dev nD) (t : Fin (cfg0 (adm0 V)).N) : (dat0 V hw c).after 1 t = iblk0 V c 1 t := by dsimp only [dat0]; try rfl
/-- After every point the third window's buffer holds the table rows the point's 128 ids name. -/
theorem after0_2 (hw : RowsOk V) (c : Dev nD) (t : Fin (cfg0 (adm0 V)).N) : (dat0 V hw c).after 2 t = gath0 c (grid0.coords t) (tbl V 0) (V c main_arg2) hw := by dsimp only [dat0]; try rfl
/-- After every point the fourth window's buffer holds the product of the point's bit codes with the bit table. -/
theorem after0_3 (hw : RowsOk V) (c : Dev nD) (t : Fin (cfg0 (adm0 V)).N) : (dat0 V hw c).after 3 t = k0_pay1 (blkC V c t) (blkB V c t) := by dsimp only [dat0]; try rfl

theorem before0_0 (hw : RowsOk V) (c : Dev nD) (t : Fin (cfg0 (adm0 V)).N) (d) : (dat0 V hw c).before 0 t d = iblk0 V c 0 t :=
  before0_0_of V (dat0 V hw c) (A_eq0 V hw c 0) (after0_0 V hw c) t d
theorem before0_1 (hw : RowsOk V) (c : Dev nD) (t : Fin (cfg0 (adm0 V)).N) (d) : (dat0 V hw c).before 1 t d = iblk0 V c 1 t :=
  before0_1_of V (dat0 V hw c) (A_eq0 V hw c 1) (after0_1 V hw c) t d

/-! ## The body obligation -/

/-- What the body is called with at point `t`, -/
def bodyPre0 (hw : RowsOk V) (c : Dev nD) (t : Fin (cfg0 (adm0 V)).N) : sProp 𝕄 :=
  iprop((dat0 V hw c).Φ t.castSucc ∗ (dat0 V hw c).owesAt () t.castSucc
    ∗ (∃ d, owns (c : Thread nD τ) (ms0_0 V t) fullShare ((dat0 V hw c).before 0 t d))
    ∗ (∃ d, owns (c : Thread nD τ) (ms0_1 V t) fullShare ((dat0 V hw c).before 1 t d))
    ∗ (∃ d, owns (c : Thread nD τ) (ms0_2 V t) fullShare ((dat0 V hw c).before 2 t d))
    ∗ (∃ d, owns (c : Thread nD τ) (ms0_3 V t) fullShare ((dat0 V hw c).before 3 t d)))

/-- and what it returns. -/
def bodyPost0 (hw : RowsOk V) (c : Dev nD) (t : Fin (cfg0 (adm0 V)).N) : sProp 𝕄 :=
  iprop((dat0 V hw c).Φ t.succ ∗ (dat0 V hw c).owesAt () t.succ
    ∗ owns (c : Thread nD τ) (ms0_0 V t) fullShare ((dat0 V hw c).after 0 t)
    ∗ owns (c : Thread nD τ) (ms0_1 V t) fullShare ((dat0 V hw c).after 1 t)
    ∗ owns (c : Thread nD τ) (ms0_2 V t) fullShare ((dat0 V hw c).after 2 t)
    ∗ owns (c : Thread nD τ) (ms0_3 V t) fullShare ((dat0 V hw c).after 3 t))

/-- The body at any point: the inputs' buffers hold their blocks; the invariant hands the body the 128 cells at
    zero, the embedding table and the id table, and takes them back as they were; what the core has waited for
    is recorded and stays within the bound (everything). -/
theorem sound_body0 (hw : RowsOk V) (c : Dev nD) (t : Fin (cfg0 (adm0 V)).N) :
    bodyPre0 V hw c t ⊢ wp frame (wpE (defs₀ (F := F)) Variants.none c none) Set.univ (bodyAt0 V t) (fun _ => bodyPost0 V hw c t) := by
  unfold bodyPre0 bodyPost0 bodyAt0
  simp only [before0_0, before0_1]
  rw [show (dat0 V hw c).Φ t.succ = (dat0 V hw c).Φ t.castSucc from rfl,
    after0_0, after0_1, after0_2, after0_3]
  rw [show (dat0 V hw c).Φ t.castSucc = Phi0 V c from rfl, Phi0_conj]
  unfold Dat.owesAt Pipeline.owesWithin
  rw [show (dat0 V hw c).owed t.castSucc = 0 from rfl, show (dat0 V hw c).owed t.succ = 0 from rfl]
  iintro ⟨⟨⟨HR, Hg, Hq, Hh⟩, HT⟩, ⟨%W, -, HW⟩, ⟨%d0, H0⟩, ⟨%d1, H1⟩, ⟨%d2, H2⟩, ⟨%d3, H3⟩⟩
  iapply ((kernelRun0 c (grid0.coords t) _ _ _ _ _ _ _ _ (blkC V c t) (blkB V c t) (tbl V 0) (V c main_arg2) hw fullShare).2 W _)
  isplitl [H0]; · iexact H0
  isplitl [H1]; · iexact H1
  isplitl [H2]; · iexists _; iexact H2
  isplitl [H3]; · iexists _; iexact H3
  isplitl [HT]; · iexact HT
  isplitl [Hh]; · iexact Hh
  isplitl [Hq]; · iexact Hq
  isplitl [HW]; · iexact HW
  iintro ⟨H0, H1, H2, ⟨%e3, H3⟩, HT, Hh, Hq, ⟨%W', HW'⟩⟩
  isplitl [HR Hg Hq Hh HT]
  · isplitl [HR Hg Hq Hh]
    · isplitl [HR]; · iexact HR
      isplitl [Hg]; · iexact Hg
      isplitl [Hq]; · iexact Hq
      iexact Hh
    iexact HT
  isplitl [HW']
  · iexists W'; isplitr; · ipureintro; exact fun _ _ => Or.inl trivial
    iexact HW'
  isplitl [H0]; · iexact H0
  isplitl [H1]; · iexact H1
  isplitl [H2]; · iexact H2
  unfold owns; iexists _; isplitr
  swap; · iexact H3
  ipureintro; exact read6 c (grid0.coords t) _ _ _ _ _ _ _ _ (blkC V c t) (blkB V c t) (tbl V 0) (V c main_arg2) hw fullShare _

/-- The pipeline's call of the body at point `t` is that program. -/
theorem bodyAt0_eq (t : Fin (cfg0 (adm0 V)).N) :
    (defs₀ (F := F)) .tc (cfg0 (adm0 V)).body ((cfg0 (adm0 V)).bodyArgs t ((cfg0 (adm0 V)).slots t)) = bodyAt0 V t := by
  unfold defs₀
  rw [Defs.onTc_tc]

/-- The body obligation, at every point. -/
theorem body_obligation0 (hw : RowsOk V) (c : Dev nD) :
    BodyObligation (dat0 (F := F) V hw c) (defs₀ (F := F)) Variants.none () Set.univ := fun t => by
  rw [bigSep_W0, bigSep_W0, bodyAt0_eq V t]
  have key := sound_body0 V hw c t
  generalize bodyAt0 V t = P at key ⊢
  exact key

end Cert.Kernel.Hand

end
-- ==== Proof.K.Run1.lean ====
/-
  The body of the second kernel call at one grid point `(i 0, i 1)` of its `2 × 125` grid: one step of a
  running softmax along the second axis. With `X` the row block `[2048,1024]`, `W` the column block
  `[256,1024]` and `(m, l, a)` the carried row maximum `[2048,1]`, row sum `[2048,1]` and weighted
  accumulator `[2048,15]`, a step computes the logits `S = X · Wᵀ`, the new maximum `m' = max m (rowmax S)`,
  the rescaling `α = exp (m - m')`, the weights `P = exp (S - m')`, and leaves `l' = α · l + rowsum P`,
  `a' = α · a + P · B` (`B` the `[256,15]` table of signs built from the column numbers) and `m'`.
  Three control cases: at `i 1 = 0` the carried values are first reset to `(-∞, 0, 0)`; at `i 1 = 124` the
  quotient `a' / l'` is also written to the fourth window; in between neither happens.

  For each case this module states what the body leaves in every buffer it holds, as lists of written
  rectangles with their values, together with the proof that the body runs from the stated holdings to
  the stated holdings. Everything is generic in the float interpretation `F`.
-/
import proofs.«430590_j46402826666034_2_alg».proof.Proof.Gen.Kernel.Launch
import proofs.«430590_j46402826666034_2_alg».proof.Proof.Gen.Kernel.Skeleton
import proofs.«430590_j46402826666034_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The first conditional's test (the reset of the three carried buffers), over the second grid coordinate. -/
abbrev condReset (i : grid1.Coords) : Prop :=
  (Scalar.cmpi .ne (Scalar.extui (Scalar.cmpi .eq (BitVec.ofNat 32 (i 1).val) 0#32)) 0#32) = 1#1
/-- The second conditional's test (the final normalisation), over the second grid coordinate. -/
abbrev condLast (i : grid1.Coords) : Prop := k1_cond2 i = 1#1

theorem condReset_iff (i : grid1.Coords) : condReset i ↔ (i 1).val = 0 :=
  (by decide +kernel : ∀ j : Fin 125,
    ((Scalar.cmpi .ne (Scalar.extui (Scalar.cmpi .eq (BitVec.ofNat 32 j.val) 0#32)) 0#32) = 1#1) ↔ j.val = 0) (i 1)

theorem condLast_iff (i : grid1.Coords) : condLast i ↔ (i 1).val = 124 :=
  (by decide +kernel : ∀ j : Fin 125,
    ((Scalar.cmpi .ne (Scalar.extui (Scalar.cmpi .eq (BitVec.ofNat 32 j.val) 124#32)) 0#32) = 1#1) ↔ j.val = 124) (i 1)

/-- The three buffers the kernel carries from one grid point to the next along the second axis: the running
    row maximum, the running row sum of exponentials, and the running weighted accumulator. -/
abbrev scMax : Memref sig .tc .vmem S2048x1 .f32 := Memref.whole cc1_scratch0
abbrev scSum : Memref sig .tc .vmem S2048x1 .f32 := Memref.whole cc1_scratch1
abbrev scAcc : Memref sig .tc .vmem S2048x15 .f32 := Memref.whole cc1_scratch2

set_option maxHeartbeats 1000000 in
/-- The body at the first point of the second axis: the three carried buffers, whatever they held, are first
    reset (maximum to `-∞`, sum and accumulator to `0`) and then updated from the reset values; the logits block
    is stored into the third window; the fourth window is not touched (`d5` is handed back). -/
noncomputable def kernelRun1_A (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole)
    (x2 : Vec F S2048x1024 .f32) (x3 : Vec F S256x1024 .bf16) :
    Σ' (L4 : List (View.Piece (Elt F) S2048x256 .f32)) (LM : List (View.Piece (Elt F) S2048x1 .f32)) (LS : List (View.Piece (Elt F) S2048x1 .f32)), { LA : List (View.Piece (Elt F) S2048x15 .f32) //
      ∀ (d5 : Vec F S2048x15 .f32) (E : Set ℕ) (K : PUnit → sProp 𝕄),
        iprop(owns (c : Thread nD τ) arg2 fullShare x2 ∗ owns (c : Thread nD τ) arg3 fullShare x3 ∗ (∃ d, owns (c : Thread nD τ) arg4 fullShare d) ∗ owns (c : Thread nD τ) arg5 fullShare d5
            ∗ (∃ d, owns (c : Thread nD τ) scMax fullShare d) ∗ (∃ d, owns (c : Thread nD τ) scSum fullShare d) ∗ (∃ d, owns (c : Thread nD τ) scAcc fullShare d)
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare d5
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E (cc1__main_kernel i arg2 harg2 arg3 harg3 arg4 harg4 arg5 harg5 (Memref.whole cc1_scratch0) (Memref.isWhole_whole _) (Memref.whole cc1_scratch1) (Memref.isWhole_whole _) (Memref.whole cc1_scratch2) (Memref.isWhole_whole _)) K } := by
  have hc0 : condReset i := (condReset_iff i).mpr hi
  have hc1 : ¬condLast i := fun h => absurd ((condLast_iff i).mp h) (by omega)
  refine ⟨?_, ?_, ?_, ?_, fun d5 E K => ?run⟩
  case run =>
    simp only [cc1__main_kernel_eq_skeleton]; unfold cc1__main_kernel_skel
    simp only [k1_part1_eq_skeleton]
    unfold owns
    iintro ⟨⟨%f2, %hf2, H2⟩, ⟨%f3, %hf3, H3⟩, ⟨%d4, %f4, -, H4⟩, ⟨%f5, %hf5, H5⟩, ⟨%dm, %fm, -, HM⟩, ⟨%ds, %fs, -, HS⟩, ⟨%da, %fa, -, HA⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [HM]; · iexists _; iexact HM
    isplitl [HS]; · iexists _; iexact HS
    iexists _; iexact HA

set_option maxHeartbeats 1000000 in
/-- The body at an interior point of the second axis (neither the first nor the last block of columns): the
    logits block is stored into the third window; the running maximum, the running sum and the accumulator,
    entered at `sm`, `sl`, `sa`, are each overwritten once; the fourth window is not touched (whatever it
    holds, `d5`, is handed back). Each list gives, for one buffer, the rectangles written and the values
    written there, the last write first. -/
noncomputable def kernelRun1_B (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole)
    (x2 : Vec F S2048x1024 .f32) (x3 : Vec F S256x1024 .bf16) (sm : Vec F S2048x1 .f32) (sl : Vec F S2048x1 .f32) (sa : Vec F S2048x15 .f32) :
    Σ' (L4 : List (View.Piece (Elt F) S2048x256 .f32)) (LM : List (View.Piece (Elt F) S2048x1 .f32)) (LS : List (View.Piece (Elt F) S2048x1 .f32)), { LA : List (View.Piece (Elt F) S2048x15 .f32) //
      ∀ (d5 : Vec F S2048x15 .f32) (E : Set ℕ) (K : PUnit → sProp 𝕄),
        iprop(owns (c : Thread nD τ) arg2 fullShare x2 ∗ owns (c : Thread nD τ) arg3 fullShare x3 ∗ (∃ d, owns (c : Thread nD τ) arg4 fullShare d) ∗ owns (c : Thread nD τ) arg5 fullShare d5
            ∗ owns (c : Thread nD τ) scMax fullShare sm ∗ owns (c : Thread nD τ) scSum fullShare sl ∗ owns (c : Thread nD τ) scAcc fullShare sa
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare d5
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E (cc1__main_kernel i arg2 harg2 arg3 harg3 arg4 harg4 arg5 harg5 (Memref.whole cc1_scratch0) (Memref.isWhole_whole _) (Memref.whole cc1_scratch1) (Memref.isWhole_whole _) (Memref.whole cc1_scratch2) (Memref.isWhole_whole _)) K } := by
  have hc0 : ¬condReset i := fun h => absurd ((condReset_iff i).mp h) (by omega)
  have hc1 : ¬condLast i := fun h => absurd ((condLast_iff i).mp h) (by omega)
  refine ⟨?_, ?_, ?_, ?_, fun d5 E K => ?run⟩
  case run =>
    simp only [cc1__main_kernel_eq_skeleton]; unfold cc1__main_kernel_skel
    simp only [k1_part1_eq_skeleton]
    unfold owns
    iintro ⟨⟨%f2, %hf2, H2⟩, ⟨%f3, %hf3, H3⟩, ⟨%d4, %f4, -, H4⟩, ⟨%f5, %hf5, H5⟩, ⟨%fm, %hfm, HM⟩, ⟨%fs, %hfs, HS⟩, ⟨%fa, %hfa, HA⟩, Hk⟩
    obtain rfl := harg2.eq_unread hf2; obtain rfl := harg3.eq_unread hf3; obtain rfl := harg5.eq_unread hf5
    obtain rfl := (Memref.isWhole_whole cc1_scratch0).eq_unread hfm
    obtain rfl := (Memref.isWhole_whole cc1_scratch1).eq_unread hfs
    obtain rfl := (Memref.isWhole_whole cc1_scratch2).eq_unread hfa
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [HM]; · iexists _; iexact HM
    isplitl [HS]; · iexists _; iexact HS
    iexists _; iexact HA

set_option maxHeartbeats 1000000 in
/-- The body at the last point of the second axis: as at an interior point, and in addition the quotient of the
    updated accumulator by the updated sum is stored into the fourth window (whatever it held before). -/
noncomputable def kernelRun1_C (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole)
    (x2 : Vec F S2048x1024 .f32) (x3 : Vec F S256x1024 .bf16) (sm : Vec F S2048x1 .f32) (sl : Vec F S2048x1 .f32) (sa : Vec F S2048x15 .f32) :
    Σ' (L4 : List (View.Piece (Elt F) S2048x256 .f32)) (LM : List (View.Piece (Elt F) S2048x1 .f32)) (LS : List (View.Piece (Elt F) S2048x1 .f32)) (L5 : List (View.Piece (Elt F) S2048x15 .f32)), { LA : List (View.Piece (Elt F) S2048x15 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d) ∗ (∃ d, owns (c : Thread nD τ) arg5 fullShare d)
            ∗ owns (c : Thread nD τ) scMax fullShare sm ∗ owns (c : Thread nD τ) scSum fullShare sl ∗ owns (c : Thread nD τ) scAcc fullShare sa
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E (cc1__main_kernel i arg2 harg2 arg3 harg3 arg4 harg4 arg5 harg5 (Memref.whole cc1_scratch0) (Memref.isWhole_whole _) (Memref.whole cc1_scratch1) (Memref.isWhole_whole _) (Memref.whole cc1_scratch2) (Memref.isWhole_whole _)) K } := by
  have hc0 : ¬condReset i := fun h => absurd ((condReset_iff i).mp h) (by omega)
  have hc1 : condLast i := (condLast_iff i).mpr hi
  refine ⟨?_, ?_, ?_, ?_, ?_, fun E K => ?run⟩
  case run =>
    simp only [cc1__main_kernel_eq_skeleton]; unfold cc1__main_kernel_skel
    simp only [k1_part1_eq_skeleton]
    unfold owns
    iintro ⟨⟨%f2, %hf2, H2⟩, ⟨%f3, %hf3, H3⟩, ⟨%d4, %f4, -, H4⟩, ⟨%d5, %f5, -, H5⟩, ⟨%fm, %hfm, HM⟩, ⟨%fs, %hfs, HS⟩, ⟨%fa, %hfa, HA⟩, Hk⟩
    obtain rfl := harg2.eq_unread hf2; obtain rfl := harg3.eq_unread hf3
    obtain rfl := (Memref.isWhole_whole cc1_scratch0).eq_unread hfm
    obtain rfl := (Memref.isWhole_whole cc1_scratch1).eq_unread hfs
    obtain rfl := (Memref.isWhole_whole cc1_scratch2).eq_unread hfa
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [HM]; · iexists _; iexact HM
    isplitl [HS]; · iexists _; iexact HS
    iexists _; iexact HA

end Cert.Kernel.Hand

end
-- ==== Proof.K.Run1Read.lean ====
/-
  What each control case of the second kernel call's body leaves in the buffers it writes, as values: the written
  rectangles of every buffer cover it, and reading them back gives, whatever the buffer held and through whatever
  view of its shape it is read,

    * the third window: the logits block of the two input blocks;
    * the running maximum, the running sum and the accumulator: one step (`newMax`, `newSum`, `newAcc`) from the
      values carried in (from `-∞`, `0`, `0` at the first point of a row of the grid);
    * at the last point of a row, the fourth window: the quotient of the new accumulator by the new sum.

  Each is the last write to its buffer, made through the whole-shape rectangle; a value loaded after a store of the
  same body is that store's value.
-/
import proofs.«430590_j46402826666034_2_alg».proof.Proof.K.Run1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-! ## One step of the running softmax, as functions of the two blocks and the carried values -/

theorem zeroOff : (![0, 0] : Fin 2 → Nat) = fun _ => 0 := funext fun a => by fin_cases a <;> rfl

/-- The new running maximum: the old one against the row maxima of the logits block. -/
def newMax (x2 : Vec F S2048x1024 .f32) (x3 : Vec F S256x1024 .bf16) (m : Vec F S2048x1 .f32) : Vec F S2048x1 .f32 :=
  k1_pay3 (k1_pay10 x2 x3 m)
/-- The new running sum: the old one rescaled by `exp (m - m')`, plus the row sums of `exp (logits - m')`. -/
def newSum (x2 : Vec F S2048x1024 .f32) (x3 : Vec F S256x1024 .bf16) (m l : Vec F S2048x1 .f32) : Vec F S2048x1 .f32 :=
  k1_pay1 (k1_pay11 x2 x3 m m) (k1_pay12 x2 x3 m) l
/-- The new accumulator: the old one rescaled by `exp (m - m')`, plus `exp (logits - m')` against the sign table of
    the block's column numbers. -/
def newAcc (i : grid1.Coords) (x2 : Vec F S2048x1024 .f32) (x3 : Vec F S256x1024 .bf16) (m : Vec F S2048x1 .f32) (a : Vec F S2048x15 .f32) : Vec F S2048x15 .f32 :=
  k1_pay2 (k1_pay9 i) (k1_pay11 x2 x3 m m) (k1_pay12 x2 x3 m) a

/-! ## The interior points -/

theorem kernelRun1_B_logits {sig' : RefSig} {κ' : Kind} {sp' : Space} (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x256 .f32) (f : v.ty.Contents (Elt F)) :
    v.read (Elt F) (v.writes (Elt F) f (kernelRun1_B c i hi arg2 harg2 arg3 harg3 arg4 harg4 arg5 harg5 x2 x3 sm sl sa).1) = k1_pay8 x2 x3 := by
  rw [View.read_writes_eq_canon _ _ _ (fun y => View.cover_of_tiledL _ S2048x256.size (by sl_kernel_rfl) y)]
  unfold kernelRun1_B; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_B_max {sig' : RefSig} {κ' : Kind} {sp' : Space} (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x1 .f32) (f : v.ty.Contents (Elt F)) :
    v.read (Elt F) (v.writes (Elt F) f (kernelRun1_B c i hi arg2 harg2 arg3 harg3 arg4 harg4 arg5 harg5 x2 x3 sm sl sa).2.1) = newMax x2 x3 sm := by
  rw [View.read_writes_eq_canon _ _ _ (fun y => View.cover_of_tiledL _ S2048x1.size (by sl_kernel_rfl) y)]
  unfold kernelRun1_B; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_B_sum {sig' : RefSig} {κ' : Kind} {sp' : Space} (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x1 .f32) (f : v.ty.Contents (Elt F)) :
    v.read (Elt F) (v.writes (Elt F) f (kernelRun1_B c i hi arg2 harg2 arg3 harg3 arg4 harg4 arg5 harg5 x2 x3 sm sl sa).2.2.1) = newSum x2 x3 sm sl := by
  rw [View.read_writes_eq_canon _ _ _ (fun y => View.cover_of_tiledL _ S2048x1.size (by sl_kernel_rfl) y)]
  unfold kernelRun1_B; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_B_acc {sig' : RefSig} {κ' : Kind} {sp' : Space} (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x15 .f32) (f : v.ty.Contents (Elt F)) :
    v.read (Elt F) (v.writes (Elt F) f (kernelRun1_B c i hi arg2 harg2 arg3 harg3 arg4 harg4 arg5 harg5 x2 x3 sm sl sa).2.2.2.1) = newAcc i x2 x3 sm sa := by
  rw [View.read_writes_eq_canon _ _ _ (fun y => View.cover_of_tiledL _ S2048x15.size (by sl_kernel_rfl) y)]
  unfold kernelRun1_B; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

/-! ## The first point of a row of the grid -/

theorem kernelRun1_A_logits {sig' : RefSig} {κ' : Kind} {sp' : Space} (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (v : View sig' κ' sp' S2048x256 .f32) (f : v.ty.Contents (Elt F)) :
    v.read (Elt F) (v.writes (Elt F) f (kernelRun1_A c i hi arg2 harg2 arg3 harg3 arg4 harg4 arg5 harg5 x2 x3).1) = k1_pay8 x2 x3 := by
  rw [View.read_writes_eq_canon _ _ _ (fun y => View.cover_of_tiledL _ S2048x256.size (by sl_kernel_rfl) y)]
  unfold kernelRun1_A; dsimp only; sl_unfold_words
  rw [View.canon_unit_zero zeroOff]
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff]

theorem kernelRun1_A_max {sig' : RefSig} {κ' : Kind} {sp' : Space} (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (v : View sig' κ' sp' S2048x1 .f32) (f : v.ty.Contents (Elt F)) :
    v.read (Elt F) (v.writes (Elt F) f (kernelRun1_A c i hi arg2 harg2 arg3 harg3 arg4 harg4 arg5 harg5 x2 x3).2.1) = newMax x2 x3 k1_pay5 := by
  rw [View.read_writes_eq_canon _ _ _ (fun y => View.cover_of_tiledL _ S2048x1.size (by sl_kernel_rfl) y)]
  unfold kernelRun1_A; dsimp only; sl_unfold_words
  rw [View.canon_cons_unit_zero (S := S2048x1) zeroOff]
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff]

theorem kernelRun1_A_sum {sig' : RefSig} {κ' : Kind} {sp' : Space} (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (v : View sig' κ' sp' S2048x1 .f32) (f : v.ty.Contents (Elt F)) :
    v.read (Elt F) (v.writes (Elt F) f (kernelRun1_A c i hi arg2 harg2 arg3 harg3 arg4 harg4 arg5 harg5 x2 x3).2.2.1) = newSum x2 x3 k1_pay5 k1_pay6 := by
  rw [View.read_writes_eq_canon _ _ _ (fun y => View.cover_of_tiledL _ S2048x1.size (by sl_kernel_rfl) y)]
  unfold kernelRun1_A; dsimp only; sl_unfold_words
  rw [View.canon_cons_unit_zero (S := S2048x1) zeroOff]
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff]

theorem kernelRun1_A_acc {sig' : RefSig} {κ' : Kind} {sp' : Space} (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (v : View sig' κ' sp' S2048x15 .f32) (f : v.ty.Contents (Elt F)) :
    v.read (Elt F) (v.writes (Elt F) f (kernelRun1_A c i hi arg2 harg2 arg3 harg3 arg4 harg4 arg5 harg5 x2 x3).2.2.2.1) = newAcc i x2 x3 k1_pay5 k1_pay7 := by
  rw [View.read_writes_eq_canon _ _ _ (fun y => View.cover_of_tiledL _ S2048x15.size (by sl_kernel_rfl) y)]
  unfold kernelRun1_A; dsimp only; sl_unfold_words
  rw [View.canon_cons_unit_zero (S := S2048x15) zeroOff]
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff]

/-! ## The last point of a row of the grid -/

theorem kernelRun1_C_logits {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x256 .f32) (f : v.ty.Contents (Elt F)) :
    v.read (Elt F) (v.writes (Elt F) f (kernelRun1_C c i hi arg2 harg2 arg3 harg3 arg4 harg4 arg5 harg5 x2 x3 sm sl sa).1) = k1_pay8 x2 x3 := by
  rw [View.read_writes_eq_canon _ _ _ (fun y => View.cover_of_tiledL _ S2048x256.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_C_max {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x1 .f32) (f : v.ty.Contents (Elt F)) :
    v.read (Elt F) (v.writes (Elt F) f (kernelRun1_C c i hi arg2 harg2 arg3 harg3 arg4 harg4 arg5 harg5 x2 x3 sm sl sa).2.1) = newMax x2 x3 sm := by
  rw [View.read_writes_eq_canon _ _ _ (fun y => View.cover_of_tiledL _ S2048x1.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_C_sum {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x1 .f32) (f : v.ty.Contents (Elt F)) :
    v.read (Elt F) (v.writes (Elt F) f (kernelRun1_C c i hi arg2 harg2 arg3 harg3 arg4 harg4 arg5 harg5 x2 x3 sm sl sa).2.2.1) = newSum x2 x3 sm sl := by
  rw [View.read_writes_eq_canon _ _ _ (fun y => View.cover_of_tiledL _ S2048x1.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_C_out {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x15 .f32) (f : v.ty.Contents (Elt F)) :
    v.read (Elt F) (v.writes (Elt F) f (kernelRun1_C c i hi arg2 harg2 arg3 harg3 arg4 harg4 arg5 harg5 x2 x3 sm sl sa).2.2.2.1) = k1_pay4 (newAcc i x2 x3 sm sa) (newSum x2 x3 sm sl) := by
  rw [View.read_writes_eq_canon _ _ _ (fun y => View.cover_of_tiledL _ S2048x15.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_C_acc {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x15 .f32) (f : v.ty.Contents (Elt F)) :
    v.read (Elt F) (v.writes (Elt F) f (kernelRun1_C c i hi arg2 harg2 arg3 harg3 arg4 harg4 arg5 harg5 x2 x3 sm sl sa).2.2.2.2.1) = newAcc i x2 x3 sm sa := by
  rw [View.read_writes_eq_canon _ _ _ (fun y => View.cover_of_tiledL _ S2048x15.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

end Cert.Kernel.Hand

end
-- ==== Proof.K.Dat1.lean ====
/-
  The second kernel call as a pipeline over its `2 × 125` grid (250 points, the second coordinate the point's
  number modulo 125): its proof data and its body obligation.

  Along a row of the grid the body carries three buffers: the running row maximum, the running row sum of
  exponentials and the running weighted accumulator. `carried` is their value after each point, by recursion on
  the point: a step (`newMax`, `newSum`, `newAcc` of the point's two input blocks) from `(-∞, 0, 0)` at the first
  point of a row, from what the point before left elsewhere. The invariant before a point holds the three buffers
  at `carried` of the point before (at anything before the very first point). After every point the third window's
  buffer holds the point's logits block; the fourth window is stored into, and written back, only at the last
  point of a row, where it holds the quotient of the carried accumulator by the carried sum; at the other points
  its buffer is handed back as found.
-/
import proofs.«430590_j46402826666034_2_alg».proof.Proof.K.Defs0
import proofs.«430590_j46402826666034_2_alg».proof.Proof.K.Run1Read
import proofs.«430590_j46402826666034_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : Vals F)

/-! ## The grid: 250 points, the second coordinate the point's number modulo 125 -/

theorem coord1 : ∀ t : Fin cfg1.N, ((grid1.coords t) 1).val = t.val % 125 :=
  (by decide +kernel : ∀ t : Fin grid1.N, ((grid1.coords t) 1).val = t.val % 125)
/-- The fourth window is stored into only at the last point of each row of the grid; elsewhere it is idle and not written back. -/
theorem idleAt1_3 : ∀ t : Fin cfg1.N, ¬t.val % 125 = 124 → cfg1.idle 3 (grid1.coords t) = true :=
  (by decide +kernel : ∀ t : Fin grid1.N, ¬t.val % 125 = 124 → idle1 3 (grid1.coords t) = true)
theorem liveAt1_3 : ∀ t : Fin cfg1.N, t.val % 125 = 124 → cfg1.idle 3 (grid1.coords t) = false :=
  (by decide +kernel : ∀ t : Fin grid1.N, t.val % 125 = 124 → idle1 3 (grid1.coords t) = false)
theorem noFlush1_3 (t : Fin cfg1.N) (h : ¬t.val % 125 = 124) : (cfg1.win 3).flush t = false := by
  cases hf : (cfg1.win 3).flush t
  · rfl
  · exact absurd ((flush1_3 t).mp hf) h

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is
    not fetched its block index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two input blocks at a point, at their literal types: 2048 rows of 1024 features, and the 256 table rows
    of the point's block of columns. -/
abbrev blkX (c : Dev nD) (t : Fin cfg1.N) : Vec F S2048x1024 .f32 := iblk1 V c 0 t
abbrev blkW (c : Dev nD) (t : Fin cfg1.N) : Vec F S256x1024 .bf16 := iblk1 V c 1 t

/-- Each window's current staging memref at point `t`, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x15 .f32 := win1_3.stage (cfg1.slots t 3)
abbrev hs1_3 (t : Fin cfg1.N) : (ms1_3 t).IsWhole := hstage1_3 ((cfg1.slots t 3).cast nbuf1_3)

/-! ## The carried values after each point -/

/-- The running maximum, the running sum and the accumulator. -/
abbrev Carried (F : FTy → Type) [FloatOps F] : Type := Vec F S2048x1 .f32 × Vec F S2048x1 .f32 × Vec F S2048x15 .f32

/-- What the first point of a row of the grid starts from: `-∞`, `0`, `0`. -/
def resetVals : Carried F := (k1_pay5, k1_pay6, k1_pay7)

/-- One step at point `t` from the carried values `p`. -/
def stepAt (c : Dev nD) (t : Fin cfg1.N) (p : Carried F) : Carried F :=
  (newMax (blkX V c t) (blkW V c t) p.1, newSum (blkX V c t) (blkW V c t) p.1 p.2.1, newAcc (grid1.coords t) (blkX V c t) (blkW V c t) p.1 p.2.2)

/-- The carried values after point `n`: a step from the reset values at the first point of a row of the grid,
    from what the point before left elsewhere. -/
def carried (c : Dev nD) : (n : ℕ) → n < cfg1.N → Carried F
  | 0, hn => stepAt V c ⟨0, hn⟩ resetVals
  | n + 1, hn => stepAt V c ⟨n + 1, hn⟩ (if (n + 1) % 125 = 0 then resetVals else carried c n (Nat.lt_of_succ_lt hn))

theorem carried_first (c : Dev nD) (t : Fin cfg1.N) (h : t.val % 125 = 0) :
    carried V c t.val t.isLt = stepAt V c t resetVals := by
  obtain ⟨n, hn⟩ := t
  cases n with
  | zero => rfl
  | succ n => show stepAt V c _ (if (n + 1) % 125 = 0 then _ else _) = _; rw [if_pos h]

theorem carried_next (c : Dev nD) (t : Fin cfg1.N) (h : ¬t.val % 125 = 0) :
    carried V c t.val t.isLt = stepAt V c t (carried V c (t.val - 1) (Nat.lt_of_le_of_lt (Nat.sub_le _ _) t.isLt)) := by
  obtain ⟨n, hn⟩ := t
  cases n with
  | zero => exact absurd (Nat.zero_mod _) h
  | succ n => show stepAt V c _ (if (n + 1) % 125 = 0 then _ else _) = _; rw [if_neg h]; rfl

/-! ## The invariant -/

/-- The class invariant with the three carried buffers owned at some contents each. -/
theorem PhiA1_eq (c : Dev nD) :
    (Pipeline.ΦA (U := Pipeline.UD sig nD τ) spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest1_eq]; simp only [scMax, scSum, scAcc, owns_whole]; try rfl

/-- Before position `n`: at the very first point the class invariant (the carried buffers at anything); afterwards
    the carried buffers hold what the point before left. -/
def PhiS (c : Dev nD) : (n : ℕ) → n ≤ cfg1.N → sProp 𝕄
  | 0, _ => Pipeline.ΦA (U := Pipeline.UD sig nD τ) spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (carried V c n hn).1 ∗ owns (c : Thread nD τ) scSum fullShare (carried V c n hn).2.1 ∗ owns (c : Thread nD τ) scAcc fullShare (carried V c n hn).2.2) ∗ (∃ r, prngReg c r))

theorem PhiS_zero (c : Dev nD) (n : ℕ) (h : n ≤ cfg1.N) (hz : n = 0) : PhiS V c n h = Pipeline.ΦA (U := Pipeline.UD sig nD τ) spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (carried V c n hn).1 ∗ owns (c : Thread nD τ) scSum fullShare (carried V c n hn).2.1 ∗ owns (c : Thread nD τ) scAcc fullShare (carried V c n hn).2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (carried V c (n - 1) (by omega)).1 ∗ owns (c : Thread nD τ) scSum fullShare (carried V c (n - 1) (by omega)).2.1 ∗ owns (c : Thread nD τ) scAcc fullShare (carried V c (n - 1) (by omega)).2.2) ∗ (∃ r, prngReg c r)) := by
  cases n with
  | zero => exact absurd rfl hz
  | succ n => rfl

/-! ## The proof data -/

/-- The second call's proof data on core `c`: the arrays as the region finds them; after the body at point `t`
    each input's buffer at its block, the third window's at the logits block, the fourth's at the quotient of
    the carried accumulator by the carried sum (consulted only where the window is written back: the last
    point of each row of the grid); nothing owed; full shares. -/
def dat1 (V : Vals F) (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => k1_pay8 (blkX V c t) (blkW V c t)
    | ⟨3, _⟩ => k1_pay4 (carried V c t.val t.isLt).2.2 (carried V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed1 (c : Dev nD) (t) : (dat1 V c).owed t = 0 := rfl
theorem share1 (c : Dev nD) (w) : (dat1 V c).q w = fullShare := rfl
theorem recorded1 (c : Dev nD) (t) : (dat1 V c).recorded t = Set.univ := rfl

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
/-- After every point the third window's buffer holds the point's logits block. -/
theorem after1_2 (c : Dev nD) (t : Fin cfg1.N) : (dat1 V c).after 2 t = k1_pay8 (blkX V c t) (blkW V c t) := by dsimp only [dat1]
/-- After a point the fourth window's buffer is described as the quotient of the carried accumulator by the carried sum. -/
theorem after1_3 (c : Dev nD) (t : Fin cfg1.N) : (dat1 V c).after 3 t = k1_pay4 (carried V c t.val t.isLt).2.2 (carried V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_first (c : Dev nD) : (Pipeline.ΦA (U := Pipeline.UD sig nD τ) spec1 c : sProp 𝕄) ⊢ (dat1 V c).Φ 0 := by
  rw [show (dat1 V c).Φ 0 = PhiS V c 0 (Nat.zero_le _) from rfl, PhiS_zero V c 0 _ rfl]
  try exact Idealize.SL.BI.Entails.refl _

theorem Phi1_last (c : Dev nD) : (dat1 V c).Φ (Fin.last cfg1.N) ⊢ (Pipeline.ΦA (U := Pipeline.UD sig nD τ) spec1 c : sProp 𝕄) := by
  have hN : cfg1.N = 250 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨HR0, HR1, HR2, HR3, HR4, HR5, HR6, HM, HS, HA⟩, Hg⟩
  isplitl [HR0 HR1 HR2 HR3 HR4 HR5 HR6 HM HS HA]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HM]; · iexists _; iexact HM
    isplitl [HS]; · iexists _; iexact HS
    iexists _; iexact HA
  iexact Hg

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's number modulo 125 says which of
    the three control cases applies; the invariant hands the body the carried buffers at what the point before
    left (at anything at the very first point) and takes them back at this point's values; where the fourth
    window is idle its buffer comes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 250 := lt_of_lt_of_eq t.isLt (show cfg1.N = 250 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  by_cases h0 : t.val % 125 = 0
  · have h1 : ¬t.val % 125 = 124 := by omega
    rw [Dat.leavesExact_idle (dat1 V c) 3 t (idleAt1_3 t h1) (noFlush1_3 t h1)]
    rw [carried_first V c t h0]
    dsimp only [stepAt, resetVals]
    by_cases hz : t.val = 0
    ·
      rw [PhiS_castSucc V c t, PhiS_zero V c _ _ hz, PhiA1_eq]
      iintro ⟨⟨⟨HR0, HR1, HR2, HR3, HR4, HR5, HR6, HM, HS, HA⟩, Hg⟩, Ho, ⟨%d0, H0⟩, ⟨%d1, H1⟩, ⟨%d2, H2⟩, ⟨%d3, H3⟩⟩
      iapply ((kernelRun1_A c (grid1.coords t) (by rw [coord1 t]; exact h0) _ _ _ _ _ _ _ _ (blkX V c t) (blkW V c t)).2.2.2.2 _ Set.univ _)
      isplitl [H0]; · iexact H0
      isplitl [H1]; · iexact H1
      isplitl [H2]; · iexists _; iexact H2
      isplitl [H3]; · iexact H3
      isplitl [HM]; · iexact HM
      isplitl [HS]; · iexact HS
      isplitl [HA]; · iexact HA
      iintro ⟨H0, H1, ⟨%e2, H2⟩, H3, ⟨%em, HM⟩, ⟨%es, HS⟩, ⟨%ea, HA⟩⟩
      isplitl [HR0 HR1 HR2 HR3 HR4 HR5 HR6 HM HS HA Hg]
      · isplitl [HR0 HR1 HR2 HR3 HR4 HR5 HR6 HM HS HA]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HM]
          · unfold owns; iexists _; isplitr
            swap; · iexact HM
            ipureintro; exact kernelRun1_A_max c (grid1.coords t) (by rw [coord1 t]; exact h0) _ _ _ _ _ _ _ _ (blkX V c t) (blkW V c t) _ _
          isplitl [HS]
          · unfold owns; iexists _; isplitr
            swap; · iexact HS
            ipureintro; exact kernelRun1_A_sum c (grid1.coords t) (by rw [coord1 t]; exact h0) _ _ _ _ _ _ _ _ (blkX V c t) (blkW V c t) _ _
          unfold owns; iexists _; isplitr
          swap; · iexact HA
          ipureintro; exact kernelRun1_A_acc c (grid1.coords t) (by rw [coord1 t]; exact h0) _ _ _ _ _ _ _ _ (blkX V c t) (blkW V c t) _ _
        iexact Hg
      isplitl [Ho]; · iexact Ho
      isplitl [H0]; · iexact H0
      isplitl [H1]; · iexact H1
      isplitl [H2]
      · unfold owns; iexists _; isplitr
        swap; · iexact H2
        ipureintro; exact kernelRun1_A_logits c (grid1.coords t) (by rw [coord1 t]; exact h0) _ _ _ _ _ _ _ _ (blkX V c t) (blkW V c t) _ _
      iexists _; iexact H3
    ·
      rw [PhiS_castSucc V c t, PhiS_pos V c _ _ hz]
      iintro ⟨⟨⟨HR0, HR1, HR2, HR3, HR4, HR5, HR6, HM, HS, HA⟩, Hg⟩, Ho, ⟨%d0, H0⟩, ⟨%d1, H1⟩, ⟨%d2, H2⟩, ⟨%d3, H3⟩⟩
      iapply ((kernelRun1_A c (grid1.coords t) (by rw [coord1 t]; exact h0) _ _ _ _ _ _ _ _ (blkX V c t) (blkW V c t)).2.2.2.2 _ Set.univ _)
      isplitl [H0]; · iexact H0
      isplitl [H1]; · iexact H1
      isplitl [H2]; · iexists _; iexact H2
      isplitl [H3]; · iexact H3
      isplitl [HM]; · iexists _; iexact HM
      isplitl [HS]; · iexists _; iexact HS
      isplitl [HA]; · iexists _; iexact HA
      iintro ⟨H0, H1, ⟨%e2, H2⟩, H3, ⟨%em, HM⟩, ⟨%es, HS⟩, ⟨%ea, HA⟩⟩
      isplitl [HR0 HR1 HR2 HR3 HR4 HR5 HR6 HM HS HA Hg]
      · isplitl [HR0 HR1 HR2 HR3 HR4 HR5 HR6 HM HS HA]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HM]
          · unfold owns; iexists _; isplitr
            swap; · iexact HM
            ipureintro; exact kernelRun1_A_max c (grid1.coords t) (by rw [coord1 t]; exact h0) _ _ _ _ _ _ _ _ (blkX V c t) (blkW V c t) _ _
          isplitl [HS]
          · unfold owns; iexists _; isplitr
            swap; · iexact HS
            ipureintro; exact kernelRun1_A_sum c (grid1.coords t) (by rw [coord1 t]; exact h0) _ _ _ _ _ _ _ _ (blkX V c t) (blkW V c t) _ _
          unfold owns; iexists _; isplitr
          swap; · iexact HA
          ipureintro; exact kernelRun1_A_acc c (grid1.coords t) (by rw [coord1 t]; exact h0) _ _ _ _ _ _ _ _ (blkX V c t) (blkW V c t) _ _
        iexact Hg
      isplitl [Ho]; · iexact Ho
      isplitl [H0]; · iexact H0
      isplitl [H1]; · iexact H1
      isplitl [H2]
      · unfold owns; iexists _; isplitr
        swap; · iexact H2
        ipureintro; exact kernelRun1_A_logits c (grid1.coords t) (by rw [coord1 t]; exact h0) _ _ _ _ _ _ _ _ (blkX V c t) (blkW V c t) _ _
      iexists _; iexact H3
  · have hz : t.val ≠ 0 := fun h => h0 (by rw [h])
    rw [carried_next V c t h0]
    dsimp only [stepAt]
    by_cases h1 : t.val % 125 = 124
    · rw [show (dat1 V c).leavesExact 3 t = owns (c : Thread nD τ) (ms1_3 t) fullShare ((dat1 V c).after 3 t) from by
        unfold Dat.leavesExact; rw [liveAt1_3 t h1], after1_3, carried_next V c t h0]
      dsimp only [stepAt]
      rw [PhiS_castSucc V c t, PhiS_pos V c _ _ hz]
      iintro ⟨⟨⟨HR0, HR1, HR2, HR3, HR4, HR5, HR6, HM, HS, HA⟩, Hg⟩, Ho, ⟨%d0, H0⟩, ⟨%d1, H1⟩, ⟨%d2, H2⟩, ⟨%d3, H3⟩⟩
      iapply ((kernelRun1_C c (grid1.coords t) (by rw [coord1 t]; exact h1) _ _ _ _ _ _ _ _ (blkX V c t) (blkW V c t) _ _ _).2.2.2.2.2 Set.univ _)
      isplitl [H0]; · iexact H0
      isplitl [H1]; · iexact H1
      isplitl [H2]; · iexists _; iexact H2
      isplitl [H3]; · iexists _; iexact H3
      isplitl [HM]; · iexact HM
      isplitl [HS]; · iexact HS
      isplitl [HA]; · iexact HA
      iintro ⟨H0, H1, ⟨%e2, H2⟩, ⟨%e3, H3⟩, ⟨%em, HM⟩, ⟨%es, HS⟩, ⟨%ea, HA⟩⟩
      isplitl [HR0 HR1 HR2 HR3 HR4 HR5 HR6 HM HS HA Hg]
      · isplitl [HR0 HR1 HR2 HR3 HR4 HR5 HR6 HM HS HA]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HM]
          · unfold owns; iexists _; isplitr
            swap; · iexact HM
            ipureintro; exact kernelRun1_C_max c (grid1.coords t) (by rw [coord1 t]; exact h1) _ _ _ _ _ _ _ _ (blkX V c t) (blkW V c t) _ _ _ _ _
          isplitl [HS]
          · unfold owns; iexists _; isplitr
            swap; · iexact HS
            ipureintro; exact kernelRun1_C_sum c (grid1.coords t) (by rw [coord1 t]; exact h1) _ _ _ _ _ _ _ _ (blkX V c t) (blkW V c t) _ _ _ _ _
          unfold owns; iexists _; isplitr
          swap; · iexact HA
          ipureintro; exact kernelRun1_C_acc c (grid1.coords t) (by rw [coord1 t]; exact h1) _ _ _ _ _ _ _ _ (blkX V c t) (blkW V c t) _ _ _ _ _
        iexact Hg
      isplitl [Ho]; · iexact Ho
      isplitl [H0]; · iexact H0
      isplitl [H1]; · iexact H1
      isplitl [H2]
      · unfold owns; iexists _; isplitr
        swap; · iexact H2
        ipureintro; exact kernelRun1_C_logits c (grid1.coords t) (by rw [coord1 t]; exact h1) _ _ _ _ _ _ _ _ (blkX V c t) (blkW V c t) _ _ _ _ _
      unfold owns; iexists _; isplitr
      swap; · iexact H3
      ipureintro; exact kernelRun1_C_out c (grid1.coords t) (by rw [coord1 t]; exact h1) _ _ _ _ _ _ _ _ (blkX V c t) (blkW V c t) _ _ _ _ _
    · rw [Dat.leavesExact_idle (dat1 V c) 3 t (idleAt1_3 t h1) (noFlush1_3 t h1)]
      rw [PhiS_castSucc V c t, PhiS_pos V c _ _ hz]
      iintro ⟨⟨⟨HR0, HR1, HR2, HR3, HR4, HR5, HR6, HM, HS, HA⟩, Hg⟩, Ho, ⟨%d0, H0⟩, ⟨%d1, H1⟩, ⟨%d2, H2⟩, ⟨%d3, H3⟩⟩
      iapply ((kernelRun1_B c (grid1.coords t) (by rw [coord1 t]; omega) _ _ _ _ _ _ _ _ (blkX V c t) (blkW V c t) _ _ _).2.2.2.2 _ Set.univ _)
      isplitl [H0]; · iexact H0
      isplitl [H1]; · iexact H1
      isplitl [H2]; · iexists _; iexact H2
      isplitl [H3]; · iexact H3
      isplitl [HM]; · iexact HM
      isplitl [HS]; · iexact HS
      isplitl [HA]; · iexact HA
      iintro ⟨H0, H1, ⟨%e2, H2⟩, H3, ⟨%em, HM⟩, ⟨%es, HS⟩, ⟨%ea, HA⟩⟩
      isplitl [HR0 HR1 HR2 HR3 HR4 HR5 HR6 HM HS HA Hg]
      · isplitl [HR0 HR1 HR2 HR3 HR4 HR5 HR6 HM HS HA]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HM]
          · unfold owns; iexists _; isplitr
            swap; · iexact HM
            ipureintro; exact kernelRun1_B_max c (grid1.coords t) (by rw [coord1 t]; omega) _ _ _ _ _ _ _ _ (blkX V c t) (blkW V c t) _ _ _ _ _
          isplitl [HS]
          · unfold owns; iexists _; isplitr
            swap; · iexact HS
            ipureintro; exact kernelRun1_B_sum c (grid1.coords t) (by rw [coord1 t]; omega) _ _ _ _ _ _ _ _ (blkX V c t) (blkW V c t) _ _ _ _ _
          unfold owns; iexists _; isplitr
          swap; · iexact HA
          ipureintro; exact kernelRun1_B_acc c (grid1.coords t) (by rw [coord1 t]; omega) _ _ _ _ _ _ _ _ (blkX V c t) (blkW V c t) _ _ _ _ _
        iexact Hg
      isplitl [Ho]; · iexact Ho
      isplitl [H0]; · iexact H0
      isplitl [H1]; · iexact H1
      isplitl [H2]
      · unfold owns; iexists _; isplitr
        swap; · iexact H2
        ipureintro; exact kernelRun1_B_logits c (grid1.coords t) (by rw [coord1 t]; omega) _ _ _ _ _ _ _ _ (blkX V c t) (blkW V c t) _ _ _ _ _
      iexists _; iexact H3

/-- The body obligation, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.Code.lean ====
/-
  Integer-word arithmetic on 32-bit words: clipping a word to [0, 31999] (signed reading), the words of the
  shift amounts 14 - k, the words of the vocabulary ids 256 * j + r, and the ±1 code
  ((u >> (14 - k)) & 1) * 2 - 1 of bit 14 - k of a word u in [0, 31999], which is Spec.code.
-/
import proofs.«430590_j46402826666034_2_alg».proof.Proof.Spec
import Idealize.ShloMosaic.PureOps
import Idealize.ShloMosaic.PureOps.Ideal

noncomputable section

namespace Cert.Proof.Code

open Idealize.ShloMosaic

/-! ## Clipping a word to [0, 31999] -/

/-- The signed maximum with the zero word is the maximum of the signed values. -/
theorem maxsi_zero_toInt (v : BitVec 32) : (IntOp.maxsi 0#32 v).toInt = max 0 v.toInt := by
  unfold IntOp.maxsi
  by_cases h : v.toInt < 0
  · have h' : v.slt 0#32 = true := BitVec.slt_iff_toInt_lt.2 (by simpa using h)
    rw [if_pos h']
    have : (0#32 : BitVec 32).toInt = 0 := by decide
    omega
  · have h' : ¬ (v.slt 0#32 = true) := fun c => h (by simpa using BitVec.slt_iff_toInt_lt.1 c)
    rw [if_neg h']
    omega

/-- The signed minimum with the word 31999 is the minimum of the signed values. -/
theorem minsi_31999_toInt (m : BitVec 32) : (IntOp.minsi 31999#32 m).toInt = min 31999 m.toInt := by
  unfold IntOp.minsi
  have c : (31999#32 : BitVec 32).toInt = 31999 := by decide
  by_cases h : (31999 : ℤ) < m.toInt
  · have h' : (31999#32 : BitVec 32).slt m = true := BitVec.slt_iff_toInt_lt.2 (by rw [c]; exact h)
    rw [if_pos h', c]
    omega
  · have h' : ¬ ((31999#32 : BitVec 32).slt m = true) := fun d => h (by have := BitVec.slt_iff_toInt_lt.1 d; rwa [c] at this)
    rw [if_neg h']
    omega

/-- The clipped word, read signed, is the id clipped to [0, 31999]. -/
theorem clip_toInt (v : BitVec 32) :
    (IntOp.minsi 31999#32 (IntOp.maxsi 0#32 v)).toInt = min 31999 (max 0 v.toInt) := by
  rw [minsi_31999_toInt, maxsi_zero_toInt]

/-- The clipped word lies in [0, 31999], read signed. -/
theorem clip_bounds (v : BitVec 32) :
    0 ≤ (IntOp.minsi 31999#32 (IntOp.maxsi 0#32 v)).toInt ∧ (IntOp.minsi 31999#32 (IntOp.maxsi 0#32 v)).toInt ≤ 31999 := by
  rw [clip_toInt]; omega

/-- A word in [0, 2^31) read signed: its unsigned value. -/
theorem toNat_of_toInt_nonneg (u : BitVec 32) (h : 0 ≤ u.toInt) : (u.toNat : ℤ) = u.toInt := by
  rw [BitVec.toInt_eq_toNat_cond] at h ⊢
  split_ifs at h ⊢ with c
  · rfl
  · have := u.isLt; omega

/-- The clipped word, read unsigned, is the clipped id of the specification. -/
theorem clip_toNat (v : BitVec 32) :
    (IntOp.minsi 31999#32 (IntOp.maxsi 0#32 v)).toNat = Spec.clipNat v := by
  have h := clip_toInt v
  have hb := clip_bounds v
  have hn := toNat_of_toInt_nonneg _ hb.1
  unfold Spec.clipNat
  rw [← h, ← hn]
  simp

/-- A word whose unsigned value is below 2^31 reads the same signed. -/
theorem toInt_of_lt (u : BitVec 32) (h : u.toNat < 2147483648) : u.toInt = u.toNat := by
  rw [BitVec.toInt_eq_toNat_cond]
  rw [if_pos (by omega)]

/-- A word below 32000 is its own clip. -/
theorem clip_of_lt (v : BitVec 32) (h : v.toNat < 32000) :
    IntOp.minsi 31999#32 (IntOp.maxsi 0#32 v) = v := by
  apply BitVec.eq_of_toInt_eq
  rw [clip_toInt, toInt_of_lt v (by omega)]
  omega

/-- A word below 32000: its clipped id is its value. -/
theorem clipNat_of_lt (v : BitVec 32) (h : v.toNat < 32000) : Spec.clipNat v = v.toNat := by
  rw [← clip_toNat, clip_of_lt v h]

/-! ## The arithmetic right shift and the bit it exposes -/

/-- By an amount below 32 the arithmetic right shift is the same function on every unit. -/
theorem shrsi_of_lt (un : ArithUnit) (u sh : BitVec 32) (h : sh.toNat < 32) :
    IntOp.shrsi un u sh = u.sshiftRight sh.toNat := by
  unfold IntOp.shrsi
  rw [if_pos h]
  rfl

/-- A word that reads non-negative has a clear sign bit. -/
theorem msb_of_toInt_nonneg (u : BitVec 32) (h : 0 ≤ u.toInt) : u.msb = false := by
  rw [BitVec.msb_eq_toInt]
  simp
  exact h

/-- Bit n of a non-negative word: shift right by n, keep the lowest bit. -/
theorem shr_and_one_toNat (un : ArithUnit) (u sh : BitVec 32) (n : ℕ) (hn : n < 32) (hu : 0 ≤ u.toInt)
    (hs : sh.toNat = n) :
    (IntOp.andi (IntOp.shrsi un u sh) 1#32).toNat = if u.toNat.testBit n then 1 else 0 := by
  rw [shrsi_of_lt un u sh (by omega), hs, BitVec.sshiftRight_eq_of_msb_false (msb_of_toInt_nonneg u hu)]
  unfold IntOp.andi
  rw [BitVec.toNat_and, BitVec.toNat_ushiftRight]
  have one : (1#32 : BitVec 32).toNat = 1 := by decide
  rw [one, Nat.and_one_is_mod, Nat.testBit_eq_decide_div_mod_eq, Nat.shiftRight_eq_div_pow]
  by_cases c : u.toNat / 2 ^ n % 2 = 1
  · simp [c]
  · have : u.toNat / 2 ^ n % 2 = 0 := by omega
    simp [this]

theorem shr_and_one_toInt (un : ArithUnit) (u sh : BitVec 32) (n : ℕ) (hn : n < 32) (hu : 0 ≤ u.toInt)
    (hs : sh.toNat = n) :
    (IntOp.andi (IntOp.shrsi un u sh) 1#32).toInt = if u.toNat.testBit n then 1 else 0 := by
  have h := shr_and_one_toNat un u sh n hn hu hs
  rw [toInt_of_lt _ (by rw [h]; split_ifs <;> omega), h]
  split_ifs <;> rfl

/-! ## The ±1 code of a bit -/

/-- The f32 word 0x40000000 is the extended real two. -/
theorem ofBits_two_f32 : Ideal.ofBits .f32 0x40000000#32 = 2 := by
  rw [show (2 : EReal) = ((2 : ℝ) : EReal) from rfl]
  simp [Ideal.ofBits, Ideal.ieee, -EReal.coe_mul]
  norm_num

/-- The f32 word 0x3F800000 is the extended real one. -/
theorem ofBits_one_f32 : Ideal.ofBits .f32 0x3F800000#32 = 1 := by
  rw [show (1 : EReal) = ((1 : ℝ) : EReal) from rfl]
  simp [Ideal.ofBits, Ideal.ieee, -EReal.coe_mul]
  norm_num

/-- 1 · 2 − 1 = 1 over the extended reals. -/
theorem one_code : ((((1 : ℤ) : ℝ) : EReal)) * 2 - 1 = 1 := by
  have h2 : (2 : EReal) = ((2 : ℝ) : EReal) := rfl
  have h1 : (1 : EReal) = ((1 : ℝ) : EReal) := rfl
  rw [h2, h1, ← EReal.coe_mul, ← EReal.coe_sub]
  norm_num

/-- 0 · 2 − 1 = −1 over the extended reals. -/
theorem zero_code : ((((0 : ℤ) : ℝ) : EReal)) * 2 - 1 = -1 := by
  have h2 : (2 : EReal) = ((2 : ℝ) : EReal) := rfl
  have h1 : (1 : EReal) = ((1 : ℝ) : EReal) := rfl
  rw [h2, h1, ← EReal.coe_mul, ← EReal.coe_sub, ← EReal.coe_neg]
  norm_num

/-- For a non-negative word u and a shift amount n below 32: ((u >> n) & 1) · 2 − 1 is +1 when bit n of u is set
    and −1 when it is clear; on every unit. -/
theorem code_eq_nat {un : ArithUnit} (u sh : BitVec 32) (n : ℕ) (hn : n < 32) (hu : 0 ≤ u.toInt)
    (hs : sh.toNat = n) :
    ((((IntOp.andi (IntOp.shrsi un u sh) 1#32).toInt : ℝ) : EReal)) * 2 - 1
      = if u.toNat.testBit n then 1 else -1 := by
  rw [shr_and_one_toInt un u sh n hn hu hs]
  by_cases c : u.toNat.testBit n = true
  · rw [if_pos c, if_pos c]; exact one_code
  · rw [if_neg c, if_neg c]; exact zero_code

/-- The same for the shift amount 14 − k, k below 15, of a word in [0, 31999]. -/
theorem code_eq {un : ArithUnit} (u sh : BitVec 32) (k : Fin 15) (hu : 0 ≤ u.toInt ∧ u.toInt ≤ 31999)
    (hs : sh.toNat = 14 - k.val) :
    ((((IntOp.andi (IntOp.shrsi un u sh) 1#32).toInt : ℝ) : EReal)) * 2 - 1
      = if u.toNat.testBit (14 - k.val) then 1 else -1 :=
  code_eq_nat u sh (14 - k.val) (by omega) hu.1 hs

/-- The same with the factor two and the subtrahend one written as the extended reals of their f32 words. -/
theorem code_eq_bits {un : ArithUnit} (u sh : BitVec 32) (k : Fin 15) (hu : 0 ≤ u.toInt ∧ u.toInt ≤ 31999)
    (hs : sh.toNat = 14 - k.val) :
    ((((IntOp.andi (IntOp.shrsi un u sh) 1#32).toInt : ℝ) : EReal)) * Ideal.ofBits .f32 0x40000000#32
        - Ideal.ofBits .f32 0x3F800000#32
      = if u.toNat.testBit (14 - k.val) then 1 else -1 := by
  rw [ofBits_two_f32, ofBits_one_f32]
  exact code_eq u sh k hu hs

/-- With u the clip of an id word v, it is the code of the specification. -/
theorem code_clip {un : ArithUnit} (v sh : BitVec 32) (k : Fin 15) (hs : sh.toNat = 14 - k.val) :
    ((((IntOp.andi (IntOp.shrsi un (IntOp.minsi 31999#32 (IntOp.maxsi 0#32 v)) sh) 1#32).toInt : ℝ) : EReal)) * 2 - 1
      = Spec.code v k := by
  rw [code_eq _ sh k (clip_bounds v) hs, clip_toNat]
  rfl

/-- The same with the two literals as the extended reals of their f32 words. -/
theorem code_clip_bits {un : ArithUnit} (v sh : BitVec 32) (k : Fin 15) (hs : sh.toNat = 14 - k.val) :
    ((((IntOp.andi (IntOp.shrsi un (IntOp.minsi 31999#32 (IntOp.maxsi 0#32 v)) sh) 1#32).toInt : ℝ) : EReal))
        * Ideal.ofBits .f32 0x40000000#32 - Ideal.ofBits .f32 0x3F800000#32
      = Spec.code v k := by
  rw [ofBits_two_f32, ofBits_one_f32]
  exact code_clip v sh k hs

/-- For a word u below 32000, unclipped, it is the code of the specification as well. -/
theorem code_of_lt {un : ArithUnit} (u sh : BitVec 32) (k : Fin 15) (h : u.toNat < 32000)
    (hs : sh.toNat = 14 - k.val) :
    ((((IntOp.andi (IntOp.shrsi un u sh) 1#32).toInt : ℝ) : EReal)) * 2 - 1 = Spec.code u k := by
  have hi := toInt_of_lt u (by omega)
  rw [code_eq u sh k ⟨by omega, by omega⟩ hs]
  unfold Spec.code
  rw [clipNat_of_lt u h]

/-- The same with the two literals as the extended reals of their f32 words. -/
theorem code_of_lt_bits {un : ArithUnit} (u sh : BitVec 32) (k : Fin 15) (h : u.toNat < 32000)
    (hs : sh.toNat = 14 - k.val) :
    ((((IntOp.andi (IntOp.shrsi un u sh) 1#32).toInt : ℝ) : EReal)) * Ideal.ofBits .f32 0x40000000#32
        - Ideal.ofBits .f32 0x3F800000#32 = Spec.code u k := by
  rw [ofBits_two_f32, ofBits_one_f32]
  exact code_of_lt u sh k h hs

/-! ## The words of the shift amounts 14 − k -/

/-- 14 − n as a word difference, n at most 14. -/
theorem sub_shift_toNat (n : ℕ) (hn : n ≤ 14) : (IntOp.subi 14#32 (BitVec.ofNat 32 n)).toNat = 14 - n := by
  unfold IntOp.subi
  rw [BitVec.toNat_sub, BitVec.toNat_ofNat, BitVec.toNat_ofNat]
  omega

theorem sub_shift_toNat' (n : ℕ) (hn : n ≤ 14) : (14#32 - BitVec.ofNat 32 n).toNat = 14 - n :=
  sub_shift_toNat n hn

theorem sub_shift_toNat_fin (k : Fin 15) : (IntOp.subi 14#32 (BitVec.ofNat 32 k.val)).toNat = 14 - k.val :=
  sub_shift_toNat k.val (by omega)

theorem sub_shift_toNat_fin' (k : Fin 15) : (14#32 - BitVec.ofNat 32 k.val).toNat = 14 - k.val :=
  sub_shift_toNat k.val (by omega)

/-- 14 − n as the word sum 14 + (−1) · n, n at most 14. -/
theorem add_mul_shift_toNat (n : ℕ) (hn : n ≤ 14) :
    (IntOp.addi 14#32 (IntOp.muli 4294967295#32 (BitVec.ofNat 32 n))).toNat = 14 - n := by
  unfold IntOp.addi IntOp.muli
  rw [BitVec.toNat_add, BitVec.toNat_mul, BitVec.toNat_ofNat, BitVec.toNat_ofNat, BitVec.toNat_ofNat]
  omega

theorem add_mul_shift_toNat' (n : ℕ) (hn : n ≤ 14) :
    (14#32 + 4294967295#32 * BitVec.ofNat 32 n).toNat = 14 - n :=
  add_mul_shift_toNat n hn

theorem add_mul_shift_toNat_fin (k : Fin 15) :
    (IntOp.addi 14#32 (IntOp.muli 4294967295#32 (BitVec.ofNat 32 k.val))).toNat = 14 - k.val :=
  add_mul_shift_toNat k.val (by omega)

theorem add_mul_shift_toNat_fin' (k : Fin 15) :
    (14#32 + 4294967295#32 * BitVec.ofNat 32 k.val).toNat = 14 - k.val :=
  add_mul_shift_toNat k.val (by omega)

/-! ## The words of the vocabulary ids 256 · j + r -/

/-- The word r + j · 256 is the word of the number 256 · j + r. -/
theorem vocab_word (r j : ℕ) :
    IntOp.addi (BitVec.ofNat 32 r) (IntOp.muli (BitVec.ofNat 32 j) 256#32) = BitVec.ofNat 32 (256 * j + r) := by
  unfold IntOp.addi IntOp.muli
  apply BitVec.eq_of_toNat_eq
  rw [BitVec.toNat_add, BitVec.toNat_mul, BitVec.toNat_ofNat, BitVec.toNat_ofNat, BitVec.toNat_ofNat,
    BitVec.toNat_ofNat]
  omega

theorem vocab_word' (r j : ℕ) :
    BitVec.ofNat 32 r + BitVec.ofNat 32 j * 256#32 = BitVec.ofNat 32 (256 * j + r) :=
  vocab_word r j

/-- A row r below 256 of block j below 125 is an id below 32000. -/
theorem vocab_lt (r j : ℕ) (hr : r < 256) (hj : j < 125) : 256 * j + r < 32000 := by omega

/-- The word of a number below 32000 has that number as its unsigned value … -/
theorem ofNat_toNat (n : ℕ) (h : n < 32000) : (BitVec.ofNat 32 n).toNat = n := by
  rw [BitVec.toNat_ofNat]; omega

/-- … and as its signed value … -/
theorem ofNat_toInt (n : ℕ) (h : n < 32000) : (BitVec.ofNat 32 n).toInt = n := by
  rw [toInt_of_lt _ (by rw [ofNat_toNat n h]; omega), ofNat_toNat n h]

/-- … is its own clip … -/
theorem clip_ofNat (n : ℕ) (h : n < 32000) :
    IntOp.minsi 31999#32 (IntOp.maxsi 0#32 (BitVec.ofNat 32 n)) = BitVec.ofNat 32 n :=
  clip_of_lt _ (by rw [ofNat_toNat n h]; exact h)

/-- … its clipped id is the number … -/
theorem clipNat_ofNat (n : ℕ) (h : n < 32000) : Spec.clipNat (BitVec.ofNat 32 n) = n := by
  rw [clipNat_of_lt _ (by rw [ofNat_toNat n h]; exact h), ofNat_toNat n h]

/-- … and the table row it selects is the number. -/
theorem row_ofNat (n : ℕ) (h : n < 32000) : Spec.row (BitVec.ofNat 32 n) = ⟨n, h⟩ := by
  apply Fin.ext
  rw [Spec.row_val_of_lt _ (by rw [ofNat_toNat n h]; exact h), ofNat_toNat n h]

/-- The code of a vocabulary id n below 32000, computed on its unclipped word. -/
theorem code_ofNat {un : ArithUnit} (n : ℕ) (sh : BitVec 32) (k : Fin 15) (h : n < 32000)
    (hs : sh.toNat = 14 - k.val) :
    ((((IntOp.andi (IntOp.shrsi un (BitVec.ofNat 32 n) sh) 1#32).toInt : ℝ) : EReal)) * 2 - 1
      = Spec.code (BitVec.ofNat 32 n) k :=
  code_of_lt _ sh k (by rw [ofNat_toNat n h]; exact h) hs

/-! ## The two computations assembled -/

/-- Row r of block j against column k: the code of the vocabulary id 256 · j + r, from the unclipped word
    r + j · 256 shifted by the word 14 − k. -/
theorem block_code {un : ArithUnit} (r j : ℕ) (hr : r < 256) (hj : j < 125) (k : Fin 15) :
    ((((IntOp.andi (IntOp.shrsi un (IntOp.addi (BitVec.ofNat 32 r) (IntOp.muli (BitVec.ofNat 32 j) 256#32))
          (IntOp.subi 14#32 (BitVec.ofNat 32 k.val))) 1#32).toInt : ℝ) : EReal))
        * Ideal.ofBits .f32 0x40000000#32 - Ideal.ofBits .f32 0x3F800000#32
      = Spec.code (BitVec.ofNat 32 (256 * j + r)) k := by
  rw [vocab_word, ofBits_two_f32, ofBits_one_f32]
  exact code_ofNat (256 * j + r) _ k (vocab_lt r j hr hj) (sub_shift_toNat_fin k)

/-- An id word v against column k: the code of the specification, from the clipped word shifted by the word
    14 + (−1) · k. -/
theorem id_code {un : ArithUnit} (v : BitVec 32) (k : Fin 15) :
    ((((IntOp.andi (IntOp.shrsi un (IntOp.minsi 31999#32 (IntOp.maxsi 0#32 v))
          (IntOp.addi 14#32 (IntOp.muli 4294967295#32 (BitVec.ofNat 32 k.val)))) 1#32).toInt : ℝ) : EReal))
        * Ideal.ofBits .f32 0x40000000#32 - Ideal.ofBits .f32 0x3F800000#32
      = Spec.code v k :=
  code_clip_bits v _ k (add_mul_shift_toNat_fin k)

/-! ## The same two computations with the float operations spelt as the ideal instance's fields -/

/-- An id word v against column k, every operation as it stands at an index: the code of the specification. -/
theorem code_chain_host (v : BitVec 32) (k : Fin 15) :
    FloatOps.subf (F := Ideal)
        (FloatOps.mulf
          (FloatOps.sitofp .f32
            (IntOp.andi
              (IntOp.shrsi .host (IntOp.minsi 31999#32 (IntOp.maxsi 0#32 v))
                (IntOp.addi 14#32 (IntOp.muli 4294967295#32 (BitVec.ofNat 32 k.val))))
              1#32))
          (FloatOps.ofBits .f32 0x40000000#32))
        (FloatOps.ofBits .f32 0x3F800000#32)
      = Spec.code v k :=
  id_code v k

/-- A vocabulary id n below 32000 against column k, on its unclipped word shifted by the word 14 − k. -/
theorem code_chain_vec (n : ℕ) (h : n < 32000) (k : Fin 15) :
    FloatOps.subf (F := Ideal)
        (FloatOps.mulf
          (FloatOps.sitofp .f32
            (IntOp.andi
              (IntOp.shrsi .vector (BitVec.ofNat 32 n) (IntOp.subi 14#32 (BitVec.ofNat 32 k.val)))
              1#32))
          (FloatOps.ofBits .f32 0x40000000#32))
        (FloatOps.ofBits .f32 0x3F800000#32)
      = Spec.code (BitVec.ofNat 32 n) k := by
  show ((((IntOp.andi (IntOp.shrsi .vector (BitVec.ofNat 32 n) (IntOp.subi 14#32 (BitVec.ofNat 32 k.val)))
      1#32).toInt : ℝ) : EReal)) * Ideal.ofBits .f32 0x40000000#32 - Ideal.ofBits .f32 0x3F800000#32 = _
  rw [ofBits_two_f32, ofBits_one_f32]
  exact code_ofNat n _ k h (sub_shift_toNat_fin k)

/-- The same with the id given as row r below 256 of block j below 125: the word r + j · 256. -/
theorem code_chain_vec_block (r j : ℕ) (hr : r < 256) (hj : j < 125) (k : Fin 15) :
    FloatOps.subf (F := Ideal)
        (FloatOps.mulf
          (FloatOps.sitofp .f32
            (IntOp.andi
              (IntOp.shrsi .vector (IntOp.addi (BitVec.ofNat 32 r) (IntOp.muli (BitVec.ofNat 32 j) 256#32))
                (IntOp.subi 14#32 (BitVec.ofNat 32 k.val)))
              1#32))
          (FloatOps.ofBits .f32 0x40000000#32))
        (FloatOps.ofBits .f32 0x3F800000#32)
      = Spec.code (BitVec.ofNat 32 (256 * j + r)) k :=
  block_code r j hr hj k

end Cert.Proof.Code

end
-- ==== Proof.K.HostVals.lean ====
/-
  What the host stretches of the kernel program's main function compute, read at an index, over an arbitrary
  starting valuation W (buffer reference ↦ contents on one core).
-/
import proofs.«430590_j46402826666034_2_alg».proof.Proof.Gen.Kernel.Launch
import proofs.«430590_j46402826666034_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import proofs.«430590_j46402826666034_2_alg».proof.Proof.Code

noncomputable section

namespace Cert.Kernel.Hand

open Cert.Kernel Cert.Kernel.Gen
open Idealize.ShloMosaic Idealize.ShloMosaic.TcCoe Idealize.ShloMosaic.ValueIdx

variable {F : FTy → Type} [FloatOps F]

/-! ## Flattening and unflattening the leading [4, 1024] axes, read at an index -/

section Reshapes

variable {α : Type}

/-- A [4, 1024] array flattened to [4096]: position n is position (n / 1024, n % 1024). -/
theorem flat2_apply (x : S4x1024.Idx → α) (h : S4x1024.ShapeCasts S4096) (n : Fin 4096) :
    shapeCast S4096 x h (ix1 n) =
      x (ix2 ⟨n.val / 1024, by have := n.isLt; omega⟩ ⟨n.val % 1024, Nat.mod_lt _ (by norm_num)⟩) := by
  refine shapeCast_apply x h _ _ ?_
  rw [Shape.rowMajor_val_two, Shape.rowMajor_val_one]
  show n.val / 1024 * 1024 + n.val % 1024 = n.val
  omega

/-- A [4, 1024, m] array flattened to [4096, m]: position (n, d) is position (n / 1024, n % 1024, d). -/
theorem flat3_apply {m : Nat} (x : (⟨3, ![4, 1024, m]⟩ : Shape).Idx → α)
    (h : (⟨3, ![4, 1024, m]⟩ : Shape).ShapeCasts ⟨2, ![4096, m]⟩) (n : Fin 4096) (d : Fin m) :
    shapeCast (⟨2, ![4096, m]⟩ : Shape) x h (ix2 n d) =
      x (ix3 ⟨n.val / 1024, by have := n.isLt; omega⟩ ⟨n.val % 1024, Nat.mod_lt _ (by norm_num)⟩ d) := by
  refine shapeCast_apply x h _ _ ?_
  rw [Shape.rowMajor_val_three, Shape.rowMajor_val_two]
  show (n.val / 1024 * 1024 + n.val % 1024) * m + d.val = n.val * m + d.val
  have e : n.val / 1024 * 1024 + n.val % 1024 = n.val := by omega
  rw [e]

/-- A [4096, m] array unflattened to [4, 1024, m]: position (b, s, d) is position (1024 b + s, d). -/
theorem unflat3_apply {m : Nat} (x : (⟨2, ![4096, m]⟩ : Shape).Idx → α)
    (h : (⟨2, ![4096, m]⟩ : Shape).ShapeCasts ⟨3, ![4, 1024, m]⟩) (b : Fin 4) (s : Fin 1024) (d : Fin m) :
    shapeCast (⟨3, ![4, 1024, m]⟩ : Shape) x h (ix3 b s d) =
      x (ix2 ⟨1024 * b.val + s.val, by have := b.isLt; have := s.isLt; omega⟩ d) := by
  refine shapeCast_apply x h _ _ ?_
  rw [Shape.rowMajor_val_three, Shape.rowMajor_val_two]
  show (1024 * b.val + s.val) * m + d.val = (b.val * 1024 + s.val) * m + d.val
  rw [Nat.mul_comm 1024 b.val]

end Reshapes

/-! ## The first stretch: the two flattenings -/

/-- After the first stretch, main_v0 holds the id words flattened to one axis of 4096. -/
theorem v0_eq (W : Valuation τ sig (Elt F)) :
    (StableHlo.after hostOps0 W (Proc.devRef .tc main_v0) : IVec S4096 32) =
      shapeCast S4096 (W (Proc.devRef .tc main_arg0) : IVec S4x1024 32) shapeCasts_S4x1024_S4096 := by
  after_results
  rfl

/-- Word n of the flattened ids is word (n / 1024, n % 1024) of the [4, 1024] ids. -/
theorem v0_apply (W : Valuation τ sig (Elt F)) (n : Fin 4096) :
    (StableHlo.after hostOps0 W (Proc.devRef .tc main_v0) : IVec S4096 32) (ix1 n) =
      (W (Proc.devRef .tc main_arg0) : IVec S4x1024 32)
        (ix2 ⟨n.val / 1024, by have := n.isLt; omega⟩ ⟨n.val % 1024, Nat.mod_lt _ (by norm_num)⟩) := by
  rw [v0_eq]
  exact flat2_apply _ _ n

/-- After the first stretch, main_v1 holds the activations flattened to [4096, 1024]. -/
theorem v1_eq (W : Valuation τ sig (Elt F)) :
    (StableHlo.after hostOps0 W (Proc.devRef .tc main_v1) : FVec F S4096x1024 .f32) =
      shapeCast S4096x1024 (W (Proc.devRef .tc main_arg1) : FVec F S4x1024x1024 .f32) shapeCasts_S4x1024x1024_S4096x1024 := by
  after_results
  rfl

/-- Entry (n, d) of the flattened activations is entry (n / 1024, n % 1024, d) of the [4, 1024, 1024] activations. -/
theorem v1_apply (W : Valuation τ sig (Elt F)) (n : Fin 4096) (d : Fin 1024) :
    (StableHlo.after hostOps0 W (Proc.devRef .tc main_v1) : FVec F S4096x1024 .f32) (ix2 n d) =
      (W (Proc.devRef .tc main_arg1) : FVec F S4x1024x1024 .f32)
        (ix3 ⟨n.val / 1024, by have := n.isLt; omega⟩ ⟨n.val % 1024, Nat.mod_lt _ (by norm_num)⟩ d) := by
  rw [v1_eq]
  exact flat3_apply _ _ n d

/-! ## The id bits: clip, shift by 14 + (−1)·k, low bit, to ±1 -/

section Broadcasts

variable {α : Type}

/-- A vector laid down the rows of a [4096, 15] rectangle (through a [4096, 1] column) reads its entry n at (n, k). -/
theorem rows_apply (v : S4096.Idx → α) (n : Fin 4096) (k : Fin 15) :
    broadcastInDim S4096x15 ![0, 1] bcast_S4096x1_S4096x15_0_1
        (broadcastInDim S4096x1 ![0] bcast_S4096_S4096x1_0 v) (ix2 n k) = v (ix1 n) := by
  rw [broadcastInDim_apply _ _ _ (ix2 n k) (ix2 n (0 : Fin 1)) (by intro a; fin_cases a <;> rfl)]
  exact broadcastInDim_apply _ _ _ _ (ix1 n) (by intro a; fin_cases a; rfl)

/-- A vector laid along the columns of a [4096, 15] rectangle (through a [1, 15] row) reads its entry k at (n, k). -/
theorem cols_apply (v : S15.Idx → α) (n : Fin 4096) (k : Fin 15) :
    broadcastInDim S4096x15 ![0, 1] bcast_S1x15_S4096x15_0_1
        (broadcastInDim S1x15 ![1] bcast_S15_S1x15_1 v) (ix2 n k) = v (ix1 k) := by
  rw [broadcastInDim_apply _ _ _ (ix2 n k) (ix2 (0 : Fin 1) k) (by intro a; fin_cases a <;> rfl)]
  exact broadcastInDim_apply _ _ _ _ (ix1 k) (by intro a; fin_cases a; rfl)

end Broadcasts

/-- After the first stretch the two scalar constants are 0 and 31999. -/
theorem c_eq (W : Valuation τ sig (Elt F)) :
    (StableHlo.after hostOps0 W (Proc.devRef .tc main_c) : IVec S_ 32) = constantI S_ 32 0#32 := by
  after_results

theorem c0_eq (W : Valuation τ sig (Elt F)) :
    (StableHlo.after hostOps0 W (Proc.devRef .tc main_c_0) : IVec S_ 32) = constantI S_ 32 31999#32 := by
  after_results

/-- After the clip stretch, main_v2 is the minimum of the second constant with the maximum of the first constant and main_v0. -/
theorem v2_eq (W : Valuation τ sig (Elt F)) :
    (StableHlo.after hostOps0_1 W (Proc.devRef .tc main_v2) : IVec S4096 32) =
      minsi (broadcastInDim S4096 ![] bcast_S_S4096 (W (Proc.devRef .tc main_c_0) : IVec S_ 32))
        (maxsi (broadcastInDim S4096 ![] bcast_S_S4096 (W (Proc.devRef .tc main_c) : IVec S_ 32))
          (W (Proc.devRef .tc main_v0) : IVec S4096 32)) := by
  after_results
  simp only [StableHlo.TRef.ofBuf, StableHlo.TRef.toBuf, cast_eq]
  rfl

/-- Word n after the first two stretches: the flattened id clipped to [0, 31999], signed. -/
theorem v2_apply (W : Valuation τ sig (Elt F)) (n : Fin 4096) :
    (StableHlo.after hostOps0_1 (StableHlo.after hostOps0 W) (Proc.devRef .tc main_v2) : IVec S4096 32) (ix1 n) =
      IntOp.minsi 31999#32 (IntOp.maxsi 0#32 ((W (Proc.devRef .tc main_arg0) : IVec S4x1024 32)
        (ix2 ⟨n.val / 1024, by have := n.isLt; omega⟩ ⟨n.val % 1024, Nat.mod_lt _ (by norm_num)⟩))) := by
  rw [v2_eq, c_eq, c0_eq, ← v0_apply W n]
  rfl

/-- After the third stretch, main_v19 as a term over main_v2: shift right by 14 + (−1)·iota, keep the low bit,
    convert to float, double, subtract one. -/
theorem v19_eq (W : Valuation τ sig (Elt F)) :
    (StableHlo.after hostOps0_2 W (Proc.devRef .tc main_v19) : FVec F S4096x15 .f32) =
      subf
        (mulf
          (sitofp .f32
            (andi
              (Host.shrsi
                (broadcastInDim S4096x15 ![0, 1] bcast_S4096x1_S4096x15_0_1
                  (broadcastInDim S4096x1 ![0] bcast_S4096_S4096x1_0 (W (Proc.devRef .tc main_v2) : IVec S4096 32)))
                (broadcastInDim S4096x15 ![0, 1] bcast_S1x15_S4096x15_0_1
                  (broadcastInDim S1x15 ![1] bcast_S15_S1x15_1
                    (addi (broadcastInDim S15 ![] bcast_S_S15 (constantI S_ 32 14#32))
                      (muli (broadcastInDim S15 ![] bcast_S_S15 (constantI S_ 32 4294967295#32)) (iotaInDim S15 32 0))))))
              (broadcastInDim S4096x15 ![] bcast_S_S4096x15 (constantI S_ 32 1#32))))
          (broadcastInDim S4096x15 ![] bcast_S_S4096x15 (constant (F := F) S_ .f32 0x40000000#32)))
        (broadcastInDim S4096x15 ![] bcast_S_S4096x15 (constant (F := F) S_ .f32 0x3F800000#32)) := by
  after_results

/-- Entry (n, k) of main_v19, every operation at its element. -/
theorem v19_apply (W : Valuation τ sig (Elt F)) (n : Fin 4096) (k : Fin 15) :
    (StableHlo.after hostOps0_2 W (Proc.devRef .tc main_v19) : FVec F S4096x15 .f32) (ix2 n k) =
      FloatOps.subf
        (FloatOps.mulf
          (FloatOps.sitofp .f32
            (IntOp.andi
              (IntOp.shrsi .host ((W (Proc.devRef .tc main_v2) : IVec S4096 32) (ix1 n))
                (IntOp.addi 14#32 (IntOp.muli 4294967295#32 (BitVec.ofNat 32 k.val))))
              1#32))
          (FloatOps.ofBits .f32 0x40000000#32))
        (FloatOps.ofBits .f32 0x3F800000#32) := by
  rw [v19_eq, ← rows_apply (W (Proc.devRef .tc main_v2) : IVec S4096 32) n k,
    show (BitVec.ofNat 32 k.val) = iotaInDim S15 32 0 (ix1 k) from rfl]
  have hc := cols_apply
    (addi (broadcastInDim S15 ![] bcast_S_S15 (constantI S_ 32 14#32))
      (muli (broadcastInDim S15 ![] bcast_S_S15 (constantI S_ 32 4294967295#32)) (iotaInDim S15 32 0))) n k
  show FloatOps.subf (FloatOps.mulf (FloatOps.sitofp .f32 (IntOp.andi (IntOp.shrsi .host _ (broadcastInDim S4096x15 ![0, 1] bcast_S1x15_S4096x15_0_1
      (broadcastInDim S1x15 ![1] bcast_S15_S1x15_1
        (addi (broadcastInDim S15 ![] bcast_S_S15 (constantI S_ 32 14#32))
          (muli (broadcastInDim S15 ![] bcast_S_S15 (constantI S_ 32 4294967295#32)) (iotaInDim S15 32 0)))) (ix2 n k))) _)) _) _ = _
  rw [hc]
  rfl

/-- THE ID BITS. After the first three stretches, entry (n, k) of main_v19 over the extended reals is the ±1 code of bit 14 − k
    of the id at flat position n, clipped to [0, 31999]. -/
theorem v19_code (W : Valuation τ sig (Elt Ideal)) (n : Fin 4096) (k : Fin 15) :
    (StableHlo.after hostOps0_2 (StableHlo.after hostOps0_1 (StableHlo.after hostOps0 W)) (Proc.devRef .tc main_v19)
        : FVec Ideal S4096x15 .f32) (ix2 n k) =
      Cert.Proof.Spec.code ((W (Proc.devRef .tc main_arg0) : IVec S4x1024 32)
        (ix2 ⟨n.val / 1024, by have := n.isLt; omega⟩ ⟨n.val % 1024, Nat.mod_lt _ (by norm_num)⟩)) k := by
  rw [v19_apply, v2_apply]
  exact Cert.Proof.Code.code_chain_host _ k

/-! ## The stretch between the two calls: two unflattenings and a narrowing of the table -/

/-- After it, main_v21 holds the first call's first result unflattened to [4, 1024, 1024]. -/
theorem v21_eq (W : Valuation τ sig (Elt F)) :
    (StableHlo.after hostOps1 W (Proc.devRef .tc main_v21) : FVec F S4x1024x1024 .f32) =
      shapeCast S4x1024x1024 (W (Proc.devRef .tc main_v20_0) : FVec F S4096x1024 .f32) shapeCasts_S4096x1024_S4x1024x1024 := by
  after_results
  rfl

theorem v21_apply (W : Valuation τ sig (Elt F)) (b : Fin 4) (s : Fin 1024) (d : Fin 1024) :
    (StableHlo.after hostOps1 W (Proc.devRef .tc main_v21) : FVec F S4x1024x1024 .f32) (ix3 b s d) =
      (W (Proc.devRef .tc main_v20_0) : FVec F S4096x1024 .f32)
        (ix2 ⟨1024 * b.val + s.val, by have := b.isLt; have := s.isLt; omega⟩ d) := by
  rw [v21_eq]
  exact unflat3_apply _ _ b s d

/-- After it, main_v22 holds the first call's second result unflattened to [4, 1024, 1024]. -/
theorem v22_eq (W : Valuation τ sig (Elt F)) :
    (StableHlo.after hostOps1 W (Proc.devRef .tc main_v22) : FVec F S4x1024x1024 .f32) =
      shapeCast S4x1024x1024 (W (Proc.devRef .tc main_v20_1) : FVec F S4096x1024 .f32) shapeCasts_S4096x1024_S4x1024x1024 := by
  after_results
  rfl

theorem v22_apply (W : Valuation τ sig (Elt F)) (b : Fin 4) (s : Fin 1024) (d : Fin 1024) :
    (StableHlo.after hostOps1 W (Proc.devRef .tc main_v22) : FVec F S4x1024x1024 .f32) (ix3 b s d) =
      (W (Proc.devRef .tc main_v20_1) : FVec F S4096x1024 .f32)
        (ix2 ⟨1024 * b.val + s.val, by have := b.isLt; have := s.isLt; omega⟩ d) := by
  rw [v22_eq]
  exact unflat3_apply _ _ b s d

/-- After it, main_v23 holds the embedding table narrowed to bf16. -/
theorem v23_eq (W : Valuation τ sig (Elt F)) :
    (StableHlo.after hostOps1 W (Proc.devRef .tc main_v23) : FVec F S32000x1024 .bf16) =
      truncf .bf16 (W (Proc.devRef .tc main_arg2) : FVec F S32000x1024 .f32) bitsLt_bf16_f32 := by
  after_results

/-- Over the extended reals the narrowing changes no entry. -/
theorem v23_apply (W : Valuation τ sig (Elt Ideal)) (i : S32000x1024.Idx) :
    (StableHlo.after hostOps1 W (Proc.devRef .tc main_v23) : FVec Ideal S32000x1024 .bf16) i =
      (W (Proc.devRef .tc main_arg2) : FVec Ideal S32000x1024 .f32) i := by
  rw [v23_eq]
  rfl

/-! ## The last stretch: the second call's two results unflattened -/

theorem v25_eq (W : Valuation τ sig (Elt F)) :
    (StableHlo.after hostOps2 W (Proc.devRef .tc main_v25) : FVec F S4x1024x32000 .f32) =
      shapeCast S4x1024x32000 (W (Proc.devRef .tc main_v24_0) : FVec F S4096x32000 .f32) shapeCasts_S4096x32000_S4x1024x32000 := by
  after_results
  rfl

theorem v25_apply (W : Valuation τ sig (Elt F)) (b : Fin 4) (s : Fin 1024) (v : Fin 32000) :
    (StableHlo.after hostOps2 W (Proc.devRef .tc main_v25) : FVec F S4x1024x32000 .f32) (ix3 b s v) =
      (W (Proc.devRef .tc main_v24_0) : FVec F S4096x32000 .f32)
        (ix2 ⟨1024 * b.val + s.val, by have := b.isLt; have := s.isLt; omega⟩ v) := by
  rw [v25_eq]
  exact unflat3_apply _ _ b s v

theorem v26_eq (W : Valuation τ sig (Elt F)) :
    (StableHlo.after hostOps2 W (Proc.devRef .tc main_v26) : FVec F S4x1024x15 .f32) =
      shapeCast S4x1024x15 (W (Proc.devRef .tc main_v24_1) : FVec F S4096x15 .f32) shapeCasts_S4096x15_S4x1024x15 := by
  after_results
  rfl

theorem v26_apply (W : Valuation τ sig (Elt F)) (b : Fin 4) (s : Fin 1024) (k : Fin 15) :
    (StableHlo.after hostOps2 W (Proc.devRef .tc main_v26) : FVec F S4x1024x15 .f32) (ix3 b s k) =
      (W (Proc.devRef .tc main_v24_1) : FVec F S4096x15 .f32)
        (ix2 ⟨1024 * b.val + s.val, by have := b.isLt; have := s.isLt; omega⟩ k) := by
  rw [v26_eq]
  exact unflat3_apply _ _ b s k

end Cert.Kernel.Hand

end
-- ==== Proof.PreFacts.lean ====
/-
  The precondition Cert.Pre_finite_inputs.fn ids x w wb = fun _ => 1#1, read back as facts about its four arguments.

  The printed predicate is the conjunction (by "and" on one-bit words) of five jnp.all's:
  every entry of x, of w and of wb has absolute value below the float whose bits are 0x7F800000 (+∞),
  every word of ids is at least 0 signed, and every word of ids is below 32000 signed.
  A conjunction that is 1 has both sides 1; an and-reduction over all axes that is 1 had a 1 at every
  index; so each of the five element comparisons is 1 everywhere (decode, at any float instance).

  From the two integer comparisons: a 32-bit word whose signed value lies in [0, 32000) has unsigned
  value below 32000 (ids_lt). From a float comparison at the extended reals: max a (-a) < ⊤ rules out
  a = ⊤ and a = ⊥, so a is a real number (x_real, w_real, wb_real).
-/
import proofs.«430590_j46402826666034_2_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.Proof.PreFacts

open Idealize.ShloMosaic
open Cert.Pre_finite_inputs

/-- The scalar shape has exactly one index. -/
instance subsingleton_S_ : Subsingleton S_.Idx := ⟨fun a b => funext fun d => d.elim0⟩

/-- A 32-bit word whose signed value is in [0, 32000) has unsigned value below 32000. -/
theorem toNat_lt_of_signed (a : BitVec 32) (h0 : IntOp.cmpi .sge a 0#32 = 1#1) (h1 : IntOp.cmpi .slt a 32000#32 = 1#1) :
    a.toNat < 32000 := by
  rw [IntOp.cmpi_sge] at h0
  rw [IntOp.cmpi_slt] at h1
  have z : (0#32 : BitVec 32).toInt = 0 := by decide
  have k : (32000#32 : BitVec 32).toInt = 32000 := by decide
  rw [z] at h0
  rw [k] at h1
  have hl := a.isLt
  rw [BitVec.toInt_eq_toNat_cond] at h0 h1
  split at h0 <;> omega

/-- An extended real whose absolute value max a (-a) is below the value of the bits 0x7F800000 (which is ⊤) is a real. -/
theorem real_of_abs_lt (a : Ideal .f32)
    (h : FloatOps.cmpf .olt (FloatOps.hostAbsf a) (FloatOps.ofBits (F := Ideal) .f32 0x7F800000#32) = 1#1) :
    ∃ r : ℝ, a = (r : EReal) := by
  have htop : FloatOps.ofBits (F := Ideal) .f32 0x7F800000#32 = (⊤ : EReal) := by
    show Ideal.ofBits .f32 0x7F800000#32 = ⊤
    simp [Ideal.ofBits, Ideal.ieee]
  rw [htop] at h
  -- at the extended reals the comparison is the order's, and the absolute value is max a (-a)
  have hlt : max a (-a) < (⊤ : EReal) := by
    have h' : BitVec.ofBool (decide (max a (-a) < (⊤ : EReal))) = 1#1 := h
    rw [StableHlo.Predicate.ofBool_eq_one_iff] at h'
    exact of_decide_eq_true h'
  induction a using EReal.rec with
  | bot => exact absurd hlt (by simp)
  | coe r => exact ⟨r, rfl⟩
  | top => exact absurd hlt (by simp)

variable [Facts]

/-- The five element comparisons the predicate conjoins, each 1 at every index. -/
theorem decode {F : FTy → Type} [FloatOps F] (ids : IVec S4x1024 32) (x : FVec F S4x1024x1024 .f32)
    (w : FVec F S32000x1024 .f32) (wb : FVec F S15x1024 .f32)
    (h : fn (F := F) ids x w wb = fun _ => 1#1) :
    (∀ i, FloatOps.cmpf .olt (FloatOps.hostAbsf (x i)) (FloatOps.ofBits (F := F) .f32 0x7F800000#32) = 1#1) ∧
    (∀ i, FloatOps.cmpf .olt (FloatOps.hostAbsf (w i)) (FloatOps.ofBits (F := F) .f32 0x7F800000#32) = 1#1) ∧
    (∀ i, FloatOps.cmpf .olt (FloatOps.hostAbsf (wb i)) (FloatOps.ofBits (F := F) .f32 0x7F800000#32) = 1#1) ∧
    (∀ i, IntOp.cmpi .sge (ids i) 0#32 = 1#1) ∧
    (∀ i, IntOp.cmpi .slt (ids i) 32000#32 = 1#1) := by
  have e := congrFun h ValueIdx.ix0
  unfold fn fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨fun i => Host.reduce_andi_all _ _ _ _ _ e1 i, fun i => Host.reduce_andi_all _ _ _ _ _ e2 i,
    fun i => Host.reduce_andi_all _ _ _ _ _ e3 i, fun i => Host.reduce_andi_all _ _ _ _ _ e4 i,
    fun i => Host.reduce_andi_all _ _ _ _ _ e5 i⟩

/-- Every word of ids is an index below 32000. -/
theorem ids_lt {F : FTy → Type} [FloatOps F] (ids : IVec S4x1024 32) (x : FVec F S4x1024x1024 .f32)
    (w : FVec F S32000x1024 .f32) (wb : FVec F S15x1024 .f32)
    (h : fn (F := F) ids x w wb = fun _ => 1#1) : ∀ i, (ids i).toNat < 32000 := by
  obtain ⟨-, -, -, h0, h1⟩ := decode ids x w wb h
  exact fun i => toNat_lt_of_signed (ids i) (h0 i) (h1 i)

/-- Every entry of x is a real number. -/
theorem x_real (ids : IVec S4x1024 32) (x : FVec Ideal S4x1024x1024 .f32)
    (w : FVec Ideal S32000x1024 .f32) (wb : FVec Ideal S15x1024 .f32)
    (h : fn (F := Ideal) ids x w wb = fun _ => 1#1) : ∀ i, ∃ r : ℝ, x i = (r : EReal) :=
  fun i => real_of_abs_lt (x i) ((decode ids x w wb h).1 i)

/-- Every entry of w is a real number. -/
theorem w_real (ids : IVec S4x1024 32) (x : FVec Ideal S4x1024x1024 .f32)
    (w : FVec Ideal S32000x1024 .f32) (wb : FVec Ideal S15x1024 .f32)
    (h : fn (F := Ideal) ids x w wb = fun _ => 1#1) : ∀ i, ∃ r : ℝ, w i = (r : EReal) :=
  fun i => real_of_abs_lt (w i) ((decode ids x w wb h).2.1 i)

/-- Every entry of wb is a real number. -/
theorem wb_real (ids : IVec S4x1024 32) (x : FVec Ideal S4x1024x1024 .f32)
    (w : FVec Ideal S32000x1024 .f32) (wb : FVec Ideal S15x1024 .f32)
    (h : fn (F := Ideal) ids x w wb = fun _ => 1#1) : ∀ i, ∃ r : ℝ, wb i = (r : EReal) :=
  fun i => real_of_abs_lt (wb i) ((decode ids x w wb h).2.2.1 i)

end Cert.Proof.PreFacts

end
-- ==== Proof.K.FrameArgs.lean ====
/-
  The frame of the kernel program from its run: the id table the first call prefetches names rows of the embedding table
  (the table is the flattened id array, and the precondition bounds every id), and the four argument buffers end as launched:
  no host stretch writes one, the first call reads the bit table through an input window (never written back) and the
  embedding table in place, and the second call touches none of them.
-/
import proofs.«430590_j46402826666034_2_alg».proof.Proof.K.Main
import proofs.«430590_j46402826666034_2_alg».proof.Proof.K.HostVals
import proofs.«430590_j46402826666034_2_alg».proof.Proof.PreFacts
import proofs.«430590_j46402826666034_2_alg».proof.Proof.Gen.Pre_finite_inputs

noncomputable section

namespace Cert.Kernel.FrameArgs

open Cert.Kernel Cert.Kernel.Gen Cert.Kernel.Hand
open Idealize.ShloMosaic Idealize.ShloMosaic.TcCoe Idealize.SL.Sem Idealize.ShloMosaic.ValueIdx
open Idealize.ShloMosaic.Pipeline (Dat)

variable {F : FTy → Type} [FloatOps F]

variable (m : (ℓ : Loc nD τ sig) → Buf (Elt F) ℓ) (ρ : Dev nD → PrngReg)

/-! ## A buffer a host stretch does not write keeps its contents across it -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h

/-- A buffer none of the three stretches before the first call writes is, at the call's entry, as launched. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans ((W2_of m c r h1).trans (W1_of m c r h0))

/-! ## The id table names rows of the embedding table -/

/-- Word n of the id table at the first call's entry is word (n / 1024, n % 1024) of the id array: the table is written by
    the first stretch (the flattening) and by no later one. -/
theorem tbl_at (c : Dev nD) (n : Fin 4096) :
    (W3 m c (Proc.devRef .tc main_v0) : IVec S4096 32) (ix1 n) =
      (m ((c : Thread nD τ).loc main_arg0) : IVec S4x1024 32)
        (ix2 ⟨n.val / 1024, by have := n.isLt; omega⟩ ⟨n.val % 1024, Nat.mod_lt _ (by norm_num)⟩) := by
  rw [W3_of m c main_v0 (by decide), W2_of m c main_v0 (by decide)]
  exact v0_apply (W0 m c) n

/-- Under the precondition every word of the id table is below 32000. -/
theorem rowsOk_of_fn
    (hpre : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) = fun _ => 1#1) : RowsOk (V3 m) := by
  intro j
  obtain ⟨n, rfl⟩ : ∃ n : Fin 4096, j = ix1 n := ⟨j 0, eq_ix1 j⟩
  show ((W3 m (0 : Dev nD) (Proc.devRef .tc main_v0) : IVec S4096 32) (ix1 n)).toNat < 32000
  rw [tbl_at m 0 n]
  exact Cert.Proof.PreFacts.ids_lt _ _ _ _ (hpre 0) _

variable (hw : RowsOk (V3 m))

/-! ## The arguments end as launched -/

theorem W5_of (c : Dev nD) (r : Ref sig .tc) (h : r ∉ hostOps1_W) :
    W5 m hw c (Proc.devRef .tc r) = W4 m hw c (Proc.devRef .tc r) :=
  StableHlo.after_of_writes_sub hostOps1 _ hostOps1_writes h
theorem W7_of (c : Dev nD) (r : Ref sig .tc) (h : r ∉ hostOps2_W) :
    W7 m hw c (Proc.devRef .tc r) = W6 m hw c (Proc.devRef .tc r) :=
  StableHlo.after_of_writes_sub hostOps2 _ hostOps2_writes h

/-- A buffer that is no window's array of either call and that no stretch after the first call's entry writes holds, at the
    return, what it held at the first call's entry. -/
theorem W7_entry (c : Dev nD) (r : Ref sig .tc) (h2 : r ∉ hostOps2_W) (hc1 : ∀ w, Pipeline.arrRef spec1 w ≠ r)
    (h1 : r ∉ hostOps1_W) (hc0 : ∀ w, Pipeline.arrRef spec0 w ≠ r) :
    W7 m hw c (Proc.devRef .tc r) = W3 m c (Proc.devRef .tc r) :=
  (W7_of m hw c r h2).trans ((W6_of_ne m hw c r hc1).trans ((W5_of m hw c r h1).trans (W4_of_ne m hw c r hc0)))

/-- The id array: written by nothing, windowed by neither call. -/
theorem W7_main_arg0 (c : Dev nD) : W7 m hw c (Proc.devRef .tc main_arg0) = m ((c : Thread nD τ).loc main_arg0) :=
  (W7_entry m hw c main_arg0 (by decide) (by decide) (by decide) (by decide)).trans
    (W3_launch m c main_arg0 (by decide) (by decide) (by decide))
/-- The activations: read by the first stretch only. -/
theorem W7_main_arg1 (c : Dev nD) : W7 m hw c (Proc.devRef .tc main_arg1) = m ((c : Thread nD τ).loc main_arg1) :=
  (W7_entry m hw c main_arg1 (by decide) (by decide) (by decide) (by decide)).trans
    (W3_launch m c main_arg1 (by decide) (by decide) (by decide))
/-- The embedding table: the first call copies rows out of it where it lies; nothing writes it. -/
theorem W7_main_arg2 (c : Dev nD) : W7 m hw c (Proc.devRef .tc main_arg2) = m ((c : Thread nD τ).loc main_arg2) :=
  (W7_entry m hw c main_arg2 (by decide) (by decide) (by decide) (by decide)).trans
    (W3_launch m c main_arg2 (by decide) (by decide) (by decide))
/-- The bit table: an input window of the first call, whose array is never written back. -/
theorem W4_main_arg3 (c : Dev nD) : W4 m hw c (Proc.devRef .tc main_arg3) = W3 m c (Proc.devRef .tc main_arg3) :=
  (W4_arr m hw c 1).trans (((dat0 (V3 m) hw c).arrAt_in 1 rfl _).trans (A_eq0 (V3 m) hw c 1))
theorem W7_main_arg3 (c : Dev nD) : W7 m hw c (Proc.devRef .tc main_arg3) = m ((c : Thread nD τ).loc main_arg3) :=
  (W7_of m hw c main_arg3 (by decide)).trans ((W6_of_ne m hw c main_arg3 (by decide)).trans
    ((W5_of m hw c main_arg3 (by decide)).trans ((W4_main_arg3 m hw c).trans
      (W3_launch m c main_arg3 (by decide) (by decide) (by decide)))))

/-! ## The frame -/

/-- Under the precondition the program runs to its end, faults nowhere, and leaves its four arguments as launched. -/
theorem frame_run
    (hpre : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) = fun _ => 1#1) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun r h c =>
    ⟨(h c _ (mem_uc main_arg0 (by decide))).trans (W7_main_arg0 m (rowsOk_of_fn m hpre) c),
      (h c _ (mem_uc main_arg1 (by decide))).trans (W7_main_arg1 m (rowsOk_of_fn m hpre) c),
      (h c _ (mem_uc main_arg2 (by decide))).trans (W7_main_arg2 m (rowsOk_of_fn m hpre) c),
      (h c _ (mem_uc main_arg3 (by decide))).trans (W7_main_arg3 m (rowsOk_of_fn m hpre) c)⟩)
    (run_all m ρ (rowsOk_of_fn m hpre))

end Cert.Kernel.FrameArgs

end
-- ==== Proof.K.FrameK.lean ====
/-
  The frame claim of the word-level program: from any launch memory of which the precondition holds, every weakly fair
  execution of its main function terminates without fault, and its four argument arrays end as launched.
  The run of the program and the read-back of the arguments at the last boundary are stated for any float instance;
  here they are taken at the word-level one.
-/
import proofs.«430590_j46402826666034_2_alg».proof.Defs
import proofs.«430590_j46402826666034_2_alg».proof.Proof.K.FrameArgs
import proofs.«430590_j46402826666034_2_alg».proof.Proof.Gen.Kernel
import proofs.«430590_j46402826666034_2_alg».proof.Proof.Gen.Pre_finite_inputs

namespace Cert.Kernel.FrameArgs

open Idealize.ShloMosaic

/-- The precondition of the claim is, device by device, the hypothesis the run takes; its post is the claim's. -/
theorem frame_K : Cert.frame_Kernel :=
  fun m g hpre => frame_run (F := Bits) m g hpre

end Cert.Kernel.FrameArgs
-- ==== Proof.KI.Defs0.lean ====
/-
  Names shared by the first pallas_call's proof data and the launch: the id table the call prefetches, as contents;
  the call's own 128 DMA cells (one per gathered row); the one operand it leaves in HBM and copies rows out of.
-/
import proofs.«430590_j46402826666034_2_alg».proof.Proof.Gen.KernelIdeal.Launch
import proofs.«430590_j46402826666034_2_alg».proof.Proof.Gen.KernelIdeal.Skeleton
import Idealize.ShloMosaic.Lib.Pipeline.Frame
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-- The buffers of core `c` when a region is entered, reference by reference. -/
abbrev Vals (F : FTy → Type) [FloatOps F] : Type := (c : Dev nD) → (b : Ref sig .tc) → Buf (Elt F) ((c : Thread nD τ).loc b)

variable (V : Vals F)

/-- The prefetched id table's contents (the mesh has one device). -/
def tbl : pre0.Contents (Elt F) := fun j => V (0 : Dev nD) (pre0.ref j)

/-- The table is admissible whatever it holds: no index map of the call reads it. -/
abbrev adm0 : (pcfg0 (F := F)).Adm := ⟨tbl V, trivial⟩

/-- Every word of the id table names a row of the 32000-row embedding table. -/
def RowsOk : Prop := ∀ j, ((V (0 : Dev nD) main_v0) j).toNat < 32000

/-- The call's own DMA cells: semaphore `7 + r` completes the copy of gathered row `r`. -/
abbrev osem0 : Fin 128 → SemLoc sig := fun r => SemLoc.dma ⟨7 + r.val, by have := r.isLt; show 7 + r.val < 143; omega⟩

/-- The operand left in HBM whose rows the call copies: the embedding table. -/
def H0 : Finset (Ref sig .tc) := {main_arg2}

end Cert.KernelIdeal.Hand

end
-- ==== Proof.KI.Rows0.lean ====
/-
  The gathered block's staging buffer taken row by row: each of its 128 rows held by its own elements through the row's own
  view (the slice at [r, 0] of extent [1, 1024], squeezed), so that the 128 row copies in flight at once each find their
  destination whole; the rows carved out one after the other and put back, and a row landed at its payload restated over
  the block written whole.
-/
import proofs.«430590_j46402826666034_2_alg».proof.Proof.KI.Defs0
import Idealize.ShloMosaic.Lib.Transfers
import Idealize.ShloMosaic.Lib.Writes

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The id table and the embedding table, as the body is handed them: whole buffers. -/
abbrev tbM : Memref sig .tc .smem S4096 .i32 := Memref.whole main_v0
abbrev wM : Memref sig .tc .hbm S32000x1024 .f32 := Memref.whole main_arg2

/-- Memref `M`'s buffer on core `c`: its contents type; and the buffer held whole at share `q` and contents `f`. -/
abbrev BufOf (c : Dev nD) {sp : Space} {S : Shape} {e : EltTy} (M : Memref sig .tc sp S e) : Type := Buf (Elt F) (M.view.loc (c : Thread nD τ))
abbrev ptAt (c : Dev nD) {sp : Space} {S : Shape} {e : EltTy} (M : Memref sig .tc sp S e) (q : PosShare TreeShare) (f : BufOf (F := F) c M) : sProp 𝕄 :=
  M.view.loc (c : Thread nD τ) ↦{q} f

/-! ## The gathered block, row by row -/

/-- Row `r` lies in the `[128, 1024]` block. -/
abbrev RowIn (r : ℕ) : Prop := ∀ a, (![r, 0] : Fin 2 → ℕ) a + S1x1024.size a ≤ S128x1024.size a

theorem rowIn_of_lt {r : ℕ} (h : r < 128) : RowIn r := by
  intro a; fin_cases a
  · show r + 1 ≤ 128; omega
  · show 0 + 1024 ≤ 1024; omega

variable (c : Dev nD) (arg5 : Memref sig .tc .vmem S128x1024 .f32)

/-- Row `r` of the block as the body names it: the slice at `[r, 0]` of extent `[1, 1024]`, its unit axis squeezed. -/
abbrev dstL (r : ℕ) (hin : RowIn r) : Memref sig .tc .vmem S1024 .f32 :=
  (arg5.slice (Rect.unit (s := S128x1024) ![r, 0] S1x1024.size hin) (fun _ => rfl)).squeeze S1024 squeezes_S1x1024_S1024

/-- The block's index under column `x` of row `r`, as that row view computes it. -/
def rowIdx (r : ℕ) (hin : RowIn r) (x : S1024.Idx) : S128x1024.Idx :=
  (Rect.unit (s := S128x1024) ![r, 0] S1x1024.size hin).emb (Shape.reshapeEquiv squeezes_S1x1024_S1024.numel_eq x)

/-- The buffer elements under the rows `n, n+1, …` of the block. -/
def restFrom (n : ℕ) : Finset (Idx (arg5.view.loc (c : Thread nD τ))) :=
  arg5.view.setOn (Finset.univ.filter fun y : S128x1024.Idx => n ≤ (y 0).val)

variable {c arg5}

/-- (A1) The row view's index is the block's index `rowIdx`. -/
theorem dstL_emb (r : ℕ) (hin : RowIn r) (x : S1024.Idx) : (dstL arg5 r hin).view.emb x = arg5.view.emb (rowIdx r hin x) := by
  rfl

/-- (A2) `rowIdx r x = (r, x 0)`. -/
theorem rowIdx_zero (r : ℕ) (hin : RowIn r) (x : S1024.Idx) : ((rowIdx r hin x) 0).val = r := by
  unfold rowIdx
  rw [Rect.emb_apply]
  have h0 : ((Shape.reshapeEquiv squeezes_S1x1024_S1024.numel_eq x) 0).val < 1 :=
    ((Shape.reshapeEquiv squeezes_S1x1024_S1024.numel_eq x) 0).isLt
  show r + 1 * ((Shape.reshapeEquiv squeezes_S1x1024_S1024.numel_eq x) 0).val = r
  omega
theorem rowIdx_one (r : ℕ) (hin : RowIn r) (x : S1024.Idx) : ((rowIdx r hin x) 1).val = (x 0).val := by
  unfold rowIdx
  rw [Rect.emb_apply]
  have h0 : ((Shape.reshapeEquiv squeezes_S1x1024_S1024.numel_eq x) 0).val < 1 :=
    ((Shape.reshapeEquiv squeezes_S1x1024_S1024.numel_eq x) 0).isLt
  have hm := Shape.rowMajor_reshapeEquiv squeezes_S1x1024_S1024.numel_eq x
  rw [Shape.rowMajor_val_two, Shape.rowMajor_val_one] at hm
  have hm' : ((Shape.reshapeEquiv squeezes_S1x1024_S1024.numel_eq x) 0).val * 1024
      + ((Shape.reshapeEquiv squeezes_S1x1024_S1024.numel_eq x) 1).val = (x 0).val := hm
  show 0 + 1 * ((Shape.reshapeEquiv squeezes_S1x1024_S1024.numel_eq x) 1).val = (x 0).val
  omega

/-- The row view's elements are the block's elements under row `n`. -/
private theorem rowSet_eq (n : ℕ) (hin : RowIn n) :
    (dstL arg5 n hin).view.set = arg5.view.setOn (Finset.univ.filter fun y : S128x1024.Idx => (y 0).val = n) := by
  show ((arg5.view.slice (Rect.unit (s := S128x1024) ![n, 0] S1x1024.size hin)).reshape S1024
    squeezes_S1x1024_S1024.numel_eq).set = _
  rw [View.set_reshape, View.set_slice]
  unfold View.setOn
  congr 1
  ext y
  rw [Rect.mem_set_unit, Finset.mem_filter]
  constructor
  · intro h
    have h0 : n ≤ (y 0).val ∧ (y 0).val < n + 1 := h 0
    exact ⟨Finset.mem_univ _, by omega⟩
  · rintro ⟨-, h⟩ a
    match a with
    | ⟨0, _⟩ => show n ≤ (y 0).val ∧ (y 0).val < n + 1; omega
    | ⟨1, _⟩ => show 0 ≤ (y 1).val ∧ (y 1).val < 0 + 1024; have h1 : (y 1).val < 1024 := (y 1).isLt; exact ⟨Nat.zero_le _, by omega⟩

/-- The rows from `n` on are row `n` and the rows from `n + 1` on, -/
private theorem restFrom_succ (n : ℕ) (hin : RowIn n) :
    restFrom c arg5 n = (dstL arg5 n hin).view.set ∪ restFrom c arg5 (n + 1) := by
  rw [rowSet_eq]
  unfold restFrom View.setOn
  rw [← Finset.map_union]
  congr 1
  ext y
  simp only [Finset.mem_filter, Finset.mem_union, Finset.mem_univ, true_and]
  omega

/-- disjointly. -/
private theorem restFrom_disj (n : ℕ) (hin : RowIn n) :
    Disjoint (dstL arg5 n hin).view.set (restFrom c arg5 (n + 1)) := by
  rw [rowSet_eq]
  unfold restFrom View.setOn
  rw [Finset.disjoint_map, Finset.disjoint_filter]
  intro y _ h1 h2
  omega

private theorem restFrom_zero : restFrom c arg5 0 = arg5.view.set := by
  unfold restFrom
  rw [Finset.filter_true_of_mem (fun _ _ => Nat.zero_le _)]
  rfl

private theorem restFrom_last : restFrom c arg5 128 = ∅ := by
  unfold restFrom View.setOn
  rw [Finset.filter_false_of_mem (fun y _ => by have h0 : (y 0).val < 128 := (y 0).isLt; show ¬ 128 ≤ (y 0).val; omega)]
  rfl

/-- (A3) All rows are the block. -/
theorem rows_start (f : BufOf (F := F) c arg5) :
    (arg5.view.loc (c : Thread nD τ) ↦[arg5.view.set]{fullShare} f : sProp 𝕄) ⊢ arg5.view.loc (c : Thread nD τ) ↦[restFrom c arg5 0]{fullShare} f := by
  rw [restFrom_zero]
theorem rows_end (f : BufOf (F := F) c arg5) :
    (arg5.view.loc (c : Thread nD τ) ↦[restFrom c arg5 0]{fullShare} f : sProp 𝕄) ⊢ arg5.view.loc (c : Thread nD τ) ↦[arg5.view.set]{fullShare} f := by
  rw [restFrom_zero]

/-- (A4) Row `n` carved out of the rows from `n` on, held by its own elements through its own view; -/
theorem rows_carve (f : BufOf (F := F) c arg5) (n n' : ℕ) (hin : RowIn n) (h : n' = n + 1) :
    (arg5.view.loc (c : Thread nD τ) ↦[restFrom c arg5 n]{fullShare} f : sProp 𝕄)
      ⊢ iprop(((dstL arg5 n hin).view.loc (c : Thread nD τ) ↦[(dstL arg5 n hin).view.set]{fullShare} f)
          ∗ (arg5.view.loc (c : Thread nD τ) ↦[restFrom c arg5 n']{fullShare} f)) := by
  subst h
  rw [restFrom_succ n hin]
  exact (pointsTo_union (restFrom_disj n hin)).mp

/-- (A5) and put back (same contents on both). -/
theorem rows_join (f : BufOf (F := F) c arg5) (n n' : ℕ) (hin : RowIn n) (h : n' = n + 1) :
    (arg5.view.loc (c : Thread nD τ) ↦[restFrom c arg5 n']{fullShare} f : sProp 𝕄)
      ⊢ iprop(((dstL arg5 n hin).view.loc (c : Thread nD τ) ↦[(dstL arg5 n hin).view.set]{fullShare} f)
          -∗ (arg5.view.loc (c : Thread nD τ) ↦[restFrom c arg5 n]{fullShare} f)) := by
  subst h
  rw [restFrom_succ n hin]
  exact wand_intro_left (pointsTo_union (restFrom_disj n hin)).mpr

/-- (A6) Past the last row nothing is left. -/
theorem rows_nil_elim (f : BufOf (F := F) c arg5) :
    (arg5.view.loc (c : Thread nD τ) ↦[restFrom c arg5 128]{fullShare} f : sProp 𝕄) ⊢ emp := by
  rw [restFrom_last, pointsTo_empty]
theorem rows_nil_intro (f : BufOf (F := F) c arg5) :
    (emp : sProp 𝕄) ⊢ arg5.view.loc (c : Thread nD τ) ↦[restFrom c arg5 128]{fullShare} f := by
  rw [restFrom_last, pointsTo_empty]

/-- (A7) A row landed at `pay` (written whole through the row's own view over any contents `f`) holds, on its elements,
    what the block `X` written whole through the block's view holds, when `pay` is row `n` of `X`. -/
theorem rows_land (f : BufOf (F := F) c arg5) (X : S128x1024.Idx → Elt F .f32) (n : ℕ) (hin : RowIn n) (pay : S1024.Idx → Elt F .f32)
    (hpay : ∀ x : S1024.Idx, pay x = X (rowIdx n hin x)) :
    ((dstL arg5 n hin).view.loc (c : Thread nD τ) ↦[(dstL arg5 n hin).view.set]{fullShare} (dstL arg5 n hin).view.write (Elt F) f pay Finset.univ : sProp 𝕄)
      ⊢ (dstL arg5 n hin).view.loc (c : Thread nD τ) ↦[(dstL arg5 n hin).view.set]{fullShare} arg5.view.write (Elt F) f X Finset.univ := by
  have hc : ∀ i ∈ (dstL arg5 n hin).view.set,
      (dstL arg5 n hin).view.write (Elt F) f pay Finset.univ i = arg5.view.write (Elt F) f X Finset.univ i := by
    intro i hi
    obtain ⟨x, -, rfl⟩ := Finset.mem_map.1 hi
    rw [View.write_emb_of_mem _ _ (Finset.mem_univ x)]
    show _ = arg5.view.write (Elt F) f X Finset.univ ((dstL arg5 n hin).view.emb x)
    rw [dstL_emb n hin x, View.write_emb_of_mem _ _ (Finset.mem_univ _), hpay x]
  rw [pointsTo_congr hc]

end Cert.KernelIdeal.Hand

end
-- ==== Proof.KI.RowWrites.lean ====
/-
  Rows of a two-axis buffer written one at a time through squeezed row views.

  A buffer of shape [A, B] is seen through a placement; row `r` of it, cut out as the [1, B] rectangle at
  offsets (r, 0) and squeezed to [B], is a placement of [B] whose entry `q` sits where the buffer's entry
  (r, q) sits. So reading a row view is reading the buffer's row; writing a vector through a row view
  changes that row to the vector and no other row; and after the rows 0, …, n - 1 have been written, in
  that order, with vectors that agree entrywise with a function G of (row, column), the buffer reads as
  G on those rows, whatever it held before.
-/
import proofs.«430590_j46402826666034_2_alg».proof.Proof.Gen.KernelIdeal
import Idealize.ShloMosaic.Lib.Pipeline.Value
import Idealize.ShloMosaic.Lib.ValueIdx

noncomputable section

namespace Cert.KernelIdeal.Hand

open Idealize.ShloMosaic Idealize.ShloMosaic.ValueIdx

section Generic

variable {sig : RefSig} {κ : Kind} {sp : Space} {e : EltTy} {A B : ℕ} (Val : EltTy → Type)

/-- Entry `q` of the row view at offsets `o = (r, 0)` sits where the buffer's entry `(r, q)` sits. -/
theorem rowView_emb (M : Memref sig κ sp ⟨2, ![A, B]⟩ e) (o : Fin 2 → ℕ)
    (inb : ∀ a, o a + (⟨2, ![1, B]⟩ : Shape).size a ≤ (⟨2, ![A, B]⟩ : Shape).size a)
    (hs : ∀ a, (Rect.unit (s := ⟨2, ![A, B]⟩) o (⟨2, ![1, B]⟩ : Shape).size inb).stride a = 1)
    (hsq : (⟨2, ![1, B]⟩ : Shape).Squeezes ⟨1, ![B]⟩)
    (r : Fin A) (ho0 : o 0 = r.val) (ho1 : o 1 = 0) (q : Fin B) :
    ((M.slice (Rect.unit (s := ⟨2, ![A, B]⟩) o (⟨2, ![1, B]⟩ : Shape).size inb) hs).squeeze ⟨1, ![B]⟩ hsq).view.emb (ix1 q)
      = M.view.emb (ix2 r q) := by
  show M.view.emb ((Rect.unit (s := ⟨2, ![A, B]⟩) o (⟨2, ![1, B]⟩ : Shape).size inb).emb
      (Shape.reshapeEquiv hsq.numel_eq (ix1 q))) = _
  have h1 : Shape.reshapeEquiv hsq.numel_eq (ix1 q) = (ix2 (0 : Fin 1) q : (⟨2, ![1, B]⟩ : Shape).Idx) :=
    Shape.reshapeEquiv_eq_of_rowMajor _ (by
      rw [Shape.rowMajor_val_two, Shape.rowMajor_val_one]
      show 0 * B + q.val = q.val
      rw [Nat.zero_mul, Nat.zero_add])
  rw [h1]
  refine congrArg M.view.emb (funext fun a => Fin.ext ?_)
  rw [Rect.emb_apply]
  match a with
  | ⟨0, _⟩ =>
    show o 0 + 1 * 0 = r.val
    rw [ho0, Nat.mul_zero, Nat.add_zero]
  | ⟨1, _⟩ =>
    show o 1 + 1 * q.val = q.val
    rw [ho1, Nat.one_mul, Nat.zero_add]

/-- Reading a row view is reading the buffer's row. -/
theorem read_rowView (M : Memref sig κ sp ⟨2, ![A, B]⟩ e) (o : Fin 2 → ℕ)
    (inb : ∀ a, o a + (⟨2, ![1, B]⟩ : Shape).size a ≤ (⟨2, ![A, B]⟩ : Shape).size a)
    (hs : ∀ a, (Rect.unit (s := ⟨2, ![A, B]⟩) o (⟨2, ![1, B]⟩ : Shape).size inb).stride a = 1)
    (hsq : (⟨2, ![1, B]⟩ : Shape).Squeezes ⟨1, ![B]⟩)
    (r : Fin A) (ho0 : o 0 = r.val) (ho1 : o 1 = 0) (g : M.view.ty.Contents Val) (q : Fin B) :
    ((M.slice (Rect.unit (s := ⟨2, ![A, B]⟩) o (⟨2, ![1, B]⟩ : Shape).size inb) hs).squeeze ⟨1, ![B]⟩ hsq).view.read Val g (ix1 q)
      = M.view.read Val g (ix2 r q) := by
  rw [View.read_apply, View.read_apply, rowView_emb M o inb hs hsq r ho0 ho1 q]

/-- Writing a vector through a row view: that row reads as the vector, every other row as before. -/
theorem read_write_rowView (M : Memref sig κ sp ⟨2, ![A, B]⟩ e) (o : Fin 2 → ℕ)
    (inb : ∀ a, o a + (⟨2, ![1, B]⟩ : Shape).size a ≤ (⟨2, ![A, B]⟩ : Shape).size a)
    (hs : ∀ a, (Rect.unit (s := ⟨2, ![A, B]⟩) o (⟨2, ![1, B]⟩ : Shape).size inb).stride a = 1)
    (hsq : (⟨2, ![1, B]⟩ : Shape).Squeezes ⟨1, ![B]⟩)
    (r : Fin A) (ho0 : o 0 = r.val) (ho1 : o 1 = 0)
    (f : M.view.ty.Contents Val) (p : (⟨1, ![B]⟩ : Shape).Idx → Val e) (r' : Fin A) (q : Fin B) :
    M.view.read Val
        (((M.slice (Rect.unit (s := ⟨2, ![A, B]⟩) o (⟨2, ![1, B]⟩ : Shape).size inb) hs).squeeze ⟨1, ![B]⟩ hsq).view.write Val f p Finset.univ)
        (ix2 r' q)
      = if r' = r then p (ix1 q) else M.view.read Val f (ix2 r' q) := by
  by_cases h : r' = r
  · subst h
    rw [if_pos rfl, ← read_rowView Val M o inb hs hsq r' ho0 ho1 _ q]
    exact View.read_write_of_mem _ _ (Finset.mem_univ _)
  · rw [if_neg h, View.read_apply, View.read_apply]
    refine congrArg _ (View.write_of_not_mem _ _ _ fun hmem => h ?_)
    obtain ⟨x, _, hx⟩ := Finset.mem_map.1 hmem
    obtain ⟨q', rfl⟩ : ∃ q' : Fin B, x = ix1 q' := ⟨x 0, eq_ix1 x⟩
    rw [rowView_emb M o inb hs hsq r ho0 ho1 q'] at hx
    have := congrFun (M.view.emb.injective hx) 0
    exact this.symm

/-- One more row written: if the buffer read as `G` on rows below `n` and the vector written through row
    `n`'s view agrees with `G` on row `n`, the buffer reads as `G` on rows below `n + 1`. -/
theorem read_rows_step (M : Memref sig κ sp ⟨2, ![A, B]⟩ e) (o : Fin 2 → ℕ)
    (inb : ∀ a, o a + (⟨2, ![1, B]⟩ : Shape).size a ≤ (⟨2, ![A, B]⟩ : Shape).size a)
    (hs : ∀ a, (Rect.unit (s := ⟨2, ![A, B]⟩) o (⟨2, ![1, B]⟩ : Shape).size inb).stride a = 1)
    (hsq : (⟨2, ![1, B]⟩ : Shape).Squeezes ⟨1, ![B]⟩)
    (G : Fin A → Fin B → Val e) (n : ℕ) (hn : n < A) (ho0 : o 0 = n) (ho1 : o 1 = 0)
    (g : M.view.ty.Contents Val) (p : (⟨1, ![B]⟩ : Shape).Idx → Val e)
    (hg : ∀ (r' : Fin A) (q : Fin B), r'.val < n → M.view.read Val g (ix2 r' q) = G r' q)
    (hp : ∀ q : Fin B, p (ix1 q) = G ⟨n, hn⟩ q) (r' : Fin A) (q : Fin B) (hr : r'.val < n + 1) :
    M.view.read Val
        (((M.slice (Rect.unit (s := ⟨2, ![A, B]⟩) o (⟨2, ![1, B]⟩ : Shape).size inb) hs).squeeze ⟨1, ![B]⟩ hsq).view.write Val g p Finset.univ)
        (ix2 r' q)
      = G r' q := by
  rw [read_write_rowView Val M o inb hs hsq ⟨n, hn⟩ ho0 ho1 g p r' q]
  by_cases h : r' = ⟨n, hn⟩
  · rw [if_pos h, hp q, h]
  · rw [if_neg h]
    exact hg r' q (by
      have : r'.val ≠ n := fun hv => h (Fin.ext hv)
      omega)

/-! ### The rows written in turn -/

theorem rowV_inb (r : Fin A) :
    ∀ a, (![r.val, 0] : Fin 2 → ℕ) a + (⟨2, ![1, B]⟩ : Shape).size a ≤ (⟨2, ![A, B]⟩ : Shape).size a := by
  intro a
  match a with
  | ⟨0, _⟩ => show r.val + 1 ≤ A; have := r.isLt; omega
  | ⟨1, _⟩ => show 0 + B ≤ B; omega

/-- Row `r`'s view: the [1, B] rectangle at offsets (r, 0), squeezed to [B]. -/
abbrev rowV (M : Memref sig κ sp ⟨2, ![A, B]⟩ e) (hsq : (⟨2, ![1, B]⟩ : Shape).Squeezes ⟨1, ![B]⟩) (r : Fin A) :
    View sig κ sp ⟨1, ![B]⟩ e :=
  ((M.slice (Rect.unit (s := ⟨2, ![A, B]⟩) ![r.val, 0] (⟨2, ![1, B]⟩ : Shape).size (rowV_inb r)) (fun _ => rfl)).squeeze
    ⟨1, ![B]⟩ hsq).view

/-- The contents after rows `0, …, n - 1` have been written in that order, row `r` with the vector `P r`. -/
def rowsTo (M : Memref sig κ sp ⟨2, ![A, B]⟩ e) (hsq : (⟨2, ![1, B]⟩ : Shape).Squeezes ⟨1, ![B]⟩)
    (f : M.view.ty.Contents Val) (P : Fin A → (⟨1, ![B]⟩ : Shape).Idx → Val e) : ℕ → M.view.ty.Contents Val
  | 0 => f
  | n + 1 => if h : n < A then (rowV M hsq ⟨n, h⟩).write Val (rowsTo M hsq f P n) (P ⟨n, h⟩) Finset.univ
      else rowsTo M hsq f P n

/-- After rows `0, …, n - 1`: those rows read as their vectors, the others as before. -/
theorem read_rowsTo (M : Memref sig κ sp ⟨2, ![A, B]⟩ e) (hsq : (⟨2, ![1, B]⟩ : Shape).Squeezes ⟨1, ![B]⟩)
    (f : M.view.ty.Contents Val) (P : Fin A → (⟨1, ![B]⟩ : Shape).Idx → Val e) (n : ℕ) (hn : n ≤ A)
    (r' : Fin A) (q : Fin B) :
    M.view.read Val (rowsTo Val M hsq f P n) (ix2 r' q)
      = if r'.val < n then P r' (ix1 q) else M.view.read Val f (ix2 r' q) := by
  induction n with
  | zero => rw [if_neg (Nat.not_lt_zero _)]; rfl
  | succ n ih =>
    have hlt : n < A := hn
    have ih' := ih (Nat.le_of_lt hlt)
    have e1 : rowsTo Val M hsq f P (n + 1)
        = (rowV M hsq ⟨n, hlt⟩).write Val (rowsTo Val M hsq f P n) (P ⟨n, hlt⟩) Finset.univ := dif_pos hlt
    rw [e1]
    refine (read_write_rowView Val M ![n, 0] (rowV_inb ⟨n, hlt⟩) (fun _ => rfl) hsq ⟨n, hlt⟩ rfl rfl _ _ r' q).trans ?_
    rw [ih']
    by_cases h : r' = ⟨n, hlt⟩
    · subst h
      rw [if_pos rfl, if_pos (Nat.lt_succ_self n)]
    · have hv : r'.val ≠ n := fun hv => h (Fin.ext hv)
      rw [if_neg h]
      by_cases h2 : r'.val < n
      · rw [if_pos h2, if_pos (by omega)]
      · rw [if_neg h2, if_neg (by omega)]

/-- After all the rows: the buffer reads as the vectors, whatever it held. -/
theorem read_rowsTo_all (M : Memref sig κ sp ⟨2, ![A, B]⟩ e) (hsq : (⟨2, ![1, B]⟩ : Shape).Squeezes ⟨1, ![B]⟩)
    (f : M.view.ty.Contents Val) (P : Fin A → (⟨1, ![B]⟩ : Shape).Idx → Val e) (r' : Fin A) (q : Fin B) :
    M.view.read Val (rowsTo Val M hsq f P A) (ix2 r' q) = P r' (ix1 q) := by
  rw [read_rowsTo Val M hsq f P A (Nat.le_refl A) r' q, if_pos r'.isLt]

end Generic

/-! ### This unit's buffers -/

section Unit

open Cert.KernelIdeal Cert.KernelIdeal.Gen

variable {F : FTy → Type} [FloatOps F]

/-- The staging buffer's row view at offsets `o = (r, 0)`, written: that row reads as the vector, the others as before. -/
theorem stage_read_write_row (arg5 : Memref sig .tc .vmem S128x1024 .f32) (o : Fin 2 → ℕ)
    (inb : ∀ a, o a + S1x1024.size a ≤ S128x1024.size a)
    (hs : ∀ a, (Rect.unit (s := S128x1024) o S1x1024.size inb).stride a = 1)
    (r : Fin 128) (ho0 : o 0 = r.val) (ho1 : o 1 = 0)
    (f : arg5.view.ty.Contents (Elt F)) (p : S1024.Idx → Elt F .f32) (r' : Fin 128) (q : Fin 1024) :
    arg5.view.read (Elt F)
        (((arg5.slice (Rect.unit (s := S128x1024) o S1x1024.size inb) hs).squeeze S1024 squeezes_S1x1024_S1024).view.write
          (Elt F) f p Finset.univ) (ix2 r' q)
      = if r' = r then p (ix1 q) else arg5.view.read (Elt F) f (ix2 r' q) :=
  read_write_rowView (Elt F) arg5 o inb hs squeezes_S1x1024_S1024 r ho0 ho1 f p r' q

/-- One more row of the staging buffer written (rows in the order 0, 1, …). -/
theorem stage_rows_step (arg5 : Memref sig .tc .vmem S128x1024 .f32) (o : Fin 2 → ℕ)
    (inb : ∀ a, o a + S1x1024.size a ≤ S128x1024.size a)
    (hs : ∀ a, (Rect.unit (s := S128x1024) o S1x1024.size inb).stride a = 1)
    (G : Fin 128 → Fin 1024 → Elt F .f32) (n : ℕ) (hn : n < 128) (ho0 : o 0 = n) (ho1 : o 1 = 0)
    (g : arg5.view.ty.Contents (Elt F)) (p : S1024.Idx → Elt F .f32)
    (hg : ∀ (r' : Fin 128) (q : Fin 1024), r'.val < n → arg5.view.read (Elt F) g (ix2 r' q) = G r' q)
    (hp : ∀ q : Fin 1024, p (ix1 q) = G ⟨n, hn⟩ q) (r' : Fin 128) (q : Fin 1024) (hr : r'.val < n + 1) :
    arg5.view.read (Elt F)
        (((arg5.slice (Rect.unit (s := S128x1024) o S1x1024.size inb) hs).squeeze S1024 squeezes_S1x1024_S1024).view.write
          (Elt F) g p Finset.univ) (ix2 r' q)
      = G r' q :=
  read_rows_step (Elt F) arg5 o inb hs squeezes_S1x1024_S1024 G n hn ho0 ho1 g p hg hp r' q hr

/-- The table's row view at a row given by a word: entry `q` is the table's entry `(row, q)`. -/
theorem table_row_read (o : Fin 2 → ℕ) (inb : ∀ a, o a + S1x1024.size a ≤ S32000x1024.size a)
    (hs : ∀ a, (Rect.unit (s := S32000x1024) o S1x1024.size inb).stride a = 1)
    (r : Fin 32000) (ho0 : o 0 = r.val) (ho1 : o 1 = 0)
    (fw : (Memref.whole main_arg2 : Memref sig .tc .hbm S32000x1024 .f32).view.ty.Contents (Elt F)) (q : Fin 1024) :
    (((Memref.whole main_arg2 : Memref sig .tc .hbm S32000x1024 .f32).slice
        (Rect.unit (s := S32000x1024) o S1x1024.size inb) hs).squeeze S1024 squeezes_S1x1024_S1024).view.read (Elt F) fw (ix1 q)
      = (Memref.whole main_arg2 : Memref sig .tc .hbm S32000x1024 .f32).view.read (Elt F) fw (ix2 r q) :=
  read_rowView (Elt F) (Memref.whole main_arg2 : Memref sig .tc .hbm S32000x1024 .f32) o inb hs squeezes_S1x1024_S1024 r ho0 ho1 fw q

/-- Reading the whole table's view is reading its contents. -/
theorem table_whole_read
    (fw : (Memref.whole main_arg2 : Memref sig .tc .hbm S32000x1024 .f32).view.ty.Contents (Elt F)) (y : S32000x1024.Idx) :
    (Memref.whole main_arg2 : Memref sig .tc .hbm S32000x1024 .f32).view.read (Elt F) fw y = fw y := rfl

end Unit

end Cert.KernelIdeal.Hand

end
-- ==== Proof.KI.Gath0.lean ====
/-
  The gathered block as ONE function of the id table and the embedding table: row r of the block at grid point i is the
  embedding table's row named by the id word 128·i + r, spelled through the same row views the kernel's copies move.
-/
import proofs.«430590_j46402826666034_2_alg».proof.Proof.KI.Rows0
import proofs.«430590_j46402826666034_2_alg».proof.Proof.KI.RowWrites
import proofs.«430590_j46402826666034_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx

/-- A table word below 32000 names a row of the embedding table. -/
theorem row_inb (v : BitVec 32) (h : v.toNat < 32000) :
    ∀ a : Fin 2, (![v.toNat, 0] : Fin 2 → Nat) a + S1x1024.size a ≤ S32000x1024.size a := by
  intro a; fin_cases a
  · show v.toNat + 1 ≤ 32000; omega
  · show 0 + 1024 ≤ 1024; omega

/-- The id table's offset for row `r` at grid point `i`, as the body computes it (the word `128·i + r`). -/
def offG (i : grid0.Coords) (r : ℕ) : Fin 1 → ℕ :=
  ![(Scalar.indexCast (Scalar.addi (Scalar.muli (BitVec.ofNat 32 (i 0).val) 128#32) (BitVec.ofNat 32 r))).toNat]

/-- (B1) It is word `128·i + r`, inside the table. -/
theorem offG_eq (i : grid0.Coords) (r : ℕ) (hr : r < 128) : offG i r = ![128 * (i 0).val + r] := by
  have hi : (i 0).val < 32 := (i 0).isLt
  funext a
  match a with
  | ⟨0, _⟩ =>
    show ((BitVec.ofNat 32 (i 0).val * 128#32) + BitVec.ofNat 32 r).toNat = 128 * (i 0).val + r
    rw [BitVec.toNat_add, BitVec.toNat_mul, BitVec.toNat_ofNat, BitVec.toNat_ofNat, BitVec.toNat_ofNat]
    omega
theorem offG_inb (i : grid0.Coords) (r : ℕ) (hr : r < 128) : ∀ a, (offG i r) a + S1.size a ≤ S4096.size a := by
  have hi : (i 0).val < 32 := (i 0).isLt
  rw [offG_eq i r hr]
  intro a
  match a with
  | ⟨0, _⟩ =>
    show 128 * (i 0).val + r + 1 ≤ 4096
    omega

/-- The id word of row `r`, as the body's load reads it. -/
def wdG (c : Dev nD) (i : grid0.Coords) (ft : BufOf (F := F) c tbM) (r : ℕ) (hr : r < 128) : Elt F .i32 :=
  tbM.view.readAt (Elt F) (Rect.unit (s := S4096) (offG i r) S1.size (offG_inb i r hr)).toLoadRect ft (Shape.Idx.first (numel1_S1.symm ▸ Nat.one_pos))

/-- Row `v` of the embedding table as the body names the copy's source. -/
def srcG (v : BitVec 32) (hv : v.toNat < 32000) : Memref sig .tc .hbm S1024 .f32 :=
  (wM.slice (Rect.unit (s := S32000x1024) ![v.toNat, 0] S1x1024.size (row_inb v hv)) (fun _ => rfl)).squeeze S1024 squeezes_S1x1024_S1024

/-- What the copy of row `r` moves: the source row's read of the embedding table's contents. -/
def payG (c : Dev nD) (i : grid0.Coords) (ft : BufOf (F := F) c tbM) (fw : BufOf (F := F) c wM) (hrow : ∀ j, (ft j).toNat < 32000)
    (r : ℕ) (hr : r < 128) : S1024.Idx → Elt F .f32 :=
  ReadAs.same.apply (View.read (Elt F) (srcG (wdG c i ft r hr) (hrow _)).view fw)

/-- The gathered block: row `r` is the embedding table's row named by id word `128·i + r`. -/
def gath0 (c : Dev nD) (i : grid0.Coords) (ft : BufOf (F := F) c tbM) (fw : BufOf (F := F) c wM) (hrow : ∀ j, (ft j).toNat < 32000) :
    S128x1024.Idx → Elt F .f32 :=
  fun y => payG c i ft fw hrow (y 0).val (y 0).isLt (ix1 (y 1))

/-- (B2) Row `r`'s payload is row `r` of the gathered block. -/
theorem payG_eq (c : Dev nD) (i : grid0.Coords) (ft : BufOf (F := F) c tbM) (fw : BufOf (F := F) c wM) (hrow : ∀ j, (ft j).toNat < 32000)
    (r : ℕ) (hr : r < 128) (hin : RowIn r) (x : S1024.Idx) :
    payG c i ft fw hrow r hr x = gath0 c i ft fw hrow (rowIdx r hin x) := by
  have key : ∀ (r' : ℕ) (hr' : r' < 128) (x' : S1024.Idx), r = r' → x = x' →
      payG c i ft fw hrow r hr x = payG c i ft fw hrow r' hr' x' := by
    intro r' hr' x' h1 h2; subst h1; subst h2; rfl
  refine key _ _ _ (rowIdx_zero r hin x).symm ?_
  funext d
  match d with
  | ⟨0, _⟩ => exact Fin.ext (rowIdx_one r hin x).symm

/-- (B3) The id word of row `r` is the table's word `128·i + r`. -/
theorem wdG_eq (c : Dev nD) (i : grid0.Coords) (ft : BufOf (F := F) c tbM) (r : ℕ) (hr : r < 128) :
    wdG c i ft r hr = ft (ix1 ⟨128 * (i 0).val + r, by have := (i 0).isLt; show 128 * (i 0).val + r < 4096; have : (i 0).val < 32 := (i 0).isLt; omega⟩) := by
  unfold wdG
  rw [View.readAt_apply, View.read_apply]
  show ft _ = ft _
  refine congrArg ft (funext fun a => Fin.ext ?_)
  match a with
  | ⟨0, _⟩ =>
    show offG i r 0 + 1 * 0 = 128 * (i 0).val + r
    rw [offG_eq i r hr]
    show 128 * (i 0).val + r + 1 * 0 = 128 * (i 0).val + r
    omega

/-- (B4) The gathered block at an index: the embedding table at (the row its id word names, the column). -/
theorem gath0_apply (c : Dev nD) (i : grid0.Coords) (ft : BufOf (F := F) c tbM) (fw : BufOf (F := F) c wM) (hrow : ∀ j, (ft j).toNat < 32000)
    (p : Fin 128) (q : Fin 1024) :
    gath0 c i ft fw hrow (ix2 p q) = fw (ix2 ⟨(wdG c i ft p.val p.isLt).toNat, hrow _⟩ q) := by
  show View.read (Elt F) (srcG (wdG c i ft p.val p.isLt) (hrow _)).view fw (ix1 q) = _
  unfold srcG
  exact table_row_read ![(wdG c i ft p.val p.isLt).toNat, 0] (row_inb _ (hrow _)) (fun _ => rfl)
    ⟨(wdG c i ft p.val p.isLt).toNat, hrow _⟩ rfl rfl fw q

/-- The gathered block at an index, through the table's word: the embedding table at (the row the word names, the column). -/
theorem gath0_toNat (c : Dev nD) (i : grid0.Coords) (ft : BufOf (F := F) c tbM) (fw : BufOf (F := F) c wM) (hrow : ∀ j, (ft j).toNat < 32000)
    (r : Fin 128) (q : Fin 1024) :
    gath0 c i ft fw hrow (ix2 r q)
      = fw (ix2 ⟨(ft (ix1 ⟨128 * (i 0).val + r.val, by have : (i 0).val < 32 := (i 0).isLt; have := r.isLt; omega⟩)).toNat, hrow _⟩ q) := by
  rw [gath0_apply]
  refine congrArg fw (congrArg (fun a : Fin 32000 => ix2 a q) (Fin.ext ?_))
  show (wdG c i ft r.val r.isLt).toNat = _
  rw [wdG_eq]

/-- The same with the row named as the specification names it. -/
theorem gath0_spec (c : Dev nD) (i : grid0.Coords) (ft : BufOf (F := F) c tbM) (fw : BufOf (F := F) c wM) (hrow : ∀ j, (ft j).toNat < 32000)
    (r : Fin 128) (q : Fin 1024) :
    gath0 c i ft fw hrow (ix2 r q)
      = fw (ix2 (Cert.Proof.Spec.row (ft (ix1 ⟨128 * (i 0).val + r.val, by have : (i 0).val < 32 := (i 0).isLt; have := r.isLt; omega⟩))) q) := by
  rw [gath0_toNat]
  refine congrArg fw (congrArg (fun a : Fin 32000 => ix2 a q) (Fin.ext ?_))
  exact (Cert.Proof.Spec.row_val_of_lt _ (hrow _)).symm

end Cert.KernelIdeal.Hand

end
-- ==== Proof.KI.Run0.lean ====
/-
  The first pallas_call's kernel body, run ONCE at a symbolic grid point. At point i the body reads, for r = 0 … 127, the
  id word 128·i + r from the prefetched table, starts a copy of the embedding table's row that word names into row r of
  the gathered block's staging buffer — each copy on its own DMA cell 7 + r —, stores the bit-embedding product into the
  second output's staging buffer, and waits for all 128 copies.

  All 128 copies are in flight at once, reading one array and landing in one buffer. So the embedding table is held as one
  read token per cell (two id words may be equal: the same row is then lent twice, once from each token), and the
  gathered block's buffer is held row by row, each row by its own elements, so that every copy finds its destination whole.
  After the waits each landed row is a row of ONE function, the gathered block, and the rows are put back together.
-/
import proofs.«430590_j46402826666034_2_alg».proof.Proof.KI.Gath0
import Idealize.ShloMosaic.Lib.Pipeline.FrameBody
import Idealize.ShloMosaic.Lib.Transfers
import Idealize.ShloMosaic.Lib.Writes
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The 128 cells at zero, as one chain -/

open Lean in
/-- `semChain% c lo n`: the cells `lo … lo + n - 1` at zero, as one ∗-chain. -/
macro "semChain% " c:ident lo:num n:num : term => do
  let lo := lo.getNat; let n := n.getNat
  let mk (k : Nat) : MacroM Term := `(semVal (($c : Thread nD τ), SemLoc.dma $(Syntax.mkNumLit (toString k))) 0)
  let mut acc ← mk (lo + n - 1)
  for j in [1:n] do
    let t ← mk (lo + n - 1 - j)
    acc ← `(iprop($t ∗ $acc))
  return acc

theorem ownSems0_chain (c : Dev nD) :
    (Pipeline.ownSems0 (Ix := Unit) (Name := ℕ) (U := Pipeline.UD sig nD τ) (Lvl := ℕ) (Val := Elt F) (τ := τ) osem0 c : sProp 𝕄)
      = semChain% c 7 128 := by
  rw [Pipeline.ownSems0_eq_of_list c osem0 (List.finRange 128) (List.toFinset_finRange 128).symm (List.nodup_finRange 128)]; rfl

/-! ## The embedding table as one read token per cell -/

/-- One more read token split off the remainder (`Transfers.shareDrop`, `Transfers.shareTokN`). -/
theorem tok_split (c : Dev nD) (fw : BufOf (F := F) c wM) (k k' : ℕ) (h : k' = k + 1) :
    (ptAt c wM (Transfers.shareDrop fullShare k) fw : sProp 𝕄)
      ⊢ iprop(ptAt c wM (Transfers.shareDrop fullShare k') fw ∗ ptAt c wM (Transfers.shareTokN fullShare k) fw) := by
  subst h; exact (pointsTo_share (PosShare.mem_left_op_right _)).1

/-- and put back. -/
theorem tok_join (c : Dev nD) (fw : BufOf (F := F) c wM) (k k' : ℕ) (h : k' = k + 1) :
    (ptAt c wM (Transfers.shareDrop fullShare k') fw : sProp 𝕄)
      ⊢ iprop(ptAt c wM (Transfers.shareTokN fullShare k) fw -∗ ptAt c wM (Transfers.shareDrop fullShare k) fw) := by
  subst h; exact BIClass.wand_intro (pointsTo_share (PosShare.mem_left_op_right _)).2

theorem tok_start (c : Dev nD) (fw : BufOf (F := F) c wM) :
    (ptAt c wM fullShare fw : sProp 𝕄) ⊢ ptAt c wM (Transfers.shareDrop fullShare 0) fw := .rfl
theorem tok_end (c : Dev nD) (fw : BufOf (F := F) c wM) :
    (ptAt c wM (Transfers.shareDrop fullShare 0) fw : sProp 𝕄) ⊢ ptAt c wM fullShare fw := .rfl

/-! ## The gathered block's rows, carved out and put back under a goal -/

section Rows
variable {c : Dev nD} {arg5 : Memref sig .tc .vmem S128x1024 .f32}

/-- All rows, then any goal from them. -/
theorem start_cps (f : BufOf (F := F) c arg5) (Q : sProp 𝕄) :
    iprop((arg5.view.loc (c : Thread nD τ) ↦[arg5.view.set]{fullShare} f)
      ∗ ((arg5.view.loc (c : Thread nD τ) ↦[restFrom c arg5 0]{fullShare} f) -∗ Q)) ⊢ Q := by
  iintro ⟨H, Hk⟩; iapply Hk; iapply (rows_start f); iexact H

/-- Row `n` carved out of the rows from `n` on, then any goal from the two. -/
theorem carve_cps (f : BufOf (F := F) c arg5) (n n' : ℕ) (hin : RowIn n) (h : n' = n + 1) (Q : sProp 𝕄) :
    iprop((arg5.view.loc (c : Thread nD τ) ↦[restFrom c arg5 n]{fullShare} f)
      ∗ (iprop(((dstL arg5 n hin).view.loc (c : Thread nD τ) ↦[(dstL arg5 n hin).view.set]{fullShare} f)
          ∗ (arg5.view.loc (c : Thread nD τ) ↦[restFrom c arg5 n']{fullShare} f)) -∗ Q)) ⊢ Q := by
  iintro ⟨H, Hk⟩; iapply Hk; iapply (rows_carve f n n' hin h); iexact H

/-- Row `n` and the rows after it are the rows from `n` on. -/
theorem rows_unjoin (f : BufOf (F := F) c arg5) (n n' : ℕ) (hin : RowIn n) (h : n' = n + 1) :
    iprop(((dstL arg5 n hin).view.loc (c : Thread nD τ) ↦[(dstL arg5 n hin).view.set]{fullShare} f)
        ∗ (arg5.view.loc (c : Thread nD τ) ↦[restFrom c arg5 n']{fullShare} f))
      ⊢ (arg5.view.loc (c : Thread nD τ) ↦[restFrom c arg5 n]{fullShare} f : sProp 𝕄) := by
  iintro ⟨HR, H⟩
  iapply (rows_join f n n' hin h) $$ H HR

/-- Past the last row there are no elements: any contents do. -/
theorem rows_nil_change (f g : BufOf (F := F) c arg5) :
    (arg5.view.loc (c : Thread nD τ) ↦[restFrom c arg5 128]{fullShare} f : sProp 𝕄)
      ⊢ arg5.view.loc (c : Thread nD τ) ↦[restFrom c arg5 128]{fullShare} g :=
  (rows_nil_elim f).trans (rows_nil_intro g)

/-- A row landed as ONE listed piece over any contents `g` holds, on its elements, what the block `X` written whole over `f` holds,
    when the piece's payload is row `n` of `X`. -/
theorem rows_landL (g f : BufOf (F := F) c arg5) (X : S128x1024.Idx → Elt F .f32)
    (n : ℕ) (hin : RowIn n) (pay : S1024.Idx → Elt F .f32) (hpay : ∀ x : S1024.Idx, pay x = X (rowIdx n hin x)) :
    ((dstL arg5 n hin).view.loc (c : Thread nD τ) ↦[(dstL arg5 n hin).view.set]{fullShare}
        (dstL arg5 n hin).view.writes (Elt F) g [⟨Rect.whole S1024, pay⟩] : sProp 𝕄)
      ⊢ (dstL arg5 n hin).view.loc (c : Thread nD τ) ↦[(dstL arg5 n hin).view.set]{fullShare} arg5.view.write (Elt F) f X Finset.univ := by
  rw [← View.write_univ_eq_writes_whole (dstL arg5 n hin).view g [] pay]
  rw [pointsTo_congr (g := (dstL arg5 n hin).view.write (Elt F) f pay Finset.univ) ?_]
  · exact rows_land f X n hin pay hpay
  · intro i hi
    obtain ⟨x, -, rfl⟩ := Finset.mem_map.mp hi
    rw [View.write_emb_of_mem _ _ (Finset.mem_univ _), View.write_emb_of_mem _ _ (Finset.mem_univ _)]

end Rows

section Loops
open Lean Elab Tactic

/-- Run one tactic given as text. -/
def runText (s : String) : TacticM Unit := do
  match Parser.runParserCategory (← getEnv) `tactic s with
  | .ok stx => evalTactic stx
  | .error e => throwError "{e}\n{s}"

/-- `split_toks n`: from `Hd` (the table `fw` on core `c` at the full share) the read tokens `T0 … T(n-1)` and the remainder `Hd`. -/
elab "split_toks " n:num : tactic => do
  runText "icases (tok_start c fw) $$ Hd with Hd"
  for k in [0:n.getNat] do
    runText s!"icases (tok_split c fw {k} {k+1} rfl) $$ Hd with ⟨Hd, T{k}⟩"

/-- `join_toks n`: back. -/
elab "join_toks " n:num : tactic => do
  for j in [0:n.getNat] do
    let k := n.getNat - 1 - j
    runText s!"icases (tok_join c fw {k} {k+1} rfl) $$ Hd T{k} with Hd"
  runText "icases (tok_end c fw) $$ Hd with Hd"

/-- `cases_sems H lo n`: the chain `H` into `Hs(lo) … Hs(lo+n-1)`. -/
elab "cases_sems " h:ident lo:num n:num : tactic => do
  let names := ", ".intercalate ((List.range n.getNat).map fun j => s!"Hs{lo.getNat + j}")
  runText s!"icases {h.getId} with ⟨{names}⟩"

/-- `exact_sems lo n`: the goal chain from `Hs(lo) … Hs(lo+n-1)`. -/
elab "exact_sems " lo:num n:num : tactic => do
  for j in [0:n.getNat - 1] do
    runText s!"isplitl [Hs{lo.getNat + j}]"
    runText s!"focus (iexact Hs{lo.getNat + j})"
  runText s!"iexact Hs{lo.getNat + n.getNat - 1}"

/-- `isplitl_sems lo n`: split the cells `Hs(lo) … ` off to the left. -/
elab "isplitl_sems " lo:num n:num : tactic => do
  let names := " ".intercalate ((List.range n.getNat).map fun j => s!"Hs{lo.getNat + j}")
  runText s!"isplitl [{names}]"

/-- `carve_rows n`: from `H5` (the rows from 0 on, at `f5`) the rows `R0 … R(n-1)`, each by its own elements, and the rest `H5`. -/
elab "carve_rows " n:num : tactic => do
  for r in [0:n.getNat] do
    runText s!"iapply (carve_cps f5 {r} {r+1} inb_S128x1024_S1x1024_{r}_0 rfl)"
    runText "isplitl [H5]"
    runText "focus (iexact H5)"
    runText s!"iintro ⟨R{r}, H5⟩"

/-- `isplitl_rows n`: split the rows `R0 …` and the rest `H5` off to the left. -/
elab "isplitl_rows " n:num : tactic => do
  let names := " ".intercalate ((List.range n.getNat).map fun j => s!"R{j}")
  runText s!"isplitl [{names} H5]"

/-- `join_rows n`: the goal, the rows from 0 on at the gathered block written whole, from the landed rows `R0 …` and the rest `H5`. -/
elab "join_rows " n:num : tactic => do
  for r in [0:n.getNat] do
    runText s!"iapply (rows_unjoin (arg5.view.write (Elt F) f5 (gath0 c i ft fw hrow) Finset.univ) {r} {r+1} inb_S128x1024_S1x1024_{r}_0 rfl)"
    runText s!"isplitl [R{r}]"
    runText s!"focus (iapply (rows_landL _ f5 (gath0 c i ft fw hrow) {r} inb_S128x1024_S1x1024_{r}_0 _ (fun x => payG_eq c i ft fw hrow {r} (by decide) inb_S128x1024_S1x1024_{r}_0 x)); iexact R{r})"
  runText "iapply (rows_nil_change f5 _)"
  runText "iexact H5"

end Loops

/-! ## The run -/

-- the run is one elaboration step over 58 printed parts: its allocations are far above the default budget's
set_option sl_exec.dmaWindow true in
set_option sl_exec.dmaWindowSet true in
set_option maxHeartbeats 16000000 in
/-- What the body leaves in the second output's staging buffer, as pieces, WITH the proof that from the two input
    blocks at `x3`, `x4`, the two outputs' buffers at anything, the id table (at any share) at `ft` — every word of it a row
    of the embedding table —, the embedding table whole at `fw`, the 128 cells at zero and the core owing nothing, the body
    runs to its return with the inputs as they were, the first output's buffer holding the gathered block, the second's
    its pieces written, both tables and the cells as they were, the waits recorded. -/
noncomputable def kernelRun0 (c : Dev nD) (i : grid0.Coords)
    (arg3 : Memref sig .tc .vmem S128x15 .f32) (harg3 : arg3.IsWhole) (arg4 : Memref sig .tc .vmem S15x1024 .f32) (harg4 : arg4.IsWhole)
    (arg5 : Memref sig .tc .vmem S128x1024 .f32) (harg5 : arg5.IsWhole) (arg6 : Memref sig .tc .vmem S128x1024 .f32) (harg6 : arg6.IsWhole)
    (x3 : Vec F S128x15 .f32) (x4 : Vec F S15x1024 .f32) (ft : BufOf (F := F) c tbM) (fw : BufOf (F := F) c wM)
    (hrow : ∀ j, (ft j).toNat < 32000) (qt : PosShare TreeShare) :
    { L6 : List (View.Piece (Elt F) S128x1024 .f32) //
      ∀ (W : Waits sig Unit) (K : PUnit → sProp 𝕄),
        iprop(owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ ptAt c tbM qt ft ∗ ptAt c wM fullShare fw
            ∗ Pipeline.ownSems0 osem0 c
            ∗ owes (c : Thread nD τ) 0 W
            ∗ (iprop(owns (c : Thread nD τ) arg3 fullShare x3 ∗ owns (c : Thread nD τ) arg4 fullShare x4
                ∗ owns (c : Thread nD τ) arg5 fullShare (gath0 c i ft fw hrow)
                ∗ (∃ f, arg6.view.loc (c : Thread nD τ) ↦[arg6.view.set]{fullShare} arg6.view.writes (Elt F) f L6)
                ∗ ptAt c tbM qt ft ∗ ptAt c wM fullShare fw
                ∗ Pipeline.ownSems0 osem0 c
                ∗ (∃ W', owes (c : Thread nD τ) 0 W')) -∗ K ⟨⟩))
          ⊢ wp frame (wpE (defs₀ (F := F)) Variants.none c none) Set.univ
              (cc0__gather_bitemb_kernel i tbM (Memref.isWhole_whole _) wM (Memref.isWhole_whole _) arg3 harg3 arg4 harg4 arg5 harg5 arg6 harg6 cc0_scratch0) K } := by
  refine ⟨?_, fun W K => ?run⟩
  case run =>
    -- every id word the body loads names a row of the embedding table: the side condition it assumes of each
    have hw : ∀ (o : Fin 1 → Nat) (ho : ∀ a, o a + S1.size a ≤ S4096.size a),
        (show BitVec 32 from tbM.view.readAt (Elt F) (Rect.unit (s := S4096) o S1.size ho).toLoadRect ft (Shape.Idx.first (numel1_S1.symm ▸ Nat.one_pos))).toNat < 32000 :=
      fun o ho => hrow _
    unfold owns
    iintro ⟨⟨%f3, %hf3, H3⟩, ⟨%f4, %hf4, H4⟩, ⟨%d5, %f5, -, H5⟩, ⟨%d6, %f6, -, H6⟩, HT, Hd, Hsems, HO, Hk⟩
    obtain rfl := harg3.eq_unread hf3
    obtain rfl := harg4.eq_unread hf4
    -- the cells one by one, the embedding table as read tokens 0 … 134 (cell 7 + r takes token 7 + r), the block row by row
    icases (Entails.of_eq (ownSems0_chain (F := F) c)) $$ Hsems with Hsems
    cases_sems Hsems 7 128
    split_toks 135
    iapply (start_cps f5)
    isplitl [H5]; · iexact H5
    iintro H5
    carve_rows 128
    sl_exec_parts! (disch := first | exact ⟨row_inb _ (hw _ _), row_inb _ (hw _ _)⟩ | exact row_inb _ (hw _ _))
    sl_step
    -- the tokens joined: the embedding table whole again
    join_toks 135
    iapply Hk
    isplitl [H3]
    · iexists _; isplitr; · ipureintro; exact harg3.read_unread _
      iexact H3
    isplitl [H4]
    · iexists _; isplitr; · ipureintro; exact harg4.read_unread _
      iexact H4
    isplitl_rows 128
    · -- every landed row is a row of the gathered block: the rows joined hold it, written whole over what the buffer held
      iexists (arg5.view.write (Elt F) f5 (gath0 c i ft fw hrow) Finset.univ)
      isplitr; · ipureintro; exact View.read_write_univ _ _
      iapply (rows_end _)
      join_rows 128
    isplitl [H6]; · iexists _; iexact H6
    isplitl [HT]; · iexact HT
    isplitl [Hd]; · iexact Hd
    isplitl_sems 7 128
    · iapply (Entails.of_eq (ownSems0_chain (F := F) c).symm)
      exact_sems 7 128
    iexists _; iexact HO

end Cert.KernelIdeal.Hand

end
-- ==== Proof.KI.Read6.lean ====
/-
  What the run leaves in the second output's staging buffer, read back: its one store covers the block, and what it stores is
  the bit-embedding product of the two input blocks as the body loaded them — each load the whole block.
-/
import proofs.«430590_j46402826666034_2_alg».proof.Proof.KI.Run0
import Idealize.ShloMosaic.Lib.Ring
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The zero offsets of a whole-block rectangle. -/
theorem off00 : (![0, 0] : Fin 2 → Nat) = fun _ => 0 := funext fun a => by fin_cases a <;> rfl

/-- The run's pieces for the second output tile its block (one store of the whole block), so they cover it. -/
theorem cover6 (c : Dev nD) (i : grid0.Coords)
    (arg3 : Memref sig .tc .vmem S128x15 .f32) (harg3 : arg3.IsWhole) (arg4 : Memref sig .tc .vmem S15x1024 .f32) (harg4 : arg4.IsWhole)
    (arg5 : Memref sig .tc .vmem S128x1024 .f32) (harg5 : arg5.IsWhole) (arg6 : Memref sig .tc .vmem S128x1024 .f32) (harg6 : arg6.IsWhole)
    (x3 : Vec F S128x15 .f32) (x4 : Vec F S15x1024 .f32) (ft : BufOf (F := F) c tbM) (fw : BufOf (F := F) c wM)
    (hrow : ∀ j, (ft j).toNat < 32000) (qt : PosShare TreeShare) (y : S128x1024.Idx) :
    ∃ pc ∈ (kernelRun0 c i arg3 harg3 arg4 harg4 arg5 harg5 arg6 harg6 x3 x4 ft fw hrow qt).1, y ∈ pc.1.set :=
  View.cover_of_tiledL (kernelRun0 c i arg3 harg3 arg4 harg4 arg5 harg5 arg6 harg6 x3 x4 ft fw hrow qt).1 S128x1024.size (by sl_kernel_rfl) y

/-- Read back over any contents, the second output's buffer holds the product of the two input blocks. -/
theorem read6 (c : Dev nD) (i : grid0.Coords)
    (arg3 : Memref sig .tc .vmem S128x15 .f32) (harg3 : arg3.IsWhole) (arg4 : Memref sig .tc .vmem S15x1024 .f32) (harg4 : arg4.IsWhole)
    (arg5 : Memref sig .tc .vmem S128x1024 .f32) (harg5 : arg5.IsWhole) (arg6 : Memref sig .tc .vmem S128x1024 .f32) (harg6 : arg6.IsWhole)
    (x3 : Vec F S128x15 .f32) (x4 : Vec F S15x1024 .f32) (ft : BufOf (F := F) c tbM) (fw : BufOf (F := F) c wM)
    (hrow : ∀ j, (ft j).toNat < 32000) (qt : PosShare TreeShare) (f : BufOf (F := F) c arg6) :
    arg6.view.read (Elt F) (arg6.view.writes (Elt F) f (kernelRun0 c i arg3 harg3 arg4 harg4 arg5 harg5 arg6 harg6 x3 x4 ft fw hrow qt).1) = k0_pay1 x3 x4 := by
  rw [View.read_writes_eq_canon _ _ _ (cover6 c i arg3 harg3 arg4 harg4 arg5 harg5 arg6 harg6 x3 x4 ft fw hrow qt)]
  unfold kernelRun0
  dsimp only
  sl_unfold_words
  rw [View.canon_unit_zero (S := S128x1024) off00]
  simp only [View.readAt_eq_ld, harg3.read_unread, harg4.read_unread, View.ld_unit_zero (S := S128x15) off00, View.ld_unit_zero (S := S15x1024) off00]

end Cert.KernelIdeal.Hand

end
-- ==== Proof.KI.Dat0.lean ====
/-
  The first kernel call as a pipeline over its 32 grid points: its proof data and its body obligation.

  At point `t` the body reads the 128 id words `128·t + r` of the prefetched id table, copies for each the row
  of the embedding table (left in HBM) that the word names into row `r` of the third window's buffer, each copy
  on a cell of its own, and stores into the fourth window's buffer the product of the point's 128 × 15 block of
  bit codes with the 15 × 1024 bit table. Nothing is carried from point to point: the invariant is the same at
  every point (the 128 cells at zero, the embedding table and the id table held whole at their contents), and
  after every point the two output buffers hold the gathered rows and the product.
-/
import proofs.«430590_j46402826666034_2_alg».proof.Proof.KI.Defs0
import proofs.«430590_j46402826666034_2_alg».proof.Proof.KI.Read6
import proofs.«430590_j46402826666034_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : Vals F)

/-- The call's 128 cells are scoped, pairwise distinct, and none is a window's staging cell. -/
theorem ownSemFacts0 : Pipeline.OwnSemFacts spec0 osem0 := by decide
/-- The embedding table is unscoped, no window's array and no prefetched table. -/
theorem H0_sub : H0 ⊆ Pipeline.restRefsP sig pre0 spec0 := by decide

/-- The invariant between points: the scoped rest and the generator register, the 128 cells at zero, the embedding table whole in HBM,
    and the id table (whole share). -/
def Phi0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) (tbl V))

/-- Window `w`'s block at point `t`, read off its array as the region finds it. -/
def iblk0 (c : Dev nD) (w : Fin (cfg0 (adm0 V)).W) (t : Fin (cfg0 (adm0 V)).N) : (((cfg0 (adm0 V)).win w).xblock ((cfg0 (adm0 V)).grid.coords t)).Idx → Elt F ((cfg0 (adm0 V)).win w).elt :=
  (((cfg0 (adm0 V)).win w).blk t).view.read (Elt F) (V c (Pipeline.arrRef spec0 w))

theorem before0_0_of {c : Dev nD} (dat : Dat τ (Elt F) Unit ℕ (Pipeline.UD sig nD τ) ℕ (cfg0 (adm0 V)) c) (hA : dat.A 0 = V c (Pipeline.arrRef spec0 0))
    (hafter : ∀ t, dat.after 0 t = iblk0 V c 0 t) (t : Fin (cfg0 (adm0 V)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 (adm0 V)) c) (hA : dat.A 1 = V c (Pipeline.arrRef spec0 1))
    (hafter : ∀ t, dat.after 1 t = iblk0 V c 1 t) (t : Fin (cfg0 (adm0 V)).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The invariant, conjunct by conjunct -/

/-- The one operand left in HBM, held whole at the region-entry contents. -/
theorem hbmPts0_eq (c : Dev nD) :
    (bigSep H0 (fun b => ((c : Thread nD τ).loc b) ↦{fullShare} V c b) : sProp 𝕄) = iprop(ptAt c wM fullShare (V c main_arg2)) := by
  rw [BI.bigSep_eq_bigSepL_of_eq [main_arg2] (by decide) (by decide)]; rfl

/-- The id table, held whole at its contents. -/
theorem tblPt0_eq (c : Dev nD) :
    (Pipeline.prefHeld (Ix := Unit) (Name := ℕ) (U := Pipeline.UD sig nD τ) (Lvl := ℕ) pre0 c (fun _ => fullShare) (tbl V) : sProp 𝕄)
      = iprop(ptAt c tbM fullShare (tbl V 0)) := by
  unfold Pipeline.prefHeld
  rw [show (Finset.univ : Finset (Fin 1)) = {(0 : Fin 1)} from by decide, bigSep_singleton]
  rfl

/-- The invariant: the scoped rest at anything, the generator register at some state, the 128 cells at zero, the
    embedding table whole at its region-entry contents, the id table whole at its contents. -/
theorem Phi0_conj (c : Dev nD) :
    Phi0 V c = iprop(iprop(Pipeline.scopedRest (Ix := Unit) (Name := ℕ) (U := Pipeline.UD sig nD τ) (Lvl := ℕ) (Val := Elt F) spec0 c ∗ (∃ r, prngReg c r)
        ∗ Pipeline.ownSems0 (Ix := Unit) (Name := ℕ) (U := Pipeline.UD sig nD τ) (Lvl := ℕ) (Val := Elt F) (τ := τ) osem0 c
        ∗ ptAt c wM fullShare (V c main_arg2)) ∗ ptAt c tbM fullShare (tbl V 0)) := by
  unfold Phi0; rw [Pipeline.ΦD_eq, hbmPts0_eq, tblPt0_eq]

/-! ## The proof data -/

/-- The two input blocks at a point, at their literal types: 128 rows of 15 bit codes, and the whole 15-row bit table. -/
abbrev blkC (c : Dev nD) (t : Fin (cfg0 (adm0 V)).N) : Vec F S128x15 .f32 := iblk0 V c 0 t
abbrev blkB (c : Dev nD) (t : Fin (cfg0 (adm0 V)).N) : Vec F S15x1024 .f32 := iblk0 V c 1 t

/-- Each window's current staging memref at point `t`, and its wholeness. -/
abbrev ms0_0 (t : Fin (cfg0 (adm0 V)).N) : Memref sig .tc .vmem S128x15 .f32 := spec0_0.stage ((cfg0 (adm0 V)).slots t 0)
abbrev hs0_0 (t : Fin (cfg0 (adm0 V)).N) : (ms0_0 V t).IsWhole := hstage0_0 (((cfg0 (adm0 V)).slots t 0).cast nbuf0_0)
abbrev ms0_1 (t : Fin (cfg0 (adm0 V)).N) : Memref sig .tc .vmem S15x1024 .f32 := spec0_1.stage ((cfg0 (adm0 V)).slots t 1)
abbrev hs0_1 (t : Fin (cfg0 (adm0 V)).N) : (ms0_1 V t).IsWhole := hstage0_1 (((cfg0 (adm0 V)).slots t 1).cast nbuf0_1)
abbrev ms0_2 (t : Fin (cfg0 (adm0 V)).N) : Memref sig .tc .vmem S128x1024 .f32 := spec0_2.stage ((cfg0 (adm0 V)).slots t 2)
abbrev hs0_2 (t : Fin (cfg0 (adm0 V)).N) : (ms0_2 V t).IsWhole := hstage0_2 (((cfg0 (adm0 V)).slots t 2).cast nbuf0_2)
abbrev ms0_3 (t : Fin (cfg0 (adm0 V)).N) : Memref sig .tc .vmem S128x1024 .f32 := spec0_3.stage ((cfg0 (adm0 V)).slots t 3)
abbrev hs0_3 (t : Fin (cfg0 (adm0 V)).N) : (ms0_3 V t).IsWhole := hstage0_3 (((cfg0 (adm0 V)).slots t 3).cast nbuf0_3)

/-- The kernel body at point `t`, on what the pipeline calls it with. -/
abbrev bodyAt0 (t : Fin (cfg0 (adm0 V)).N) : Prog (TpuEff nD τ sig (Elt F) Λ₀ .tc) PUnit :=
  cc0__gather_bitemb_kernel (grid0.coords t) (Memref.whole main_v0) (Memref.isWhole_whole _) (Memref.whole main_arg2) (Memref.isWhole_whole _) (ms0_0 V t) (hs0_0 V t) (ms0_1 V t) (hs0_1 V t) (ms0_2 V t) (hs0_2 V t) (ms0_3 V t) (hs0_3 V t) cc0_scratch0

/-- The first call's proof data on core `c`: the arrays as the region finds them; after the body at point `t` each
    input's buffer at its block, the third window's at the 128 table rows the point's ids name, the fourth's at
    the product of the point's bit codes with the bit table; the invariant the same at every point; nothing owed;
    full shares. -/
def dat0 (hw : RowsOk V) (c : Dev nD) : Dat τ (Elt F) Unit ℕ (Pipeline.UD sig nD τ) ℕ (cfg0 (adm0 V)) c where
  A w := V c (Pipeline.arrRef spec0 w)
  after w t := match w with
    | ⟨0, _⟩ => iblk0 V c 0 t
    | ⟨1, _⟩ => iblk0 V c 1 t
    | ⟨2, _⟩ => gath0 c (grid0.coords t) (tbl V 0) (V c main_arg2) hw
    | ⟨3, _⟩ => k0_pay1 (blkC V c t) (blkB V c t)
  Φ _ := Phi0 V c
  q _ := fullShare
  owed _ := 0

theorem A_eq0 (hw : RowsOk V) (c : Dev nD) (w : Fin (cfg0 (adm0 V)).W) : (dat0 V hw c).A w = V c (Pipeline.arrRef spec0 w) := by
  dsimp only [dat0]
theorem Phi0_eq (hw : RowsOk V) (c : Dev nD) (t) : (dat0 V hw c).Φ t = Phi0 V c := rfl
theorem owed0 (hw : RowsOk V) (c : Dev nD) (t) : (dat0 V hw c).owed t = 0 := rfl
theorem recorded0 (hw : RowsOk V) (c : Dev nD) (t) : (dat0 V hw c).recorded t = Set.univ := rfl
theorem share0 (hw : RowsOk V) (c : Dev nD) (w) : (dat0 V hw c).q w = fullShare := rfl

theorem after0_0 (hw : RowsOk V) (c : Dev nD) (t : Fin (cfg0 (adm0 V)).N) : (dat0 V hw c).after 0 t = iblk0 V c 0 t := by dsimp only [dat0]; try rfl
theorem after0_1 (hw : RowsOk V) (c : Dev nD) (t : Fin (cfg0 (adm0 V)).N) : (dat0 V hw c).after 1 t = iblk0 V c 1 t := by dsimp only [dat0]; try rfl
/-- After every point the third window's buffer holds the table rows the point's 128 ids name. -/
theorem after0_2 (hw : RowsOk V) (c : Dev nD) (t : Fin (cfg0 (adm0 V)).N) : (dat0 V hw c).after 2 t = gath0 c (grid0.coords t) (tbl V 0) (V c main_arg2) hw := by dsimp only [dat0]; try rfl
/-- After every point the fourth window's buffer holds the product of the point's bit codes with the bit table. -/
theorem after0_3 (hw : RowsOk V) (c : Dev nD) (t : Fin (cfg0 (adm0 V)).N) : (dat0 V hw c).after 3 t = k0_pay1 (blkC V c t) (blkB V c t) := by dsimp only [dat0]; try rfl

theorem before0_0 (hw : RowsOk V) (c : Dev nD) (t : Fin (cfg0 (adm0 V)).N) (d) : (dat0 V hw c).before 0 t d = iblk0 V c 0 t :=
  before0_0_of V (dat0 V hw c) (A_eq0 V hw c 0) (after0_0 V hw c) t d
theorem before0_1 (hw : RowsOk V) (c : Dev nD) (t : Fin (cfg0 (adm0 V)).N) (d) : (dat0 V hw c).before 1 t d = iblk0 V c 1 t :=
  before0_1_of V (dat0 V hw c) (A_eq0 V hw c 1) (after0_1 V hw c) t d

/-! ## The body obligation -/

/-- What the body is called with at point `t`, -/
def bodyPre0 (hw : RowsOk V) (c : Dev nD) (t : Fin (cfg0 (adm0 V)).N) : sProp 𝕄 :=
  iprop((dat0 V hw c).Φ t.castSucc ∗ (dat0 V hw c).owesAt () t.castSucc
    ∗ (∃ d, owns (c : Thread nD τ) (ms0_0 V t) fullShare ((dat0 V hw c).before 0 t d))
    ∗ (∃ d, owns (c : Thread nD τ) (ms0_1 V t) fullShare ((dat0 V hw c).before 1 t d))
    ∗ (∃ d, owns (c : Thread nD τ) (ms0_2 V t) fullShare ((dat0 V hw c).before 2 t d))
    ∗ (∃ d, owns (c : Thread nD τ) (ms0_3 V t) fullShare ((dat0 V hw c).before 3 t d)))

/-- and what it returns. -/
def bodyPost0 (hw : RowsOk V) (c : Dev nD) (t : Fin (cfg0 (adm0 V)).N) : sProp 𝕄 :=
  iprop((dat0 V hw c).Φ t.succ ∗ (dat0 V hw c).owesAt () t.succ
    ∗ owns (c : Thread nD τ) (ms0_0 V t) fullShare ((dat0 V hw c).after 0 t)
    ∗ owns (c : Thread nD τ) (ms0_1 V t) fullShare ((dat0 V hw c).after 1 t)
    ∗ owns (c : Thread nD τ) (ms0_2 V t) fullShare ((dat0 V hw c).after 2 t)
    ∗ owns (c : Thread nD τ) (ms0_3 V t) fullShare ((dat0 V hw c).after 3 t))

/-- The body at any point: the inputs' buffers hold their blocks; the invariant hands the body the 128 cells at
    zero, the embedding table and the id table, and takes them back as they were; what the core has waited for
    is recorded and stays within the bound (everything). -/
theorem sound_body0 (hw : RowsOk V) (c : Dev nD) (t : Fin (cfg0 (adm0 V)).N) :
    bodyPre0 V hw c t ⊢ wp frame (wpE (defs₀ (F := F)) Variants.none c none) Set.univ (bodyAt0 V t) (fun _ => bodyPost0 V hw c t) := by
  unfold bodyPre0 bodyPost0 bodyAt0
  simp only [before0_0, before0_1]
  rw [show (dat0 V hw c).Φ t.succ = (dat0 V hw c).Φ t.castSucc from rfl,
    after0_0, after0_1, after0_2, after0_3]
  rw [show (dat0 V hw c).Φ t.castSucc = Phi0 V c from rfl, Phi0_conj]
  unfold Dat.owesAt Pipeline.owesWithin
  rw [show (dat0 V hw c).owed t.castSucc = 0 from rfl, show (dat0 V hw c).owed t.succ = 0 from rfl]
  iintro ⟨⟨⟨HR, Hg, Hq, Hh⟩, HT⟩, ⟨%W, -, HW⟩, ⟨%d0, H0⟩, ⟨%d1, H1⟩, ⟨%d2, H2⟩, ⟨%d3, H3⟩⟩
  iapply ((kernelRun0 c (grid0.coords t) _ _ _ _ _ _ _ _ (blkC V c t) (blkB V c t) (tbl V 0) (V c main_arg2) hw fullShare).2 W _)
  isplitl [H0]; · iexact H0
  isplitl [H1]; · iexact H1
  isplitl [H2]; · iexists _; iexact H2
  isplitl [H3]; · iexists _; iexact H3
  isplitl [HT]; · iexact HT
  isplitl [Hh]; · iexact Hh
  isplitl [Hq]; · iexact Hq
  isplitl [HW]; · iexact HW
  iintro ⟨H0, H1, H2, ⟨%e3, H3⟩, HT, Hh, Hq, ⟨%W', HW'⟩⟩
  isplitl [HR Hg Hq Hh HT]
  · isplitl [HR Hg Hq Hh]
    · isplitl [HR]; · iexact HR
      isplitl [Hg]; · iexact Hg
      isplitl [Hq]; · iexact Hq
      iexact Hh
    iexact HT
  isplitl [HW']
  · iexists W'; isplitr; · ipureintro; exact fun _ _ => Or.inl trivial
    iexact HW'
  isplitl [H0]; · iexact H0
  isplitl [H1]; · iexact H1
  isplitl [H2]; · iexact H2
  unfold owns; iexists _; isplitr
  swap; · iexact H3
  ipureintro; exact read6 c (grid0.coords t) _ _ _ _ _ _ _ _ (blkC V c t) (blkB V c t) (tbl V 0) (V c main_arg2) hw fullShare _

/-- The pipeline's call of the body at point `t` is that program. -/
theorem bodyAt0_eq (t : Fin (cfg0 (adm0 V)).N) :
    (defs₀ (F := F)) .tc (cfg0 (adm0 V)).body ((cfg0 (adm0 V)).bodyArgs t ((cfg0 (adm0 V)).slots t)) = bodyAt0 V t := by
  unfold defs₀
  rw [Defs.onTc_tc]

/-- The body obligation, at every point. -/
theorem body_obligation0 (hw : RowsOk V) (c : Dev nD) :
    BodyObligation (dat0 (F := F) V hw c) (defs₀ (F := F)) Variants.none () Set.univ := fun t => by
  rw [bigSep_W0, bigSep_W0, bodyAt0_eq V t]
  have key := sound_body0 V hw c t
  generalize bodyAt0 V t = P at key ⊢
  exact key

end Cert.KernelIdeal.Hand

end
-- ==== Proof.KI.Run1.lean ====
/-
  The body of the second kernel call at one grid point `(i 0, i 1)` of its `2 × 125` grid: one step of a
  running softmax along the second axis. With `X` the row block `[2048,1024]`, `W` the column block
  `[256,1024]` and `(m, l, a)` the carried row maximum `[2048,1]`, row sum `[2048,1]` and weighted
  accumulator `[2048,15]`, a step computes the logits `S = X · Wᵀ`, the new maximum `m' = max m (rowmax S)`,
  the rescaling `α = exp (m - m')`, the weights `P = exp (S - m')`, and leaves `l' = α · l + rowsum P`,
  `a' = α · a + P · B` (`B` the `[256,15]` table of signs built from the column numbers) and `m'`.
  Three control cases: at `i 1 = 0` the carried values are first reset to `(-∞, 0, 0)`; at `i 1 = 124` the
  quotient `a' / l'` is also written to the fourth window; in between neither happens.

  For each case this module states what the body leaves in every buffer it holds, as lists of written
  rectangles with their values, together with the proof that the body runs from the stated holdings to
  the stated holdings. Everything is generic in the float interpretation `F`.
-/
import proofs.«430590_j46402826666034_2_alg».proof.Proof.Gen.KernelIdeal.Launch
import proofs.«430590_j46402826666034_2_alg».proof.Proof.Gen.KernelIdeal.Skeleton
import proofs.«430590_j46402826666034_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The first conditional's test (the reset of the three carried buffers), over the second grid coordinate. -/
abbrev condReset (i : grid1.Coords) : Prop :=
  (Scalar.cmpi .ne (Scalar.extui (Scalar.cmpi .eq (BitVec.ofNat 32 (i 1).val) 0#32)) 0#32) = 1#1
/-- The second conditional's test (the final normalisation), over the second grid coordinate. -/
abbrev condLast (i : grid1.Coords) : Prop := k1_cond2 i = 1#1

theorem condReset_iff (i : grid1.Coords) : condReset i ↔ (i 1).val = 0 :=
  (by decide +kernel : ∀ j : Fin 125,
    ((Scalar.cmpi .ne (Scalar.extui (Scalar.cmpi .eq (BitVec.ofNat 32 j.val) 0#32)) 0#32) = 1#1) ↔ j.val = 0) (i 1)

theorem condLast_iff (i : grid1.Coords) : condLast i ↔ (i 1).val = 124 :=
  (by decide +kernel : ∀ j : Fin 125,
    ((Scalar.cmpi .ne (Scalar.extui (Scalar.cmpi .eq (BitVec.ofNat 32 j.val) 124#32)) 0#32) = 1#1) ↔ j.val = 124) (i 1)

/-- The three buffers the kernel carries from one grid point to the next along the second axis: the running
    row maximum, the running row sum of exponentials, and the running weighted accumulator. -/
abbrev scMax : Memref sig .tc .vmem S2048x1 .f32 := Memref.whole cc1_scratch0
abbrev scSum : Memref sig .tc .vmem S2048x1 .f32 := Memref.whole cc1_scratch1
abbrev scAcc : Memref sig .tc .vmem S2048x15 .f32 := Memref.whole cc1_scratch2

set_option maxHeartbeats 1000000 in
/-- The body at the first point of the second axis: the three carried buffers, whatever they held, are first
    reset (maximum to `-∞`, sum and accumulator to `0`) and then updated from the reset values; the logits block
    is stored into the third window; the fourth window is not touched (`d5` is handed back). -/
noncomputable def kernelRun1_A (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole)
    (x2 : Vec F S2048x1024 .f32) (x3 : Vec F S256x1024 .bf16) :
    Σ' (L4 : List (View.Piece (Elt F) S2048x256 .f32)) (LM : List (View.Piece (Elt F) S2048x1 .f32)) (LS : List (View.Piece (Elt F) S2048x1 .f32)), { LA : List (View.Piece (Elt F) S2048x15 .f32) //
      ∀ (d5 : Vec F S2048x15 .f32) (E : Set ℕ) (K : PUnit → sProp 𝕄),
        iprop(owns (c : Thread nD τ) arg2 fullShare x2 ∗ owns (c : Thread nD τ) arg3 fullShare x3 ∗ (∃ d, owns (c : Thread nD τ) arg4 fullShare d) ∗ owns (c : Thread nD τ) arg5 fullShare d5
            ∗ (∃ d, owns (c : Thread nD τ) scMax fullShare d) ∗ (∃ d, owns (c : Thread nD τ) scSum fullShare d) ∗ (∃ d, owns (c : Thread nD τ) scAcc fullShare d)
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare d5
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E (cc1__main_kernel i arg2 harg2 arg3 harg3 arg4 harg4 arg5 harg5 (Memref.whole cc1_scratch0) (Memref.isWhole_whole _) (Memref.whole cc1_scratch1) (Memref.isWhole_whole _) (Memref.whole cc1_scratch2) (Memref.isWhole_whole _)) K } := by
  have hc0 : condReset i := (condReset_iff i).mpr hi
  have hc1 : ¬condLast i := fun h => absurd ((condLast_iff i).mp h) (by omega)
  refine ⟨?_, ?_, ?_, ?_, fun d5 E K => ?run⟩
  case run =>
    simp only [cc1__main_kernel_eq_skeleton]; unfold cc1__main_kernel_skel
    simp only [k1_part1_eq_skeleton]
    unfold owns
    iintro ⟨⟨%f2, %hf2, H2⟩, ⟨%f3, %hf3, H3⟩, ⟨%d4, %f4, -, H4⟩, ⟨%f5, %hf5, H5⟩, ⟨%dm, %fm, -, HM⟩, ⟨%ds, %fs, -, HS⟩, ⟨%da, %fa, -, HA⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [HM]; · iexists _; iexact HM
    isplitl [HS]; · iexists _; iexact HS
    iexists _; iexact HA

set_option maxHeartbeats 1000000 in
/-- The body at an interior point of the second axis (neither the first nor the last block of columns): the
    logits block is stored into the third window; the running maximum, the running sum and the accumulator,
    entered at `sm`, `sl`, `sa`, are each overwritten once; the fourth window is not touched (whatever it
    holds, `d5`, is handed back). Each list gives, for one buffer, the rectangles written and the values
    written there, the last write first. -/
noncomputable def kernelRun1_B (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole)
    (x2 : Vec F S2048x1024 .f32) (x3 : Vec F S256x1024 .bf16) (sm : Vec F S2048x1 .f32) (sl : Vec F S2048x1 .f32) (sa : Vec F S2048x15 .f32) :
    Σ' (L4 : List (View.Piece (Elt F) S2048x256 .f32)) (LM : List (View.Piece (Elt F) S2048x1 .f32)) (LS : List (View.Piece (Elt F) S2048x1 .f32)), { LA : List (View.Piece (Elt F) S2048x15 .f32) //
      ∀ (d5 : Vec F S2048x15 .f32) (E : Set ℕ) (K : PUnit → sProp 𝕄),
        iprop(owns (c : Thread nD τ) arg2 fullShare x2 ∗ owns (c : Thread nD τ) arg3 fullShare x3 ∗ (∃ d, owns (c : Thread nD τ) arg4 fullShare d) ∗ owns (c : Thread nD τ) arg5 fullShare d5
            ∗ owns (c : Thread nD τ) scMax fullShare sm ∗ owns (c : Thread nD τ) scSum fullShare sl ∗ owns (c : Thread nD τ) scAcc fullShare sa
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare d5
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E (cc1__main_kernel i arg2 harg2 arg3 harg3 arg4 harg4 arg5 harg5 (Memref.whole cc1_scratch0) (Memref.isWhole_whole _) (Memref.whole cc1_scratch1) (Memref.isWhole_whole _) (Memref.whole cc1_scratch2) (Memref.isWhole_whole _)) K } := by
  have hc0 : ¬condReset i := fun h => absurd ((condReset_iff i).mp h) (by omega)
  have hc1 : ¬condLast i := fun h => absurd ((condLast_iff i).mp h) (by omega)
  refine ⟨?_, ?_, ?_, ?_, fun d5 E K => ?run⟩
  case run =>
    simp only [cc1__main_kernel_eq_skeleton]; unfold cc1__main_kernel_skel
    simp only [k1_part1_eq_skeleton]
    unfold owns
    iintro ⟨⟨%f2, %hf2, H2⟩, ⟨%f3, %hf3, H3⟩, ⟨%d4, %f4, -, H4⟩, ⟨%f5, %hf5, H5⟩, ⟨%fm, %hfm, HM⟩, ⟨%fs, %hfs, HS⟩, ⟨%fa, %hfa, HA⟩, Hk⟩
    obtain rfl := harg2.eq_unread hf2; obtain rfl := harg3.eq_unread hf3; obtain rfl := harg5.eq_unread hf5
    obtain rfl := (Memref.isWhole_whole cc1_scratch0).eq_unread hfm
    obtain rfl := (Memref.isWhole_whole cc1_scratch1).eq_unread hfs
    obtain rfl := (Memref.isWhole_whole cc1_scratch2).eq_unread hfa
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [HM]; · iexists _; iexact HM
    isplitl [HS]; · iexists _; iexact HS
    iexists _; iexact HA

set_option maxHeartbeats 1000000 in
/-- The body at the last point of the second axis: as at an interior point, and in addition the quotient of the
    updated accumulator by the updated sum is stored into the fourth window (whatever it held before). -/
noncomputable def kernelRun1_C (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole)
    (x2 : Vec F S2048x1024 .f32) (x3 : Vec F S256x1024 .bf16) (sm : Vec F S2048x1 .f32) (sl : Vec F S2048x1 .f32) (sa : Vec F S2048x15 .f32) :
    Σ' (L4 : List (View.Piece (Elt F) S2048x256 .f32)) (LM : List (View.Piece (Elt F) S2048x1 .f32)) (LS : List (View.Piece (Elt F) S2048x1 .f32)) (L5 : List (View.Piece (Elt F) S2048x15 .f32)), { LA : List (View.Piece (Elt F) S2048x15 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d) ∗ (∃ d, owns (c : Thread nD τ) arg5 fullShare d)
            ∗ owns (c : Thread nD τ) scMax fullShare sm ∗ owns (c : Thread nD τ) scSum fullShare sl ∗ owns (c : Thread nD τ) scAcc fullShare sa
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, scMax.view.loc (c : Thread nD τ) ↦[scMax.view.set]{fullShare} scMax.view.writes (Elt F) f LM)
                ∗ (∃ f, scSum.view.loc (c : Thread nD τ) ↦[scSum.view.set]{fullShare} scSum.view.writes (Elt F) f LS)
                ∗ (∃ f, scAcc.view.loc (c : Thread nD τ) ↦[scAcc.view.set]{fullShare} scAcc.view.writes (Elt F) f LA)) -∗ K ⟨⟩))
          ⊢ wp frame (wpE (defs₀ (F := F)) Variants.none c none) E (cc1__main_kernel i arg2 harg2 arg3 harg3 arg4 harg4 arg5 harg5 (Memref.whole cc1_scratch0) (Memref.isWhole_whole _) (Memref.whole cc1_scratch1) (Memref.isWhole_whole _) (Memref.whole cc1_scratch2) (Memref.isWhole_whole _)) K } := by
  have hc0 : ¬condReset i := fun h => absurd ((condReset_iff i).mp h) (by omega)
  have hc1 : condLast i := (condLast_iff i).mpr hi
  refine ⟨?_, ?_, ?_, ?_, ?_, fun E K => ?run⟩
  case run =>
    simp only [cc1__main_kernel_eq_skeleton]; unfold cc1__main_kernel_skel
    simp only [k1_part1_eq_skeleton]
    unfold owns
    iintro ⟨⟨%f2, %hf2, H2⟩, ⟨%f3, %hf3, H3⟩, ⟨%d4, %f4, -, H4⟩, ⟨%d5, %f5, -, H5⟩, ⟨%fm, %hfm, HM⟩, ⟨%fs, %hfs, HS⟩, ⟨%fa, %hfa, HA⟩, Hk⟩
    obtain rfl := harg2.eq_unread hf2; obtain rfl := harg3.eq_unread hf3
    obtain rfl := (Memref.isWhole_whole cc1_scratch0).eq_unread hfm
    obtain rfl := (Memref.isWhole_whole cc1_scratch1).eq_unread hfs
    obtain rfl := (Memref.isWhole_whole cc1_scratch2).eq_unread hfa
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [HM]; · iexists _; iexact HM
    isplitl [HS]; · iexists _; iexact HS
    iexists _; iexact HA

end Cert.KernelIdeal.Hand

end
-- ==== Proof.KI.Run1Read.lean ====
/-
  What each control case of the second kernel call's body leaves in the buffers it writes, as values: the written
  rectangles of every buffer cover it, and reading them back gives, whatever the buffer held and through whatever
  view of its shape it is read,

    * the third window: the logits block of the two input blocks;
    * the running maximum, the running sum and the accumulator: one step (`newMax`, `newSum`, `newAcc`) from the
      values carried in (from `-∞`, `0`, `0` at the first point of a row of the grid);
    * at the last point of a row, the fourth window: the quotient of the new accumulator by the new sum.

  Each is the last write to its buffer, made through the whole-shape rectangle; a value loaded after a store of the
  same body is that store's value.
-/
import proofs.«430590_j46402826666034_2_alg».proof.Proof.KI.Run1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-! ## One step of the running softmax, as functions of the two blocks and the carried values -/

theorem zeroOff : (![0, 0] : Fin 2 → Nat) = fun _ => 0 := funext fun a => by fin_cases a <;> rfl

/-- The new running maximum: the old one against the row maxima of the logits block. -/
def newMax (x2 : Vec F S2048x1024 .f32) (x3 : Vec F S256x1024 .bf16) (m : Vec F S2048x1 .f32) : Vec F S2048x1 .f32 :=
  k1_pay3 (k1_pay10 x2 x3 m)
/-- The new running sum: the old one rescaled by `exp (m - m')`, plus the row sums of `exp (logits - m')`. -/
def newSum (x2 : Vec F S2048x1024 .f32) (x3 : Vec F S256x1024 .bf16) (m l : Vec F S2048x1 .f32) : Vec F S2048x1 .f32 :=
  k1_pay1 (k1_pay11 x2 x3 m m) (k1_pay12 x2 x3 m) l
/-- The new accumulator: the old one rescaled by `exp (m - m')`, plus `exp (logits - m')` against the sign table of
    the block's column numbers. -/
def newAcc (i : grid1.Coords) (x2 : Vec F S2048x1024 .f32) (x3 : Vec F S256x1024 .bf16) (m : Vec F S2048x1 .f32) (a : Vec F S2048x15 .f32) : Vec F S2048x15 .f32 :=
  k1_pay2 (k1_pay9 i) (k1_pay11 x2 x3 m m) (k1_pay12 x2 x3 m) a

/-! ## The interior points -/

theorem kernelRun1_B_logits {sig' : RefSig} {κ' : Kind} {sp' : Space} (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x256 .f32) (f : v.ty.Contents (Elt F)) :
    v.read (Elt F) (v.writes (Elt F) f (kernelRun1_B c i hi arg2 harg2 arg3 harg3 arg4 harg4 arg5 harg5 x2 x3 sm sl sa).1) = k1_pay8 x2 x3 := by
  rw [View.read_writes_eq_canon _ _ _ (fun y => View.cover_of_tiledL _ S2048x256.size (by sl_kernel_rfl) y)]
  unfold kernelRun1_B; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_B_max {sig' : RefSig} {κ' : Kind} {sp' : Space} (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x1 .f32) (f : v.ty.Contents (Elt F)) :
    v.read (Elt F) (v.writes (Elt F) f (kernelRun1_B c i hi arg2 harg2 arg3 harg3 arg4 harg4 arg5 harg5 x2 x3 sm sl sa).2.1) = newMax x2 x3 sm := by
  rw [View.read_writes_eq_canon _ _ _ (fun y => View.cover_of_tiledL _ S2048x1.size (by sl_kernel_rfl) y)]
  unfold kernelRun1_B; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_B_sum {sig' : RefSig} {κ' : Kind} {sp' : Space} (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x1 .f32) (f : v.ty.Contents (Elt F)) :
    v.read (Elt F) (v.writes (Elt F) f (kernelRun1_B c i hi arg2 harg2 arg3 harg3 arg4 harg4 arg5 harg5 x2 x3 sm sl sa).2.2.1) = newSum x2 x3 sm sl := by
  rw [View.read_writes_eq_canon _ _ _ (fun y => View.cover_of_tiledL _ S2048x1.size (by sl_kernel_rfl) y)]
  unfold kernelRun1_B; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_B_acc {sig' : RefSig} {κ' : Kind} {sp' : Space} (c : Dev nD) (i : grid1.Coords) (hi : 0 < (i 1).val ∧ (i 1).val < 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x15 .f32) (f : v.ty.Contents (Elt F)) :
    v.read (Elt F) (v.writes (Elt F) f (kernelRun1_B c i hi arg2 harg2 arg3 harg3 arg4 harg4 arg5 harg5 x2 x3 sm sl sa).2.2.2.1) = newAcc i x2 x3 sm sa := by
  rw [View.read_writes_eq_canon _ _ _ (fun y => View.cover_of_tiledL _ S2048x15.size (by sl_kernel_rfl) y)]
  unfold kernelRun1_B; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

/-! ## The first point of a row of the grid -/

theorem kernelRun1_A_logits {sig' : RefSig} {κ' : Kind} {sp' : Space} (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (v : View sig' κ' sp' S2048x256 .f32) (f : v.ty.Contents (Elt F)) :
    v.read (Elt F) (v.writes (Elt F) f (kernelRun1_A c i hi arg2 harg2 arg3 harg3 arg4 harg4 arg5 harg5 x2 x3).1) = k1_pay8 x2 x3 := by
  rw [View.read_writes_eq_canon _ _ _ (fun y => View.cover_of_tiledL _ S2048x256.size (by sl_kernel_rfl) y)]
  unfold kernelRun1_A; dsimp only; sl_unfold_words
  rw [View.canon_unit_zero zeroOff]
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff]

theorem kernelRun1_A_max {sig' : RefSig} {κ' : Kind} {sp' : Space} (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (v : View sig' κ' sp' S2048x1 .f32) (f : v.ty.Contents (Elt F)) :
    v.read (Elt F) (v.writes (Elt F) f (kernelRun1_A c i hi arg2 harg2 arg3 harg3 arg4 harg4 arg5 harg5 x2 x3).2.1) = newMax x2 x3 k1_pay5 := by
  rw [View.read_writes_eq_canon _ _ _ (fun y => View.cover_of_tiledL _ S2048x1.size (by sl_kernel_rfl) y)]
  unfold kernelRun1_A; dsimp only; sl_unfold_words
  rw [View.canon_cons_unit_zero (S := S2048x1) zeroOff]
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff]

theorem kernelRun1_A_sum {sig' : RefSig} {κ' : Kind} {sp' : Space} (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (v : View sig' κ' sp' S2048x1 .f32) (f : v.ty.Contents (Elt F)) :
    v.read (Elt F) (v.writes (Elt F) f (kernelRun1_A c i hi arg2 harg2 arg3 harg3 arg4 harg4 arg5 harg5 x2 x3).2.2.1) = newSum x2 x3 k1_pay5 k1_pay6 := by
  rw [View.read_writes_eq_canon _ _ _ (fun y => View.cover_of_tiledL _ S2048x1.size (by sl_kernel_rfl) y)]
  unfold kernelRun1_A; dsimp only; sl_unfold_words
  rw [View.canon_cons_unit_zero (S := S2048x1) zeroOff]
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff]

theorem kernelRun1_A_acc {sig' : RefSig} {κ' : Kind} {sp' : Space} (c : Dev nD) (i : grid1.Coords) (hi : (i 1).val = 0) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (v : View sig' κ' sp' S2048x15 .f32) (f : v.ty.Contents (Elt F)) :
    v.read (Elt F) (v.writes (Elt F) f (kernelRun1_A c i hi arg2 harg2 arg3 harg3 arg4 harg4 arg5 harg5 x2 x3).2.2.2.1) = newAcc i x2 x3 k1_pay5 k1_pay7 := by
  rw [View.read_writes_eq_canon _ _ _ (fun y => View.cover_of_tiledL _ S2048x15.size (by sl_kernel_rfl) y)]
  unfold kernelRun1_A; dsimp only; sl_unfold_words
  rw [View.canon_cons_unit_zero (S := S2048x15) zeroOff]
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff]

/-! ## The last point of a row of the grid -/

theorem kernelRun1_C_logits {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x256 .f32) (f : v.ty.Contents (Elt F)) :
    v.read (Elt F) (v.writes (Elt F) f (kernelRun1_C c i hi arg2 harg2 arg3 harg3 arg4 harg4 arg5 harg5 x2 x3 sm sl sa).1) = k1_pay8 x2 x3 := by
  rw [View.read_writes_eq_canon _ _ _ (fun y => View.cover_of_tiledL _ S2048x256.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_C_max {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x1 .f32) (f : v.ty.Contents (Elt F)) :
    v.read (Elt F) (v.writes (Elt F) f (kernelRun1_C c i hi arg2 harg2 arg3 harg3 arg4 harg4 arg5 harg5 x2 x3 sm sl sa).2.1) = newMax x2 x3 sm := by
  rw [View.read_writes_eq_canon _ _ _ (fun y => View.cover_of_tiledL _ S2048x1.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_C_sum {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x1 .f32) (f : v.ty.Contents (Elt F)) :
    v.read (Elt F) (v.writes (Elt F) f (kernelRun1_C c i hi arg2 harg2 arg3 harg3 arg4 harg4 arg5 harg5 x2 x3 sm sl sa).2.2.1) = newSum x2 x3 sm sl := by
  rw [View.read_writes_eq_canon _ _ _ (fun y => View.cover_of_tiledL _ S2048x1.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_C_out {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x15 .f32) (f : v.ty.Contents (Elt F)) :
    v.read (Elt F) (v.writes (Elt F) f (kernelRun1_C c i hi arg2 harg2 arg3 harg3 arg4 harg4 arg5 harg5 x2 x3 sm sl sa).2.2.2.1) = k1_pay4 (newAcc i x2 x3 sm sa) (newSum x2 x3 sm sl) := by
  rw [View.read_writes_eq_canon _ _ _ (fun y => View.cover_of_tiledL _ S2048x15.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

theorem kernelRun1_C_acc {sig' : RefSig} {κ' : Kind} {sp' : Space} (c : Dev nD) (i : grid1.Coords) (hi : (i 1).val = 124) (arg2 : Memref sig .tc .vmem S2048x1024 .f32) (harg2 : arg2.IsWhole) (arg3 : Memref sig .tc .vmem S256x1024 .bf16) (harg3 : arg3.IsWhole) (arg4 : Memref sig .tc .vmem S2048x256 .f32) (harg4 : arg4.IsWhole) (arg5 : Memref sig .tc .vmem S2048x15 .f32) (harg5 : arg5.IsWhole) (x2 : Vec F S2048x1024 .f32) (x3 : Vec F S256x1024 .bf16) (sm : Vec F S2048x1 .f32) (sl : Vec F S2048x1 .f32) (sa : Vec F S2048x15 .f32) (v : View sig' κ' sp' S2048x15 .f32) (f : v.ty.Contents (Elt F)) :
    v.read (Elt F) (v.writes (Elt F) f (kernelRun1_C c i hi arg2 harg2 arg3 harg3 arg4 harg4 arg5 harg5 x2 x3 sm sl sa).2.2.2.2.1) = newAcc i x2 x3 sm sa := by
  rw [View.read_writes_eq_canon _ _ _ (fun y => View.cover_of_tiledL _ S2048x15.size (by sl_kernel_rfl) y)]
  unfold kernelRun1_C; dsimp only; sl_unfold_words
  rw [View.canon_unit_zero zeroOff]
  have eM : (Memref.whole cc1_scratch0 : Memref sig .tc .vmem S2048x1 .f32).view.read (Elt F) ((Memref.isWhole_whole cc1_scratch0).unread sm) = sm := (Memref.isWhole_whole cc1_scratch0).read_unread (Val := Elt F) sm
  have eS : (Memref.whole cc1_scratch1 : Memref sig .tc .vmem S2048x1 .f32).view.read (Elt F) ((Memref.isWhole_whole cc1_scratch1).unread sl) = sl := (Memref.isWhole_whole cc1_scratch1).read_unread (Val := Elt F) sl
  have eA : (Memref.whole cc1_scratch2 : Memref sig .tc .vmem S2048x15 .f32).view.read (Elt F) ((Memref.isWhole_whole cc1_scratch2).unread sa) = sa := (Memref.isWhole_whole cc1_scratch2).read_unread (Val := Elt F) sa
  simp only [Memref.view_whole] at eM eS eA
  simp only [newMax, newSum, newAcc, View.readAt_eq_ld, harg2.read_unread, harg3.read_unread, View.ld_unit_zero (S := S2048x1024) zeroOff, View.ld_unit_zero (S := S256x1024) zeroOff, View.ld_unit_zero (S := S2048x1) zeroOff, View.ld_unit_zero (S := S2048x15) zeroOff, View.readCov_unit_zero (S := S2048x1) _ zeroOff, View.readCov_unit_zero (S := S2048x15) _ zeroOff, eM, eS, eA]

end Cert.KernelIdeal.Hand

end
-- ==== Proof.KI.Dat1.lean ====
/-
  The second kernel call as a pipeline over its `2 × 125` grid (250 points, the second coordinate the point's
  number modulo 125): its proof data and its body obligation.

  Along a row of the grid the body carries three buffers: the running row maximum, the running row sum of
  exponentials and the running weighted accumulator. `carried` is their value after each point, by recursion on
  the point: a step (`newMax`, `newSum`, `newAcc` of the point's two input blocks) from `(-∞, 0, 0)` at the first
  point of a row, from what the point before left elsewhere. The invariant before a point holds the three buffers
  at `carried` of the point before (at anything before the very first point). After every point the third window's
  buffer holds the point's logits block; the fourth window is stored into, and written back, only at the last
  point of a row, where it holds the quotient of the carried accumulator by the carried sum; at the other points
  its buffer is handed back as found.
-/
import proofs.«430590_j46402826666034_2_alg».proof.Proof.KI.Defs0
import proofs.«430590_j46402826666034_2_alg».proof.Proof.KI.Run1Read
import proofs.«430590_j46402826666034_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : Vals F)

/-! ## The grid: 250 points, the second coordinate the point's number modulo 125 -/

theorem coord1 : ∀ t : Fin cfg1.N, ((grid1.coords t) 1).val = t.val % 125 :=
  (by decide +kernel : ∀ t : Fin grid1.N, ((grid1.coords t) 1).val = t.val % 125)
/-- The fourth window is stored into only at the last point of each row of the grid; elsewhere it is idle and not written back. -/
theorem idleAt1_3 : ∀ t : Fin cfg1.N, ¬t.val % 125 = 124 → cfg1.idle 3 (grid1.coords t) = true :=
  (by decide +kernel : ∀ t : Fin grid1.N, ¬t.val % 125 = 124 → idle1 3 (grid1.coords t) = true)
theorem liveAt1_3 : ∀ t : Fin cfg1.N, t.val % 125 = 124 → cfg1.idle 3 (grid1.coords t) = false :=
  (by decide +kernel : ∀ t : Fin grid1.N, t.val % 125 = 124 → idle1 3 (grid1.coords t) = false)
theorem noFlush1_3 (t : Fin cfg1.N) (h : ¬t.val % 125 = 124) : (cfg1.win 3).flush t = false := by
  cases hf : (cfg1.win 3).flush t
  · rfl
  · exact absurd ((flush1_3 t).mp hf) h

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is
    not fetched its block index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two input blocks at a point, at their literal types: 2048 rows of 1024 features, and the 256 table rows
    of the point's block of columns. -/
abbrev blkX (c : Dev nD) (t : Fin cfg1.N) : Vec F S2048x1024 .f32 := iblk1 V c 0 t
abbrev blkW (c : Dev nD) (t : Fin cfg1.N) : Vec F S256x1024 .bf16 := iblk1 V c 1 t

/-- Each window's current staging memref at point `t`, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x15 .f32 := win1_3.stage (cfg1.slots t 3)
abbrev hs1_3 (t : Fin cfg1.N) : (ms1_3 t).IsWhole := hstage1_3 ((cfg1.slots t 3).cast nbuf1_3)

/-! ## The carried values after each point -/

/-- The running maximum, the running sum and the accumulator. -/
abbrev Carried (F : FTy → Type) [FloatOps F] : Type := Vec F S2048x1 .f32 × Vec F S2048x1 .f32 × Vec F S2048x15 .f32

/-- What the first point of a row of the grid starts from: `-∞`, `0`, `0`. -/
def resetVals : Carried F := (k1_pay5, k1_pay6, k1_pay7)

/-- One step at point `t` from the carried values `p`. -/
def stepAt (c : Dev nD) (t : Fin cfg1.N) (p : Carried F) : Carried F :=
  (newMax (blkX V c t) (blkW V c t) p.1, newSum (blkX V c t) (blkW V c t) p.1 p.2.1, newAcc (grid1.coords t) (blkX V c t) (blkW V c t) p.1 p.2.2)

/-- The carried values after point `n`: a step from the reset values at the first point of a row of the grid,
    from what the point before left elsewhere. -/
def carried (c : Dev nD) : (n : ℕ) → n < cfg1.N → Carried F
  | 0, hn => stepAt V c ⟨0, hn⟩ resetVals
  | n + 1, hn => stepAt V c ⟨n + 1, hn⟩ (if (n + 1) % 125 = 0 then resetVals else carried c n (Nat.lt_of_succ_lt hn))

theorem carried_first (c : Dev nD) (t : Fin cfg1.N) (h : t.val % 125 = 0) :
    carried V c t.val t.isLt = stepAt V c t resetVals := by
  obtain ⟨n, hn⟩ := t
  cases n with
  | zero => rfl
  | succ n => show stepAt V c _ (if (n + 1) % 125 = 0 then _ else _) = _; rw [if_pos h]

theorem carried_next (c : Dev nD) (t : Fin cfg1.N) (h : ¬t.val % 125 = 0) :
    carried V c t.val t.isLt = stepAt V c t (carried V c (t.val - 1) (Nat.lt_of_le_of_lt (Nat.sub_le _ _) t.isLt)) := by
  obtain ⟨n, hn⟩ := t
  cases n with
  | zero => exact absurd (Nat.zero_mod _) h
  | succ n => show stepAt V c _ (if (n + 1) % 125 = 0 then _ else _) = _; rw [if_neg h]; rfl

/-! ## The invariant -/

/-- The class invariant with the three carried buffers owned at some contents each. -/
theorem PhiA1_eq (c : Dev nD) :
    (Pipeline.ΦA (U := Pipeline.UD sig nD τ) spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest1_eq]; simp only [scMax, scSum, scAcc, owns_whole]; try rfl

/-- Before position `n`: at the very first point the class invariant (the carried buffers at anything); afterwards
    the carried buffers hold what the point before left. -/
def PhiS (c : Dev nD) : (n : ℕ) → n ≤ cfg1.N → sProp 𝕄
  | 0, _ => Pipeline.ΦA (U := Pipeline.UD sig nD τ) spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (carried V c n hn).1 ∗ owns (c : Thread nD τ) scSum fullShare (carried V c n hn).2.1 ∗ owns (c : Thread nD τ) scAcc fullShare (carried V c n hn).2.2) ∗ (∃ r, prngReg c r))

theorem PhiS_zero (c : Dev nD) (n : ℕ) (h : n ≤ cfg1.N) (hz : n = 0) : PhiS V c n h = Pipeline.ΦA (U := Pipeline.UD sig nD τ) spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (carried V c n hn).1 ∗ owns (c : Thread nD τ) scSum fullShare (carried V c n hn).2.1 ∗ owns (c : Thread nD τ) scAcc fullShare (carried V c n hn).2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (carried V c (n - 1) (by omega)).1 ∗ owns (c : Thread nD τ) scSum fullShare (carried V c (n - 1) (by omega)).2.1 ∗ owns (c : Thread nD τ) scAcc fullShare (carried V c (n - 1) (by omega)).2.2) ∗ (∃ r, prngReg c r)) := by
  cases n with
  | zero => exact absurd rfl hz
  | succ n => rfl

/-! ## The proof data -/

/-- The second call's proof data on core `c`: the arrays as the region finds them; after the body at point `t`
    each input's buffer at its block, the third window's at the logits block, the fourth's at the quotient of
    the carried accumulator by the carried sum (consulted only where the window is written back: the last
    point of each row of the grid); nothing owed; full shares. -/
def dat1 (V : Vals F) (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => k1_pay8 (blkX V c t) (blkW V c t)
    | ⟨3, _⟩ => k1_pay4 (carried V c t.val t.isLt).2.2 (carried V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed1 (c : Dev nD) (t) : (dat1 V c).owed t = 0 := rfl
theorem share1 (c : Dev nD) (w) : (dat1 V c).q w = fullShare := rfl
theorem recorded1 (c : Dev nD) (t) : (dat1 V c).recorded t = Set.univ := rfl

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
/-- After every point the third window's buffer holds the point's logits block. -/
theorem after1_2 (c : Dev nD) (t : Fin cfg1.N) : (dat1 V c).after 2 t = k1_pay8 (blkX V c t) (blkW V c t) := by dsimp only [dat1]
/-- After a point the fourth window's buffer is described as the quotient of the carried accumulator by the carried sum. -/
theorem after1_3 (c : Dev nD) (t : Fin cfg1.N) : (dat1 V c).after 3 t = k1_pay4 (carried V c t.val t.isLt).2.2 (carried V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_first (c : Dev nD) : (Pipeline.ΦA (U := Pipeline.UD sig nD τ) spec1 c : sProp 𝕄) ⊢ (dat1 V c).Φ 0 := by
  rw [show (dat1 V c).Φ 0 = PhiS V c 0 (Nat.zero_le _) from rfl, PhiS_zero V c 0 _ rfl]
  try exact Idealize.SL.BI.Entails.refl _

theorem Phi1_last (c : Dev nD) : (dat1 V c).Φ (Fin.last cfg1.N) ⊢ (Pipeline.ΦA (U := Pipeline.UD sig nD τ) spec1 c : sProp 𝕄) := by
  have hN : cfg1.N = 250 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨HR0, HR1, HR2, HR3, HR4, HR5, HR6, HM, HS, HA⟩, Hg⟩
  isplitl [HR0 HR1 HR2 HR3 HR4 HR5 HR6 HM HS HA]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HM]; · iexists _; iexact HM
    isplitl [HS]; · iexists _; iexact HS
    iexists _; iexact HA
  iexact Hg

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's number modulo 125 says which of
    the three control cases applies; the invariant hands the body the carried buffers at what the point before
    left (at anything at the very first point) and takes them back at this point's values; where the fourth
    window is idle its buffer comes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 250 := lt_of_lt_of_eq t.isLt (show cfg1.N = 250 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  by_cases h0 : t.val % 125 = 0
  · have h1 : ¬t.val % 125 = 124 := by omega
    rw [Dat.leavesExact_idle (dat1 V c) 3 t (idleAt1_3 t h1) (noFlush1_3 t h1)]
    rw [carried_first V c t h0]
    dsimp only [stepAt, resetVals]
    by_cases hz : t.val = 0
    ·
      rw [PhiS_castSucc V c t, PhiS_zero V c _ _ hz, PhiA1_eq]
      iintro ⟨⟨⟨HR0, HR1, HR2, HR3, HR4, HR5, HR6, HM, HS, HA⟩, Hg⟩, Ho, ⟨%d0, H0⟩, ⟨%d1, H1⟩, ⟨%d2, H2⟩, ⟨%d3, H3⟩⟩
      iapply ((kernelRun1_A c (grid1.coords t) (by rw [coord1 t]; exact h0) _ _ _ _ _ _ _ _ (blkX V c t) (blkW V c t)).2.2.2.2 _ Set.univ _)
      isplitl [H0]; · iexact H0
      isplitl [H1]; · iexact H1
      isplitl [H2]; · iexists _; iexact H2
      isplitl [H3]; · iexact H3
      isplitl [HM]; · iexact HM
      isplitl [HS]; · iexact HS
      isplitl [HA]; · iexact HA
      iintro ⟨H0, H1, ⟨%e2, H2⟩, H3, ⟨%em, HM⟩, ⟨%es, HS⟩, ⟨%ea, HA⟩⟩
      isplitl [HR0 HR1 HR2 HR3 HR4 HR5 HR6 HM HS HA Hg]
      · isplitl [HR0 HR1 HR2 HR3 HR4 HR5 HR6 HM HS HA]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HM]
          · unfold owns; iexists _; isplitr
            swap; · iexact HM
            ipureintro; exact kernelRun1_A_max c (grid1.coords t) (by rw [coord1 t]; exact h0) _ _ _ _ _ _ _ _ (blkX V c t) (blkW V c t) _ _
          isplitl [HS]
          · unfold owns; iexists _; isplitr
            swap; · iexact HS
            ipureintro; exact kernelRun1_A_sum c (grid1.coords t) (by rw [coord1 t]; exact h0) _ _ _ _ _ _ _ _ (blkX V c t) (blkW V c t) _ _
          unfold owns; iexists _; isplitr
          swap; · iexact HA
          ipureintro; exact kernelRun1_A_acc c (grid1.coords t) (by rw [coord1 t]; exact h0) _ _ _ _ _ _ _ _ (blkX V c t) (blkW V c t) _ _
        iexact Hg
      isplitl [Ho]; · iexact Ho
      isplitl [H0]; · iexact H0
      isplitl [H1]; · iexact H1
      isplitl [H2]
      · unfold owns; iexists _; isplitr
        swap; · iexact H2
        ipureintro; exact kernelRun1_A_logits c (grid1.coords t) (by rw [coord1 t]; exact h0) _ _ _ _ _ _ _ _ (blkX V c t) (blkW V c t) _ _
      iexists _; iexact H3
    ·
      rw [PhiS_castSucc V c t, PhiS_pos V c _ _ hz]
      iintro ⟨⟨⟨HR0, HR1, HR2, HR3, HR4, HR5, HR6, HM, HS, HA⟩, Hg⟩, Ho, ⟨%d0, H0⟩, ⟨%d1, H1⟩, ⟨%d2, H2⟩, ⟨%d3, H3⟩⟩
      iapply ((kernelRun1_A c (grid1.coords t) (by rw [coord1 t]; exact h0) _ _ _ _ _ _ _ _ (blkX V c t) (blkW V c t)).2.2.2.2 _ Set.univ _)
      isplitl [H0]; · iexact H0
      isplitl [H1]; · iexact H1
      isplitl [H2]; · iexists _; iexact H2
      isplitl [H3]; · iexact H3
      isplitl [HM]; · iexists _; iexact HM
      isplitl [HS]; · iexists _; iexact HS
      isplitl [HA]; · iexists _; iexact HA
      iintro ⟨H0, H1, ⟨%e2, H2⟩, H3, ⟨%em, HM⟩, ⟨%es, HS⟩, ⟨%ea, HA⟩⟩
      isplitl [HR0 HR1 HR2 HR3 HR4 HR5 HR6 HM HS HA Hg]
      · isplitl [HR0 HR1 HR2 HR3 HR4 HR5 HR6 HM HS HA]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HM]
          · unfold owns; iexists _; isplitr
            swap; · iexact HM
            ipureintro; exact kernelRun1_A_max c (grid1.coords t) (by rw [coord1 t]; exact h0) _ _ _ _ _ _ _ _ (blkX V c t) (blkW V c t) _ _
          isplitl [HS]
          · unfold owns; iexists _; isplitr
            swap; · iexact HS
            ipureintro; exact kernelRun1_A_sum c (grid1.coords t) (by rw [coord1 t]; exact h0) _ _ _ _ _ _ _ _ (blkX V c t) (blkW V c t) _ _
          unfold owns; iexists _; isplitr
          swap; · iexact HA
          ipureintro; exact kernelRun1_A_acc c (grid1.coords t) (by rw [coord1 t]; exact h0) _ _ _ _ _ _ _ _ (blkX V c t) (blkW V c t) _ _
        iexact Hg
      isplitl [Ho]; · iexact Ho
      isplitl [H0]; · iexact H0
      isplitl [H1]; · iexact H1
      isplitl [H2]
      · unfold owns; iexists _; isplitr
        swap; · iexact H2
        ipureintro; exact kernelRun1_A_logits c (grid1.coords t) (by rw [coord1 t]; exact h0) _ _ _ _ _ _ _ _ (blkX V c t) (blkW V c t) _ _
      iexists _; iexact H3
  · have hz : t.val ≠ 0 := fun h => h0 (by rw [h])
    rw [carried_next V c t h0]
    dsimp only [stepAt]
    by_cases h1 : t.val % 125 = 124
    · rw [show (dat1 V c).leavesExact 3 t = owns (c : Thread nD τ) (ms1_3 t) fullShare ((dat1 V c).after 3 t) from by
        unfold Dat.leavesExact; rw [liveAt1_3 t h1], after1_3, carried_next V c t h0]
      dsimp only [stepAt]
      rw [PhiS_castSucc V c t, PhiS_pos V c _ _ hz]
      iintro ⟨⟨⟨HR0, HR1, HR2, HR3, HR4, HR5, HR6, HM, HS, HA⟩, Hg⟩, Ho, ⟨%d0, H0⟩, ⟨%d1, H1⟩, ⟨%d2, H2⟩, ⟨%d3, H3⟩⟩
      iapply ((kernelRun1_C c (grid1.coords t) (by rw [coord1 t]; exact h1) _ _ _ _ _ _ _ _ (blkX V c t) (blkW V c t) _ _ _).2.2.2.2.2 Set.univ _)
      isplitl [H0]; · iexact H0
      isplitl [H1]; · iexact H1
      isplitl [H2]; · iexists _; iexact H2
      isplitl [H3]; · iexists _; iexact H3
      isplitl [HM]; · iexact HM
      isplitl [HS]; · iexact HS
      isplitl [HA]; · iexact HA
      iintro ⟨H0, H1, ⟨%e2, H2⟩, ⟨%e3, H3⟩, ⟨%em, HM⟩, ⟨%es, HS⟩, ⟨%ea, HA⟩⟩
      isplitl [HR0 HR1 HR2 HR3 HR4 HR5 HR6 HM HS HA Hg]
      · isplitl [HR0 HR1 HR2 HR3 HR4 HR5 HR6 HM HS HA]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HM]
          · unfold owns; iexists _; isplitr
            swap; · iexact HM
            ipureintro; exact kernelRun1_C_max c (grid1.coords t) (by rw [coord1 t]; exact h1) _ _ _ _ _ _ _ _ (blkX V c t) (blkW V c t) _ _ _ _ _
          isplitl [HS]
          · unfold owns; iexists _; isplitr
            swap; · iexact HS
            ipureintro; exact kernelRun1_C_sum c (grid1.coords t) (by rw [coord1 t]; exact h1) _ _ _ _ _ _ _ _ (blkX V c t) (blkW V c t) _ _ _ _ _
          unfold owns; iexists _; isplitr
          swap; · iexact HA
          ipureintro; exact kernelRun1_C_acc c (grid1.coords t) (by rw [coord1 t]; exact h1) _ _ _ _ _ _ _ _ (blkX V c t) (blkW V c t) _ _ _ _ _
        iexact Hg
      isplitl [Ho]; · iexact Ho
      isplitl [H0]; · iexact H0
      isplitl [H1]; · iexact H1
      isplitl [H2]
      · unfold owns; iexists _; isplitr
        swap; · iexact H2
        ipureintro; exact kernelRun1_C_logits c (grid1.coords t) (by rw [coord1 t]; exact h1) _ _ _ _ _ _ _ _ (blkX V c t) (blkW V c t) _ _ _ _ _
      unfold owns; iexists _; isplitr
      swap; · iexact H3
      ipureintro; exact kernelRun1_C_out c (grid1.coords t) (by rw [coord1 t]; exact h1) _ _ _ _ _ _ _ _ (blkX V c t) (blkW V c t) _ _ _ _ _
    · rw [Dat.leavesExact_idle (dat1 V c) 3 t (idleAt1_3 t h1) (noFlush1_3 t h1)]
      rw [PhiS_castSucc V c t, PhiS_pos V c _ _ hz]
      iintro ⟨⟨⟨HR0, HR1, HR2, HR3, HR4, HR5, HR6, HM, HS, HA⟩, Hg⟩, Ho, ⟨%d0, H0⟩, ⟨%d1, H1⟩, ⟨%d2, H2⟩, ⟨%d3, H3⟩⟩
      iapply ((kernelRun1_B c (grid1.coords t) (by rw [coord1 t]; omega) _ _ _ _ _ _ _ _ (blkX V c t) (blkW V c t) _ _ _).2.2.2.2 _ Set.univ _)
      isplitl [H0]; · iexact H0
      isplitl [H1]; · iexact H1
      isplitl [H2]; · iexists _; iexact H2
      isplitl [H3]; · iexact H3
      isplitl [HM]; · iexact HM
      isplitl [HS]; · iexact HS
      isplitl [HA]; · iexact HA
      iintro ⟨H0, H1, ⟨%e2, H2⟩, H3, ⟨%em, HM⟩, ⟨%es, HS⟩, ⟨%ea, HA⟩⟩
      isplitl [HR0 HR1 HR2 HR3 HR4 HR5 HR6 HM HS HA Hg]
      · isplitl [HR0 HR1 HR2 HR3 HR4 HR5 HR6 HM HS HA]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HM]
          · unfold owns; iexists _; isplitr
            swap; · iexact HM
            ipureintro; exact kernelRun1_B_max c (grid1.coords t) (by rw [coord1 t]; omega) _ _ _ _ _ _ _ _ (blkX V c t) (blkW V c t) _ _ _ _ _
          isplitl [HS]
          · unfold owns; iexists _; isplitr
            swap; · iexact HS
            ipureintro; exact kernelRun1_B_sum c (grid1.coords t) (by rw [coord1 t]; omega) _ _ _ _ _ _ _ _ (blkX V c t) (blkW V c t) _ _ _ _ _
          unfold owns; iexists _; isplitr
          swap; · iexact HA
          ipureintro; exact kernelRun1_B_acc c (grid1.coords t) (by rw [coord1 t]; omega) _ _ _ _ _ _ _ _ (blkX V c t) (blkW V c t) _ _ _ _ _
        iexact Hg
      isplitl [Ho]; · iexact Ho
      isplitl [H0]; · iexact H0
      isplitl [H1]; · iexact H1
      isplitl [H2]
      · unfold owns; iexists _; isplitr
        swap; · iexact H2
        ipureintro; exact kernelRun1_B_logits c (grid1.coords t) (by rw [coord1 t]; omega) _ _ _ _ _ _ _ _ (blkX V c t) (blkW V c t) _ _ _ _ _
      iexists _; iexact H3

/-- The body obligation, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.HostVals.lean ====
/-
  What the host stretches of the kernel program's main function compute, read at an index, over an arbitrary
  starting valuation W (buffer reference ↦ contents on one core).
-/
import proofs.«430590_j46402826666034_2_alg».proof.Proof.Gen.KernelIdeal.Launch
import proofs.«430590_j46402826666034_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import proofs.«430590_j46402826666034_2_alg».proof.Proof.Code

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-! ## Flattening and unflattening the leading [4, 1024] axes, read at an index -/

section Reshapes

variable {α : Type}

/-- A [4, 1024] array flattened to [4096]: position n is position (n / 1024, n % 1024). -/
theorem flat2_apply (x : S4x1024.Idx → α) (h : S4x1024.ShapeCasts S4096) (n : Fin 4096) :
    shapeCast S4096 x h (ix1 n) =
      x (ix2 ⟨n.val / 1024, by have := n.isLt; omega⟩ ⟨n.val % 1024, Nat.mod_lt _ (by norm_num)⟩) := by
  refine shapeCast_apply x h _ _ ?_
  rw [Shape.rowMajor_val_two, Shape.rowMajor_val_one]
  show n.val / 1024 * 1024 + n.val % 1024 = n.val
  omega

/-- A [4, 1024, m] array flattened to [4096, m]: position (n, d) is position (n / 1024, n % 1024, d). -/
theorem flat3_apply {m : Nat} (x : (⟨3, ![4, 1024, m]⟩ : Shape).Idx → α)
    (h : (⟨3, ![4, 1024, m]⟩ : Shape).ShapeCasts ⟨2, ![4096, m]⟩) (n : Fin 4096) (d : Fin m) :
    shapeCast (⟨2, ![4096, m]⟩ : Shape) x h (ix2 n d) =
      x (ix3 ⟨n.val / 1024, by have := n.isLt; omega⟩ ⟨n.val % 1024, Nat.mod_lt _ (by norm_num)⟩ d) := by
  refine shapeCast_apply x h _ _ ?_
  rw [Shape.rowMajor_val_three, Shape.rowMajor_val_two]
  show (n.val / 1024 * 1024 + n.val % 1024) * m + d.val = n.val * m + d.val
  have e : n.val / 1024 * 1024 + n.val % 1024 = n.val := by omega
  rw [e]

/-- A [4096, m] array unflattened to [4, 1024, m]: position (b, s, d) is position (1024 b + s, d). -/
theorem unflat3_apply {m : Nat} (x : (⟨2, ![4096, m]⟩ : Shape).Idx → α)
    (h : (⟨2, ![4096, m]⟩ : Shape).ShapeCasts ⟨3, ![4, 1024, m]⟩) (b : Fin 4) (s : Fin 1024) (d : Fin m) :
    shapeCast (⟨3, ![4, 1024, m]⟩ : Shape) x h (ix3 b s d) =
      x (ix2 ⟨1024 * b.val + s.val, by have := b.isLt; have := s.isLt; omega⟩ d) := by
  refine shapeCast_apply x h _ _ ?_
  rw [Shape.rowMajor_val_three, Shape.rowMajor_val_two]
  show (1024 * b.val + s.val) * m + d.val = (b.val * 1024 + s.val) * m + d.val
  rw [Nat.mul_comm 1024 b.val]

end Reshapes

/-! ## The first stretch: the two flattenings -/

/-- After the first stretch, main_v0 holds the id words flattened to one axis of 4096. -/
theorem v0_eq (W : Valuation τ sig (Elt F)) :
    (StableHlo.after hostOps0 W (Proc.devRef .tc main_v0) : IVec S4096 32) =
      shapeCast S4096 (W (Proc.devRef .tc main_arg0) : IVec S4x1024 32) shapeCasts_S4x1024_S4096 := by
  after_results
  rfl

/-- Word n of the flattened ids is word (n / 1024, n % 1024) of the [4, 1024] ids. -/
theorem v0_apply (W : Valuation τ sig (Elt F)) (n : Fin 4096) :
    (StableHlo.after hostOps0 W (Proc.devRef .tc main_v0) : IVec S4096 32) (ix1 n) =
      (W (Proc.devRef .tc main_arg0) : IVec S4x1024 32)
        (ix2 ⟨n.val / 1024, by have := n.isLt; omega⟩ ⟨n.val % 1024, Nat.mod_lt _ (by norm_num)⟩) := by
  rw [v0_eq]
  exact flat2_apply _ _ n

/-- After the first stretch, main_v1 holds the activations flattened to [4096, 1024]. -/
theorem v1_eq (W : Valuation τ sig (Elt F)) :
    (StableHlo.after hostOps0 W (Proc.devRef .tc main_v1) : FVec F S4096x1024 .f32) =
      shapeCast S4096x1024 (W (Proc.devRef .tc main_arg1) : FVec F S4x1024x1024 .f32) shapeCasts_S4x1024x1024_S4096x1024 := by
  after_results
  rfl

/-- Entry (n, d) of the flattened activations is entry (n / 1024, n % 1024, d) of the [4, 1024, 1024] activations. -/
theorem v1_apply (W : Valuation τ sig (Elt F)) (n : Fin 4096) (d : Fin 1024) :
    (StableHlo.after hostOps0 W (Proc.devRef .tc main_v1) : FVec F S4096x1024 .f32) (ix2 n d) =
      (W (Proc.devRef .tc main_arg1) : FVec F S4x1024x1024 .f32)
        (ix3 ⟨n.val / 1024, by have := n.isLt; omega⟩ ⟨n.val % 1024, Nat.mod_lt _ (by norm_num)⟩ d) := by
  rw [v1_eq]
  exact flat3_apply _ _ n d

/-! ## The id bits: clip, shift by 14 + (−1)·k, low bit, to ±1 -/

section Broadcasts

variable {α : Type}

/-- A vector laid down the rows of a [4096, 15] rectangle (through a [4096, 1] column) reads its entry n at (n, k). -/
theorem rows_apply (v : S4096.Idx → α) (n : Fin 4096) (k : Fin 15) :
    broadcastInDim S4096x15 ![0, 1] bcast_S4096x1_S4096x15_0_1
        (broadcastInDim S4096x1 ![0] bcast_S4096_S4096x1_0 v) (ix2 n k) = v (ix1 n) := by
  rw [broadcastInDim_apply _ _ _ (ix2 n k) (ix2 n (0 : Fin 1)) (by intro a; fin_cases a <;> rfl)]
  exact broadcastInDim_apply _ _ _ _ (ix1 n) (by intro a; fin_cases a; rfl)

/-- A vector laid along the columns of a [4096, 15] rectangle (through a [1, 15] row) reads its entry k at (n, k). -/
theorem cols_apply (v : S15.Idx → α) (n : Fin 4096) (k : Fin 15) :
    broadcastInDim S4096x15 ![0, 1] bcast_S1x15_S4096x15_0_1
        (broadcastInDim S1x15 ![1] bcast_S15_S1x15_1 v) (ix2 n k) = v (ix1 k) := by
  rw [broadcastInDim_apply _ _ _ (ix2 n k) (ix2 (0 : Fin 1) k) (by intro a; fin_cases a <;> rfl)]
  exact broadcastInDim_apply _ _ _ _ (ix1 k) (by intro a; fin_cases a; rfl)

end Broadcasts

/-- After the first stretch the two scalar constants are 0 and 31999. -/
theorem c_eq (W : Valuation τ sig (Elt F)) :
    (StableHlo.after hostOps0 W (Proc.devRef .tc main_c) : IVec S_ 32) = constantI S_ 32 0#32 := by
  after_results

theorem c0_eq (W : Valuation τ sig (Elt F)) :
    (StableHlo.after hostOps0 W (Proc.devRef .tc main_c_0) : IVec S_ 32) = constantI S_ 32 31999#32 := by
  after_results

/-- After the clip stretch, main_v2 is the minimum of the second constant with the maximum of the first constant and main_v0. -/
theorem v2_eq (W : Valuation τ sig (Elt F)) :
    (StableHlo.after hostOps0_1 W (Proc.devRef .tc main_v2) : IVec S4096 32) =
      minsi (broadcastInDim S4096 ![] bcast_S_S4096 (W (Proc.devRef .tc main_c_0) : IVec S_ 32))
        (maxsi (broadcastInDim S4096 ![] bcast_S_S4096 (W (Proc.devRef .tc main_c) : IVec S_ 32))
          (W (Proc.devRef .tc main_v0) : IVec S4096 32)) := by
  after_results
  simp only [StableHlo.TRef.ofBuf, StableHlo.TRef.toBuf, cast_eq]
  rfl

/-- Word n after the first two stretches: the flattened id clipped to [0, 31999], signed. -/
theorem v2_apply (W : Valuation τ sig (Elt F)) (n : Fin 4096) :
    (StableHlo.after hostOps0_1 (StableHlo.after hostOps0 W) (Proc.devRef .tc main_v2) : IVec S4096 32) (ix1 n) =
      IntOp.minsi 31999#32 (IntOp.maxsi 0#32 ((W (Proc.devRef .tc main_arg0) : IVec S4x1024 32)
        (ix2 ⟨n.val / 1024, by have := n.isLt; omega⟩ ⟨n.val % 1024, Nat.mod_lt _ (by norm_num)⟩))) := by
  rw [v2_eq, c_eq, c0_eq, ← v0_apply W n]
  rfl

/-- After the third stretch, main_v19 as a term over main_v2: shift right by 14 + (−1)·iota, keep the low bit,
    convert to float, double, subtract one. -/
theorem v19_eq (W : Valuation τ sig (Elt F)) :
    (StableHlo.after hostOps0_2 W (Proc.devRef .tc main_v19) : FVec F S4096x15 .f32) =
      subf
        (mulf
          (sitofp .f32
            (andi
              (Host.shrsi
                (broadcastInDim S4096x15 ![0, 1] bcast_S4096x1_S4096x15_0_1
                  (broadcastInDim S4096x1 ![0] bcast_S4096_S4096x1_0 (W (Proc.devRef .tc main_v2) : IVec S4096 32)))
                (broadcastInDim S4096x15 ![0, 1] bcast_S1x15_S4096x15_0_1
                  (broadcastInDim S1x15 ![1] bcast_S15_S1x15_1
                    (addi (broadcastInDim S15 ![] bcast_S_S15 (constantI S_ 32 14#32))
                      (muli (broadcastInDim S15 ![] bcast_S_S15 (constantI S_ 32 4294967295#32)) (iotaInDim S15 32 0))))))
              (broadcastInDim S4096x15 ![] bcast_S_S4096x15 (constantI S_ 32 1#32))))
          (broadcastInDim S4096x15 ![] bcast_S_S4096x15 (constant (F := F) S_ .f32 0x40000000#32)))
        (broadcastInDim S4096x15 ![] bcast_S_S4096x15 (constant (F := F) S_ .f32 0x3F800000#32)) := by
  after_results

/-- Entry (n, k) of main_v19, every operation at its element. -/
theorem v19_apply (W : Valuation τ sig (Elt F)) (n : Fin 4096) (k : Fin 15) :
    (StableHlo.after hostOps0_2 W (Proc.devRef .tc main_v19) : FVec F S4096x15 .f32) (ix2 n k) =
      FloatOps.subf
        (FloatOps.mulf
          (FloatOps.sitofp .f32
            (IntOp.andi
              (IntOp.shrsi .host ((W (Proc.devRef .tc main_v2) : IVec S4096 32) (ix1 n))
                (IntOp.addi 14#32 (IntOp.muli 4294967295#32 (BitVec.ofNat 32 k.val))))
              1#32))
          (FloatOps.ofBits .f32 0x40000000#32))
        (FloatOps.ofBits .f32 0x3F800000#32) := by
  rw [v19_eq, ← rows_apply (W (Proc.devRef .tc main_v2) : IVec S4096 32) n k,
    show (BitVec.ofNat 32 k.val) = iotaInDim S15 32 0 (ix1 k) from rfl]
  have hc := cols_apply
    (addi (broadcastInDim S15 ![] bcast_S_S15 (constantI S_ 32 14#32))
      (muli (broadcastInDim S15 ![] bcast_S_S15 (constantI S_ 32 4294967295#32)) (iotaInDim S15 32 0))) n k
  show FloatOps.subf (FloatOps.mulf (FloatOps.sitofp .f32 (IntOp.andi (IntOp.shrsi .host _ (broadcastInDim S4096x15 ![0, 1] bcast_S1x15_S4096x15_0_1
      (broadcastInDim S1x15 ![1] bcast_S15_S1x15_1
        (addi (broadcastInDim S15 ![] bcast_S_S15 (constantI S_ 32 14#32))
          (muli (broadcastInDim S15 ![] bcast_S_S15 (constantI S_ 32 4294967295#32)) (iotaInDim S15 32 0)))) (ix2 n k))) _)) _) _ = _
  rw [hc]
  rfl

/-- THE ID BITS. After the first three stretches, entry (n, k) of main_v19 over the extended reals is the ±1 code of bit 14 − k
    of the id at flat position n, clipped to [0, 31999]. -/
theorem v19_code (W : Valuation τ sig (Elt Ideal)) (n : Fin 4096) (k : Fin 15) :
    (StableHlo.after hostOps0_2 (StableHlo.after hostOps0_1 (StableHlo.after hostOps0 W)) (Proc.devRef .tc main_v19)
        : FVec Ideal S4096x15 .f32) (ix2 n k) =
      Cert.Proof.Spec.code ((W (Proc.devRef .tc main_arg0) : IVec S4x1024 32)
        (ix2 ⟨n.val / 1024, by have := n.isLt; omega⟩ ⟨n.val % 1024, Nat.mod_lt _ (by norm_num)⟩)) k := by
  rw [v19_apply, v2_apply]
  exact Cert.Proof.Code.code_chain_host _ k

/-! ## The stretch between the two calls: two unflattenings and a narrowing of the table -/

/-- After it, main_v21 holds the first call's first result unflattened to [4, 1024, 1024]. -/
theorem v21_eq (W : Valuation τ sig (Elt F)) :
    (StableHlo.after hostOps1 W (Proc.devRef .tc main_v21) : FVec F S4x1024x1024 .f32) =
      shapeCast S4x1024x1024 (W (Proc.devRef .tc main_v20_0) : FVec F S4096x1024 .f32) shapeCasts_S4096x1024_S4x1024x1024 := by
  after_results
  rfl

theorem v21_apply (W : Valuation τ sig (Elt F)) (b : Fin 4) (s : Fin 1024) (d : Fin 1024) :
    (StableHlo.after hostOps1 W (Proc.devRef .tc main_v21) : FVec F S4x1024x1024 .f32) (ix3 b s d) =
      (W (Proc.devRef .tc main_v20_0) : FVec F S4096x1024 .f32)
        (ix2 ⟨1024 * b.val + s.val, by have := b.isLt; have := s.isLt; omega⟩ d) := by
  rw [v21_eq]
  exact unflat3_apply _ _ b s d

/-- After it, main_v22 holds the first call's second result unflattened to [4, 1024, 1024]. -/
theorem v22_eq (W : Valuation τ sig (Elt F)) :
    (StableHlo.after hostOps1 W (Proc.devRef .tc main_v22) : FVec F S4x1024x1024 .f32) =
      shapeCast S4x1024x1024 (W (Proc.devRef .tc main_v20_1) : FVec F S4096x1024 .f32) shapeCasts_S4096x1024_S4x1024x1024 := by
  after_results
  rfl

theorem v22_apply (W : Valuation τ sig (Elt F)) (b : Fin 4) (s : Fin 1024) (d : Fin 1024) :
    (StableHlo.after hostOps1 W (Proc.devRef .tc main_v22) : FVec F S4x1024x1024 .f32) (ix3 b s d) =
      (W (Proc.devRef .tc main_v20_1) : FVec F S4096x1024 .f32)
        (ix2 ⟨1024 * b.val + s.val, by have := b.isLt; have := s.isLt; omega⟩ d) := by
  rw [v22_eq]
  exact unflat3_apply _ _ b s d

/-- After it, main_v23 holds the embedding table narrowed to bf16. -/
theorem v23_eq (W : Valuation τ sig (Elt F)) :
    (StableHlo.after hostOps1 W (Proc.devRef .tc main_v23) : FVec F S32000x1024 .bf16) =
      truncf .bf16 (W (Proc.devRef .tc main_arg2) : FVec F S32000x1024 .f32) bitsLt_bf16_f32 := by
  after_results

/-- Over the extended reals the narrowing changes no entry. -/
theorem v23_apply (W : Valuation τ sig (Elt Ideal)) (i : S32000x1024.Idx) :
    (StableHlo.after hostOps1 W (Proc.devRef .tc main_v23) : FVec Ideal S32000x1024 .bf16) i =
      (W (Proc.devRef .tc main_arg2) : FVec Ideal S32000x1024 .f32) i := by
  rw [v23_eq]
  rfl

/-! ## The last stretch: the second call's two results unflattened -/

theorem v25_eq (W : Valuation τ sig (Elt F)) :
    (StableHlo.after hostOps2 W (Proc.devRef .tc main_v25) : FVec F S4x1024x32000 .f32) =
      shapeCast S4x1024x32000 (W (Proc.devRef .tc main_v24_0) : FVec F S4096x32000 .f32) shapeCasts_S4096x32000_S4x1024x32000 := by
  after_results
  rfl

theorem v25_apply (W : Valuation τ sig (Elt F)) (b : Fin 4) (s : Fin 1024) (v : Fin 32000) :
    (StableHlo.after hostOps2 W (Proc.devRef .tc main_v25) : FVec F S4x1024x32000 .f32) (ix3 b s v) =
      (W (Proc.devRef .tc main_v24_0) : FVec F S4096x32000 .f32)
        (ix2 ⟨1024 * b.val + s.val, by have := b.isLt; have := s.isLt; omega⟩ v) := by
  rw [v25_eq]
  exact unflat3_apply _ _ b s v

theorem v26_eq (W : Valuation τ sig (Elt F)) :
    (StableHlo.after hostOps2 W (Proc.devRef .tc main_v26) : FVec F S4x1024x15 .f32) =
      shapeCast S4x1024x15 (W (Proc.devRef .tc main_v24_1) : FVec F S4096x15 .f32) shapeCasts_S4096x15_S4x1024x15 := by
  after_results
  rfl

theorem v26_apply (W : Valuation τ sig (Elt F)) (b : Fin 4) (s : Fin 1024) (k : Fin 15) :
    (StableHlo.after hostOps2 W (Proc.devRef .tc main_v26) : FVec F S4x1024x15 .f32) (ix3 b s k) =
      (W (Proc.devRef .tc main_v24_1) : FVec F S4096x15 .f32)
        (ix2 ⟨1024 * b.val + s.val, by have := b.isLt; have := s.isLt; omega⟩ k) := by
  rw [v26_eq]
  exact unflat3_apply _ _ b s k

end Cert.KernelIdeal.Hand

end
-- ==== Proof.KI.FrameArgs.lean ====
/-
  The frame of the kernel program from its run: the id table the first call prefetches names rows of the embedding table
  (the table is the flattened id array, and the precondition bounds every id), and the four argument buffers end as launched:
  no host stretch writes one, the first call reads the bit table through an input window (never written back) and the
  embedding table in place, and the second call touches none of them.
-/
import proofs.«430590_j46402826666034_2_alg».proof.Proof.KI.Main
import proofs.«430590_j46402826666034_2_alg».proof.Proof.KI.HostVals
import proofs.«430590_j46402826666034_2_alg».proof.Proof.PreFacts
import proofs.«430590_j46402826666034_2_alg».proof.Proof.Gen.Pre_finite_inputs

noncomputable section

namespace Cert.KernelIdeal.FrameArgs

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]

variable (m : (ℓ : Loc nD τ sig) → Buf (Elt F) ℓ) (ρ : Dev nD → PrngReg)

/-! ## A buffer a host stretch does not write keeps its contents across it -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h

/-- A buffer none of the three stretches before the first call writes is, at the call's entry, as launched. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans ((W2_of m c r h1).trans (W1_of m c r h0))

/-! ## The id table names rows of the embedding table -/

/-- Word n of the id table at the first call's entry is word (n / 1024, n % 1024) of the id array: the table is written by
    the first stretch (the flattening) and by no later one. -/
theorem tbl_at (c : Dev nD) (n : Fin 4096) :
    (W3 m c (Proc.devRef .tc main_v0) : IVec S4096 32) (ix1 n) =
      (m ((c : Thread nD τ).loc main_arg0) : IVec S4x1024 32)
        (ix2 ⟨n.val / 1024, by have := n.isLt; omega⟩ ⟨n.val % 1024, Nat.mod_lt _ (by norm_num)⟩) := by
  rw [W3_of m c main_v0 (by decide), W2_of m c main_v0 (by decide)]
  exact v0_apply (W0 m c) n

/-- Under the precondition every word of the id table is below 32000. -/
theorem rowsOk_of_fn
    (hpre : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) = fun _ => 1#1) : RowsOk (V3 m) := by
  intro j
  obtain ⟨n, rfl⟩ : ∃ n : Fin 4096, j = ix1 n := ⟨j 0, eq_ix1 j⟩
  show ((W3 m (0 : Dev nD) (Proc.devRef .tc main_v0) : IVec S4096 32) (ix1 n)).toNat < 32000
  rw [tbl_at m 0 n]
  exact Cert.Proof.PreFacts.ids_lt _ _ _ _ (hpre 0) _

variable (hw : RowsOk (V3 m))

/-! ## The arguments end as launched -/

theorem W5_of (c : Dev nD) (r : Ref sig .tc) (h : r ∉ hostOps1_W) :
    W5 m hw c (Proc.devRef .tc r) = W4 m hw c (Proc.devRef .tc r) :=
  StableHlo.after_of_writes_sub hostOps1 _ hostOps1_writes h
theorem W7_of (c : Dev nD) (r : Ref sig .tc) (h : r ∉ hostOps2_W) :
    W7 m hw c (Proc.devRef .tc r) = W6 m hw c (Proc.devRef .tc r) :=
  StableHlo.after_of_writes_sub hostOps2 _ hostOps2_writes h

/-- A buffer that is no window's array of either call and that no stretch after the first call's entry writes holds, at the
    return, what it held at the first call's entry. -/
theorem W7_entry (c : Dev nD) (r : Ref sig .tc) (h2 : r ∉ hostOps2_W) (hc1 : ∀ w, Pipeline.arrRef spec1 w ≠ r)
    (h1 : r ∉ hostOps1_W) (hc0 : ∀ w, Pipeline.arrRef spec0 w ≠ r) :
    W7 m hw c (Proc.devRef .tc r) = W3 m c (Proc.devRef .tc r) :=
  (W7_of m hw c r h2).trans ((W6_of_ne m hw c r hc1).trans ((W5_of m hw c r h1).trans (W4_of_ne m hw c r hc0)))

/-- The id array: written by nothing, windowed by neither call. -/
theorem W7_main_arg0 (c : Dev nD) : W7 m hw c (Proc.devRef .tc main_arg0) = m ((c : Thread nD τ).loc main_arg0) :=
  (W7_entry m hw c main_arg0 (by decide) (by decide) (by decide) (by decide)).trans
    (W3_launch m c main_arg0 (by decide) (by decide) (by decide))
/-- The activations: read by the first stretch only. -/
theorem W7_main_arg1 (c : Dev nD) : W7 m hw c (Proc.devRef .tc main_arg1) = m ((c : Thread nD τ).loc main_arg1) :=
  (W7_entry m hw c main_arg1 (by decide) (by decide) (by decide) (by decide)).trans
    (W3_launch m c main_arg1 (by decide) (by decide) (by decide))
/-- The embedding table: the first call copies rows out of it where it lies; nothing writes it. -/
theorem W7_main_arg2 (c : Dev nD) : W7 m hw c (Proc.devRef .tc main_arg2) = m ((c : Thread nD τ).loc main_arg2) :=
  (W7_entry m hw c main_arg2 (by decide) (by decide) (by decide) (by decide)).trans
    (W3_launch m c main_arg2 (by decide) (by decide) (by decide))
/-- The bit table: an input window of the first call, whose array is never written back. -/
theorem W4_main_arg3 (c : Dev nD) : W4 m hw c (Proc.devRef .tc main_arg3) = W3 m c (Proc.devRef .tc main_arg3) :=
  (W4_arr m hw c 1).trans (((dat0 (V3 m) hw c).arrAt_in 1 rfl _).trans (A_eq0 (V3 m) hw c 1))
theorem W7_main_arg3 (c : Dev nD) : W7 m hw c (Proc.devRef .tc main_arg3) = m ((c : Thread nD τ).loc main_arg3) :=
  (W7_of m hw c main_arg3 (by decide)).trans ((W6_of_ne m hw c main_arg3 (by decide)).trans
    ((W5_of m hw c main_arg3 (by decide)).trans ((W4_main_arg3 m hw c).trans
      (W3_launch m c main_arg3 (by decide) (by decide) (by decide)))))

/-! ## The frame -/

/-- Under the precondition the program runs to its end, faults nowhere, and leaves its four arguments as launched. -/
theorem frame_run
    (hpre : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) = fun _ => 1#1) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun r h c =>
    ⟨(h c _ (mem_uc main_arg0 (by decide))).trans (W7_main_arg0 m (rowsOk_of_fn m hpre) c),
      (h c _ (mem_uc main_arg1 (by decide))).trans (W7_main_arg1 m (rowsOk_of_fn m hpre) c),
      (h c _ (mem_uc main_arg2 (by decide))).trans (W7_main_arg2 m (rowsOk_of_fn m hpre) c),
      (h c _ (mem_uc main_arg3 (by decide))).trans (W7_main_arg3 m (rowsOk_of_fn m hpre) c)⟩)
    (run_all m ρ (rowsOk_of_fn m hpre))

end Cert.KernelIdeal.FrameArgs

end
-- ==== Proof.RefValue.lean ====
/-
  The reference program's four results as the specification's functions of its arguments.
  Each result buffer ends at a composed term of the argument arrays; read at an index, that term is
    * result 0: the table row the id selects (the gather, the id in [0, 32000) so that neither the wrap of a
      negative id nor the clamp moves it);
    * result 1: the sum over the 15 bits of the id's ±1 code times the bit table's row;
    * result 2: the logits, a sum over the 1024 features;
    * result 3: the row's softmax (a maximum, exponentials, their sum, a quotient) against the vocabulary's codes.
  The frame (the run ends and leaves the four arguments as they were) is the same run with the results forgotten.
-/
import proofs.«430590_j46402826666034_2_alg».proof.Proof.Gen.ReferenceIdeal.Read
import proofs.«430590_j46402826666034_2_alg».proof.Proof.Spec
import proofs.«430590_j46402826666034_2_alg».proof.Proof.Code
import Idealize.ShloMosaic.PureOps.Ideal.Laws
import Idealize.ShloMosaic.Lib.ValueIdx
import Idealize.ShloMosaic.Lib.Pipeline.Value
import Idealize.ShloMosaic.Lib.StableHlo.Run

noncomputable section

namespace Cert.Proof.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## The frame -/

/-- The reference runs to its end and leaves its four arguments unchanged: its run with the results forgotten. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => (h c).2.2.2.2) (Cert.ReferenceIdeal.Value.run (F := Ideal) m ρ)

/-! ## Result 2: the logits -/

/-- The left operand's index of the logits' contraction is (b, s, d). -/
theorem lidx26 (i : S4x1024x32000.Idx) (k : Fin 1024) : lidx_main_v26 i k = ix3 (i 0) (i 1) k :=
  funext fun a => by match a with | ⟨0, _⟩ => rfl | ⟨1, _⟩ => rfl | ⟨2, _⟩ => rfl

/-- The right operand's index of the logits' contraction is (v, d). -/
theorem ridx26 (i : S4x1024x32000.Idx) (k : Fin 1024) : ridx_main_v26 i k = ix2 (i 2) k :=
  funext fun a => by match a with | ⟨0, _⟩ => rfl | ⟨1, _⟩ => rfl

/-- Result 2 is the specification's logits. -/
theorem result2_eq (x : (⟨S4x1024x1024, .f32⟩ : BufTy).Contents (Elt Ideal)) (w : (⟨S32000x1024, .f32⟩ : BufTy).Contents (Elt Ideal)) :
    val_main_v26 (F := Ideal) x w = Spec.G2 x w := by
  funext i
  rw [val_main_v26_apply]
  unfold Spec.G2
  refine Finset.sum_congr rfl fun k _ => ?_
  rw [lidx26, ridx26]
  rfl

/-! ## Result 0: the gathered rows -/

/-- The start-indices index the gather reads for result index (b, s, d): (b, s, 0). -/
abbrev gidx (i : S4x1024x1024.Idx) : S4x1024x1.Idx := fun a => match a with
  | ⟨0, _⟩ => ⟨(i 0).val, (i 0).isLt⟩
  | ⟨1, _⟩ => ⟨(i 1).val, (i 1).isLt⟩
  | ⟨2, _⟩ => ⟨0, Nat.one_pos⟩

/-- The gather read at (b, s, d): the table at row `idx[b, s, 0]`, read signed and clamped into [0, 31999], and column d.
    On the table's row axis the start is the clamped index and nothing is added (the axis is collapsed); on the column
    axis the start is 0 and the offset is the result's last coordinate. -/
theorem gather_apply {α : Type} (x : S32000x1024.Idx → α) (idx : IVec S4x1024x1 32) (i : S4x1024x1024.Idx) :
    Host.gather gather_S32000x1024_S4x1024x1_S4x1024x1024_2_0_n_n_0_2_11024 x idx i
      = x (ix2 (⟨min (idx (gidx i)).toInt.toNat 31999, by omega⟩ : Fin 32000) (i 2)) := by
  unfold Host.gather
  refine congrArg x (funext fun a => Fin.ext ?_)
  match a with
  | ⟨0, _⟩ =>
    show gather_S32000x1024_S4x1024x1_S4x1024x1024_2_0_n_n_0_2_11024.start i idx 0
        + gather_S32000x1024_S4x1024x1_S4x1024x1024_2_0_n_n_0_2_11024.batchCoord i 0
        + gather_S32000x1024_S4x1024x1_S4x1024x1024_2_0_n_n_0_2_11024.offCoord i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32000x1024_S4x1024x1_S4x1024x1024_2_0_n_n_0_2_11024.startIndexMap from
      List.mem_singleton.mpr rfl)]
    have hsi : gather_S32000x1024_S4x1024x1_S4x1024x1024_2_0_n_n_0_2_11024.siIdx i
        ⟨List.idxOf (0 : Fin 2) gather_S32000x1024_S4x1024x1_S4x1024x1024_2_0_n_n_0_2_11024.startIndexMap,
          List.idxOf_lt_length_iff.2 (List.mem_singleton.mpr rfl)⟩ = gidx i := by
      funext b; refine Fin.ext ?_
      match b with
      | ⟨0, _⟩ => rfl
      | ⟨1, _⟩ => rfl
      | ⟨2, _⟩ => rfl
    rw [hsi]
    rfl
  | ⟨1, _⟩ =>
    show gather_S32000x1024_S4x1024x1_S4x1024x1024_2_0_n_n_0_2_11024.start i idx 1
        + gather_S32000x1024_S4x1024x1_S4x1024x1024_2_0_n_n_0_2_11024.batchCoord i 1
        + gather_S32000x1024_S4x1024x1_S4x1024x1024_2_0_n_n_0_2_11024.offCoord i 1 = (i 2).val
    rw [GatherDims.batchCoord_eq_zero _ _ _ List.not_mem_nil]
    unfold GatherDims.start
    rw [dif_neg (show ¬(1 : Fin 2) ∈ gather_S32000x1024_S4x1024x1_S4x1024x1024_2_0_n_n_0_2_11024.startIndexMap by decide)]
    unfold GatherDims.offCoord
    rw [dif_pos (show (1 : Fin 2) ∈ gather_S32000x1024_S4x1024x1_S4x1024x1024_2_0_n_n_0_2_11024.sKept by decide)]
    simp only [Nat.zero_add, Nat.add_zero]
    rfl

/-- An id word below 32000 is not negative, so the select on "id < 0" (which would add 32000) keeps the id. -/
theorem wrap_id (v : BitVec 32) (h : v.toNat < 32000) :
    Scalar.select (IntOp.cmpi .slt v 0#32) (IntOp.addi v 32000#32) v = v := by
  unfold Scalar.select
  refine if_neg fun hc => ?_
  have hlt := IntOp.cmpi_slt.mp hc
  rw [BitVec.toInt_eq_toNat_of_lt (by omega)] at hlt
  have h0 : (0#32 : BitVec 32).toInt = 0 := by decide
  rw [h0] at hlt
  omega

/-- The index array the gather is handed, at (b, s, 0), is the id at (b, s). -/
theorem wrapped_at (ids : (⟨S4x1024, .i32⟩ : BufTy).Contents (Elt Ideal)) (hids : ∀ j, (ids j).toNat < 32000)
    (i : S4x1024x1024.Idx) : val_main_v5 (F := Ideal) ids (gidx i) = ids (ix2 (n0 := 4) (n1 := 1024) (i 0) (i 1)) := by
  have hj : idx_main_v5 (gidx i) = ix2 (n0 := 4) (n1 := 1024) (i 0) (i 1) :=
    funext fun a => by match a with | ⟨0, _⟩ => rfl | ⟨1, _⟩ => rfl
  rw [val_main_v5_apply, hj, val_main_v4_apply, val_main_v1_apply, val_main_v3_apply, val_main_v0_apply, val_main_v2_apply,
    val_main_c_apply, val_main_c_0_apply]
  exact wrap_id _ (hids _)

/-- Result 0 is the table row each id selects, when every id is in [0, 32000). -/
theorem result0_eq (ids : (⟨S4x1024, .i32⟩ : BufTy).Contents (Elt Ideal)) (w : (⟨S32000x1024, .f32⟩ : BufTy).Contents (Elt Ideal))
    (hids : ∀ j, (ids j).toNat < 32000) : val_main_v6 (F := Ideal) ids w = Spec.G0 ids w := by
  funext i
  unfold val_main_v6
  rw [gather_apply]
  unfold Spec.G0
  refine congrArg (fun r : Fin 32000 => w (ix2 r (i 2))) (Fin.ext ?_)
  show min (val_main_v5 (F := Ideal) ids (gidx i)).toInt.toNat 31999 = (Spec.row (ids (ix2 (n0 := 4) (n1 := 1024) (i 0) (i 1)))).val
  have h := hids (ix2 (n0 := 4) (n1 := 1024) (i 0) (i 1))
  rw [wrapped_at ids hids i, Spec.row_val_of_lt _ h, BitVec.toInt_eq_toNat_of_lt (by omega)]
  omega

/-! ## The ±1 code as the reference computes it -/

/-- The reference's code of an id word `v` at position `k`: clip `v` to [0, 31999], shift right (arithmetically) by
    14 − k (computed as 14 + (−1)·k in 32-bit words), keep the lowest bit, convert to a float, times 2, minus 1. -/
def codeChain (v : BitVec 32) (k : Fin 15) : EReal :=
  FloatOps.subf (F := Ideal) (φ := .f32)
    (FloatOps.mulf
      (FloatOps.sitofp .f32
        (IntOp.andi
          (IntOp.shrsi .host (IntOp.minsi 31999#32 (IntOp.maxsi 0#32 v))
            (IntOp.addi 14#32 (IntOp.muli 4294967295#32 (BitVec.ofNat 32 k.val))))
          1#32))
      (FloatOps.ofBits .f32 0x40000000#32))
    (FloatOps.ofBits .f32 0x3F800000#32)

/-! ## Result 1: the id's code against the bit table -/

/-- The codes' array at (b, s, k) is the code chain of the id at (b, s) at position k. -/
theorem bits_at (ids : (⟨S4x1024, .i32⟩ : BufTy).Contents (Elt Ideal)) (i : S4x1024x1024.Idx) (k : Fin 15) :
    val_main_v24 (F := Ideal) ids (lidx_main_v25 i k) = codeChain (ids (ix2 (n0 := 4) (n1 := 1024) (i 0) (i 1))) k := by
  have e1 : idx_main_v13 (idx_main_v15 (lidx_main_v25 i k)) = ix2 (n0 := 4) (n1 := 1024) (i 0) (i 1) :=
    funext fun a => by match a with | ⟨0, _⟩ => rfl | ⟨1, _⟩ => rfl
  rw [val_main_v24_apply, val_main_v22_apply, val_main_v23_apply, val_main_cst_6_apply, val_main_v20_apply,
    val_main_v21_apply, val_main_cst_apply, val_main_v19_apply, val_main_v17_apply, val_main_v18_apply,
    val_main_c_5_apply, val_main_v15_apply, val_main_v16_apply, val_main_v13_apply, val_main_v14_apply,
    val_main_v7_apply, val_main_v12_apply, val_main_call0_v4_apply, val_main_call0_v3_apply, val_main_c_2_apply,
    val_main_call0_v2_apply, val_main_call0_v1_apply, val_main_call0_v0_apply, val_main_c_1_apply,
    val_main_v11_apply, val_main_c_4_apply, val_main_v10_apply, val_main_v9_apply, val_main_c_3_apply,
    val_main_v8_apply, e1]
  rfl

/-- The bit table's index of the contraction is (k, d). -/
theorem ridx25 (i : S4x1024x1024.Idx) (k : Fin 15) : ridx_main_v25 i k = ix2 (n0 := 15) (n1 := 1024) k (i 2) :=
  funext fun a => by match a with | ⟨0, _⟩ => rfl | ⟨1, _⟩ => rfl

/-- Result 1 is the sum over the 15 positions of the id's code times the bit table's row, given that the code chain
    is the specification's code. -/
theorem result1_eq' (hcode : ∀ (v : BitVec 32) (k : Fin 15), codeChain v k = Spec.code v k)
    (ids : (⟨S4x1024, .i32⟩ : BufTy).Contents (Elt Ideal)) (wb : (⟨S15x1024, .f32⟩ : BufTy).Contents (Elt Ideal)) :
    val_main_v25 (F := Ideal) ids wb = Spec.G1 ids wb := by
  funext i
  rw [val_main_v25_apply]
  unfold Spec.G1
  refine Finset.sum_congr rfl fun k _ => ?_
  rw [bits_at, ridx25, hcode]

/-! ## Result 3: the softmax of a row of logits against the vocabulary's codes -/

/-- The word 0xFF800000 is −∞, the bottom of the extended reals. -/
theorem neg_inf : Ideal.ofBits .f32 0xFF800000#32 = (⊥ : EReal) := by
  simp [Ideal.ofBits, Ideal.ieee]

/-- Dropping the vocabulary axis: the shape fact the fold over that axis is stated with. -/
theorem reduces_vocab : S4x1024x32000.Reduces [2] S4x1024 := by decide

/-- The row (b, s) with the vocabulary coordinate v put back is (b, s, v). -/
theorem lift_vocab (b : Fin 4) (s : Fin 1024) (k : Fin (S4x1024x32000.size 2)) :
    reduces_vocab.lift (ix2 b s) k = ix3 b s (⟨k.val, k.isLt⟩ : Fin 32000) := by
  funext c; apply Fin.ext
  match c with
  | ⟨0, _⟩ => rfl
  | ⟨1, _⟩ => rfl
  | ⟨2, _⟩ => rfl

/-- The maximum the reference subtracts, at row (b, s): from −∞, the fold of `max` over the row's logits, and once more
    against −∞; that is the row's supremum. -/
theorem rowmax_at (x : (⟨S4x1024x1024, .f32⟩ : BufTy).Contents (Elt Ideal)) (w : (⟨S32000x1024, .f32⟩ : BufTy).Contents (Elt Ideal))
    (b : Fin 4) (s : Fin 1024) : val_main_v29 (F := Ideal) x w (ix2 b s) = Spec.rowMax x w b s := by
  rw [val_main_v29_apply, val_main_v28_apply, val_main_cst_8_apply]
  unfold val_main_v27
  refine (congrArg (FloatOps.maximumf (F := Ideal) (φ := .f32) _)
    (Host.reduce_eq_fold_single FloatOps.maximumf _ _ reducesTo_S4x1024x32000_S4x1024_d2 reduces_vocab h_S_ (ix2 b s))).trans ?_
  rw [result2_eq]
  have hf : (Spec.G2 x w ∘ reduces_vocab.lift (ix2 b s)) = fun v : Fin 32000 => Spec.G2 x w (ix3 b s v) :=
    funext fun k => congrArg (Spec.G2 x w) (lift_vocab b s k)
  rw [hf, val_main_cst_7_apply, Ideal.ofBits_def, neg_inf]
  show max (⊥ : EReal) (Finset.univ.sup fun v : Fin 32000 => Spec.G2 x w (ix3 b s v)) = _
  rw [max_bot_left]
  rfl

/-- The exponentials' array at (b, s, v): the exponential of the logit minus the row's maximum. -/
theorem exp_at (x : (⟨S4x1024x1024, .f32⟩ : BufTy).Contents (Elt Ideal)) (w : (⟨S32000x1024, .f32⟩ : BufTy).Contents (Elt Ideal))
    (b : Fin 4) (s : Fin 1024) (v : Fin 32000) :
    val_main_v33 (F := Ideal) x w (ix3 b s v) = Ideal.exp (Spec.G2 x w (ix3 b s v) - Spec.rowMax x w b s) := by
  have e : idx_main_v30 (idx_main_v31 (ix3 b s v)) = ix2 b s :=
    funext fun a => by match a with | ⟨0, _⟩ => rfl | ⟨1, _⟩ => rfl
  rw [val_main_v33_apply, val_main_v32_apply, val_main_v31_apply, val_main_v30_apply, e, rowmax_at, result2_eq]
  rfl

/-- The softmax denominator at row (b, s): from zero, the sum of the row's exponentials. -/
theorem rowsum_at (x : (⟨S4x1024x1024, .f32⟩ : BufTy).Contents (Elt Ideal)) (w : (⟨S32000x1024, .f32⟩ : BufTy).Contents (Elt Ideal))
    (b : Fin 4) (s : Fin 1024) : val_main_v34 (F := Ideal) x w (ix2 b s) = Spec.rowSum x w b s := by
  rw [val_main_v34_apply, val_main_cst_9_apply, Ideal.ofBits_def, Ideal.ofBits_zero_f32, zero_add]
  unfold Spec.rowSum
  refine Finset.sum_congr rfl fun v _ => ?_
  have e : idx_main_v34 (ix2 b s) v = ix3 b s v :=
    funext fun a => by match a with | ⟨0, _⟩ => rfl | ⟨1, _⟩ => rfl | ⟨2, _⟩ => rfl
  rw [e, exp_at]

/-- The probabilities' array at (b, s, v): the exponential over the row's sum. -/
theorem prob_at (x : (⟨S4x1024x1024, .f32⟩ : BufTy).Contents (Elt Ideal)) (w : (⟨S32000x1024, .f32⟩ : BufTy).Contents (Elt Ideal))
    (b : Fin 4) (s : Fin 1024) (v : Fin 32000) :
    val_main_v37 (F := Ideal) x w (ix3 b s v)
      = Ideal.div (Ideal.exp (Spec.G2 x w (ix3 b s v) - Spec.rowMax x w b s)) (Spec.rowSum x w b s) := by
  have e : idx_main_v35 (idx_main_v36 (ix3 b s v)) = ix2 b s :=
    funext fun a => by match a with | ⟨0, _⟩ => rfl | ⟨1, _⟩ => rfl
  rw [val_main_v37_apply, val_main_v36_apply, val_main_v35_apply, e, rowsum_at, exp_at]
  rfl

/-- The vocabulary's codes' array at (v, k) is the code chain of the word v at position k. -/
theorem vocab_bits_at (v : Fin 32000) (k : Fin 15) :
    val_main_v56 (F := Ideal) (ix2 v k) = codeChain (BitVec.ofNat 32 v.val) k := by
  rw [val_main_v56_apply, val_main_v54_apply, val_main_v55_apply, val_main_cst_16_apply, val_main_v52_apply,
    val_main_v53_apply, val_main_cst_15_apply, val_main_v51_apply, val_main_v49_apply, val_main_v50_apply,
    val_main_c_14_apply, val_main_v47_apply, val_main_v48_apply, val_main_v45_apply, val_main_v46_apply,
    val_main_v39_apply, val_main_v44_apply, val_main_call1_v4_apply, val_main_call1_v3_apply, val_main_c_11_apply,
    val_main_call1_v2_apply, val_main_call1_v1_apply, val_main_call1_v0_apply, val_main_c_10_apply, val_main_v38_apply,
    val_main_v43_apply, val_main_c_13_apply, val_main_v42_apply, val_main_v41_apply, val_main_c_12_apply,
    val_main_v40_apply]
  rfl

/-- Result 3 is the row's softmax against the vocabulary's codes, given that the code chain is the specification's code. -/
theorem result3_eq' (hcode : ∀ (v : BitVec 32) (k : Fin 15), codeChain v k = Spec.code v k)
    (x : (⟨S4x1024x1024, .f32⟩ : BufTy).Contents (Elt Ideal)) (w : (⟨S32000x1024, .f32⟩ : BufTy).Contents (Elt Ideal)) :
    val_main_v57 (F := Ideal) x w = Spec.G3 x w := by
  funext i
  obtain ⟨b, s, k, rfl⟩ : ∃ (b : Fin 4) (s : Fin 1024) (k : Fin 15), i = ix3 b s k := ⟨i 0, i 1, i 2, eq_ix3 i⟩
  rw [val_main_v57_apply]
  show _ = ∑ v : Fin 32000,
    Ideal.div (Ideal.exp (Spec.G2 x w (ix3 b s v) - Spec.rowMax x w b s)) (Spec.rowSum x w b s)
      * Spec.code (BitVec.ofNat 32 v.val) k
  refine Finset.sum_congr rfl fun v _ => ?_
  have el : lidx_main_v57 (ix3 b s k) v = ix3 b s v :=
    funext fun a => by match a with | ⟨0, _⟩ => rfl | ⟨1, _⟩ => rfl | ⟨2, _⟩ => rfl
  have er : ridx_main_v57 (ix3 b s k) v = ix2 v k :=
    funext fun a => by match a with | ⟨0, _⟩ => rfl | ⟨1, _⟩ => rfl
  rw [el, er, prob_at, vocab_bits_at, hcode]

/-! ## The four results, and the run -/

/-- The code chain is the specification's code: bit 14 − k of the clipped id, as ±1. -/
theorem codeChain_eq (v : BitVec 32) (k : Fin 15) : codeChain v k = Spec.code v k :=
  Cert.Proof.Code.code_chain_host v k

/-- Result 1 is the sum over the 15 positions of the id's code times the bit table's row. -/
theorem result1_eq (ids : (⟨S4x1024, .i32⟩ : BufTy).Contents (Elt Ideal)) (wb : (⟨S15x1024, .f32⟩ : BufTy).Contents (Elt Ideal)) :
    val_main_v25 (F := Ideal) ids wb = Spec.G1 ids wb :=
  result1_eq' codeChain_eq ids wb

/-- Result 3 is the row's softmax against the vocabulary's codes. -/
theorem result3_eq (x : (⟨S4x1024x1024, .f32⟩ : BufTy).Contents (Elt Ideal)) (w : (⟨S32000x1024, .f32⟩ : BufTy).Contents (Elt Ideal)) :
    val_main_v57 (F := Ideal) x w = Spec.G3 x w :=
  result3_eq' codeChain_eq x w

/-- The reference's run with each result named as the specification's function of the arguments, the ids in [0, 32000):
    it ends, the four results are the gathered rows, the id codes against the bit table, the logits, and the softmax against
    the vocabulary's codes, and the arguments are unchanged. -/
theorem run (m : (ℓ : Loc nD τ sig) → Buf (Elt Ideal) ℓ) (ρ : Dev nD → PrngReg)
    (hids : ∀ (c : Dev nD) (j : S4x1024.Idx),
      ((m ((c.tc : Thread nD τ).loc main_arg0) : (⟨S4x1024, .i32⟩ : BufTy).Contents (Elt Ideal)) j).toNat < 32000) :
    θ_run (defs (F := Ideal)) (onTc (τ := τ) (main (F := Ideal))) ⟨m, fun _ => 0, ρ⟩ fun r => ∀ c : Dev nD,
      r.2.mem ((c.tc : Thread nD τ).loc main_v6)
          = Spec.G0 (m ((c.tc : Thread nD τ).loc main_arg0)) (m ((c.tc : Thread nD τ).loc main_arg2))
      ∧ r.2.mem ((c.tc : Thread nD τ).loc main_v25)
          = Spec.G1 (m ((c.tc : Thread nD τ).loc main_arg0)) (m ((c.tc : Thread nD τ).loc main_arg3))
      ∧ r.2.mem ((c.tc : Thread nD τ).loc main_v26)
          = Spec.G2 (m ((c.tc : Thread nD τ).loc main_arg1)) (m ((c.tc : Thread nD τ).loc main_arg2))
      ∧ r.2.mem ((c.tc : Thread nD τ).loc main_v57)
          = Spec.G3 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
    ⟨(h c).1.trans ((val_main_v6_eq _ _).trans (result0_eq _ _ (hids c))),
      (h c).2.1.trans ((val_main_v25_eq _ _).trans (result1_eq _ _)),
      (h c).2.2.1.trans ((val_main_v26_eq _ _).trans (result2_eq _ _)),
      (h c).2.2.2.1.trans ((val_main_v57_eq _ _).trans (result3_eq _ _)),
      (h c).2.2.2.2⟩) (Cert.ReferenceIdeal.Value.run (F := Ideal) m ρ)

end Cert.Proof.RefValue

end
-- ==== Proof.Final.lean ====
/-
  The kernel program and the reference compute the same four arrays of the same arguments.
  At its return the kernel program's four result buffers are reshapes of what its two calls leave in their output arrays;
  reading the reshapes and the host stretches at an index, and given what each call leaves in terms of the contents it is
  entered with (the gathered rows, the id codes against the bit table, the logits, the softmax against the vocabulary's codes),
  each result is the specification's function of the launch arguments: row n = 1024 b + s of a call's [4096, ·] array is
  row (b, s) of the result, the id table's word n is the id at (b, s), and the flattened activations' row n is the
  activations' row (b, s). The reference's run ends at the same four functions, so the two agree.
-/
import proofs.«430590_j46402826666034_2_alg».proof.Proof.KI.FrameArgs
import proofs.«430590_j46402826666034_2_alg».proof.Proof.RefValue
import proofs.«430590_j46402826666034_2_alg».proof.Defs

noncomputable section

namespace Cert.Proof.Final

open Cert.KernelIdeal Cert.KernelIdeal.Gen Cert.KernelIdeal.Hand Cert.KernelIdeal.FrameArgs
open Idealize.ShloMosaic Idealize.ShloMosaic.TcCoe Idealize.SL.Sem Idealize.ShloMosaic.ValueIdx

variable (m : (ℓ : Loc nD τ sig) → Buf (Elt Ideal) ℓ) (ρ : Dev nD → PrngReg) (hw : RowsOk (Hand.V3 m))

/-! ## The launch arguments, the buffers the calls read and write, and flat positions -/

/-- The id array, the activations, the embedding table and the bit table as launched on core `c`. -/
abbrev ids (c : Dev nD) : IVec S4x1024 32 := m ((c : Thread nD τ).loc main_arg0)
abbrev xs (c : Dev nD) : FVec Ideal S4x1024x1024 .f32 := m ((c : Thread nD τ).loc main_arg1)
abbrev ws (c : Dev nD) : FVec Ideal S32000x1024 .f32 := m ((c : Thread nD τ).loc main_arg2)
abbrev wbs (c : Dev nD) : FVec Ideal S15x1024 .f32 := m ((c : Thread nD τ).loc main_arg3)

/-- What the first call is entered with: the id table, the embedding table, the code array, the bit table. -/
abbrev tbl3 (c : Dev nD) : IVec S4096 32 := Hand.V3 m c main_v0
abbrev emb3 (c : Dev nD) : FVec Ideal S32000x1024 .f32 := Hand.V3 m c main_arg2
abbrev code3 (c : Dev nD) : FVec Ideal S4096x15 .f32 := Hand.V3 m c main_v19
abbrev bit3 (c : Dev nD) : FVec Ideal S15x1024 .f32 := Hand.V3 m c main_arg3
/-- What the second call is entered with: the flattened activations and the narrowed embedding table. -/
abbrev act5 (c : Dev nD) : FVec Ideal S4096x1024 .f32 := Hand.V5 m hw c main_v1
abbrev emb5 (c : Dev nD) : FVec Ideal S32000x1024 .bf16 := Hand.V5 m hw c main_v23
/-- What the calls leave in their output arrays. -/
abbrev rows0 (c : Dev nD) : FVec Ideal S4096x1024 .f32 := (dat0 (Hand.V3 m) hw c).arrAt 2 (cfg0 (adm0 (Hand.V3 m))).N
abbrev bits0 (c : Dev nD) : FVec Ideal S4096x1024 .f32 := (dat0 (Hand.V3 m) hw c).arrAt 3 (cfg0 (adm0 (Hand.V3 m))).N
abbrev logits1 (c : Dev nD) : FVec Ideal S4096x32000 .f32 := (dat1 (Hand.V5 m hw) c).arrAt 2 cfg1.N
abbrev soft1 (c : Dev nD) : FVec Ideal S4096x15 .f32 := (dat1 (Hand.V5 m hw) c).arrAt 3 cfg1.N

/-- The flat position 1024 b + s of (b, s). -/
abbrev flat (b : Fin 4) (s : Fin 1024) : Fin 4096 := ⟨1024 * b.val + s.val, by have := b.isLt; have := s.isLt; omega⟩

/-- Position (n / 1024, n % 1024) at n = 1024 b + s is (b, s). -/
theorem ix2_unflat (b : Fin 4) (s : Fin 1024) (h1 : (flat b s).val / 1024 < 4) (h2 : (flat b s).val % 1024 < 1024) :
    ix2 (⟨(flat b s).val / 1024, h1⟩ : Fin 4) (⟨(flat b s).val % 1024, h2⟩ : Fin 1024) = ix2 b s :=
  congrArg₂ (fun (a : Fin 4) (a' : Fin 1024) => ix2 a a')
    (Fin.ext (by show (1024 * b.val + s.val) / 1024 = b.val; have := s.isLt; omega))
    (Fin.ext (by show (1024 * b.val + s.val) % 1024 = s.val; have := s.isLt; omega))

theorem ix3_unflat {n : Nat} (b : Fin 4) (s : Fin 1024) (d : Fin n) (h1 : (flat b s).val / 1024 < 4)
    (h2 : (flat b s).val % 1024 < 1024) :
    ix3 (⟨(flat b s).val / 1024, h1⟩ : Fin 4) (⟨(flat b s).val % 1024, h2⟩ : Fin 1024) d = ix3 b s d :=
  congrArg₂ (fun (a : Fin 4) (a' : Fin 1024) => ix3 a a' d)
    (Fin.ext (by show (1024 * b.val + s.val) / 1024 = b.val; have := s.isLt; omega))
    (Fin.ext (by show (1024 * b.val + s.val) % 1024 = s.val; have := s.isLt; omega))

/-! ## What the calls are entered with, in terms of the launch arguments -/

/-- At the first call's entry the embedding table and the bit table are as launched. -/
theorem emb3_eq (c : Dev nD) : emb3 m c = ws m c :=
  W3_launch m c main_arg2 (by decide) (by decide) (by decide)
theorem bit3_eq (c : Dev nD) : bit3 m c = wbs m c :=
  W3_launch m c main_arg3 (by decide) (by decide) (by decide)

/-- Word n of the id table is the id at (n / 1024, n % 1024). -/
theorem tbl3_at (c : Dev nD) (n : Fin 4096) :
    tbl3 m c (ix1 n) = ids m c (ix2 ⟨n.val / 1024, by have := n.isLt; omega⟩ ⟨n.val % 1024, Nat.mod_lt _ (by norm_num)⟩) :=
  tbl_at m c n

/-- Entry (n, k) of the code array is the code of the id at flat position n. -/
theorem code3_at (c : Dev nD) (n : Fin 4096) (k : Fin 15) :
    code3 m c (ix2 n k) =
      Cert.Proof.Spec.code (ids m c (ix2 ⟨n.val / 1024, by have := n.isLt; omega⟩ ⟨n.val % 1024, Nat.mod_lt _ (by norm_num)⟩)) k :=
  v19_code (W0 m c) n k

/-- Row n of the flattened activations is row (n / 1024, n % 1024) of the activations. -/
theorem act5_at (c : Dev nD) (n : Fin 4096) (d : Fin 1024) :
    act5 m hw c (ix2 n d) =
      xs m c (ix3 ⟨n.val / 1024, by have := n.isLt; omega⟩ ⟨n.val % 1024, Nat.mod_lt _ (by norm_num)⟩ d) := by
  show (W5 m hw c (Proc.devRef .tc main_v1) : FVec Ideal S4096x1024 .f32) (ix2 n d) = _
  rw [W5_of m hw c main_v1 (by decide), W4_of_ne m hw c main_v1 (by decide), W3_of m c main_v1 (by decide),
    W2_of m c main_v1 (by decide)]
  exact v1_apply (W0 m c) n d

/-- The narrowed embedding table is the embedding table (over the extended reals the narrowing changes nothing). -/
theorem emb5_at (c : Dev nD) (i : S32000x1024.Idx) : emb5 m hw c i = ws m c i := by
  refine (v23_apply (W4 m hw c) i).trans ?_
  rw [W4_of_ne m hw c main_arg2 (by decide)]
  exact congrFun (emb3_eq m c) i

/-! ## Under the precondition the second call's input arrays hold real numbers -/

/-- Every entry of the flattened activations is a real number. -/
theorem act5_real (hpre : Cert.Pre_KernelIdeal m) (c : Dev nD) : ∀ i, ∃ r : ℝ, act5 m hw c i = (r : EReal) := by
  intro i
  obtain ⟨n, d, rfl⟩ : ∃ (n : Fin 4096) (d : Fin 1024), i = ix2 n d := ⟨i 0, i 1, eq_ix2 i⟩
  rw [act5_at]
  exact Cert.Proof.PreFacts.x_real _ _ _ _ (hpre c) _

/-- Every entry of the narrowed embedding table is a real number. -/
theorem emb5_real (hpre : Cert.Pre_KernelIdeal m) (c : Dev nD) : ∀ i, ∃ r : ℝ, emb5 m hw c i = (r : EReal) := by
  intro i
  rw [emb5_at]
  exact Cert.Proof.PreFacts.w_real _ _ _ _ (hpre c) _

/-! ## What each call leaves, as hypotheses on its output arrays -/

/-- The first call's first output: row n is the embedding table's row named by word n of the id table. -/
abbrev HA0 (c : Dev nD) : Prop := ∀ (n : Fin 4096) (d : Fin 1024),
  rows0 m hw c (ix2 n d) = emb3 m c (ix2 (Cert.Proof.Spec.row (tbl3 m c (ix1 n))) d)

/-- The first call's second output: the code array against the bit table. -/
abbrev HA1 (c : Dev nD) : Prop := ∀ (n : Fin 4096) (d : Fin 1024),
  bits0 m hw c (ix2 n d) = ∑ k : Fin 15, code3 m c (ix2 n k) * bit3 m c (ix2 k d)

/-- The second call's first output: the flattened activations against the narrowed embedding table. -/
abbrev HA2 (c : Dev nD) : Prop := ∀ (n : Fin 4096) (v : Fin 32000),
  logits1 m hw c (ix2 n v) = ∑ d : Fin 1024, act5 m hw c (ix2 n d) * emb5 m hw c (ix2 v d)

/-- The second call's second output: row n is the softmax of row (n / 1024, n % 1024) of the logits against the codes. -/
abbrev HA3 (c : Dev nD) : Prop := ∀ (n : Fin 4096) (k : Fin 15),
  soft1 m hw c (ix2 n k) =
    Cert.Proof.Spec.G3 (xs m c) (ws m c)
      (ix3 (⟨n.val / 1024, by have := n.isLt; omega⟩ : Fin 4) (⟨n.val % 1024, Nat.mod_lt _ (by norm_num)⟩ : Fin 1024) k)

/-! ## The four results at the return -/

/-- Result 0: the gathered rows. -/
theorem result0 (c : Dev nD) (hA0 : HA0 m hw c) :
    (W7 m hw c (Proc.devRef .tc main_v21) : FVec Ideal S4x1024x1024 .f32) = Cert.Proof.Spec.G0 (ids m c) (ws m c) := by
  funext i
  obtain ⟨b, s, d, rfl⟩ : ∃ (b : Fin 4) (s : Fin 1024) (d : Fin 1024), i = ix3 b s d := ⟨i 0, i 1, i 2, eq_ix3 i⟩
  rw [W7_of m hw c main_v21 (by decide), W6_of_ne m hw c main_v21 (by decide)]
  refine (v21_apply (W4 m hw c) b s d).trans ?_
  rw [show (W4 m hw c (Proc.devRef .tc main_v20_0) : FVec Ideal S4096x1024 .f32) = rows0 m hw c from W4_arr m hw c 2]
  refine (hA0 (flat b s) d).trans ?_
  show emb3 m c (ix2 (Cert.Proof.Spec.row (tbl3 m c (ix1 (flat b s)))) d)
    = ws m c (ix2 (Cert.Proof.Spec.row (ids m c (ix2 b s))) d)
  rw [emb3_eq, tbl3_at m c (flat b s), ix2_unflat]

/-- Result 1: the id codes against the bit table. -/
theorem result1 (c : Dev nD) (hA1 : HA1 m hw c) :
    (W7 m hw c (Proc.devRef .tc main_v22) : FVec Ideal S4x1024x1024 .f32) = Cert.Proof.Spec.G1 (ids m c) (wbs m c) := by
  funext i
  obtain ⟨b, s, d, rfl⟩ : ∃ (b : Fin 4) (s : Fin 1024) (d : Fin 1024), i = ix3 b s d := ⟨i 0, i 1, i 2, eq_ix3 i⟩
  rw [W7_of m hw c main_v22 (by decide), W6_of_ne m hw c main_v22 (by decide)]
  refine (v22_apply (W4 m hw c) b s d).trans ?_
  rw [show (W4 m hw c (Proc.devRef .tc main_v20_1) : FVec Ideal S4096x1024 .f32) = bits0 m hw c from W4_arr m hw c 3]
  refine (hA1 (flat b s) d).trans ?_
  show ∑ k : Fin 15, code3 m c (ix2 (flat b s) k) * bit3 m c (ix2 k d)
    = ∑ k : Fin 15, Cert.Proof.Spec.code (ids m c (ix2 b s)) k * wbs m c (ix2 k d)
  refine Finset.sum_congr rfl fun k _ => ?_
  rw [code3_at, bit3_eq, ix2_unflat]

/-- Result 2: the logits. -/
theorem result2 (c : Dev nD) (hA2 : HA2 m hw c) :
    (W7 m hw c (Proc.devRef .tc main_v25) : FVec Ideal S4x1024x32000 .f32) = Cert.Proof.Spec.G2 (xs m c) (ws m c) := by
  funext i
  obtain ⟨b, s, v, rfl⟩ : ∃ (b : Fin 4) (s : Fin 1024) (v : Fin 32000), i = ix3 b s v := ⟨i 0, i 1, i 2, eq_ix3 i⟩
  refine (v25_apply (W6 m hw c) b s v).trans ?_
  rw [show (W6 m hw c (Proc.devRef .tc main_v24_0) : FVec Ideal S4096x32000 .f32) = logits1 m hw c from W6_arr m hw c 2]
  refine (hA2 (flat b s) v).trans ?_
  show ∑ d : Fin 1024, act5 m hw c (ix2 (flat b s) d) * emb5 m hw c (ix2 v d)
    = ∑ d : Fin 1024, xs m c (ix3 b s d) * ws m c (ix2 v d)
  refine Finset.sum_congr rfl fun d _ => ?_
  rw [act5_at, emb5_at, ix3_unflat]

/-- Result 3: the softmax against the vocabulary's codes. -/
theorem result3 (c : Dev nD) (hA3 : HA3 m hw c) :
    (W7 m hw c (Proc.devRef .tc main_v26) : FVec Ideal S4x1024x15 .f32) = Cert.Proof.Spec.G3 (xs m c) (ws m c) := by
  funext i
  obtain ⟨b, s, k, rfl⟩ : ∃ (b : Fin 4) (s : Fin 1024) (k : Fin 15), i = ix3 b s k := ⟨i 0, i 1, i 2, eq_ix3 i⟩
  refine (v26_apply (W6 m hw c) b s k).trans ?_
  rw [show (W6 m hw c (Proc.devRef .tc main_v24_1) : FVec Ideal S4096x15 .f32) = soft1 m hw c from W6_arr m hw c 3]
  refine (hA3 (flat b s) k).trans ?_
  rw [ix3_unflat]

/-! ## The three claims at the extended reals -/

/-- The kernel program's frame: it runs, and its arguments end as launched. -/
theorem frame_KI : Cert.frame_KernelIdeal :=
  fun m g hpre => Cert.KernelIdeal.FrameArgs.frame_run m g hpre

/-- The reference's frame. -/
theorem frame_RI : Cert.frame_ReferenceIdeal :=
  fun m g _ => Cert.Proof.RefValue.frame m g

/-- The kernel program and the reference, run from memories that agree on the arguments, end with the same four results
    (the specification's functions of the arguments) and unchanged arguments — given what the two calls leave under the
    precondition (the softmax computed in one pass over the vocabulary's blocks is the two-pass one only for real logits). -/
theorem algebraic
    (hA0 : ∀ (m : (ℓ : Loc nD τ sig) → Buf (Elt Ideal) ℓ) (hpre : Cert.Pre_KernelIdeal m) (hw : RowsOk (Hand.V3 m)) (c : Dev nD), HA0 m hw c)
    (hA1 : ∀ (m : (ℓ : Loc nD τ sig) → Buf (Elt Ideal) ℓ) (hpre : Cert.Pre_KernelIdeal m) (hw : RowsOk (Hand.V3 m)) (c : Dev nD), HA1 m hw c)
    (hA2 : ∀ (m : (ℓ : Loc nD τ sig) → Buf (Elt Ideal) ℓ) (hpre : Cert.Pre_KernelIdeal m) (hw : RowsOk (Hand.V3 m)) (c : Dev nD), HA2 m hw c)
    (hA3 : ∀ (m : (ℓ : Loc nD τ sig) → Buf (Elt Ideal) ℓ) (hpre : Cert.Pre_KernelIdeal m) (hw : RowsOk (Hand.V3 m)) (c : Dev nD), HA3 m hw c) :
    Cert.algebraic_KernelIdeal_ReferenceIdeal := by
  intro m g m' g' hpre hagree
  have hw : RowsOk (Hand.V3 m) := rowsOk_of_fn m hpre
  have hids : ∀ (c : Dev Cert.ReferenceIdeal.nD) (j : Cert.ReferenceIdeal.S4x1024.Idx),
      ((m' ((c.tc : Thread Cert.ReferenceIdeal.nD Cert.ReferenceIdeal.τ).loc Cert.ReferenceIdeal.main_arg0)
        : (⟨Cert.ReferenceIdeal.S4x1024, .i32⟩ : BufTy).Contents (Elt Ideal)) j).toNat < 32000 := by
    intro c j
    rw [(hagree c).1]
    exact Cert.Proof.PreFacts.ids_lt _ _ _ _ (hpre c) j
  refine ⟨fun c => Cert.Proof.Spec.G0 (ids m c) (ws m c), fun c => Cert.Proof.Spec.G1 (ids m c) (wbs m c),
    fun c => Cert.Proof.Spec.G2 (xs m c) (ws m c), fun c => Cert.Proof.Spec.G3 (xs m c) (ws m c), ?_, ?_⟩
  · exact (θ_run (defs (F := Ideal)) _ _).mono (fun r h c =>
      ⟨(h c _ (mem_uc main_v21 (by decide))).trans (result0 m hw c (hA0 m hpre hw c)),
        (h c _ (mem_uc main_v22 (by decide))).trans (result1 m hw c (hA1 m hpre hw c)),
        (h c _ (mem_uc main_v25 (by decide))).trans (result2 m hw c (hA2 m hpre hw c)),
        (h c _ (mem_uc main_v26 (by decide))).trans (result3 m hw c (hA3 m hpre hw c)),
        (h c _ (mem_uc main_arg0 (by decide))).trans (W7_main_arg0 m hw c),
        (h c _ (mem_uc main_arg1 (by decide))).trans (W7_main_arg1 m hw c),
        (h c _ (mem_uc main_arg2 (by decide))).trans (W7_main_arg2 m hw c),
        (h c _ (mem_uc main_arg3 (by decide))).trans (W7_main_arg3 m hw c)⟩) (run_all m g hw)
  · exact (θ_run (Cert.ReferenceIdeal.defs (F := Ideal)) _ _).mono (fun r h c =>
      ⟨(h c).1.trans (by rw [(hagree c).1, (hagree c).2.2.1]),
        (h c).2.1.trans (by rw [(hagree c).1, (hagree c).2.2.2]),
        (h c).2.2.1.trans (by rw [(hagree c).2.1, (hagree c).2.2.1]),
        (h c).2.2.2.1.trans (by rw [(hagree c).2.1, (hagree c).2.2.1]),
        (h c).2.2.2.2⟩) (Cert.Proof.RefValue.run m' g' hids)

end Cert.Proof.Final

end
-- ==== Proof.KI.Cover.lean ====
/-
  From blocks to arrays for the two pallas_calls' windows. A block of a window at grid point t sits in its array at
  block index × block size; for an output window whose written-back blocks are the restrictions of one whole-array
  function G and tile the array, the array ends holding G. Nothing here reads a kernel body.
  First call: 32 points, point t holds rows 128 t … 128 t + 127. Second call: 2 × 125 points, point t = 125 i + j
  holds rows 2048 i … 2048 i + 2047 and (for the logits) columns 256 j … 256 j + 255.
-/
import proofs.«430590_j46402826666034_2_alg».proof.Proof.KI.Defs0
import proofs.«430590_j46402826666034_2_alg».proof.Proof.Gen.KernelIdeal.Points
import Idealize.ShloMosaic.Lib.Pipeline.Value
import Idealize.ShloMosaic.Lib.Pipeline.FrameBody
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- Membership in a unit-stride rectangle of a whole buffer, coordinate by coordinate. -/
theorem mem_slice_whole_unit {κ : Kind} (b : Ref sig κ) (off size : Fin b.ty.shape.rank → Nat)
    (inb : ∀ a, off a + size a ≤ b.ty.shape.size a) (i : b.ty.shape.Idx) :
    i ∈ ((View.whole b).slice (Rect.unit off size inb)).set ↔ ∀ a, off a ≤ (i a).val ∧ (i a).val < off a + size a := by
  rw [View.set_slice_whole, Rect.mem_set_unit]

/-! ## First call

Its index maps do not read the prefetched id table, so everything is stated at arbitrary admissible contents a of the
table. 32 points; every window but the bit table's moves with the point: block index (t, 0). -/

section FirstCall
variable (a : (pcfg0 (F := F)).Adm)

theorem N0 : (cfg0 a).N = 32 := rfl

/-- The block indices of the first call's windows at point t. -/
theorem idx0 : ∀ t : Fin grid0.N,
    cc0_transform_1 (grid0.coords t) (0 : Fin 2) = t.val ∧ cc0_transform_1 (grid0.coords t) (1 : Fin 2) = 0
    ∧ cc0_transform_2 (grid0.coords t) (0 : Fin 2) = 0 ∧ cc0_transform_2 (grid0.coords t) (1 : Fin 2) = 0
    ∧ cc0_transform_3 (grid0.coords t) (0 : Fin 2) = t.val ∧ cc0_transform_3 (grid0.coords t) (1 : Fin 2) = 0
    ∧ cc0_transform_4 (grid0.coords t) (0 : Fin 2) = t.val ∧ cc0_transform_4 (grid0.coords t) (1 : Fin 2) = 0 := by
  decide +kernel

/-- Both output windows' block indices change at every point: each point writes its block back. -/
theorem flushOf0 : ∀ t : Fin grid0.N, Pipeline.Window.flushOf grid0 true cc0_transform_3 t = true
    ∧ Pipeline.Window.flushOf grid0 true cc0_transform_4 t = true := by
  decide +kernel

theorem flush0_2 (t : Fin (cfg0 a).N) : ((cfg0 a).win 2).flush t = true := (flushOf0 t).1
theorem flush0_3 (t : Fin (cfg0 a).N) : ((cfg0 a).win 3).flush t = true := (flushOf0 t).2

/-! ### The gathered-rows window (window 2): blocks [128, 1024] at (t, 0) -/

/-- A block of the window read out of a whole-array function. -/
theorem read_blk0_2 (t : Fin (cfg0 a).N) (G : S4096x1024.Idx → Elt F .f32) (y : S128x1024.Idx) :
    (((cfg0 a).win 2).blk t).view.read (Elt F) G y
      = G (ix2 ⟨128 * t.val + (y 0).val, by have := t.isLt; have := N0 a; have := idx2_lt0 y; omega⟩ (y 1)) := by
  obtain ⟨-, -, -, -, e0, e1, -, -⟩ := idx0 t
  show G ((((cfg0 a).win 2).blk t).view.emb y) = G _
  congr 1
  funext b
  apply Fin.ext
  match b with
  | ⟨0, _⟩ => show cc0_transform_3 (grid0.coords t) (0 : Fin 2) * 128 + 1 * (y 0).val = 128 * t.val + (y 0).val; rw [e0]; omega
  | ⟨1, _⟩ => show cc0_transform_3 (grid0.coords t) (1 : Fin 2) * 1024 + 1 * (y 1).val = (y 1).val; rw [e1]; omega

/-- An index of the array is in point t's block iff each coordinate is in the block's range on its axis. -/
theorem mem_blk0_2 (t : Fin (cfg0 a).N) (i : S4096x1024.Idx) :
    i ∈ (((cfg0 a).win 2).blk t).view.set ↔ ∀ b : Fin 2, cc0_transform_3 (grid0.coords t) b * S128x1024.size b ≤ (i b).val
      ∧ (i b).val < cc0_transform_3 (grid0.coords t) b * S128x1024.size b + S128x1024.size b := by
  exact mem_slice_whole_unit main_v20_0 _ _ _ i

/-- Every index of the array is in the block of the point row / 128. -/
theorem cover0_2 (i : S4096x1024.Idx) :
    ∃ t : Fin (cfg0 a).N, ((cfg0 a).win 2).flush t = true ∧ i ∈ (((cfg0 a).win 2).blk t).view.set := by
  have h0 : (i 0).val < 4096 := idx2_lt0 i
  have h1 : (i 1).val < 1024 := idx2_lt1 i
  have ht : (i 0).val / 128 < (cfg0 a).N := by rw [N0]; omega
  refine ⟨⟨(i 0).val / 128, ht⟩, flush0_2 a _, ?_⟩
  rw [mem_blk0_2]
  obtain ⟨-, -, -, -, e0, e1, -, -⟩ := idx0 ⟨(i 0).val / 128, ht⟩
  intro b
  match b with
  | ⟨0, _⟩ =>
    show cc0_transform_3 _ (0 : Fin 2) * 128 ≤ (i 0).val ∧ (i 0).val < cc0_transform_3 _ (0 : Fin 2) * 128 + 128
    rw [e0]; dsimp only; omega
  | ⟨1, _⟩ =>
    show cc0_transform_3 _ (1 : Fin 2) * 1024 ≤ (i 1).val ∧ (i 1).val < cc0_transform_3 _ (1 : Fin 2) * 1024 + 1024
    rw [e1]; omega

/-- If every point writes back its block of G, the array ends holding G. -/
theorem arr0_2_of_flushed (c : Dev nD) (dat : Dat τ (Elt F) Unit ℕ (Pipeline.UD sig nD τ) ℕ (cfg0 a) c)
    (G : S4096x1024.Idx → Elt F .f32)
    (hG : ∀ t : Fin (cfg0 a).N, dat.flushed 2 t = (((cfg0 a).win 2).blk t).view.read (Elt F) G) :
    dat.arrAt 2 (cfg0 a).N = G :=
  dat.arrAt_eq_of_cover 2 G (fun t _ => hG t) (cover0_2 a)

/-- The same from the blocks' contents by coordinates: point t leaves rows 128 t + p of G. -/
theorem arr0_2 (c : Dev nD) (dat : Dat τ (Elt F) Unit ℕ (Pipeline.UD sig nD τ) ℕ (cfg0 a) c)
    (G : S4096x1024.Idx → Elt F .f32)
    (h : ∀ (t : Fin (cfg0 a).N) (y : S128x1024.Idx), dat.after 2 t y
      = G (ix2 ⟨128 * t.val + (y 0).val, by have := t.isLt; have := N0 a; have := idx2_lt0 y; omega⟩ (y 1))) :
    dat.arrAt 2 (cfg0 a).N = G :=
  arr0_2_of_flushed a c dat G fun t => funext fun y => (h t y).trans (read_blk0_2 a t G y).symm

/-! ### The bit-code window (window 3): blocks [128, 1024] at (t, 0) -/

/-- A block of the window read out of a whole-array function. -/
theorem read_blk0_3 (t : Fin (cfg0 a).N) (G : S4096x1024.Idx → Elt F .f32) (y : S128x1024.Idx) :
    (((cfg0 a).win 3).blk t).view.read (Elt F) G y
      = G (ix2 ⟨128 * t.val + (y 0).val, by have := t.isLt; have := N0 a; have := idx2_lt0 y; omega⟩ (y 1)) := by
  obtain ⟨-, -, -, -, -, -, e0, e1⟩ := idx0 t
  show G ((((cfg0 a).win 3).blk t).view.emb y) = G _
  congr 1
  funext b
  apply Fin.ext
  match b with
  | ⟨0, _⟩ => show cc0_transform_4 (grid0.coords t) (0 : Fin 2) * 128 + 1 * (y 0).val = 128 * t.val + (y 0).val; rw [e0]; omega
  | ⟨1, _⟩ => show cc0_transform_4 (grid0.coords t) (1 : Fin 2) * 1024 + 1 * (y 1).val = (y 1).val; rw [e1]; omega

/-- An index of the array is in point t's block iff each coordinate is in the block's range on its axis. -/
theorem mem_blk0_3 (t : Fin (cfg0 a).N) (i : S4096x1024.Idx) :
    i ∈ (((cfg0 a).win 3).blk t).view.set ↔ ∀ b : Fin 2, cc0_transform_4 (grid0.coords t) b * S128x1024.size b ≤ (i b).val
      ∧ (i b).val < cc0_transform_4 (grid0.coords t) b * S128x1024.size b + S128x1024.size b := by
  exact mem_slice_whole_unit main_v20_1 _ _ _ i

/-- Every index of the array is in the block of the point row / 128. -/
theorem cover0_3 (i : S4096x1024.Idx) :
    ∃ t : Fin (cfg0 a).N, ((cfg0 a).win 3).flush t = true ∧ i ∈ (((cfg0 a).win 3).blk t).view.set := by
  have h0 : (i 0).val < 4096 := idx2_lt0 i
  have h1 : (i 1).val < 1024 := idx2_lt1 i
  have ht : (i 0).val / 128 < (cfg0 a).N := by rw [N0]; omega
  refine ⟨⟨(i 0).val / 128, ht⟩, flush0_3 a _, ?_⟩
  rw [mem_blk0_3]
  obtain ⟨-, -, -, -, -, -, e0, e1⟩ := idx0 ⟨(i 0).val / 128, ht⟩
  intro b
  match b with
  | ⟨0, _⟩ =>
    show cc0_transform_4 _ (0 : Fin 2) * 128 ≤ (i 0).val ∧ (i 0).val < cc0_transform_4 _ (0 : Fin 2) * 128 + 128
    rw [e0]; dsimp only; omega
  | ⟨1, _⟩ =>
    show cc0_transform_4 _ (1 : Fin 2) * 1024 ≤ (i 1).val ∧ (i 1).val < cc0_transform_4 _ (1 : Fin 2) * 1024 + 1024
    rw [e1]; omega

/-- If every point writes back its block of G, the array ends holding G. -/
theorem arr0_3_of_flushed (c : Dev nD) (dat : Dat τ (Elt F) Unit ℕ (Pipeline.UD sig nD τ) ℕ (cfg0 a) c)
    (G : S4096x1024.Idx → Elt F .f32)
    (hG : ∀ t : Fin (cfg0 a).N, dat.flushed 3 t = (((cfg0 a).win 3).blk t).view.read (Elt F) G) :
    dat.arrAt 3 (cfg0 a).N = G :=
  dat.arrAt_eq_of_cover 3 G (fun t _ => hG t) (cover0_3 a)

/-- The same from the blocks' contents by coordinates: point t leaves rows 128 t + p of G. -/
theorem arr0_3 (c : Dev nD) (dat : Dat τ (Elt F) Unit ℕ (Pipeline.UD sig nD τ) ℕ (cfg0 a) c)
    (G : S4096x1024.Idx → Elt F .f32)
    (h : ∀ (t : Fin (cfg0 a).N) (y : S128x1024.Idx), dat.after 3 t y
      = G (ix2 ⟨128 * t.val + (y 0).val, by have := t.isLt; have := N0 a; have := idx2_lt0 y; omega⟩ (y 1))) :
    dat.arrAt 3 (cfg0 a).N = G :=
  arr0_3_of_flushed a c dat G fun t => funext fun y => (h t y).trans (read_blk0_3 a t G y).symm

/-! ### The input windows -/

/-- A block of the per-row codes (window 0: blocks [128, 15] at (t, 0)) read out of the array. -/
theorem read_blk0_0 (t : Fin (cfg0 a).N) (A : S4096x15.Idx → Elt F .f32) (y : S128x15.Idx) :
    (((cfg0 a).win 0).blk t).view.read (Elt F) A y
      = A (ix2 ⟨128 * t.val + (y 0).val, by have := t.isLt; have := N0 a; have := idx2_lt0 y; omega⟩ (y 1)) := by
  obtain ⟨e0, e1, -, -, -, -, -, -⟩ := idx0 t
  show A ((((cfg0 a).win 0).blk t).view.emb y) = A _
  congr 1
  funext b
  apply Fin.ext
  match b with
  | ⟨0, _⟩ => show cc0_transform_1 (grid0.coords t) (0 : Fin 2) * 128 + 1 * (y 0).val = 128 * t.val + (y 0).val; rw [e0]; omega
  | ⟨1, _⟩ => show cc0_transform_1 (grid0.coords t) (1 : Fin 2) * 15 + 1 * (y 1).val = (y 1).val; rw [e1]; omega

/-- The one block of the bit table (window 1: the whole array at (0, 0)) is the array. -/
theorem read_blk0_1 (t : Fin (cfg0 a).N) (A : S15x1024.Idx → Elt F .f32) (y : S15x1024.Idx) :
    (((cfg0 a).win 1).blk t).view.read (Elt F) A y = A y := by
  obtain ⟨-, -, e0, e1, -, -, -, -⟩ := idx0 t
  show A ((((cfg0 a).win 1).blk t).view.emb y) = A _
  congr 1
  funext b
  apply Fin.ext
  match b with
  | ⟨0, _⟩ => show cc0_transform_2 (grid0.coords t) (0 : Fin 2) * 15 + 1 * (y 0).val = (y 0).val; rw [e0]; omega
  | ⟨1, _⟩ => show cc0_transform_2 (grid0.coords t) (1 : Fin 2) * 1024 + 1 * (y 1).val = (y 1).val; rw [e1]; omega

end FirstCall

/-! ## Second call -/

theorem N1 : cfg1.N = 250 := by decide

/-- The block indices of the second call's windows at point t = 125 i + j: rows by i, columns by j. -/
theorem idx1 : ∀ t : Fin cfg1.N,
    win1_0.index t (0 : Fin 2) = t.val / 125 ∧ win1_0.index t (1 : Fin 2) = 0
    ∧ win1_1.index t (0 : Fin 2) = t.val % 125 ∧ win1_1.index t (1 : Fin 2) = 0
    ∧ win1_2.index t (0 : Fin 2) = t.val / 125 ∧ win1_2.index t (1 : Fin 2) = t.val % 125
    ∧ win1_3.index t (0 : Fin 2) = t.val / 125 ∧ win1_3.index t (1 : Fin 2) = 0 :=
  (by decide +kernel : ∀ t : Fin grid1.N, _)

/-! ### The logits window (window 2): blocks [2048, 256] at (i, j), written back at every point -/

/-- A block of the logits window read out of a whole-array function. -/
theorem read_blk1_2 (t : Fin cfg1.N) (G : S4096x32000.Idx → Elt F .f32) (y : S2048x256.Idx) :
    ((cfg1.win 2).blk t).view.read (Elt F) G y
      = G (ix2 ⟨2048 * (t.val / 125) + (y 0).val, by have := t.isLt; have := N1; have := idx2_lt0 y; omega⟩
              ⟨256 * (t.val % 125) + (y 1).val, by have := idx2_lt1 y; omega⟩) := by
  obtain ⟨-, -, -, -, e0, e1, -, -⟩ := idx1 t
  show G (((cfg1.win 2).blk t).view.emb y) = G _
  congr 1
  funext a
  apply Fin.ext
  match a with
  | ⟨0, _⟩ => show win1_2.index t (0 : Fin 2) * 2048 + 1 * (y 0).val = 2048 * (t.val / 125) + (y 0).val; rw [e0]; omega
  | ⟨1, _⟩ => show win1_2.index t (1 : Fin 2) * 256 + 1 * (y 1).val = 256 * (t.val % 125) + (y 1).val; rw [e1]; omega

/-- An index of the logits array is in point t's block iff each coordinate is in the block's range on its axis. -/
theorem mem_blk1_2 (t : Fin cfg1.N) (i : S4096x32000.Idx) :
    i ∈ ((cfg1.win 2).blk t).view.set ↔ ∀ a : Fin 2, win1_2.index t a * S2048x256.size a ≤ (i a).val
      ∧ (i a).val < win1_2.index t a * S2048x256.size a + S2048x256.size a := by
  show i ∈ ((View.whole main_v24_0).slice (win1_2.rect t)).set ↔ _
  rw [View.set_slice_whole, Rect.mem_set_unit]
  exact Iff.rfl

/-- Every index of the logits array is in the block of the point 125 · (row / 2048) + column / 256. -/
theorem cover1_2 (i : S4096x32000.Idx) :
    ∃ t : Fin cfg1.N, (cfg1.win 2).flush t = true ∧ i ∈ ((cfg1.win 2).blk t).view.set := by
  have h0 : (i 0).val < 4096 := idx2_lt0 i
  have h1 : (i 1).val < 32000 := idx2_lt1 i
  have hN := N1
  have ht : 125 * ((i 0).val / 2048) + (i 1).val / 256 < cfg1.N := by omega
  refine ⟨⟨125 * ((i 0).val / 2048) + (i 1).val / 256, ht⟩, flush1_2 _, ?_⟩
  rw [mem_blk1_2]
  obtain ⟨-, -, -, -, e0, e1, -, -⟩ := idx1 ⟨125 * ((i 0).val / 2048) + (i 1).val / 256, ht⟩
  intro a
  match a with
  | ⟨0, _⟩ =>
    show win1_2.index _ (0 : Fin 2) * 2048 ≤ (i 0).val ∧ (i 0).val < win1_2.index _ (0 : Fin 2) * 2048 + 2048
    rw [e0]; dsimp only; omega
  | ⟨1, _⟩ =>
    show win1_2.index _ (1 : Fin 2) * 256 ≤ (i 1).val ∧ (i 1).val < win1_2.index _ (1 : Fin 2) * 256 + 256
    rw [e1]; dsimp only; omega

/-- If every point writes back its block of G, the logits array ends holding G. -/
theorem arr1_2_of_flushed (c : Dev nD) (dat : Dat τ (Elt F) Unit ℕ (Pipeline.UD sig nD τ) ℕ cfg1 c)
    (G : S4096x32000.Idx → Elt F .f32)
    (hG : ∀ t : Fin cfg1.N, dat.flushed 2 t = ((cfg1.win 2).blk t).view.read (Elt F) G) :
    dat.arrAt 2 cfg1.N = G :=
  dat.arrAt_eq_of_cover 2 G (fun t _ => hG t) cover1_2

/-- The same from the blocks' contents by coordinates: point t leaves rows 2048 · (t / 125) + p, columns
    256 · (t % 125) + q of G. -/
theorem arr1_2 (c : Dev nD) (dat : Dat τ (Elt F) Unit ℕ (Pipeline.UD sig nD τ) ℕ cfg1 c)
    (G : S4096x32000.Idx → Elt F .f32)
    (h : ∀ (t : Fin cfg1.N) (y : S2048x256.Idx), dat.after 2 t y
      = G (ix2 ⟨2048 * (t.val / 125) + (y 0).val, by have := t.isLt; have := N1; have := idx2_lt0 y; omega⟩
              ⟨256 * (t.val % 125) + (y 1).val, by have := idx2_lt1 y; omega⟩)) :
    dat.arrAt 2 cfg1.N = G :=
  arr1_2_of_flushed c dat G fun t => funext fun y => (h t y).trans (read_blk1_2 t G y).symm

/-! ### The softmax-code window (window 3): blocks [2048, 15] at (i, 0), written back where t % 125 = 124 -/

/-- A block of the window read out of a whole-array function. -/
theorem read_blk1_3 (t : Fin cfg1.N) (G : S4096x15.Idx → Elt F .f32) (y : S2048x15.Idx) :
    ((cfg1.win 3).blk t).view.read (Elt F) G y
      = G (ix2 ⟨2048 * (t.val / 125) + (y 0).val, by have := t.isLt; have := N1; have := idx2_lt0 y; omega⟩ (y 1)) := by
  obtain ⟨-, -, -, -, -, -, e0, e1⟩ := idx1 t
  show G (((cfg1.win 3).blk t).view.emb y) = G _
  congr 1
  funext a
  apply Fin.ext
  match a with
  | ⟨0, _⟩ => show win1_3.index t (0 : Fin 2) * 2048 + 1 * (y 0).val = 2048 * (t.val / 125) + (y 0).val; rw [e0]; omega
  | ⟨1, _⟩ => show win1_3.index t (1 : Fin 2) * 15 + 1 * (y 1).val = (y 1).val; rw [e1]; omega

/-- An index of the array is in point t's block iff each coordinate is in the block's range on its axis. -/
theorem mem_blk1_3 (t : Fin cfg1.N) (i : S4096x15.Idx) :
    i ∈ ((cfg1.win 3).blk t).view.set ↔ ∀ a : Fin 2, win1_3.index t a * S2048x15.size a ≤ (i a).val
      ∧ (i a).val < win1_3.index t a * S2048x15.size a + S2048x15.size a := by
  show i ∈ ((View.whole main_v24_1).slice (win1_3.rect t)).set ↔ _
  rw [View.set_slice_whole, Rect.mem_set_unit]
  exact Iff.rfl

/-- Every index of the array is in the block of the writing point 125 · (row / 2048) + 124. -/
theorem cover1_3 (i : S4096x15.Idx) :
    ∃ t : Fin cfg1.N, (cfg1.win 3).flush t = true ∧ i ∈ ((cfg1.win 3).blk t).view.set := by
  have h0 : (i 0).val < 4096 := idx2_lt0 i
  have h1 : (i 1).val < 15 := idx2_lt1 i
  have hN := N1
  have ht : 125 * ((i 0).val / 2048) + 124 < cfg1.N := by omega
  refine ⟨⟨125 * ((i 0).val / 2048) + 124, ht⟩, (flush1_3 _).mpr (by dsimp only; omega), ?_⟩
  rw [mem_blk1_3]
  obtain ⟨-, -, -, -, -, -, e0, e1⟩ := idx1 ⟨125 * ((i 0).val / 2048) + 124, ht⟩
  intro a
  match a with
  | ⟨0, _⟩ =>
    show win1_3.index _ (0 : Fin 2) * 2048 ≤ (i 0).val ∧ (i 0).val < win1_3.index _ (0 : Fin 2) * 2048 + 2048
    rw [e0]; dsimp only; omega
  | ⟨1, _⟩ =>
    show win1_3.index _ (1 : Fin 2) * 15 ≤ (i 1).val ∧ (i 1).val < win1_3.index _ (1 : Fin 2) * 15 + 15
    rw [e1]; omega

/-- If every writing point writes back its block of G, the array ends holding G. -/
theorem arr1_3_of_flushed (c : Dev nD) (dat : Dat τ (Elt F) Unit ℕ (Pipeline.UD sig nD τ) ℕ cfg1 c)
    (G : S4096x15.Idx → Elt F .f32)
    (hG : ∀ t : Fin cfg1.N, t.val % 125 = 124 → dat.flushed 3 t = ((cfg1.win 3).blk t).view.read (Elt F) G) :
    dat.arrAt 3 cfg1.N = G :=
  dat.arrAt_eq_of_cover 3 G (fun t hf => hG t ((flush1_3 t).mp hf)) cover1_3

/-- The same from the blocks' contents by coordinates: a writing point t leaves rows 2048 · (t / 125) + p of G. -/
theorem arr1_3 (c : Dev nD) (dat : Dat τ (Elt F) Unit ℕ (Pipeline.UD sig nD τ) ℕ cfg1 c)
    (G : S4096x15.Idx → Elt F .f32)
    (h : ∀ (t : Fin cfg1.N), t.val % 125 = 124 → ∀ y : S2048x15.Idx, dat.after 3 t y
      = G (ix2 ⟨2048 * (t.val / 125) + (y 0).val, by have := t.isLt; have := N1; have := idx2_lt0 y; omega⟩ (y 1))) :
    dat.arrAt 3 cfg1.N = G :=
  arr1_3_of_flushed c dat G fun t ht => funext fun y => (h t ht y).trans (read_blk1_3 t G y).symm

/-! ### The input windows -/

/-- A block of the activations (window 0: blocks [2048, 1024] at (i, 0)) read out of the array. -/
theorem read_blk1_0 (t : Fin cfg1.N) (A : S4096x1024.Idx → Elt F .f32) (y : S2048x1024.Idx) :
    ((cfg1.win 0).blk t).view.read (Elt F) A y
      = A (ix2 ⟨2048 * (t.val / 125) + (y 0).val, by have := t.isLt; have := N1; have := idx2_lt0 y; omega⟩ (y 1)) := by
  obtain ⟨e0, e1, -, -, -, -, -, -⟩ := idx1 t
  show A (((cfg1.win 0).blk t).view.emb y) = A _
  congr 1
  funext a
  apply Fin.ext
  match a with
  | ⟨0, _⟩ => show win1_0.index t (0 : Fin 2) * 2048 + 1 * (y 0).val = 2048 * (t.val / 125) + (y 0).val; rw [e0]; omega
  | ⟨1, _⟩ => show win1_0.index t (1 : Fin 2) * 1024 + 1 * (y 1).val = (y 1).val; rw [e1]; omega

/-- A block of the rounded table (window 1: blocks [256, 1024] at (j, 0)) read out of the array. -/
theorem read_blk1_1 (t : Fin cfg1.N) (A : S32000x1024.Idx → Elt F .bf16) (y : S256x1024.Idx) :
    ((cfg1.win 1).blk t).view.read (Elt F) A y
      = A (ix2 ⟨256 * (t.val % 125) + (y 0).val, by have := idx2_lt0 y; omega⟩ (y 1)) := by
  obtain ⟨-, -, e0, e1, -, -, -, -⟩ := idx1 t
  show A (((cfg1.win 1).blk t).view.emb y) = A _
  congr 1
  funext a
  apply Fin.ext
  match a with
  | ⟨0, _⟩ => show win1_1.index t (0 : Fin 2) * 256 + 1 * (y 0).val = 256 * (t.val % 125) + (y 0).val; rw [e0]; omega
  | ⟨1, _⟩ => show win1_1.index t (1 : Fin 2) * 1024 + 1 * (y 1).val = (y 1).val; rw [e1]; omega

end Cert.KernelIdeal.Hand

end
-- ==== Proof.KI.Pay.lean ====
/-
  The payloads of the two kernel bodies, read at an index over the extended reals.

  The first body's payload is a product of a [128, 15] block with a [15, 1024] block. The second body
  works on 2048 rows against a tile of 256 vocabulary entries: its logits are the rows' products with
  the tile's table rows (contracting the 1024 features of both); the running maximum takes the tile's
  row maximum in; the running denominator and numerator are rescaled by exp (old maximum - new maximum)
  and take the tile's exp (logit - new maximum) in, the numerator against the ±1 bit codes of the
  tile's vocabulary ids; the output is the numerator over the denominator; and the resets are -∞, 0, 0.
-/
import proofs.«430590_j46402826666034_2_alg».proof.Proof.Gen.KernelIdeal.Skeleton
import proofs.«430590_j46402826666034_2_alg».proof.Proof.Spec
import proofs.«430590_j46402826666034_2_alg».proof.Proof.Code
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx
open scoped BigOperators

/-! ### The logits: rows against the tile's table rows, contracting the features of both -/

theorem lhs_logits_0 (i : S2048x256.Idx) (q : dot_S2048x1024_S256x1024_S2048x256_1_1_0_0_n_n.contr.Idx) :
    (dot_S2048x1024_S256x1024_S2048x256_1_1_0_0_n_n.lhsIdx i q 0).val = (i 0).val := by
  unfold DotDims.lhsIdx
  rw [dif_neg (show ¬(0 : Fin S2048x1024.rank) ∈ dot_S2048x1024_S256x1024_S2048x256_1_1_0_0_n_n.lhsBatch by decide), dif_pos (show (0 : Fin S2048x1024.rank) ∈ dot_S2048x1024_S256x1024_S2048x256_1_1_0_0_n_n.lhsNonContracting by decide)]
  rfl
theorem lhs_logits_1 (i : S2048x256.Idx) (q : dot_S2048x1024_S256x1024_S2048x256_1_1_0_0_n_n.contr.Idx) :
    (dot_S2048x1024_S256x1024_S2048x256_1_1_0_0_n_n.lhsIdx i q 1).val = (q ⟨0, by decide⟩).val :=
  dot_S2048x1024_S256x1024_S2048x256_1_1_0_0_n_n.lhsIdx_val_of_single rfl i q
theorem rhs_logits_0 (i : S2048x256.Idx) (q : dot_S2048x1024_S256x1024_S2048x256_1_1_0_0_n_n.contr.Idx) :
    (dot_S2048x1024_S256x1024_S2048x256_1_1_0_0_n_n.rhsIdx i q 0).val = (i 1).val := by
  unfold DotDims.rhsIdx
  rw [dif_neg (show ¬(0 : Fin S256x1024.rank) ∈ dot_S2048x1024_S256x1024_S2048x256_1_1_0_0_n_n.rhsBatch by decide), dif_pos (show (0 : Fin S256x1024.rank) ∈ dot_S2048x1024_S256x1024_S2048x256_1_1_0_0_n_n.rhsNonContracting by decide)]
  rfl
theorem rhs_logits_1 (i : S2048x256.Idx) (q : dot_S2048x1024_S256x1024_S2048x256_1_1_0_0_n_n.contr.Idx) :
    (dot_S2048x1024_S256x1024_S2048x256_1_1_0_0_n_n.rhsIdx i q 1).val = (q ⟨0, by decide⟩).val :=
  dot_S2048x1024_S256x1024_S2048x256_1_1_0_0_n_n.rhsIdx_val_of_single rfl i q

/-- The logit of row `p` against the tile's entry `q`: the sum over the features of the products. -/
theorem logits_apply (v3 : Vec Ideal S2048x1024 .f32) (v6 : Vec Ideal S256x1024 .bf16) (p : Fin 2048) (q : Fin 256) :
    k1_pay8 v3 v6 (ix2 p q) = ∑ d : Fin 1024, v3 (ix2 p d) * v6 (ix2 q d) := by
  unfold k1_pay8
  refine (Ideal.matmul_constant_zero_apply dot_S2048x1024_S256x1024_S2048x256_1_1_0_0_n_n none _ _ (ix2 p q)).trans ?_
  rw [← Equiv.sum_comp (ValueIdx.contrEquiv1 dot_S2048x1024_S256x1024_S2048x256_1_1_0_0_n_n 1024 rfl rfl).symm]
  refine Finset.sum_congr rfl fun k _ => ?_
  have hk := ValueIdx.contrEquiv1_symm_val dot_S2048x1024_S256x1024_S2048x256_1_1_0_0_n_n 1024 rfl rfl k
  have el : dot_S2048x1024_S256x1024_S2048x256_1_1_0_0_n_n.lhsIdx (ix2 p q) ((ValueIdx.contrEquiv1 dot_S2048x1024_S256x1024_S2048x256_1_1_0_0_n_n 1024 rfl rfl).symm k) = ix2 p k := funext fun a => Fin.ext (by
    match a with
    | ⟨0, _⟩ => exact lhs_logits_0 _ _
    | ⟨1, _⟩ => exact (lhs_logits_1 _ _).trans hk)
  have er : dot_S2048x1024_S256x1024_S2048x256_1_1_0_0_n_n.rhsIdx (ix2 p q) ((ValueIdx.contrEquiv1 dot_S2048x1024_S256x1024_S2048x256_1_1_0_0_n_n 1024 rfl rfl).symm k) = ix2 q k := funext fun a => Fin.ext (by
    match a with
    | ⟨0, _⟩ => exact rhs_logits_0 _ _
    | ⟨1, _⟩ => exact (rhs_logits_1 _ _).trans hk)
  rw [el, er, truncf_apply, shapeCast_self, shapeCast_self]

/-! ### The first body: a [128, 15] block times a [15, 1024] block -/

theorem lhs_bits_0 (i : S128x1024.Idx) (q : dot_S128x15_S15x1024_S128x1024_1_0_0_1_n_n.contr.Idx) :
    (dot_S128x15_S15x1024_S128x1024_1_0_0_1_n_n.lhsIdx i q 0).val = (i 0).val := by
  unfold DotDims.lhsIdx
  rw [dif_neg (show ¬(0 : Fin S128x15.rank) ∈ dot_S128x15_S15x1024_S128x1024_1_0_0_1_n_n.lhsBatch by decide), dif_pos (show (0 : Fin S128x15.rank) ∈ dot_S128x15_S15x1024_S128x1024_1_0_0_1_n_n.lhsNonContracting by decide)]
  rfl
theorem lhs_bits_1 (i : S128x1024.Idx) (q : dot_S128x15_S15x1024_S128x1024_1_0_0_1_n_n.contr.Idx) :
    (dot_S128x15_S15x1024_S128x1024_1_0_0_1_n_n.lhsIdx i q 1).val = (q ⟨0, by decide⟩).val :=
  dot_S128x15_S15x1024_S128x1024_1_0_0_1_n_n.lhsIdx_val_of_single rfl i q
theorem rhs_bits_0 (i : S128x1024.Idx) (q : dot_S128x15_S15x1024_S128x1024_1_0_0_1_n_n.contr.Idx) :
    (dot_S128x15_S15x1024_S128x1024_1_0_0_1_n_n.rhsIdx i q 0).val = (q ⟨0, by decide⟩).val :=
  dot_S128x15_S15x1024_S128x1024_1_0_0_1_n_n.rhsIdx_val_of_single rfl i q
theorem rhs_bits_1 (i : S128x1024.Idx) (q : dot_S128x15_S15x1024_S128x1024_1_0_0_1_n_n.contr.Idx) :
    (dot_S128x15_S15x1024_S128x1024_1_0_0_1_n_n.rhsIdx i q 1).val = (i 1).val := by
  unfold DotDims.rhsIdx
  rw [dif_neg (show ¬(1 : Fin S15x1024.rank) ∈ dot_S128x15_S15x1024_S128x1024_1_0_0_1_n_n.rhsBatch by decide), dif_pos (show (1 : Fin S15x1024.rank) ∈ dot_S128x15_S15x1024_S128x1024_1_0_0_1_n_n.rhsNonContracting by decide)]
  rfl

/-- Row `r` of the codes against column `d` of the bit table: the sum over the 15 bits of the products. -/
theorem bitemb_apply (v1153 : Vec Ideal S128x15 .f32) (v1156 : Vec Ideal S15x1024 .f32) (r : Fin 128) (d : Fin 1024) :
    k0_pay1 v1153 v1156 (ix2 r d) = ∑ k : Fin 15, v1153 (ix2 r k) * v1156 (ix2 k d) := by
  unfold k0_pay1
  refine (Ideal.matmul_constant_zero_apply dot_S128x15_S15x1024_S128x1024_1_0_0_1_n_n none _ _ (ix2 r d)).trans ?_
  rw [← Equiv.sum_comp (ValueIdx.contrEquiv1 dot_S128x15_S15x1024_S128x1024_1_0_0_1_n_n 15 rfl rfl).symm]
  refine Finset.sum_congr rfl fun k _ => ?_
  have hk := ValueIdx.contrEquiv1_symm_val dot_S128x15_S15x1024_S128x1024_1_0_0_1_n_n 15 rfl rfl k
  have el : dot_S128x15_S15x1024_S128x1024_1_0_0_1_n_n.lhsIdx (ix2 r d) ((ValueIdx.contrEquiv1 dot_S128x15_S15x1024_S128x1024_1_0_0_1_n_n 15 rfl rfl).symm k) = ix2 r k := funext fun a => Fin.ext (by
    match a with
    | ⟨0, _⟩ => exact lhs_bits_0 _ _
    | ⟨1, _⟩ => exact (lhs_bits_1 _ _).trans hk)
  have er : dot_S128x15_S15x1024_S128x1024_1_0_0_1_n_n.rhsIdx (ix2 r d) ((ValueIdx.contrEquiv1 dot_S128x15_S15x1024_S128x1024_1_0_0_1_n_n 15 rfl rfl).symm k) = ix2 k d := funext fun a => Fin.ext (by
    match a with
    | ⟨0, _⟩ => exact (rhs_bits_0 _ _).trans hk
    | ⟨1, _⟩ => exact rhs_bits_1 _ _)
  rw [el, er, truncf_apply, truncf_apply, shapeCast_self]

/-! ### Column forms of the layout operations -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### The output and the resets -/

/-- The output: the numerator over the row's denominator. -/
theorem out_apply (v57 : Vec Ideal S2048x15 .f32) (v58 : Vec Ideal S2048x1 .f32) (p : Fin 2048) (k : Fin 15) :
    k1_pay4 v57 v58 (ix2 p k) = Ideal.div (v57 (ix2 p k)) (v58 (ix2 p (0 : Fin 1))) := by
  unfold k1_pay4
  refine (divf_apply _ _ _).trans ?_
  exact congrArg (Ideal.div (v57 (ix2 p k))) (broadcastTo_a1_ab_apply v58 broadcasts_S2048x1_S2048x15 p k)

/-- The running maximum is reset to -∞. -/
theorem reset_max_apply (p : Fin 2048) : (k1_pay5 (F := Ideal)) (ix2 p (0 : Fin 1)) = ⊥ := by
  unfold k1_pay5
  rw [shapeCast_self]
  show Ideal.ofBits .f32 0xFF800000#32 = ⊥
  simp [Ideal.ofBits, Ideal.ieee]

/-- The running denominator is reset to 0. -/
theorem reset_sum_apply (p : Fin 2048) : (k1_pay6 (F := Ideal)) (ix2 p (0 : Fin 1)) = 0 := by
  unfold k1_pay6
  rw [shapeCast_self]
  exact Ideal.ofBits_zero_f32

/-- The running numerator is reset to 0. -/
theorem reset_acc_apply (p : Fin 2048) (k : Fin 15) : (k1_pay7 (F := Ideal)) (ix2 p k) = 0 := by
  unfold k1_pay7
  rw [shapeCast_self]
  exact Ideal.ofBits_zero_f32

/-! ### The row maximum of a tile and the new running maximum -/

/-- A fold of `max` from -∞ is the supremum. -/
theorem fold_max_bot {β : Type*} (s : Finset β) (f : β → EReal) : s.fold max ⊥ f = s.sup f := by
  classical
  induction s using Finset.induction_on with
  | empty => rfl
  | insert a s ha ih => rw [Finset.fold_insert ha, Finset.sup_insert, ih]

/-- The lane maximum of a [2048, 256] vector from -∞: at row `p`, the supremum of the row. -/
theorem rowmax_apply (src : FVec Ideal S2048x256 .f32) (hφ : FKind.Formats .f32)
    (hacc : (0xFF800000#32 : BitVec 32) = FKind.maximumf.neutral .f32 hφ) (p : Fin 2048) :
    multiReduction .maximumf [1] S2048 src 0xFF800000#32 reduces_S2048x256_S2048 hφ hacc (ix1 p)
      = Finset.univ.sup fun q : Fin 256 => src (ix2 p q) := by
  refine (Ideal.multiReduction_maximumf_single src 0xFF800000#32 reduces_S2048x256_S2048 hφ hacc (ix1 p)).trans ?_
  have hb : FloatOps.ofBits (F := Ideal) .f32 0xFF800000#32 = (⊥ : EReal) := by
    show Ideal.ofBits .f32 0xFF800000#32 = ⊥
    simp [Ideal.ofBits, Ideal.ieee]
  rw [hb]
  refine (fold_max_bot _ _).trans ?_
  show (Finset.univ : Finset (Fin 256)).sup (fun q => src (reduces_S2048x256_S2048.lift (ix1 p) q)) = _
  refine Finset.sup_congr rfl fun q _ => ?_
  exact congrArg src (funext fun a => Fin.ext (by match a with | ⟨0, _⟩ => rfl | ⟨1, _⟩ => rfl))

/-- The lane sum of a [2048, 256] vector: at row `p`, the sum of the row. -/
theorem rowsum_apply (src : FVec Ideal S2048x256 .f32) (hφ : FKind.Formats .f32)
    (hacc : (0x00000000#32 : BitVec 32) = FKind.add.neutral .f32 hφ) (p : Fin 2048) :
    multiReduction .add [1] S2048 src 0x00000000#32 reduces_S2048x256_S2048 hφ hacc (ix1 p)
      = ∑ q : Fin 256, src (ix2 p q) := by
  refine (Ideal.multiReduction_add_single src 0x00000000#32 reduces_S2048x256_S2048 hφ hacc (ix1 p)).trans ?_
  show ∑ q : Fin 256, src (reduces_S2048x256_S2048.lift (ix1 p) q) = _
  refine Finset.sum_congr rfl fun q _ => ?_
  exact congrArg src (funext fun a => Fin.ext (by match a with | ⟨0, _⟩ => rfl | ⟨1, _⟩ => rfl))

/-- The new running maximum of row `p`: the old one against the tile's row maximum of the logits. -/
theorem newmax_apply (v3 : Vec Ideal S2048x1024 .f32) (v6 : Vec Ideal S256x1024 .bf16) (v25 : Vec Ideal S2048x1 .f32)
    (p : Fin 2048) :
    k1_pay10 v3 v6 v25 (ix2 p (0 : Fin 1))
      = max (v25 (ix2 p (0 : Fin 1))) (Finset.univ.sup fun q : Fin 256 => k1_pay8 v3 v6 (ix2 p q)) := by
  unfold k1_pay10
  refine (maximumf_apply _ _ _).trans ?_
  refine congrArg (max (v25 (ix2 p (0 : Fin 1)))) ?_
  refine (shapeCast_a_a1_apply _ shapeCasts_S2048_S2048x1 p (0 : Fin 1)).trans ?_
  exact rowmax_apply (k1_pay8 v3 v6) _ _ p

/-- What is stored as the running maximum is the new running maximum. -/
theorem stored_max_eq (v28 : FVec Ideal S2048x1 .f32) : k1_pay3 v28 = v28 := by
  unfold k1_pay3
  exact shapeCast_self _ _

theorem stored_max_apply (v3 : Vec Ideal S2048x1024 .f32) (v6 : Vec Ideal S256x1024 .bf16) (v25 : Vec Ideal S2048x1 .f32)
    (p : Fin 2048) :
    k1_pay3 (k1_pay10 v3 v6 v25) (ix2 p (0 : Fin 1))
      = max (v25 (ix2 p (0 : Fin 1))) (Finset.univ.sup fun q : Fin 256 => k1_pay8 v3 v6 (ix2 p q)) := by
  rw [stored_max_eq]; exact newmax_apply v3 v6 v25 p

/-! ### The rescaling factor and the tile's exponentials -/

/-- The rescaling factor of row `p`: exp (old maximum - new maximum). -/
theorem rescale_apply (v3 : Vec Ideal S2048x1024 .f32) (v6 : Vec Ideal S256x1024 .bf16) (v25 v29 : Vec Ideal S2048x1 .f32)
    (p : Fin 2048) :
    k1_pay11 v3 v6 v25 v29 (ix2 p (0 : Fin 1))
      = Ideal.exp (v29 (ix2 p (0 : Fin 1)) - k1_pay10 v3 v6 v25 (ix2 p (0 : Fin 1))) := by
  unfold k1_pay11
  rfl

/-- The tile's exponential at row `p`, entry `q`: exp (logit - new maximum). -/
theorem expo_apply (v3 : Vec Ideal S2048x1024 .f32) (v6 : Vec Ideal S256x1024 .bf16) (v25 : Vec Ideal S2048x1 .f32)
    (p : Fin 2048) (q : Fin 256) :
    k1_pay12 v3 v6 v25 (ix2 p q)
      = Ideal.exp (k1_pay8 v3 v6 (ix2 p q) - k1_pay10 v3 v6 v25 (ix2 p (0 : Fin 1))) := by
  unfold k1_pay12
  show Ideal.exp (k1_pay8 v3 v6 (ix2 p q)
      - broadcastTo S2048x256 (k1_pay10 v3 v6 v25) broadcasts_S2048x1_S2048x256 (ix2 p q)) = _
  rw [broadcastTo_a1_ab_apply (k1_pay10 v3 v6 v25) broadcasts_S2048x1_S2048x256 p q]

/-! ### The new running denominator -/

/-- The denominator's update over any factor and any tile of terms. -/
theorem sum_update_apply (v31 : FVec Ideal S2048x1 .f32) (v34 : FVec Ideal S2048x256 .f32) (v35 : Vec Ideal S2048x1 .f32)
    (p : Fin 2048) :
    k1_pay1 v31 v34 v35 (ix2 p (0 : Fin 1))
      = v31 (ix2 p (0 : Fin 1)) * v35 (ix2 p (0 : Fin 1)) + ∑ q : Fin 256, v34 (ix2 p q) := by
  unfold k1_pay1
  rw [shapeCast_self]
  refine (addf_apply _ _ _).trans ?_
  refine congrArg (v31 (ix2 p (0 : Fin 1)) * v35 (ix2 p (0 : Fin 1)) + ·) ?_
  refine (shapeCast_a_a1_apply _ shapeCasts_S2048_S2048x1 p (0 : Fin 1)).trans ?_
  exact rowsum_apply v34 _ _ p

/-- The new running denominator of row `p`. -/
theorem newsum_apply (v3 : Vec Ideal S2048x1024 .f32) (v6 : Vec Ideal S256x1024 .bf16) (v25 v29 v35 : Vec Ideal S2048x1 .f32)
    (p : Fin 2048) :
    k1_pay1 (k1_pay11 v3 v6 v25 v29) (k1_pay12 v3 v6 v25) v35 (ix2 p (0 : Fin 1))
      = Ideal.exp (v29 (ix2 p (0 : Fin 1)) - k1_pay10 v3 v6 v25 (ix2 p (0 : Fin 1))) * v35 (ix2 p (0 : Fin 1))
        + ∑ q : Fin 256, Ideal.exp (k1_pay8 v3 v6 (ix2 p q) - k1_pay10 v3 v6 v25 (ix2 p (0 : Fin 1))) := by
  rw [sum_update_apply, rescale_apply]
  refine congrArg (_ + ·) (Finset.sum_congr rfl fun q _ => ?_)
  exact expo_apply v3 v6 v25 p q

/-! ### The new running numerator -/

theorem lhs_acc_0 (i : S2048x15.Idx) (q : dot_S2048x256_S256x15_S2048x15_1_0_0_1_n_n.contr.Idx) :
    (dot_S2048x256_S256x15_S2048x15_1_0_0_1_n_n.lhsIdx i q 0).val = (i 0).val := by
  unfold DotDims.lhsIdx
  rw [dif_neg (show ¬(0 : Fin S2048x256.rank) ∈ dot_S2048x256_S256x15_S2048x15_1_0_0_1_n_n.lhsBatch by decide), dif_pos (show (0 : Fin S2048x256.rank) ∈ dot_S2048x256_S256x15_S2048x15_1_0_0_1_n_n.lhsNonContracting by decide)]
  rfl
theorem lhs_acc_1 (i : S2048x15.Idx) (q : dot_S2048x256_S256x15_S2048x15_1_0_0_1_n_n.contr.Idx) :
    (dot_S2048x256_S256x15_S2048x15_1_0_0_1_n_n.lhsIdx i q 1).val = (q ⟨0, by decide⟩).val :=
  dot_S2048x256_S256x15_S2048x15_1_0_0_1_n_n.lhsIdx_val_of_single rfl i q
theorem rhs_acc_0 (i : S2048x15.Idx) (q : dot_S2048x256_S256x15_S2048x15_1_0_0_1_n_n.contr.Idx) :
    (dot_S2048x256_S256x15_S2048x15_1_0_0_1_n_n.rhsIdx i q 0).val = (q ⟨0, by decide⟩).val :=
  dot_S2048x256_S256x15_S2048x15_1_0_0_1_n_n.rhsIdx_val_of_single rfl i q
theorem rhs_acc_1 (i : S2048x15.Idx) (q : dot_S2048x256_S256x15_S2048x15_1_0_0_1_n_n.contr.Idx) :
    (dot_S2048x256_S256x15_S2048x15_1_0_0_1_n_n.rhsIdx i q 1).val = (i 1).val := by
  unfold DotDims.rhsIdx
  rw [dif_neg (show ¬(1 : Fin S256x15.rank) ∈ dot_S2048x256_S256x15_S2048x15_1_0_0_1_n_n.rhsBatch by decide), dif_pos (show (1 : Fin S256x15.rank) ∈ dot_S2048x256_S256x15_S2048x15_1_0_0_1_n_n.rhsNonContracting by decide)]
  rfl

/-- The tile's terms against a code table: row `p`, bit `k`. -/
theorem terms_codes_apply (v34 : FVec Ideal S2048x256 .f32) (v24 : FVec Ideal S256x15 .f32) (p : Fin 2048) (k : Fin 15) :
    matmul dot_S2048x256_S256x15_S2048x15_1_0_0_1_n_n none v34 v24 (constant S2048x15 .f32 0x00000000#32) (ix2 p k)
      = ∑ q : Fin 256, v34 (ix2 p q) * v24 (ix2 q k) := by
  refine (Ideal.matmul_constant_zero_apply dot_S2048x256_S256x15_S2048x15_1_0_0_1_n_n none _ _ (ix2 p k)).trans ?_
  rw [← Equiv.sum_comp (ValueIdx.contrEquiv1 dot_S2048x256_S256x15_S2048x15_1_0_0_1_n_n 256 rfl rfl).symm]
  refine Finset.sum_congr rfl fun q _ => ?_
  have hk := ValueIdx.contrEquiv1_symm_val dot_S2048x256_S256x15_S2048x15_1_0_0_1_n_n 256 rfl rfl q
  have el : dot_S2048x256_S256x15_S2048x15_1_0_0_1_n_n.lhsIdx (ix2 p k) ((ValueIdx.contrEquiv1 dot_S2048x256_S256x15_S2048x15_1_0_0_1_n_n 256 rfl rfl).symm q) = ix2 p q := funext fun a => Fin.ext (by
    match a with
    | ⟨0, _⟩ => exact lhs_acc_0 _ _
    | ⟨1, _⟩ => exact (lhs_acc_1 _ _).trans hk)
  have er : dot_S2048x256_S256x15_S2048x15_1_0_0_1_n_n.rhsIdx (ix2 p k) ((ValueIdx.contrEquiv1 dot_S2048x256_S256x15_S2048x15_1_0_0_1_n_n 256 rfl rfl).symm q) = ix2 q k := funext fun a => Fin.ext (by
    match a with
    | ⟨0, _⟩ => exact (rhs_acc_0 _ _).trans hk
    | ⟨1, _⟩ => exact rhs_acc_1 _ _)
  rw [el, er]

/-- The numerator's update over any code table, factor and tile of terms. -/
theorem acc_update_apply (v24 : FVec Ideal S256x15 .f32) (v31 : FVec Ideal S2048x1 .f32) (v34 : FVec Ideal S2048x256 .f32)
    (v43 : Vec Ideal S2048x15 .f32) (p : Fin 2048) (k : Fin 15) :
    k1_pay2 v24 v31 v34 v43 (ix2 p k)
      = v31 (ix2 p (0 : Fin 1)) * v43 (ix2 p k) + ∑ q : Fin 256, v34 (ix2 p q) * v24 (ix2 q k) := by
  unfold k1_pay2
  rw [shapeCast_self]
  refine (addf_apply _ _ _).trans ?_
  rw [terms_codes_apply v34 v24 p k]
  refine congrArg (· + _) ?_
  refine (mulf_apply _ _ _).trans ?_
  rw [broadcastTo_a1_ab_apply v31 broadcasts_S2048x1_S2048x15 p k]

/-- The tile's code table: entry `q` of tile `j` is vocabulary id `256 j + q`, and its bit `k` reads as ±1. -/
theorem codes_apply (i : grid1.Coords) (q : Fin 256) (k : Fin 15) :
    (k1_pay9 (F := Ideal) i) (ix2 q k) = Cert.Proof.Spec.code (BitVec.ofNat 32 (256 * (i 1).val + q.val)) k := by
  have hj : (i 1).val < 125 := (i 1).isLt
  rw [← Cert.Proof.Code.code_chain_vec_block q.val (i 1).val q.isLt hj k]
  unfold k1_pay9
  show FloatOps.subf (F := Ideal)
        (FloatOps.mulf
          (FloatOps.sitofp .f32
            (IntOp.andi
              (IntOp.shrsi .vector (IntOp.addi (BitVec.ofNat 32 (0 * 256 + q.val)) (IntOp.muli (BitVec.ofNat 32 (i 1).val) 256#32))
                (IntOp.subi 14#32 (BitVec.ofNat 32 (0 * 15 + k.val))))
              1#32))
          (FloatOps.ofBits .f32 0x40000000#32))
        (FloatOps.ofBits .f32 0x3F800000#32) = _
  simp only [Nat.zero_mul, Nat.zero_add]

/-- The new running numerator of row `p`, bit `k`, at grid point `i` (tile `i 1`). -/
theorem newacc_apply (i : grid1.Coords) (v3 : Vec Ideal S2048x1024 .f32) (v6 : Vec Ideal S256x1024 .bf16)
    (v25 v29 : Vec Ideal S2048x1 .f32) (v43 : Vec Ideal S2048x15 .f32) (p : Fin 2048) (k : Fin 15) :
    k1_pay2 (k1_pay9 i) (k1_pay11 v3 v6 v25 v29) (k1_pay12 v3 v6 v25) v43 (ix2 p k)
      = Ideal.exp (v29 (ix2 p (0 : Fin 1)) - k1_pay10 v3 v6 v25 (ix2 p (0 : Fin 1))) * v43 (ix2 p k)
        + ∑ q : Fin 256, Ideal.exp (k1_pay8 v3 v6 (ix2 p q) - k1_pay10 v3 v6 v25 (ix2 p (0 : Fin 1)))
            * Cert.Proof.Spec.code (BitVec.ofNat 32 (256 * (i 1).val + q.val)) k := by
  rw [acc_update_apply, rescale_apply]
  refine congrArg (_ + ·) (Finset.sum_congr rfl fun q _ => ?_)
  rw [expo_apply v3 v6 v25 p q, codes_apply i q k]

end Cert.KernelIdeal.Hand

end
-- ==== Proof.KI.Val0.lean ====
/-
  The first kernel call's two result arrays as functions of its inputs, over the extended reals.

  The call has 32 grid points; point t leaves rows 128 t, …, 128 t + 127 of each result array. If at every point
  the row-gather window holds, at (r, q), the table entry (row named by id word 128 t + r, column q), then the first
  result is the gathered rows: entry (n, d) is table entry (row named by id word n, d). If at every point the bit-code
  window holds the product of the point's [128, 15] block of codes with the [15, 1024] bit table, then entry (n, d)
  of the second result is the sum over the 15 bits k of code (n, k) times table (k, d).
-/
import proofs.«430590_j46402826666034_2_alg».proof.Proof.KI.Cover
import proofs.«430590_j46402826666034_2_alg».proof.Proof.KI.Pay
import proofs.«430590_j46402826666034_2_alg».proof.Proof.KI.Dat0
import proofs.«430590_j46402826666034_2_alg».proof.Proof.KI.Gath0
import proofs.«430590_j46402826666034_2_alg».proof.Proof.Spec
import proofs.«430590_j46402826666034_2_alg».proof.Proof.Final

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## Over any proof data of the call and any input arrays -/

section General

variable (a : (pcfg0 (F := Ideal)).Adm) (c : Dev nD)
  (dat : Dat τ (Elt Ideal) Unit ℕ (Pipeline.UD sig nD τ) ℕ (cfg0 a) c)

/-- The gathered rows: if point t's block holds at (r, q) the table at (row of id word 128 t + r, q), the array ends
    holding at (n, d) the table at (row of id word n, d). -/
theorem arr2_of_after (T : S32000x1024.Idx → Ideal .f32) (ids : S4096.Idx → BitVec 32)
    (h2 : ∀ (t : Fin (cfg0 a).N) (y : S128x1024.Idx), dat.after 2 t y
      = T (ix2 (Cert.Proof.Spec.row (ids (ix1 ⟨128 * t.val + (y 0).val,
          by have := t.isLt; have := N0 a; have := idx2_lt0 y; omega⟩))) (y 1)))
    (n : Fin 4096) (d : Fin 1024) :
    dat.arrAt 2 (cfg0 a).N (ix2 n d) = T (ix2 (Cert.Proof.Spec.row (ids (ix1 n))) d) := by
  rw [arr0_2 a c dat (fun i => T (ix2 (Cert.Proof.Spec.row (ids (ix1 (i 0)))) (i 1))) h2]

/-- The bit codes against the bit table: if point t's block holds the product of the point's block of codes with the
    table, the array ends holding at (n, d) the sum over the 15 bits of code (n, k) times table (k, d). -/
theorem arr3_of_after (A0 : S4096x15.Idx → Ideal .f32) (A1 : S15x1024.Idx → Ideal .f32)
    (h3 : ∀ t : Fin (cfg0 a).N, (dat.after 3 t : S128x1024.Idx → Ideal .f32)
      = k0_pay1 ((((cfg0 a).win 0).blk t).view.read (Elt Ideal) A0) ((((cfg0 a).win 1).blk t).view.read (Elt Ideal) A1))
    (n : Fin 4096) (d : Fin 1024) :
    dat.arrAt 3 (cfg0 a).N (ix2 n d) = ∑ k : Fin 15, A0 (ix2 n k) * A1 (ix2 k d) := by
  have h : ∀ (t : Fin (cfg0 a).N) (y : S128x1024.Idx), dat.after 3 t y
      = (fun i : S4096x1024.Idx => ∑ k : Fin 15, A0 (ix2 (i 0) k) * A1 (ix2 k (i 1)))
          (ix2 ⟨128 * t.val + (y 0).val, by have := t.isLt; have := N0 a; have := idx2_lt0 y; omega⟩ (y 1)) := by
    intro t y
    refine (congrFun (h3 t) y).trans ?_
    refine (congrArg (k0_pay1 _ _) (eq_ix2 y)).trans ?_
    refine (bitemb_apply _ _ (y 0) (y 1)).trans ?_
    refine Finset.sum_congr rfl fun k _ => ?_
    exact congrArg₂ (· * ·) (read_blk0_0 a t A0 (ix2 (y 0) k)) (read_blk0_1 a t A1 (ix2 k (y 1)))
  rw [arr0_3 a c dat (fun i : S4096x1024.Idx => ∑ k : Fin 15, A0 (ix2 (i 0) k) * A1 (ix2 k (i 1))) h]

end General

/-! ## The gathered block as the row-gather window's contents -/

section Gathered

/-- The one grid axis: point t has coordinate t. -/
theorem coords0_val : ∀ t : Fin grid0.N, ((grid0.coords t) 0).val = t.val := by decide +kernel

variable (a : (pcfg0 (F := Ideal)).Adm) (c : Dev nD)
  (dat : Dat τ (Elt Ideal) Unit ℕ (Pipeline.UD sig nD τ) ℕ (cfg0 a) c)

/-- If point t's block of the row-gather window is the gathered block of the id table ft and the embedding table fw at
    point t, the array ends holding at (n, d) the embedding table at (row of id word n, d). -/
theorem arr2_of_gath (ft : BufOf (F := Ideal) c tbM) (fw : BufOf (F := Ideal) c wM) (hrow : ∀ j, (ft j).toNat < 32000)
    (h2 : ∀ t : Fin (cfg0 a).N, (dat.after 2 t : S128x1024.Idx → Ideal .f32) = gath0 c (grid0.coords t) ft fw hrow)
    (n : Fin 4096) (d : Fin 1024) :
    dat.arrAt 2 (cfg0 a).N (ix2 n d) = fw (ix2 (Cert.Proof.Spec.row (ft (ix1 n))) d) := by
  refine arr2_of_after a c dat fw ft (fun t y => ?_) n d
  refine (congrFun (h2 t) y).trans ?_
  refine (congrArg (gath0 c (grid0.coords t) ft fw hrow) (eq_ix2 y)).trans ?_
  refine (gath0_spec c (grid0.coords t) ft fw hrow (y 0) (y 1)).trans ?_
  refine congrArg (fun j : Fin 4096 => fw (ix2 (Cert.Proof.Spec.row (ft (ix1 j))) (y 1))) (Fin.ext ?_)
  show 128 * ((grid0.coords t) 0).val + (y 0).val = 128 * t.val + (y 0).val
  rw [coords0_val t]

end Gathered

/-! ## At the first call's proof data -/

section FirstCall

variable (V : Vals Ideal) (hw : RowsOk V) (c : Dev nD)

/-- The call's inputs and results on core c, each at its literal type. -/
abbrev tblA : S4096.Idx → BitVec 32 := V c main_v0
abbrev embA : S32000x1024.Idx → Ideal .f32 := V c main_arg2
abbrev codeA : S4096x15.Idx → Ideal .f32 := V c main_v19
abbrev bitA : S15x1024.Idx → Ideal .f32 := V c main_arg3
abbrev rowsA : S4096x1024.Idx → Ideal .f32 := (dat0 V hw c).arrAt 2 (cfg0 (adm0 V)).N
abbrev bitsA : S4096x1024.Idx → Ideal .f32 := (dat0 V hw c).arrAt 3 (cfg0 (adm0 V)).N

/-- Row n of the first result is the embedding table's row named by the n-th id word: every point's block of the
    row-gather window is the gathered block of the id table (read on the mesh's one core) and the embedding table. -/
theorem rows0_val (n : Fin 4096) (d : Fin 1024) :
    rowsA V hw c (ix2 n d) = embA V c (ix2 (Cert.Proof.Spec.row (tblA V c (ix1 n))) d) := by
  obtain rfl : c = 0 := Subsingleton.elim _ _
  exact arr2_of_gath (adm0 V) 0 (dat0 V hw 0) (tbl V 0) (V 0 main_arg2) hw (after0_2 V hw 0) n d

/-- Entry (n, d) of the second result is the sum over the 15 bits of code (n, k) times bit table (k, d): every point's
    block of the bit-code window is the product of the point's block of codes with the bit table. -/
theorem bits0_val (n : Fin 4096) (d : Fin 1024) :
    bitsA V hw c (ix2 n d) = ∑ k : Fin 15, codeA V c (ix2 n k) * bitA V c (ix2 k d) :=
  arr3_of_after (adm0 V) c (dat0 V hw c) (codeA V c) (bitA V c) (fun t => after0_3 V hw c t) n d

end FirstCall

/-! ## At the program's own valuation before the first call -/

section AtProgram

variable (m : (ℓ : Loc nD τ sig) → Buf (Elt Ideal) ℓ)

theorem hA0 (hpre : Cert.Pre_KernelIdeal m) (hw : RowsOk (Hand.V3 m)) (c : Dev nD) : Cert.Proof.Final.HA0 m hw c :=
  fun n d => rows0_val (Hand.V3 m) hw c n d

theorem hA1 (hpre : Cert.Pre_KernelIdeal m) (hw : RowsOk (Hand.V3 m)) (c : Dev nD) : Cert.Proof.Final.HA1 m hw c :=
  fun n d => bits0_val (Hand.V3 m) hw c n d

end AtProgram

end Cert.KernelIdeal.Hand

end
-- ==== Proof.Softmax.lean ====
/-
  The streaming softmax-weighted sum equals the two-pass one.

  Positions come in tiles: tile `j` holds the logits `s j r` and the weights `b j r` (`r` in a finite
  nonempty type). A streaming pass keeps a running maximum `m`, a running denominator `l` and a running
  numerator `a`, rescaling the last two by `exp (old max - new max)` at each tile. After `n ≥ 1` tiles
  the maximum is the maximum of all the logits seen, a real number `M`; the denominator is
  `∑ exp (s - M)`, the numerator `∑ exp (s - M) · b`, and their quotient is the softmax-weighted sum
  `∑ (exp (s - M) / ∑ exp (s - M)) · b`. Sums over tiles are over `Finset.range n`; the flattened
  corollaries at the end sum over any type in bijection with `Fin n × ι`.

  The first step starts from `m 0 = ⊥` with `l 0 = a 0 = 0`: the rescaling factor multiplies zero. From
  the second step on every quantity is real and the step is `exp (M - M') · exp (x - M) = exp (x - M')`.
-/
import Idealize.ShloMosaic.PureOps.Ideal
import Mathlib.Data.EReal.Operations
import Mathlib.Data.Fintype.BigOperators
import Mathlib.Algebra.BigOperators.Fin
import Mathlib.Data.Finset.Lattice.Fold

noncomputable section

namespace Cert.Proof.Softmax

open Idealize.ShloMosaic
open scoped BigOperators

/-! ### Finite sums and the coercion -/

/-- The coercion of the reals into the extended reals commutes with finite sums. -/
theorem coe_sum {α : Type*} (t : Finset α) (f : α → ℝ) :
    ((∑ i ∈ t, f i : ℝ) : EReal) = ∑ i ∈ t, ((f i : ℝ) : EReal) := by
  classical
  induction t using Finset.induction_on with
  | empty => simp
  | insert i t hi ih => rw [Finset.sum_insert hi, Finset.sum_insert hi, EReal.coe_add, ih]

/-- The exponential of a difference of reals, read in the extended reals. -/
theorem exp_coe_sub (x M : ℝ) :
    Ideal.exp ((x : EReal) - (M : EReal)) = ((Real.exp (x - M) : ℝ) : EReal) := by
  rw [← EReal.coe_sub]; rfl

section Stream

variable {ι : Type*} [Fintype ι] [Nonempty ι] (s b : ℕ → ι → ℝ)

/-! ### The streaming state -/

/-- The running maximum after `j` tiles. -/
def m : ℕ → EReal
  | 0 => ⊥
  | j + 1 => max (m j) (Finset.univ.sup fun r => ((s j r : ℝ) : EReal))

/-- The running denominator after `j` tiles. -/
def l : ℕ → EReal
  | 0 => 0
  | j + 1 => Ideal.exp (m s j - m s (j + 1)) * l j
      + ∑ r, Ideal.exp ((s j r : EReal) - m s (j + 1))

/-- The running numerator after `j` tiles. -/
def a : ℕ → EReal
  | 0 => 0
  | j + 1 => Ideal.exp (m s j - m s (j + 1)) * a j
      + ∑ r, Ideal.exp ((s j r : EReal) - m s (j + 1)) * (b j r : EReal)

theorem m_zero : m s 0 = ⊥ := rfl
theorem m_succ (j : ℕ) :
    m s (j + 1) = max (m s j) (Finset.univ.sup fun r => ((s j r : ℝ) : EReal)) := rfl
theorem l_zero : l s 0 = 0 := rfl
theorem l_succ (j : ℕ) :
    l s (j + 1) = Ideal.exp (m s j - m s (j + 1)) * l s j
      + ∑ r, Ideal.exp ((s j r : EReal) - m s (j + 1)) := rfl
theorem a_zero : a s b 0 = 0 := rfl
theorem a_succ (j : ℕ) :
    a s b (j + 1) = Ideal.exp (m s j - m s (j + 1)) * a s b j
      + ∑ r, Ideal.exp ((s j r : EReal) - m s (j + 1)) * (b j r : EReal) := rfl

/-- The denominator is the numerator at unit weights. -/
theorem l_eq_a_one (n : ℕ) : l s n = a s (fun _ _ => 1) n := by
  induction n with
  | zero => rfl
  | succ n ih => rw [l_succ, a_succ, ih]; simp only [EReal.coe_one, mul_one]

/-! ### The maximum -/

/-- The running maximum is the supremum of all the logits seen. -/
theorem m_eq (n : ℕ) :
    m s n = (Finset.range n).sup fun j => Finset.univ.sup fun r => ((s j r : ℝ) : EReal) := by
  induction n with
  | zero => rfl
  | succ n ih => rw [m_succ, ih, Finset.range_add_one, Finset.sup_insert, sup_comm]

/-- The greatest logit of tile `j`, a real number. -/
def tmax (j : ℕ) : ℝ := Finset.univ.sup' Finset.univ_nonempty (s j)

theorem le_tmax (j : ℕ) (r : ι) : s j r ≤ tmax s j :=
  Finset.le_sup' (s j) (Finset.mem_univ r)

theorem sup_tile (j : ℕ) :
    (Finset.univ.sup fun r => ((s j r : ℝ) : EReal)) = ((tmax s j : ℝ) : EReal) := by
  apply le_antisymm
  · exact Finset.sup_le fun r _ => EReal.coe_le_coe_iff.2 (le_tmax s j r)
  · obtain ⟨r, _, hr⟩ := Finset.exists_mem_eq_sup' Finset.univ_nonempty (s j)
    rw [tmax, hr]
    exact Finset.le_sup (f := fun r => ((s j r : ℝ) : EReal)) (Finset.mem_univ r)

/-- The greatest logit of tiles `0, …, n`, a real number. -/
def mR : ℕ → ℝ
  | 0 => tmax s 0
  | j + 1 => max (mR j) (tmax s (j + 1))

theorem m_succ_eq (n : ℕ) : m s (n + 1) = ((mR s n : ℝ) : EReal) := by
  induction n with
  | zero => rw [m_succ, m_zero, sup_tile]; exact max_eq_right bot_le
  | succ n ih =>
    rw [m_succ, ih, sup_tile]
    exact (EReal.coe_strictMono.monotone.map_max).symm

/-- After at least one tile the running maximum is a real number. -/
theorem m_real {n : ℕ} (hn : 1 ≤ n) : ∃ M : ℝ, m s n = (M : EReal) := by
  obtain ⟨k, rfl⟩ := Nat.exists_eq_succ_of_ne_zero (Nat.one_le_iff_ne_zero.1 hn)
  exact ⟨mR s k, m_succ_eq s k⟩

/-! ### The numerator and the denominator, in the reals -/

/-- The numerator after `n + 1` tiles, as a real number. -/
def aR (n : ℕ) : ℝ := ∑ j ∈ Finset.range (n + 1), ∑ r, Real.exp (s j r - mR s n) * b j r

theorem a_succ_eq (n : ℕ) : a s b (n + 1) = ((aR s b n : ℝ) : EReal) := by
  induction n with
  | zero =>
    rw [a_succ, a_zero, mul_zero, zero_add, m_succ_eq, aR, Finset.sum_range_one, coe_sum]
    refine Finset.sum_congr rfl fun r _ => ?_
    rw [exp_coe_sub, ← EReal.coe_mul]
  | succ n ih =>
    rw [a_succ, ih, m_succ_eq, m_succ_eq, exp_coe_sub, ← EReal.coe_mul]
    have h2 : (∑ r, Ideal.exp ((s (n + 1) r : EReal) - ((mR s (n + 1) : ℝ) : EReal))
          * (b (n + 1) r : EReal))
        = ((∑ r, Real.exp (s (n + 1) r - mR s (n + 1)) * b (n + 1) r : ℝ) : EReal) := by
      rw [coe_sum]
      refine Finset.sum_congr rfl fun r _ => ?_
      rw [exp_coe_sub, ← EReal.coe_mul]
    rw [h2, ← EReal.coe_add]
    congr 1
    rw [aR, aR, Finset.sum_range_succ _ (n + 1)]
    congr 1
    rw [Finset.mul_sum]
    refine Finset.sum_congr rfl fun j _ => ?_
    rw [Finset.mul_sum]
    refine Finset.sum_congr rfl fun r _ => ?_
    rw [← mul_assoc, ← Real.exp_add]
    congr 2
    ring

/-- The denominator after `n + 1` tiles, as a real number. -/
def lR (n : ℕ) : ℝ := ∑ j ∈ Finset.range (n + 1), ∑ r, Real.exp (s j r - mR s n)

theorem l_succ_eq (n : ℕ) : l s (n + 1) = ((lR s n : ℝ) : EReal) := by
  rw [l_eq_a_one, a_succ_eq, aR, lR]
  simp only [mul_one]

theorem lR_pos (n : ℕ) : 0 < lR s n := by
  rw [lR]
  refine Finset.sum_pos (fun j _ => Finset.sum_pos (fun r _ => Real.exp_pos _) Finset.univ_nonempty) ?_
  exact ⟨0, Finset.mem_range.2 (Nat.succ_pos n)⟩

/-- After at least one tile the denominator is a positive real number. -/
theorem l_pos {n : ℕ} (hn : 1 ≤ n) : ∃ L : ℝ, 0 < L ∧ l s n = (L : EReal) := by
  obtain ⟨k, rfl⟩ := Nat.exists_eq_succ_of_ne_zero (Nat.one_le_iff_ne_zero.1 hn)
  exact ⟨lR s k, lR_pos s k, l_succ_eq s k⟩

/-! ### The two-pass forms, in the extended reals -/

/-- The numerator is the sum of `exp (logit - maximum) · weight` over everything seen. -/
theorem a_eq {n : ℕ} (hn : 1 ≤ n) :
    a s b n = ∑ j ∈ Finset.range n, ∑ r, Ideal.exp ((s j r : EReal) - m s n) * (b j r : EReal) := by
  obtain ⟨k, rfl⟩ := Nat.exists_eq_succ_of_ne_zero (Nat.one_le_iff_ne_zero.1 hn)
  rw [a_succ_eq, aR, m_succ_eq, coe_sum]
  refine Finset.sum_congr rfl fun j _ => ?_
  rw [coe_sum]
  refine Finset.sum_congr rfl fun r _ => ?_
  rw [exp_coe_sub, ← EReal.coe_mul]

/-- The denominator is the sum of `exp (logit - maximum)` over everything seen. -/
theorem l_eq {n : ℕ} (hn : 1 ≤ n) :
    l s n = ∑ j ∈ Finset.range n, ∑ r, Ideal.exp ((s j r : EReal) - m s n) := by
  rw [l_eq_a_one, a_eq s _ hn]
  simp only [EReal.coe_one, mul_one]

/-- The quotient of the streamed numerator by the streamed denominator is the softmax-weighted
    sum. -/
theorem final {n : ℕ} (hn : 1 ≤ n) :
    Ideal.div (a s b n) (l s n)
      = ∑ j ∈ Finset.range n, ∑ r,
          Ideal.div (Ideal.exp ((s j r : EReal) - m s n)) (l s n) * (b j r : EReal) := by
  obtain ⟨k, rfl⟩ := Nat.exists_eq_succ_of_ne_zero (Nat.one_le_iff_ne_zero.1 hn)
  have hL : lR s k ≠ 0 := (lR_pos s k).ne'
  rw [a_succ_eq, l_succ_eq, m_succ_eq, Ideal.div_coe hL, ← EReal.coe_mul, aR, Finset.sum_mul,
    coe_sum]
  refine Finset.sum_congr rfl fun j _ => ?_
  rw [Finset.sum_mul, coe_sum]
  refine Finset.sum_congr rfl fun r _ => ?_
  rw [Ideal.div_coe hL, exp_coe_sub, ← EReal.coe_mul, ← EReal.coe_mul]
  congr 1
  ring

/-! ### Flattened: the tiles laid side by side -/

section Flat

variable {n : ℕ} {κ : Type*} [Fintype κ] (e : Fin n × ι ≃ κ)

/-- A sum over tiles and positions is the sum over the flattened index. -/
theorem sum_flat (f : ℕ → ι → EReal) (g : κ → EReal)
    (h : ∀ (j : Fin n) (r : ι), g (e (j, r)) = f j r) :
    ∑ j ∈ Finset.range n, ∑ r, f j r = ∑ v, g v := by
  rw [← Fin.sum_univ_eq_sum_range (fun j => ∑ r, f j r) n,
    ← Fintype.sum_prod_type' (fun (j : Fin n) (r : ι) => f j r)]
  exact Fintype.sum_equiv e _ _ fun p => (h p.1 p.2).symm

/-- The running maximum after `n` tiles is the maximum over the flattened index. -/
theorem m_flat (S : κ → EReal)
    (hS : ∀ (j : Fin n) (r : ι), S (e (j, r)) = ((s j r : ℝ) : EReal)) :
    m s n = Finset.univ.sup S := by
  rw [m_eq]
  apply le_antisymm
  · refine Finset.sup_le fun j hj => Finset.sup_le fun r _ => ?_
    have := hS ⟨j, Finset.mem_range.1 hj⟩ r
    rw [← this]
    exact Finset.le_sup (Finset.mem_univ _)
  · refine Finset.sup_le fun v _ => ?_
    have hv : S v = ((s (e.symm v).1 (e.symm v).2 : ℝ) : EReal) := by
      rw [← hS, Prod.mk.eta, Equiv.apply_symm_apply]
    rw [hv]
    refine le_trans ?_ (Finset.le_sup (f := fun j => Finset.univ.sup fun r => ((s j r : ℝ) : EReal))
      (Finset.mem_range.2 (e.symm v).1.isLt))
    exact Finset.le_sup (f := fun r => ((s (e.symm v).1 r : ℝ) : EReal)) (Finset.mem_univ _)

/-- The streamed denominator is the softmax denominator over the flattened index. -/
theorem l_flat (hn : 1 ≤ n) (S : κ → EReal)
    (hS : ∀ (j : Fin n) (r : ι), S (e (j, r)) = ((s j r : ℝ) : EReal)) :
    l s n = ∑ v, Ideal.exp (S v - Finset.univ.sup S) := by
  rw [l_eq s hn, m_flat s e S hS]
  exact sum_flat e _ _ fun j r => by rw [hS]

/-- The streamed quotient is the softmax-weighted sum over the flattened index. -/
theorem final_flat (hn : 1 ≤ n) (S B : κ → EReal)
    (hS : ∀ (j : Fin n) (r : ι), S (e (j, r)) = ((s j r : ℝ) : EReal))
    (hB : ∀ (j : Fin n) (r : ι), B (e (j, r)) = ((b j r : ℝ) : EReal)) :
    Ideal.div (a s b n) (l s n)
      = ∑ v, Ideal.div (Ideal.exp (S v - Finset.univ.sup S))
          (∑ v', Ideal.exp (S v' - Finset.univ.sup S)) * B v := by
  rw [final s b hn, ← l_flat s e hn S hS, ← m_flat s e S hS]
  exact sum_flat e _ _ fun j r => by rw [hS, hB]

/-- The same with real-valued logits and weights over the flattened index. -/
theorem final_flat_real (hn : 1 ≤ n) (S B : κ → ℝ)
    (hS : ∀ (j : Fin n) (r : ι), S (e (j, r)) = s j r)
    (hB : ∀ (j : Fin n) (r : ι), B (e (j, r)) = b j r) :
    Ideal.div (a s b n) (l s n)
      = ∑ v, Ideal.div
          (Ideal.exp ((S v : EReal) - Finset.univ.sup fun v => ((S v : ℝ) : EReal)))
          (∑ v', Ideal.exp ((S v' : EReal) - Finset.univ.sup fun v => ((S v : ℝ) : EReal)))
          * (B v : EReal) :=
  final_flat s b e hn (fun v => ((S v : ℝ) : EReal)) (fun v => ((B v : ℝ) : EReal))
    (fun j r => by rw [hS]) (fun j r => by rw [hB])

end Flat

end Stream

end Cert.Proof.Softmax

end
-- ==== Proof.KI.Online.lean ====
/-
  The streaming softmax of one row, closed.

  A row tile holds 2048 rows of the activations; the vocabulary comes in 125 tiles of 256 entries. The
  carried state is a running maximum, a running denominator and a running numerator per row (the numerator
  per row and bit). It is reset before the first tile, and each tile updates it from the logits of the rows
  against the tile's table rows and from the ±1 bit codes of the tile's vocabulary ids.

  Per row the three carried values follow the streaming recursion of the softmax-weighted sum, with
  the logits of vocabulary ids `256 j + r` as tile `j`'s entries and the codes' bit `k` as the weights. So
  after the 125 tiles the numerator over the denominator is the softmax of the row's 32000 logits
  against the codes: the two-pass form.

  Tiles are numbered by naturals; a tile number is read modulo 125, so every definition is total and
  tile `j < 125` is itself.
-/
import proofs.«430590_j46402826666034_2_alg».proof.Proof.KI.Pay
import proofs.«430590_j46402826666034_2_alg».proof.Proof.KI.Run1Read
import proofs.«430590_j46402826666034_2_alg».proof.Proof.Softmax
import proofs.«430590_j46402826666034_2_alg».proof.Proof.Spec
import Idealize.ShloMosaic.Lib.ValueIdx

noncomputable section

namespace Cert.KernelIdeal.Hand

open Cert.KernelIdeal Cert.KernelIdeal.Gen Idealize.ShloMosaic Idealize.ShloMosaic.ValueIdx
open Cert.Proof
open scoped BigOperators

/-! ### Rows, vocabulary ids, grid points, blocks -/

/-- Row `p` of row tile `I`. -/
def rowOf (I : Fin 2) (p : Fin 2048) : Fin 4096 := ⟨2048 * I.val + p.val, by omega⟩

/-- Entry `r` of vocabulary tile `j` (read modulo 125). -/
def vocOf (j : ℕ) (r : Fin 256) : Fin 32000 :=
  ⟨256 * (j % 125) + r.val, by have := Nat.mod_lt j (show 0 < 125 by norm_num); omega⟩

theorem vocOf_val_of_lt {j : ℕ} (hj : j < 125) (r : Fin 256) : (vocOf j r).val = 256 * j + r.val := by
  show 256 * (j % 125) + r.val = _
  rw [Nat.mod_eq_of_lt hj]

/-- The grid point of row tile `I` and vocabulary tile `j` (read modulo 125). -/
def gpt (I : Fin 2) (j : ℕ) : grid1.Coords := fun a =>
  match a with
  | ⟨0, _⟩ => I
  | ⟨1, _⟩ => (⟨j % 125, Nat.mod_lt _ (by norm_num)⟩ : Fin 125)

/-- Every grid point is the grid point of its two coordinates. -/
theorem gpt_eq (i : grid1.Coords) : gpt (i 0) (i 1).val = i := by
  funext a
  match a with
  | ⟨0, _⟩ => rfl
  | ⟨1, _⟩ => exact Fin.ext (Nat.mod_eq_of_lt (i 1).isLt)

theorem gpt_one_val (I : Fin 2) (j : ℕ) : (gpt I j 1).val = j % 125 := rfl

variable (X : S4096x1024.Idx → EReal) (Wt : S32000x1024.Idx → EReal)

/-- The rows of row tile `I`. -/
def xblk (I : Fin 2) : Vec Ideal S2048x1024 .f32 := fun y =>
  X (ix2 (rowOf I ⟨(y 0).val, idx2_lt0 y⟩) (⟨(y 1).val, idx2_lt1 y⟩ : Fin 1024))

/-- The table rows of vocabulary tile `j`. -/
def wblk (j : ℕ) : Vec Ideal S256x1024 .bf16 := fun y =>
  Wt (ix2 (vocOf j ⟨(y 0).val, idx2_lt0 y⟩) (⟨(y 1).val, idx2_lt1 y⟩ : Fin 1024))

theorem xblk_apply (I : Fin 2) (p : Fin 2048) (d : Fin 1024) : xblk X I (ix2 p d) = X (ix2 (rowOf I p) d) := rfl
theorem wblk_apply (j : ℕ) (q : Fin 256) (d : Fin 1024) : wblk Wt j (ix2 q d) = Wt (ix2 (vocOf j q) d) := rfl

/-- The logit of row `n` against vocabulary id `v`. -/
def Lg (n : Fin 4096) (v : Fin 32000) : EReal := ∑ d : Fin 1024, X (ix2 n d) * Wt (ix2 v d)

/-- With real entries the logits are real. -/
theorem Lg_real (hX : ∀ i, ∃ r : ℝ, X i = (r : EReal)) (hW : ∀ i, ∃ r : ℝ, Wt i = (r : EReal))
    (n : Fin 4096) (v : Fin 32000) : ∃ r : ℝ, Lg X Wt n v = (r : EReal) := by
  choose Xr hXr using hX
  choose Wr hWr using hW
  refine ⟨∑ d : Fin 1024, Xr (ix2 n d) * Wr (ix2 v d), ?_⟩
  unfold Lg
  rw [Softmax.coe_sum]
  refine Finset.sum_congr rfl fun d _ => ?_
  rw [hXr, hWr, EReal.coe_mul]

/-- The logits block of row tile `I` against vocabulary tile `j`. -/
theorem logits_block (I : Fin 2) (j : ℕ) (p : Fin 2048) (q : Fin 256) :
    k1_pay8 (xblk X I) (wblk Wt j) (ix2 p q) = Lg X Wt (rowOf I p) (vocOf j q) :=
  (logits_apply (xblk X I) (wblk Wt j) p q).trans rfl

/-! ### The codes as real numbers -/

/-- The ±1 code of a bit, as a real number. -/
def codeR (v : BitVec 32) (k : Fin 15) : ℝ := if (Spec.clipNat v).testBit (14 - k.val) then 1 else -1

theorem code_eq_coe (v : BitVec 32) (k : Fin 15) : Spec.code v k = ((codeR v k : ℝ) : EReal) := by
  unfold Spec.code codeR
  split
  · exact EReal.coe_one.symm
  · rw [EReal.coe_neg, EReal.coe_one]

/-! ### The carried state and its step -/

/-- The carried state: running maximum, running denominator, running numerator. -/
abbrev St : Type := Vec Ideal S2048x1 .f32 × Vec Ideal S2048x1 .f32 × Vec Ideal S2048x15 .f32

/-- The reset state: -∞, 0, 0. -/
def resetSt : St := (k1_pay5 (F := Ideal), k1_pay6 (F := Ideal), k1_pay7 (F := Ideal))

/-- One tile's update of the carried state, from the blocks it reads at a grid point. -/
def stepSt (i : grid1.Coords) (x2 : Vec Ideal S2048x1024 .f32) (x3 : Vec Ideal S256x1024 .bf16) (st : St) : St :=
  (newMax x2 x3 st.1, newSum x2 x3 st.1 st.2.1, newAcc i x2 x3 st.1 st.2.2)

/-- The carried state of row tile `I` after vocabulary tiles `0, …, j - 1`. -/
def stAt (I : Fin 2) : ℕ → St
  | 0 => resetSt
  | j + 1 => stepSt (gpt I j) (xblk X I) (wblk Wt j) (stAt I j)

theorem stAt_zero (I : Fin 2) : stAt X Wt I 0 = resetSt := rfl
theorem stAt_succ (I : Fin 2) (j : ℕ) :
    stAt X Wt I (j + 1) = stepSt (gpt I j) (xblk X I) (wblk Wt j) (stAt X Wt I j) := rfl
theorem stAt_succ_max (I : Fin 2) (j : ℕ) :
    (stAt X Wt I (j + 1)).1 = newMax (xblk X I) (wblk Wt j) (stAt X Wt I j).1 := rfl
theorem stAt_succ_sum (I : Fin 2) (j : ℕ) :
    (stAt X Wt I (j + 1)).2.1 = newSum (xblk X I) (wblk Wt j) (stAt X Wt I j).1 (stAt X Wt I j).2.1 := rfl
theorem stAt_succ_acc (I : Fin 2) (j : ℕ) :
    (stAt X Wt I (j + 1)).2.2 = newAcc (gpt I j) (xblk X I) (wblk Wt j) (stAt X Wt I j).1 (stAt X Wt I j).2.2 := rfl

/-- The output block a state gives: the numerator over the denominator. -/
def outOf (st : St) : FVec Ideal S2048x15 .f32 := k1_pay4 st.2.2 st.2.1

theorem outOf_apply (st : St) (p : Fin 2048) (k : Fin 15) :
    outOf st (ix2 p k) = Ideal.div (st.2.2 (ix2 p k)) (st.2.1 (ix2 p (0 : Fin 1))) :=
  out_apply st.2.2 st.2.1 p k

/-! ### Per row the state follows the streaming recursion -/

/-- Row `p` of the carried state after `j` tiles: the streaming maximum, denominator and numerator of the
    row's logits (tile `j`'s entries: vocabulary ids `256 j + r`) with bit `k` of the codes as weights. -/
theorem row_inv (I : Fin 2) (p : Fin 2048) (k : Fin 15) (s : ℕ → Fin 256 → ℝ)
    (hs : ∀ j r, Lg X Wt (rowOf I p) (vocOf j r) = ((s j r : ℝ) : EReal)) (j : ℕ) :
    (stAt X Wt I j).1 (ix2 p (0 : Fin 1)) = Softmax.m s j
    ∧ (stAt X Wt I j).2.1 (ix2 p (0 : Fin 1)) = Softmax.l s j
    ∧ (stAt X Wt I j).2.2 (ix2 p k)
        = Softmax.a s (fun j r => codeR (BitVec.ofNat 32 (256 * (j % 125) + r.val)) k) j := by
  induction j with
  | zero => exact ⟨reset_max_apply p, reset_sum_apply p, reset_acc_apply p k⟩
  | succ j ih =>
    obtain ⟨h1, h2, h3⟩ := ih
    have hlog : ∀ q : Fin 256, k1_pay8 (xblk X I) (wblk Wt j) (ix2 p q) = ((s j q : ℝ) : EReal) :=
      fun q => (logits_block X Wt I j p q).trans (hs j q)
    have hnew : k1_pay10 (xblk X I) (wblk Wt j) (stAt X Wt I j).1 (ix2 p (0 : Fin 1)) = Softmax.m s (j + 1) := by
      rw [newmax_apply, h1, Softmax.m_succ]
      simp only [hlog]
    refine ⟨?_, ?_, ?_⟩
    · show k1_pay3 (k1_pay10 (xblk X I) (wblk Wt j) (stAt X Wt I j).1) (ix2 p (0 : Fin 1)) = _
      rw [stored_max_eq]; exact hnew
    · show k1_pay1 (k1_pay11 (xblk X I) (wblk Wt j) (stAt X Wt I j).1 (stAt X Wt I j).1)
          (k1_pay12 (xblk X I) (wblk Wt j) (stAt X Wt I j).1) (stAt X Wt I j).2.1 (ix2 p (0 : Fin 1)) = _
      rw [newsum_apply, hnew, h1, h2, Softmax.l_succ]
      simp only [hlog]
    · show k1_pay2 (k1_pay9 (gpt I j)) (k1_pay11 (xblk X I) (wblk Wt j) (stAt X Wt I j).1 (stAt X Wt I j).1)
          (k1_pay12 (xblk X I) (wblk Wt j) (stAt X Wt I j).1) (stAt X Wt I j).2.2 (ix2 p k) = _
      rw [newacc_apply, hnew, h1, h3, Softmax.a_succ]
      simp only [hlog, gpt_one_val, code_eq_coe]

/-! ### After the last tile: the two-pass softmax against the codes -/

/-- Tile and entry to vocabulary id: `(j, r) ↦ 256 j + r`. -/
def vocabEquiv : Fin 125 × Fin 256 ≃ Fin 32000 where
  toFun x := ⟨256 * x.1.val + x.2.val, by omega⟩
  invFun v := (⟨v.val / 256, by omega⟩, ⟨v.val % 256, Nat.mod_lt _ (by norm_num)⟩)
  left_inv x := by
    apply Prod.ext <;> apply Fin.ext
    · show (256 * x.1.val + x.2.val) / 256 = x.1.val
      omega
    · show (256 * x.1.val + x.2.val) % 256 = x.2.val
      omega
  right_inv v := Fin.ext (by
    show 256 * (v.val / 256) + v.val % 256 = v.val
    omega)

theorem vocabEquiv_val (j : Fin 125) (r : Fin 256) : (vocabEquiv (j, r)).val = 256 * j.val + r.val := rfl

theorem vocabEquiv_eq_vocOf (j : Fin 125) (r : Fin 256) : vocabEquiv (j, r) = vocOf j.val r :=
  Fin.ext ((vocOf_val_of_lt j.isLt r).symm)

/-- After the 125 tiles, row `p`'s numerator over its denominator is the softmax of the row's 32000 logits
    against bit `k` of the codes. -/
theorem final_row (hX : ∀ i, ∃ r : ℝ, X i = (r : EReal)) (hW : ∀ i, ∃ r : ℝ, Wt i = (r : EReal))
    (I : Fin 2) (p : Fin 2048) (k : Fin 15) :
    Ideal.div ((stAt X Wt I 125).2.2 (ix2 p k)) ((stAt X Wt I 125).2.1 (ix2 p (0 : Fin 1)))
      = ∑ v : Fin 32000,
          Ideal.div (Ideal.exp (Lg X Wt (rowOf I p) v - Finset.univ.sup fun v => Lg X Wt (rowOf I p) v))
            (∑ v' : Fin 32000, Ideal.exp (Lg X Wt (rowOf I p) v' - Finset.univ.sup fun v => Lg X Wt (rowOf I p) v))
          * Spec.code (BitVec.ofNat 32 v.val) k := by
  choose sR hsR using Lg_real X Wt hX hW (rowOf I p)
  obtain ⟨_, h2, h3⟩ := row_inv X Wt I p k (fun j r => sR (vocOf j r)) (fun j r => hsR (vocOf j r)) 125
  rw [h2, h3]
  refine Softmax.final_flat (fun j r => sR (vocOf j r))
    (fun j r => codeR (BitVec.ofNat 32 (256 * (j % 125) + r.val)) k) vocabEquiv (by norm_num)
    (fun v => Lg X Wt (rowOf I p) v) (fun v => Spec.code (BitVec.ofNat 32 v.val) k) (fun j r => ?_) (fun j r => ?_)
  · show Lg X Wt (rowOf I p) (vocabEquiv (j, r)) = _
    rw [vocabEquiv_eq_vocOf]; exact hsR _
  · show Spec.code (BitVec.ofNat 32 (256 * j.val + r.val)) k = _
    rw [Nat.mod_eq_of_lt j.isLt]; exact code_eq_coe _ _

/-- The same for the output block of the last state. -/
theorem final_out (hX : ∀ i, ∃ r : ℝ, X i = (r : EReal)) (hW : ∀ i, ∃ r : ℝ, Wt i = (r : EReal))
    (I : Fin 2) (p : Fin 2048) (k : Fin 15) :
    outOf (stAt X Wt I 125) (ix2 p k)
      = ∑ v : Fin 32000,
          Ideal.div (Ideal.exp (Lg X Wt (rowOf I p) v - Finset.univ.sup fun v => Lg X Wt (rowOf I p) v))
            (∑ v' : Fin 32000, Ideal.exp (Lg X Wt (rowOf I p) v' - Finset.univ.sup fun v => Lg X Wt (rowOf I p) v))
          * Spec.code (BitVec.ofNat 32 v.val) k :=
  (outOf_apply _ p k).trans (final_row X Wt hX hW I p k)

/-! ### Against the specification -/

/-- Where the row is row `(b, s)` of the activations, its logits are the specification's. -/
theorem Lg_eq_G2 (x : Spec.S4x1024x1024.Idx → EReal) (n : Fin 4096) (b : Fin 4) (s : Fin 1024)
    (hn : ∀ d : Fin 1024, X (ix2 n d) = x (ix3 b s d)) (v : Fin 32000) :
    Lg X Wt n v = Spec.G2 x Wt (ix3 b s v) := by
  unfold Lg Spec.G2
  exact Finset.sum_congr rfl fun d _ => by rw [hn d]

/-- After the 125 tiles the quotient is the specification's fourth result at the row and bit. -/
theorem final_row_spec (x : Spec.S4x1024x1024.Idx → EReal)
    (hX : ∀ i, ∃ r : ℝ, X i = (r : EReal)) (hW : ∀ i, ∃ r : ℝ, Wt i = (r : EReal))
    (I : Fin 2) (p : Fin 2048) (k : Fin 15) (b : Fin 4) (s : Fin 1024)
    (hn : ∀ d : Fin 1024, X (ix2 (rowOf I p) d) = x (ix3 b s d)) :
    Ideal.div ((stAt X Wt I 125).2.2 (ix2 p k)) ((stAt X Wt I 125).2.1 (ix2 p (0 : Fin 1)))
      = Spec.G3 x Wt (ix3 b s k) := by
  rw [final_row X Wt hX hW I p k]
  simp only [Lg_eq_G2 X Wt x (rowOf I p) b s hn]
  rfl

end Cert.KernelIdeal.Hand

end
-- ==== Proof.KI.Val1.lean ====
/-
  The second call's two result arrays as functions of its two input arrays, over the extended reals.
  With X the [4096, 1024] activations and W the [32000, 1024] rounded table as the call finds them:
    * the logits array holds L[n, v] = ∑_d X[n, d] · W[v, d];
    * the last array holds, at row n and bit k, ∑_v softmax(L[n, ·])_v · code(v, k), the softmax as
      exp (L_v − M) / ∑_v' exp (L_v' − M) with M the row's maximum.
  Point t = 125 i + j of the grid works on row tile i and vocabulary tile j; the values carried along a row of
  the grid are the streaming recursion's state of row tile i after j + 1 tiles.
-/
import proofs.«430590_j46402826666034_2_alg».proof.Proof.KI.Cover
import proofs.«430590_j46402826666034_2_alg».proof.Proof.KI.Online
import proofs.«430590_j46402826666034_2_alg».proof.Proof.KI.Dat1
import proofs.«430590_j46402826666034_2_alg».proof.Proof.Final

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Proof
open scoped BigOperators

variable (V : Vals Ideal) (c : Dev nD)

/-- The activations as the second call finds them. -/
abbrev actX : S4096x1024.Idx → EReal := V c main_v1
/-- The rounded table as the second call finds it. -/
abbrev tabW : S32000x1024.Idx → EReal := V c main_v23

/-! ### A grid point's row tile and vocabulary tile -/

theorem coord0 : ∀ t : Fin cfg1.N, ((grid1.coords t) 0).val = t.val / 125 :=
  (by decide +kernel : ∀ t : Fin grid1.N, ((grid1.coords t) 0).val = t.val / 125)

/-- The row tile of point t: t / 125. -/
def tileOf (t : Fin cfg1.N) : Fin 2 := ⟨t.val / 125, by have := t.isLt; have := N1; omega⟩

theorem coords_eq (t : Fin cfg1.N) : grid1.coords t = gpt (tileOf t) (t.val % 125) := by
  funext a
  match a with
  | ⟨0, _⟩ => exact Fin.ext (coord0 t)
  | ⟨1, _⟩ => exact Fin.ext ((coord1 t).trans (Nat.mod_mod _ _).symm)

/-- The activations' block at point t: the rows of its row tile. -/
theorem blkX_eq (t : Fin cfg1.N) : blkX V c t = xblk (actX V c) (tileOf t) := by
  funext y
  exact read_blk1_0 (F := Ideal) t (actX V c) y

/-- The table's block at point t: the table rows of its vocabulary tile. -/
theorem blkW_eq (t : Fin cfg1.N) : blkW V c t = wblk (tabW V c) (t.val % 125) := by
  funext y
  refine (read_blk1_1 (F := Ideal) t (tabW V c) y).trans (congrArg (tabW V c) ?_)
  funext a
  match a with
  | ⟨0, _⟩ =>
    exact Fin.ext (by
      show 256 * (t.val % 125) + (y 0).val = 256 * (t.val % 125 % 125) + (y 0).val
      rw [Nat.mod_mod])
  | ⟨1, _⟩ => rfl

/-! ### The carried values are the streaming state -/

/-- One step at point t is the streaming step of its row tile at its vocabulary tile. -/
theorem stepAt_eq (t : Fin cfg1.N) (I : Fin 2) (j : ℕ) (hI : I.val = t.val / 125) (hj : j = t.val % 125) (p : St) :
    stepAt V c t p = stepSt (gpt I j) (xblk (actX V c) I) (wblk (tabW V c) j) p := by
  obtain rfl : I = tileOf t := Fin.ext hI
  subst hj
  unfold stepAt stepSt
  rw [blkX_eq, blkW_eq, coords_eq]

/-- After point n the carried values are the state of row tile n / 125 after n % 125 + 1 tiles. -/
theorem carried_eq : ∀ (n : ℕ) (hn : n < cfg1.N) (I : Fin 2) (j : ℕ), I.val = n / 125 → j = n % 125 →
    carried V c n hn = stAt (actX V c) (tabW V c) I (j + 1) := by
  intro n
  induction n with
  | zero =>
    intro hn I j hI hj
    obtain rfl : j = 0 := hj
    exact (carried_first V c ⟨0, hn⟩ rfl).trans (stepAt_eq V c ⟨0, hn⟩ I 0 hI rfl resetVals)
  | succ n ih =>
    intro hn I j hI hj
    by_cases h : (n + 1) % 125 = 0
    · obtain rfl : j = 0 := hj.trans h
      exact (carried_first V c ⟨n + 1, hn⟩ h).trans (stepAt_eq V c ⟨n + 1, hn⟩ I 0 hI h.symm resetVals)
    · have hn' : n < cfg1.N := Nat.lt_of_succ_lt hn
      have e := ih hn' I (n % 125) (by omega) rfl
      have hj' : j = n % 125 + 1 := by omega
      refine (carried_next V c ⟨n + 1, hn⟩ h).trans ?_
      show stepAt V c ⟨n + 1, hn⟩ (carried V c n hn') = _
      rw [e, stepAt_eq V c ⟨n + 1, hn⟩ I j hI hj, hj']
      rfl

/-! ### The logits array -/

/-- The logits array after the run: every entry the product of its row of the activations with its row of the table. -/
theorem arr2_eq : (dat1 V c).arrAt 2 cfg1.N
    = fun i : S4096x32000.Idx => Lg (actX V c) (tabW V c) ⟨(i 0).val, idx2_lt0 i⟩ ⟨(i 1).val, idx2_lt1 i⟩ := by
  refine arr1_2 c (dat1 V c) _ fun t y => ?_
  rw [after1_2, blkX_eq, blkW_eq, eq_ix2 y]
  refine (logits_block (actX V c) (tabW V c) (tileOf t) (t.val % 125) (y 0) (y 1)).trans ?_
  show Lg (actX V c) (tabW V c) _ _ = Lg (actX V c) (tabW V c) _ _
  congr 1
  exact Fin.ext (by
    show 256 * (t.val % 125 % 125) + (y 1).val = 256 * (t.val % 125) + (y 1).val
    rw [Nat.mod_mod])

theorem arr2_val (n : Fin 4096) (v : Fin 32000) :
    (dat1 V c).arrAt 2 cfg1.N (ix2 n v) = ∑ d : Fin 1024, actX V c (ix2 n d) * tabW V c (ix2 v d) :=
  congrFun (arr2_eq V c) (ix2 n v)

/-! ### The softmax-against-codes array -/

/-- Row n, bit k: the softmax of the row's logits against bit k of the vocabulary ids' codes. -/
def softCode (X : S4096x1024.Idx → EReal) (Wt : S32000x1024.Idx → EReal) (n : Fin 4096) (k : Fin 15) : EReal :=
  ∑ v : Fin 32000,
    Ideal.div (Ideal.exp (Lg X Wt n v - Finset.univ.sup fun v => Lg X Wt n v))
      (∑ v' : Fin 32000, Ideal.exp (Lg X Wt n v' - Finset.univ.sup fun v => Lg X Wt n v))
    * Spec.code (BitVec.ofNat 32 v.val) k

/-- The last array after the run, for real activations and table. -/
theorem arr3_eq (hX : ∀ i, ∃ r : ℝ, actX V c i = (r : EReal)) (hW : ∀ i, ∃ r : ℝ, tabW V c i = (r : EReal)) :
    (dat1 V c).arrAt 3 cfg1.N
      = fun i : S4096x15.Idx => softCode (actX V c) (tabW V c) ⟨(i 0).val, idx2_lt0 i⟩ ⟨(i 1).val, idx2_lt1 i⟩ := by
  refine arr1_3 c (dat1 V c) _ fun t ht y => ?_
  rw [after1_3, carried_eq V c t.val t.isLt (tileOf t) (t.val % 125) rfl rfl, ht, eq_ix2 y]
  exact final_out (actX V c) (tabW V c) hX hW (tileOf t) (y 0) (y 1)

theorem arr3_val (hX : ∀ i, ∃ r : ℝ, actX V c i = (r : EReal)) (hW : ∀ i, ∃ r : ℝ, tabW V c i = (r : EReal))
    (n : Fin 4096) (k : Fin 15) :
    (dat1 V c).arrAt 3 cfg1.N (ix2 n k)
      = ∑ v : Fin 32000,
          Ideal.div (Ideal.exp (Lg (actX V c) (tabW V c) n v - Finset.univ.sup fun v => Lg (actX V c) (tabW V c) n v))
            (∑ v' : Fin 32000, Ideal.exp (Lg (actX V c) (tabW V c) n v' - Finset.univ.sup fun v => Lg (actX V c) (tabW V c) n v))
          * Spec.code (BitVec.ofNat 32 v.val) k :=
  congrFun (arr3_eq V c hX hW) (ix2 n k)

/-! ### At the contents the second call is entered with -/

/-- The logits array is the flattened activations against the narrowed table. -/
theorem hA2 : ∀ (m : (ℓ : Loc nD τ sig) → Buf (Elt Ideal) ℓ) (hpre : Cert.Pre_KernelIdeal m) (hw : RowsOk (Hand.V3 m))
    (c : Dev nD), Cert.Proof.Final.HA2 m hw c :=
  fun m _ hw c n v => arr2_val (Hand.V5 m hw) c n v

/-- Row n of the last array is the specification's fourth result at row (n / 1024, n % 1024): the flattened
    activations' row n is that row of the activations, and the narrowed table is the table. -/
theorem hA3 : ∀ (m : (ℓ : Loc nD τ sig) → Buf (Elt Ideal) ℓ) (hpre : Cert.Pre_KernelIdeal m) (hw : RowsOk (Hand.V3 m))
    (c : Dev nD), Cert.Proof.Final.HA3 m hw c := by
  intro m hpre hw c n k
  have hX := Cert.Proof.Final.act5_real m hw hpre c
  have hW := Cert.Proof.Final.emb5_real m hw hpre c
  refine (arr3_val (Hand.V5 m hw) c hX hW n k).trans ?_
  have hWeq : tabW (Hand.V5 m hw) c = Cert.Proof.Final.ws m c := funext (Cert.Proof.Final.emb5_at m hw c)
  rw [hWeq]
  simp only [Lg_eq_G2 (actX (Hand.V5 m hw) c) (Cert.Proof.Final.ws m c) (Cert.Proof.Final.xs m c) n
    (⟨n.val / 1024, by have := n.isLt; omega⟩ : Fin 4) (⟨n.val % 1024, Nat.mod_lt _ (by norm_num)⟩ : Fin 1024)
    (fun d => Cert.Proof.Final.act5_at m hw c n d)]
  rfl

end Cert.KernelIdeal.Hand

end
-- ==== Proof.lean ====
/-
  The certificate's claim: the word-level kernel program, its reading over the extended reals and the reference
  (over the extended reals) each run to their end without fault and leave their four arguments — the id array
  [4, 1024], the activations [4, 1024, 1024], the embedding table [32000, 1024] and the bit table [15, 1024] — as
  launched; and the last two, run from memories that agree on the arguments, end with the same four results.

  What both compute, with n = (b, s) a position of the batch:
    * result 0, [4, 1024, 1024]: row ids[b, s] of the embedding table. The reference gathers it (adding 32000 to a
      negative id and clamping the row into the table, neither of which moves an id in [0, 32000)); the kernel
      program flattens the ids to a table of 4096 words and its first call copies, for each word, the table row the
      word names, 128 rows to a grid point.
    * result 1, [4, 1024, 1024]: ∑ₖ code(ids[b, s], k) · wb[k, d] over the 15 bits, where code(v, k) = ±1 is bit
      14 − k of v clipped to [0, 31999], computed as ((clip v >> (14 − k)) & 1) · 2 − 1. Both programs compute the
      codes by the same chain of integer-word operations; the reference contracts them with the bit table in one
      product, the first call block by block of 128 rows.
    * result 2, [4, 1024, 32000]: the logits L[b, s, v] = ∑_d x[b, s, d] · w[v, d]. The second call computes them
      tile by tile (2048 rows against 256 vocabulary ids) from the flattened activations and the table narrowed to
      bf16; over the extended reals the narrowing is the identity, and the tiles cover the array.
    * result 3, [4, 1024, 15]: ∑_v softmax(L[b, s, ·])_v · code(v, k). The reference takes the row's maximum M, the
      exponentials exp (L_v − M), their sum, the quotients, and then the product with the vocabulary's codes. The
      second call passes once over the 125 vocabulary tiles of a row, carrying a running maximum m, a running
      denominator l and a running numerator a, and at each tile rescales l and a by exp (m − m') before adding the
      tile's exp (L_v − m') (against the codes, for a); after the last tile it stores a / l. The two agree because
      exp (m − m') · exp (L_v − m) = exp (L_v − m'), which holds for real m, m', L_v: the logits are real because,
      under the precondition, the activations and the table are (the first tile starts from m = −∞ with l = a = 0,
      where the factor multiplies zero). The vocabulary's codes are computed in the call from the tile's column
      numbers 256 j + r, which are below 32000 and so their own clips.

  The precondition is the finiteness of the three float arguments together with 0 ≤ ids < 32000. The range is needed
  already for the frame: the first call's row copies read the embedding table at the row each id word names, and a
  word outside [0, 32000) names no row of the table, so without the range the program's run is not fault-free (and
  where the reference wraps and clamps such an id, the kernel program does not).

  The proof: the kernel program's run is read region by region (three host stretches, the first call, one host
  stretch, the second call, one host stretch), each call as a pipeline over its grid whose output arrays end holding
  one whole-array function; the host stretches are reshapes, the clip-and-bits chain and the narrowing, read at an
  index; the reference's run ends at the composed term of its operations, read at an index stage by stage. Both sides
  are stated against one specification of the four results (Proof/Spec.lean).
-/
import proofs.«430590_j46402826666034_2_alg».proof.Defs
import proofs.«430590_j46402826666034_2_alg».proof.Proof.Gen.Kernel
import proofs.«430590_j46402826666034_2_alg».proof.Proof.Gen.KernelIdeal
import proofs.«430590_j46402826666034_2_alg».proof.Proof.Gen.ReferenceIdeal
import proofs.«430590_j46402826666034_2_alg».proof.Proof.Gen.Pre_finite_inputs
import proofs.«430590_j46402826666034_2_alg».proof.Proof.K.FrameK
import proofs.«430590_j46402826666034_2_alg».proof.Proof.Final
import proofs.«430590_j46402826666034_2_alg».proof.Proof.KI.Val0
import proofs.«430590_j46402826666034_2_alg».proof.Proof.KI.Val1

noncomputable section

namespace Cert.Proof

/-- The three frames, the (empty) idealization ledger, and the agreement of the kernel program with the reference over
    the extended reals, at the programs' proved side conditions. -/
theorem claim : Cert.Claim :=
  ⟨Cert.Kernel.Gen.facts, Cert.KernelIdeal.Gen.facts, Cert.ReferenceIdeal.Gen.facts, Cert.Pre_finite_inputs.Gen.facts,
    Cert.Kernel.FrameArgs.frame_K,
    Cert.Proof.Final.frame_KI,
    Cert.Proof.Final.frame_RI,
    trivial,
    Cert.Proof.Final.algebraic Cert.KernelIdeal.Hand.hA0 Cert.KernelIdeal.Hand.hA1 Cert.KernelIdeal.Hand.hA2
      Cert.KernelIdeal.Hand.hA3⟩

end Cert.Proof

end
